-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S50000 : Shape := ⟨1, ![50000]⟩
abbrev S8x512x1024 : Shape := ⟨3, ![8, 512, 1024]⟩
abbrev S4096 : Shape := ⟨1, ![4096]⟩
abbrev S2x1024 : Shape := ⟨2, ![2, 1024]⟩
abbrev S2 : Shape := ⟨1, ![2]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S50000 : S_.BroadcastsInDim S50000 (![] : Fin 0 → Fin S50000.rank)
  reducesTo_S50000_S_d0 : S50000.ReducesTo [0] S_
  bcast_S_S8x512x1024 : S_.BroadcastsInDim S8x512x1024 (![] : Fin 0 → Fin S8x512x1024.rank)
  reducesTo_S8x512x1024_S_d0_1_2 : S8x512x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096 32) (main_arg5 : FVec F S2 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg3 main_v24
  let main_c_9 : IVec S_ 32 := constantI S_ 32 50000#32
  let main_v26 : IVec S4096 32 := broadcastInDim S4096 ![] bcast_S_S4096 main_c_9
  let main_v27 : IVec S4096 1 := cmpi .slt main_arg3 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  main_v30

def fn {F : FTy → Type} [FloatOps F] (main_arg0 : FVec F S50000x1024 .f32) (main_arg1 : FVec F S50000 .f32) (main_arg2 : FVec F S8x512x1024 .f32) (main_arg3 : IVec S4096 32) (main_arg4 : FVec F S2x1024 .f32) (main_arg5 : FVec F S2 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S8x512x1024 .f32 := Host.absf main_arg2
  let main_cst_2 : FVec F S_ .f32 := constant S_ .f32 0x7F800000#32
  let main_v10 : FVec F S8x512x1024 .f32 := broadcastInDim S8x512x1024 ![] bcast_S_S8x512x1024 main_cst_2
  let main_v11 : IVec S8x512x1024 1 := cmpf .olt main_v9 main_v10
  let main_c_3 : IVec S_ 1 := constantI S_ 1 1#1
  let main_v12 : IVec S_ 1 := (fun x v => Host.reduce IntOp.andi x v reducesTo_S8x512x1024_S_d0_1_2 h_S_) main_v11 main_c_3
  let main_v13 : IVec S_ 1 := andi main_v8 main_v12
  let main_v14 : FVec F S2x1024 .f32 := Host.absf main_arg4
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg3 main_arg5 main_v13 main_v16
-- ==== Kernel.lean ====
abbrev S50000x1024 : Shape := ⟨2, ![50000, 1024]⟩
abbrev S50000 : Shape := ⟨1, ![50000]⟩
abbrev S8x512x1024 : Shape := ⟨3, ![8, 512, 1024]⟩
abbrev S4096 : Shape := ⟨1, ![4096]⟩
abbrev S2x1024 : Shape := ⟨2, ![2, 1024]⟩
abbrev S2 : Shape := ⟨1, ![2]⟩
abbrev S4096x1024 : Shape := ⟨2, ![4096, 1024]⟩
abbrev S_ : Shape := ⟨0, ![]⟩
abbrev S4000x1024 : Shape := ⟨2, ![4000, 1024]⟩
abbrev S4002x1024 : Shape := ⟨2, ![4002, 1024]⟩
abbrev S4000 : Shape := ⟨1, ![4000]⟩
abbrev S4002 : Shape := ⟨1, ![4002]⟩
abbrev S1x4096 : Shape := ⟨2, ![1, 4096]⟩
abbrev S4096x1 : Shape := ⟨2, ![4096, 1]⟩
abbrev S1024x1024 : Shape := ⟨2, ![1024, 1024]⟩
abbrev S1x1024 : Shape := ⟨2, ![1, 1024]⟩
abbrev S1024x1 : Shape := ⟨2, ![1024, 1]⟩
abbrev S1024 : Shape := ⟨1, ![1024]⟩
abbrev S16000x1024 : Shape := ⟨2, ![16000, 1024]⟩
abbrev S16000 : Shape := ⟨1, ![16000]⟩
abbrev S16384x1024 : Shape := ⟨2, ![16384, 1024]⟩
abbrev S16384 : Shape := ⟨1, ![16384]⟩
abbrev S1x16384 : Shape := ⟨2, ![1, 16384]⟩
abbrev S30000x1024 : Shape := ⟨2, ![30000, 1024]⟩
abbrev S30000 : Shape := ⟨1, ![30000]⟩
abbrev S30720x1024 : Shape := ⟨2, ![30720, 1024]⟩
abbrev S30720 : Shape := ⟨1, ![30720]⟩
abbrev S1x30720 : Shape := ⟨2, ![1, 30720]⟩

abbrev nBuf : Space → Nat
  | .hbm => 112
  | .vmem => 51
  | .smem => 0
  | _ => 0

abbrev bufTy : (tb : Table) → Fin (tcTables nBuf tb) → BufTy
  | .hbm, ⟨0, _⟩ => ⟨S50000x1024, .f32⟩
  | .hbm, ⟨1, _⟩ => ⟨S50000, .f32⟩
  | .hbm, ⟨2, _⟩ => ⟨S8x512x1024, .f32⟩
  | .hbm, ⟨3, _⟩ => ⟨S4096, .i32⟩
  | .hbm, ⟨4, _⟩ => ⟨S2x1024, .f32⟩
  | .hbm, ⟨5, _⟩ => ⟨S2, .f32⟩
  | .hbm, ⟨6, _⟩ => ⟨S4096x1024, .f32⟩
  | .hbm, ⟨7, _⟩ => ⟨S_, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S4000x1024, .f32⟩
  | .hbm, ⟨20, _⟩ => ⟨S4002x1024, .f32⟩
  | .hbm, ⟨21, _⟩ => ⟨S4000, .f32⟩
  | .hbm, ⟨22, _⟩ => ⟨S4002, .f32⟩
  | .hbm, ⟨23, _⟩ => ⟨S_, .i32⟩
  | .hbm, ⟨24, _⟩ => ⟨S_, .f32⟩
  | .hbm, ⟨25, _⟩ => ⟨S4096x1024, .f32⟩
  | .hbm, ⟨26, _⟩ => ⟨S_, .i32⟩
  | .hbm, ⟨27, _⟩ => ⟨S_, .f32⟩
  | .hbm, ⟨28, _⟩ => ⟨S4096, .f32⟩
  | .hbm, ⟨29, _⟩ => ⟨S1x4096, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S16000x1024, .f32⟩
  | .hbm, ⟨44, _⟩ => ⟨S16000, .f32⟩
  | .hbm, ⟨45, _⟩ => ⟨S_, .i32⟩
  | .hbm, ⟨46, _⟩ => ⟨S_, .f32⟩
  | .hbm, ⟨47, _⟩ => ⟨S16384x1024, .f32⟩
  | .hbm, ⟨48, _⟩ => ⟨S_, .i32⟩
  | .hbm, ⟨49, _⟩ => ⟨S_, .f32⟩
  | .hbm, ⟨50, _⟩ => ⟨S16384, .f32⟩
  | .hbm, ⟨51, _⟩ => ⟨S1x16384, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S30000x1024, .f32⟩
  | .hbm, ⟨69, _⟩ => ⟨S30000, .f32⟩
  | .hbm, ⟨70, _⟩ => ⟨S_, .i32⟩
  | .hbm, ⟨71, _⟩ => ⟨S_, .f32⟩
  | .hbm, ⟨72, _⟩ => ⟨S30720x1024, .f32⟩
  | .hbm, ⟨73, _⟩ => ⟨S_, .i32⟩
  | .hbm, ⟨74, _⟩ => ⟨S_, .f32⟩
  | .hbm, ⟨75, _⟩ => ⟨S30720, .f32⟩
  | .hbm, ⟨76, _⟩ => ⟨S1x30720, .f32⟩
  | .hbm, ⟨77, _⟩ => ⟨S_, .i32⟩
  | .hbm, ⟨78, _⟩ => ⟨S4096, .i32⟩
  | .hbm, ⟨79, _⟩ => ⟨S4096, .i1⟩
  | .hbm, ⟨80, _⟩ => ⟨S_, .i32⟩
  | .hbm, ⟨81, _⟩ => ⟨S4096, .i32⟩
  | .hbm, ⟨82, _⟩ => ⟨S4096, .i32⟩
  | .hbm, ⟨83, _⟩ => ⟨S_, .i32⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096x1, .i32⟩
  | .hbm, ⟨88, _⟩ => ⟨S4096x1, .f32⟩
  | .hbm, ⟨89, _⟩ => ⟨S4096x1, .f32⟩
  | .hbm, ⟨90, _⟩ => ⟨S4096x1, .f32⟩
  | .hbm, ⟨91, _⟩ => ⟨S4096x1, .f32⟩
  | .hbm, ⟨92, _⟩ => ⟨S4096x1, .f32⟩
  | .hbm, ⟨93, _⟩ => ⟨S_, .i32⟩
  | .hbm, ⟨94, _⟩ => ⟨S4096, .i32⟩
  | .hbm, ⟨95, _⟩ => ⟨S4096, .i1⟩
  | .hbm, ⟨96, _⟩ => ⟨S4096, .f32⟩
  | .hbm, ⟨97, _⟩ => ⟨S4096x1, .f32⟩
  | .hbm, ⟨98, _⟩ => ⟨S_, .i32⟩
  | .hbm, ⟨99, _⟩ => ⟨S4096, .i32⟩
  | .hbm, ⟨100, _⟩ => ⟨S4096, .i1⟩
  | .hbm, ⟨101, _⟩ => ⟨S4096, .f32⟩
  | .hbm, ⟨102, _⟩ => ⟨S4096x1, .f32⟩
  | .hbm, ⟨103, _⟩ => ⟨S4096x1, .f32⟩
  | .hbm, ⟨104, _⟩ => ⟨S4096x1, .f32⟩
  | .hbm, ⟨105, _⟩ => ⟨S4096x1, .f32⟩
  | .hbm, ⟨106, _⟩ => ⟨S4096x1, .f32⟩
  | .hbm, ⟨107, _⟩ => ⟨S4096x1, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1, .i32⟩
  | .local _ .vmem, ⟨7, _⟩ => ⟨S1024x1, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1x1024, .f32⟩
  | .local _ .vmem, ⟨22, _⟩ => ⟨S1x1024, .f32⟩
  | .local _ .vmem, ⟨23, _⟩ => ⟨S1024x1, .i32⟩
  | .local _ .vmem, ⟨24, _⟩ => ⟨S1024x1, .i32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x1, .f32⟩
  | .local _ .vmem, ⟨29, _⟩ => ⟨S1024x1, .f32⟩
  | .local _ .vmem, ⟨30, _⟩ => ⟨S1024x1, .f32⟩
  | .local _ .vmem, ⟨31, _⟩ => ⟨S1024x1, .f32⟩
  | .local _ .vmem, ⟨32, _⟩ => ⟨S1024x1, .f32⟩
  | .local _ .vmem, ⟨33, _⟩ => ⟨S1024x1, .f32⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1024, .f32⟩
  | .local _ .vmem, ⟨38, _⟩ => ⟨S1x1024, .f32⟩
  | .local _ .vmem, ⟨39, _⟩ => ⟨S1x1024, .f32⟩
  | .local _ .vmem, ⟨40, _⟩ => ⟨S1024x1, .i32⟩
  | .local _ .vmem, ⟨41, _⟩ => ⟨S1024x1, .i32⟩
  | .local _ .vmem, ⟨42, _⟩ => ⟨S1024x1, .f32⟩
  | .local _ .vmem, ⟨43, _⟩ => ⟨S1024x1, .f32⟩
  | .local _ .vmem, ⟨44, _⟩ => ⟨S1024x1, .f32⟩
  | .local _ .vmem, ⟨45, _⟩ => ⟨S1024x1, .f32⟩
  | .local _ .vmem, ⟨46, _⟩ => ⟨S1024x1, .f32⟩
  | .local _ .vmem, ⟨47, _⟩ => ⟨S1024x1, .f32⟩
  | .local _ .vmem, ⟨48, _⟩ => ⟨S1024x1, .f32⟩
  | .local _ .vmem, ⟨49, _⟩ => ⟨S1024x1, .f32⟩
  | .local _ .vmem, ⟨50, _⟩ => ⟨S1024x1, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call0_v0 : Ref sig .tc := ⟨.hbm, 24, rfl⟩
abbrev main_v14 : Ref sig .tc := ⟨.hbm, 25, rfl⟩
abbrev main_c_3 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_call3_v0 : Ref sig .tc := ⟨.hbm, 46, rfl⟩
abbrev main_v28 : Ref sig .tc := ⟨.hbm, 47, rfl⟩
abbrev main_c_7 : Ref sig .tc := ⟨.hbm, 48, rfl⟩
abbrev main_call4_v0 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_call5_v0 : Ref sig .tc := ⟨.hbm, 59, rfl⟩
abbrev main_call5_v1 : Ref sig .tc := ⟨.hbm, 60, rfl⟩
abbrev main_v35 : Ref sig .tc := ⟨.hbm, 61, rfl⟩
abbrev main_v36 : Ref sig .tc := ⟨.hbm, 62, rfl⟩
abbrev main_v37_0 : Ref sig .tc := ⟨.hbm, 63, rfl⟩
abbrev main_v37_1 : Ref sig .tc := ⟨.hbm, 64, rfl⟩
abbrev main_v37_2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_call6_v0 : Ref sig .tc := ⟨.hbm, 71, rfl⟩
abbrev main_v42 : Ref sig .tc := ⟨.hbm, 72, rfl⟩
abbrev main_c_12 : Ref sig .tc := ⟨.hbm, 73, rfl⟩
abbrev main_call7_v0 : Ref sig .tc := ⟨.hbm, 74, rfl⟩
abbrev main_v43 : Ref sig .tc := ⟨.hbm, 75, rfl⟩
abbrev main_v44 : Ref sig .tc := ⟨.hbm, 76, rfl⟩
abbrev main_c_13 : Ref sig .tc := ⟨.hbm, 77, rfl⟩
abbrev main_v45 : Ref sig .tc := ⟨.hbm, 78, rfl⟩
abbrev main_v46 : Ref sig .tc := ⟨.hbm, 79, rfl⟩
abbrev main_c_14 : Ref sig .tc := ⟨.hbm, 80, rfl⟩
abbrev main_v47 : Ref sig .tc := ⟨.hbm, 81, rfl⟩
abbrev main_v48 : Ref sig .tc := ⟨.hbm, 82, rfl⟩
abbrev main_c_15 : Ref sig .tc := ⟨.hbm, 83, rfl⟩
abbrev main_call8_v0 : Ref sig .tc := ⟨.hbm, 84, rfl⟩
abbrev main_call8_v1 : Ref sig .tc := ⟨.hbm, 85, rfl⟩
abbrev main_v49 : Ref sig .tc := ⟨.hbm, 86, rfl⟩
abbrev main_v50 : Ref sig .tc := ⟨.hbm, 87, rfl⟩
abbrev main_v51_0 : Ref sig .tc := ⟨.hbm, 88, rfl⟩
abbrev main_v51_1 : Ref sig .tc := ⟨.hbm, 89, rfl⟩
abbrev main_v51_2 : Ref sig .tc := ⟨.hbm, 90, rfl⟩
abbrev main_v52 : Ref sig .tc := ⟨.hbm, 91, rfl⟩
abbrev main_v53 : Ref sig .tc := ⟨.hbm, 92, rfl⟩
abbrev main_c_16 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_17 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst : Ref sig .tc := ⟨.hbm, 108, rfl⟩
abbrev main_v67 : Ref sig .tc := ⟨.hbm, 109, rfl⟩
abbrev main_cst_18 : Ref sig .tc := ⟨.hbm, 110, rfl⟩
abbrev main_v68 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_scratch0 : Ref sig .tc := ⟨.vmem, 48, rfl⟩
abbrev cc2_scratch1 : Ref sig .tc := ⟨.vmem, 49, rfl⟩
abbrev cc2_scratch2 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v55 : BitVec 1 := Scalar.cmpi .eq arg1 c15_i32
  let v56 : BitVec 32 := Scalar.extui v55
  let c0_i32_25 : BitVec 32 := 0#32
  let v57 : BitVec 1 := Scalar.cmpi .ne v56 c0_i32_25
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![4, 30], ![false, false]⟩

def k2_cond2 (i : grid2.Coords) : BitVec 1 :=
  let arg1 : BitVec 32 := BitVec.ofNat 32 (i 1).val
  let c29_i32 : BitVec 32 := 29#32
  let v55 : BitVec 1 := Scalar.cmpi .eq arg1 c29_i32
  let v56 : BitVec 32 := Scalar.extui v55
  let c0_i32_25 : BitVec 32 := 0#32
  let v57 : BitVec 1 := Scalar.cmpi .ne v56 c0_i32_25
  v57

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S8x512x1024_S4096x1024 : S8x512x1024.ShapeCasts S4096x1024
  bcast_S_S4096 : S_.BroadcastsInDim S4096 (![] : Fin 0 → Fin S4096.rank)
  natLt_1_32 : 1 < 32
  slices_S50000x1024_S4000x1024_0_0 : S50000x1024.Slices ![0, 0] S4000x1024
  concatenates_S4000x1024_S2x1024_S4002x1024_d0 : Shape.Concatenates [S4000x1024, S2x1024] S4002x1024 0
  slices_S50000_S4000_0 : S50000.Slices ![0] S4000
  concatenates_S4000_S2_S4002_d0 : Shape.Concatenates [S4000, S2] S4002 0
  pads_S4002x1024_S4096x1024_0940_000 : S4002x1024.Pads (![0, 0] : Fin 2 → Nat) ![94, 0] ![0, 0] S4096x1024
  h_S_ : 0 < S_.numel
  pads_S4002_S4096_0940 : S4002.Pads (![0] : Fin 1 → Nat) ![94] ![0] S4096
  shapeCasts_S4096_S1x4096 : S4096.ShapeCasts S1x4096
  shapeCasts_S4096_S4096x1 : S4096.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  slices_S50000x1024_S16000x1024_4000_0 : S50000x1024.Slices ![4000, 0] S16000x1024
  slices_S50000_S16000_4000 : S50000.Slices ![4000] S16000
  pads_S16000x1024_S16384x1024_03840_000 : S16000x1024.Pads (![0, 0] : Fin 2 → Nat) ![384, 0] ![0, 0] S16384x1024
  pads_S16000_S16384_03840 : S16000.Pads (![0] : Fin 1 → Nat) ![384] ![0] S16384
  shapeCasts_S16384_S1x16384 : S16384.ShapeCasts S1x16384
  slices_S50000x1024_S30000x1024_20000_0 : S50000x1024.Slices ![20000, 0] S30000x1024
  slices_S50000_S30000_20000 : S50000.Slices ![20000] S30000
  pads_S30000x1024_S30720x1024_07200_000 : S30000x1024.Pads (![0, 0] : Fin 2 → Nat) ![720, 0] ![0, 0] S30720x1024
  pads_S30000_S30720_07200 : S30000.Pads (![0] : Fin 1 → Nat) ![720] ![0] S30720
  shapeCasts_S30720_S1x30720 : S30720.ShapeCasts S1x30720
  reducesTo_S4096x1_S_d0_1 : S4096x1.ReducesTo [0, 1] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .i32 = 32 ∨ (Rect.block (s := S4096x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S16384x1024.size a
  hwx1_1 : ∀ i : grid1.Coords, EltTy.bits .f32 = 32 ∨ (Rect.block (s := S16384x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x16384.size a
  hwx1_2 : ∀ i : grid1.Coords, EltTy.bits .f32 = 32 ∨ (Rect.block (s := S1x16384) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .i32 = 32 ∨ (Rect.block (s := S4096x1) S1024x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S4096x1.size a
  hwx1_5 : ∀ i : grid1.Coords, EltTy.bits .f32 = 32 ∨ (Rect.block (s := S4096x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S4096x1.size a
  hwx1_6 : ∀ i : grid1.Coords, EltTy.bits .f32 = 32 ∨ (Rect.block (s := S4096x1) S1024x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S30720x1024.size a
  hwx2_1 : ∀ i : grid2.Coords, EltTy.bits .f32 = 32 ∨ (Rect.block (s := S30720x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x30720.size a
  hwx2_2 : ∀ i : grid2.Coords, EltTy.bits .f32 = 32 ∨ (Rect.block (s := S1x30720) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .i32 = 32 ∨ (Rect.block (s := S4096x1) S1024x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S4096x1.size a
  hwx2_4 : ∀ i : grid2.Coords, EltTy.bits .f32 = 32 ∨ (Rect.block (s := S4096x1) S1024x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S4096x1.size a
  hwx2_5 : ∀ i : grid2.Coords, EltTy.bits .f32 = 32 ∨ (Rect.block (s := S4096x1) S1024x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x1.size a ≤ S4096x1.size a
  hwx2_6 : ∀ i : grid2.Coords, EltTy.bits .f32 = 32 ∨ (Rect.block (s := S4096x1) S1024x1.size (cc2_transform_6 i) (hinb2_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v37_0) S1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37_1) S1024x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v37_2) S1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v51_0) S1024x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v51_1) S1024x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v51_2) S1024x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun i => !(k2_cond2 i == 1#1) | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== ReferenceIdeal.lean ====
abbrev S50000x1024 : Shape := ⟨2, ![50000, 1024]⟩
abbrev S50000 : Shape := ⟨1, ![50000]⟩
abbrev S8x512x1024 : Shape := ⟨3, ![8, 512, 1024]⟩
abbrev S4096 : Shape := ⟨1, ![4096]⟩
abbrev S2x1024 : Shape := ⟨2, ![2, 1024]⟩
abbrev S2 : Shape := ⟨1, ![2]⟩
abbrev S4096x1024 : Shape := ⟨2, ![4096, 1024]⟩
abbrev S_ : Shape := ⟨0, ![]⟩
abbrev S4000x1024 : Shape := ⟨2, ![4000, 1024]⟩
abbrev S4002x1024 : Shape := ⟨2, ![4002, 1024]⟩
abbrev S4000 : Shape := ⟨1, ![4000]⟩
abbrev S4002 : Shape := ⟨1, ![4002]⟩
abbrev S1024x4002 : Shape := ⟨2, ![1024, 4002]⟩
abbrev S4096x4002 : Shape := ⟨2, ![4096, 4002]⟩
abbrev S1x4002 : Shape := ⟨2, ![1, 4002]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S16000x1024 : Shape := ⟨2, ![16000, 1024]⟩
abbrev S1024x16000 : Shape := ⟨2, ![1024, 16000]⟩
abbrev S4096x16000 : Shape := ⟨2, ![4096, 16000]⟩
abbrev S16000 : Shape := ⟨1, ![16000]⟩
abbrev S1x16000 : Shape := ⟨2, ![1, 16000]⟩
abbrev S30000x1024 : Shape := ⟨2, ![30000, 1024]⟩
abbrev S1024x30000 : Shape := ⟨2, ![1024, 30000]⟩
abbrev S4096x30000 : Shape := ⟨2, ![4096, 30000]⟩
abbrev S30000 : Shape := ⟨1, ![30000]⟩
abbrev S1x30000 : Shape := ⟨2, ![1, 30000]⟩

abbrev nBuf : Space → Nat
  | .hbm => 222
  | .vmem => 0
  | .smem => 0
  | _ => 0

abbrev hbmTy0_0 (i : Nat) : BufTy := match i % 128 with
  | 0 => ⟨S50000x1024, .f32⟩
  | 1 => ⟨S50000, .f32⟩
  | 2 => ⟨S8x512x1024, .f32⟩
  | 3 => ⟨S4096, .i32⟩
  | 4 => ⟨S2x1024, .f32⟩
  | 5 => ⟨S2, .f32⟩
  | 6 => ⟨S4096x1024, .f32⟩
  | 7 => ⟨S_, .i32⟩
  | 8 => ⟨S4096, .i32⟩
  | 9 => ⟨S_, .i32⟩
  | 10 => ⟨S4096, .i32⟩
  | 11 => ⟨S4096, .i1⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S4000x1024, .f32⟩
  | 20 => ⟨S4002x1024, .f32⟩
  | 21 => ⟨S4000, .f32⟩
  | 22 => ⟨S4002, .f32⟩
  | 23 => ⟨S1024x4002, .f32⟩
  | 24 => ⟨S4096x4002, .f32⟩
  | 25 => ⟨S1x4002, .f32⟩
  | 26 => ⟨S4096x4002, .f32⟩
  | 27 => ⟨S4096x4002, .f32⟩
  | 28 => ⟨S_, .f32⟩
  | 29 => ⟨S4096, .f32⟩
  | 30 => ⟨S_, .f32⟩
  | 31 => ⟨S4096, .f32⟩
  | 32 => ⟨S4096, .f32⟩
  | 33 => ⟨S4096x1, .f32⟩
  | 34 => ⟨S4096x4002, .f32⟩
  | 35 => ⟨S4096x4002, .f32⟩
  | 36 => ⟨S4096x4002, .f32⟩
  | 37 => ⟨S_, .f32⟩
  | 38 => ⟨S4096, .f32⟩
  | 39 => ⟨S4096x1, .f32⟩
  | 40 => ⟨S4096x1, .f32⟩
  | 41 => ⟨S4096x4002, .f32⟩
  | 42 => ⟨S4096x4002, .f32⟩
  | 43 => ⟨S_, .i32⟩
  | 44 => ⟨S4096, .i32⟩
  | 45 => ⟨S4096, .i1⟩
  | 46 => ⟨S_, .i32⟩
  | 47 => ⟨S_, .i32⟩
  | 48 => ⟨S4096, .i32⟩
  | 49 => ⟨S4096, .i32⟩
  | 50 => ⟨S4096x1, .i32⟩
  | 51 => ⟨S_, .i32⟩
  | 52 => ⟨S4096x1, .i32⟩
  | 53 => ⟨S4096x1, .i1⟩
  | 54 => ⟨S_, .i32⟩
  | 55 => ⟨S4096x1, .i32⟩
  | 56 => ⟨S4096x1, .i32⟩
  | 57 => ⟨S4096x1, .i32⟩
  | 58 => ⟨S4096x1x1, .i32⟩
  | 59 => ⟨S1, .i32⟩
  | 60 => ⟨S_, .i32⟩
  | 61 => ⟨S4096x1x1, .i32⟩
  | 62 => ⟨S4096x1x1, .i1⟩
  | 63 => ⟨S1x1x1, .i32⟩
  | 64 => ⟨S4096x1x1, .i32⟩
  | 65 => ⟨S4096x1x1, .i1⟩
  | 66 => ⟨S4096x1x1, .i1⟩
  | 67 => ⟨S_, .i1⟩
  | 68 => ⟨S4096x1, .i1⟩
  | 69 => ⟨S4096x1, .f32⟩
  | 70 => ⟨S_, .f32⟩
  | 71 => ⟨S4096x1, .f32⟩
  | 72 => ⟨S4096x1, .f32⟩
  | 73 => ⟨S4096, .f32⟩
  | 74 => ⟨S_, .i32⟩
  | 75 => ⟨S4096, .i32⟩
  | 76 => ⟨S4096, .i1⟩
  | 77 => ⟨S4096, .f32⟩
  | 78 => ⟨S_, .f32⟩
  | 79 => ⟨S_, .f32⟩
  | 80 => ⟨S4096, .f32⟩
  | 81 => ⟨S4096, .f32⟩
  | 82 => ⟨S16000x1024, .f32⟩
  | 83 => ⟨S1024x16000, .f32⟩
  | 84 => ⟨S4096x16000, .f32⟩
  | 85 => ⟨S16000, .f32⟩
  | 86 => ⟨S1x16000, .f32⟩
  | 87 => ⟨S4096x16000, .f32⟩
  | 88 => ⟨S4096x16000, .f32⟩
  | 89 => ⟨S_, .f32⟩
  | 90 => ⟨S4096, .f32⟩
  | 91 => ⟨S_, .f32⟩
  | 92 => ⟨S4096, .f32⟩
  | 93 => ⟨S4096, .f32⟩
  | 94 => ⟨S4096x1, .f32⟩
  | 95 => ⟨S4096x16000, .f32⟩
  | 96 => ⟨S4096x16000, .f32⟩
  | 97 => ⟨S4096x16000, .f32⟩
  | 98 => ⟨S_, .f32⟩
  | 99 => ⟨S4096, .f32⟩
  | 100 => ⟨S4096x1, .f32⟩
  | 101 => ⟨S4096x1, .f32⟩
  | 102 => ⟨S4096x16000, .f32⟩
  | 103 => ⟨S4096x16000, .f32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S_, .i32⟩
  | 111 => ⟨S_, .i32⟩
  | 112 => ⟨S4096, .i32⟩
  | 113 => ⟨S4096, .i32⟩
  | 114 => ⟨S4096x1, .i32⟩
  | 115 => ⟨S_, .i32⟩
  | 116 => ⟨S4096x1, .i32⟩
  | 117 => ⟨S4096x1, .i1⟩
  | 118 => ⟨S_, .i32⟩
  | 119 => ⟨S4096x1, .i32⟩
  | 120 => ⟨S4096x1, .i32⟩
  | 121 => ⟨S4096x1, .i32⟩
  | 122 => ⟨S4096x1x1, .i32⟩
  | 123 => ⟨S1, .i32⟩
  | 124 => ⟨S_, .i32⟩
  | 125 => ⟨S4096x1x1, .i32⟩
  | 126 => ⟨S4096x1x1, .i1⟩
  | 127 => ⟨S1x1x1, .i32⟩
  | _ => ⟨S50000x1024, .f32⟩

abbrev hbmTy0_1 (i : Nat) : BufTy := match i % 128 with
  | 0 => ⟨S4096x1x1, .i32⟩
  | 1 => ⟨S4096x1x1, .i1⟩
  | 2 => ⟨S4096x1x1, .i1⟩
  | 3 => ⟨S_, .i1⟩
  | 4 => ⟨S4096x1, .i1⟩
  | 5 => ⟨S4096x1, .f32⟩
  | 6 => ⟨S_, .f32⟩
  | 7 => ⟨S4096x1, .f32⟩
  | 8 => ⟨S4096x1, .f32⟩
  | 9 => ⟨S4096, .f32⟩
  | 10 => ⟨S4096x1, .f32⟩
  | 11 => ⟨S4096, .f32⟩
  | 12 => ⟨S_, .i32⟩
  | 13 => ⟨S4096, .i32⟩
  | 14 => ⟨S4096, .i1⟩
  | 15 => ⟨S4096, .f32⟩
  | 16 => ⟨S4096, .f32⟩
  | 17 => ⟨S_, .f32⟩
  | 18 => ⟨S_, .f32⟩
  | 19 => ⟨S4096, .f32⟩
  | 20 => ⟨S4096, .f32⟩
  | 21 => ⟨S4096, .f32⟩
  | 22 => ⟨S30000x1024, .f32⟩
  | 23 => ⟨S1024x30000, .f32⟩
  | 24 => ⟨S4096x30000, .f32⟩
  | 25 => ⟨S30000, .f32⟩
  | 26 => ⟨S1x30000, .f32⟩
  | 27 => ⟨S4096x30000, .f32⟩
  | 28 => ⟨S4096x30000, .f32⟩
  | 29 => ⟨S_, .f32⟩
  | 30 => ⟨S4096, .f32⟩
  | 31 => ⟨S_, .f32⟩
  | 32 => ⟨S4096, .f32⟩
  | 33 => ⟨S4096, .f32⟩
  | 34 => ⟨S4096x1, .f32⟩
  | 35 => ⟨S4096x30000, .f32⟩
  | 36 => ⟨S4096x30000, .f32⟩
  | 37 => ⟨S4096x30000, .f32⟩
  | 38 => ⟨S_, .f32⟩
  | 39 => ⟨S4096, .f32⟩
  | 40 => ⟨S4096x1, .f32⟩
  | 41 => ⟨S4096x1, .f32⟩
  | 42 => ⟨S4096x30000, .f32⟩
  | 43 => ⟨S4096x30000, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S_, .i32⟩
  | 51 => ⟨S_, .i32⟩
  | 52 => ⟨S4096, .i32⟩
  | 53 => ⟨S4096, .i32⟩
  | 54 => ⟨S4096x1, .i32⟩
  | 55 => ⟨S_, .i32⟩
  | 56 => ⟨S4096x1, .i32⟩
  | 57 => ⟨S4096x1, .i1⟩
  | 58 => ⟨S_, .i32⟩
  | 59 => ⟨S4096x1, .i32⟩
  | 60 => ⟨S4096x1, .i32⟩
  | 61 => ⟨S4096x1, .i32⟩
  | 62 => ⟨S4096x1x1, .i32⟩
  | 63 => ⟨S1, .i32⟩
  | 64 => ⟨S_, .i32⟩
  | 65 => ⟨S4096x1x1, .i32⟩
  | 66 => ⟨S4096x1x1, .i1⟩
  | 67 => ⟨S1x1x1, .i32⟩
  | 68 => ⟨S4096x1x1, .i32⟩
  | 69 => ⟨S4096x1x1, .i1⟩
  | 70 => ⟨S4096x1x1, .i1⟩
  | 71 => ⟨S_, .i1⟩
  | 72 => ⟨S4096x1, .i1⟩
  | 73 => ⟨S4096x1, .f32⟩
  | 74 => ⟨S_, .f32⟩
  | 75 => ⟨S4096x1, .f32⟩
  | 76 => ⟨S4096x1, .f32⟩
  | 77 => ⟨S4096, .f32⟩
  | 78 => ⟨S4096x1, .f32⟩
  | 79 => ⟨S4096, .f32⟩
  | 80 => ⟨S_, .i32⟩
  | 81 => ⟨S4096, .i32⟩
  | 82 => ⟨S4096, .i1⟩
  | 83 => ⟨S4096, .f32⟩
  | 84 => ⟨S4096, .f32⟩
  | 85 => ⟨S_, .f32⟩
  | 86 => ⟨S_, .f32⟩
  | 87 => ⟨S4096, .f32⟩
  | 88 => ⟨S4096, .f32⟩
  | 89 => ⟨S4096, .f32⟩
  | 90 => ⟨S_, .f32⟩
  | 91 => ⟨S_, .f32⟩
  | 92 => ⟨S_, .f32⟩
  | 93 => ⟨S_, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_call1_v0 : Ref sig .tc := ⟨.hbm, 47, rfl⟩
abbrev main_call1_v1 : Ref sig .tc := ⟨.hbm, 48, rfl⟩
abbrev main_v22 : Ref sig .tc := ⟨.hbm, 49, rfl⟩
abbrev main_v23 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v24 : Ref sig .tc := ⟨.hbm, 72, rfl⟩
abbrev main_v25 : Ref sig .tc := ⟨.hbm, 73, rfl⟩
abbrev main_c_4 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst : Ref sig .tc := ⟨.hbm, 78, rfl⟩
abbrev main_call3_v0 : Ref sig .tc := ⟨.hbm, 79, rfl⟩
abbrev main_call3_v1 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_call4_cst : Ref sig .tc := ⟨.hbm, 89, rfl⟩
abbrev main_call4_v0 : Ref sig .tc := ⟨.hbm, 90, rfl⟩
abbrev main_call4_cst_0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_v6 : Ref sig .tc := ⟨.hbm, 97, rfl⟩
abbrev main_call4_cst_1 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_v37 : Ref sig .tc := ⟨.hbm, 103, rfl⟩
abbrev main_c_5 : Ref sig .tc := ⟨.hbm, 104, rfl⟩
abbrev main_v38 : Ref sig .tc := ⟨.hbm, 105, rfl⟩
abbrev main_v39 : Ref sig .tc := ⟨.hbm, 106, rfl⟩
abbrev main_c_6 : Ref sig .tc := ⟨.hbm, 107, rfl⟩
abbrev main_v40 : Ref sig .tc := ⟨.hbm, 108, rfl⟩
abbrev main_v41 : Ref sig .tc := ⟨.hbm, 109, rfl⟩
abbrev main_c_7 : Ref sig .tc := ⟨.hbm, 110, rfl⟩
abbrev main_call5_v0 : Ref sig .tc := ⟨.hbm, 111, rfl⟩
abbrev main_call5_v1 : Ref sig .tc := ⟨.hbm, 112, rfl⟩
abbrev main_v42 : Ref sig .tc := ⟨.hbm, 113, rfl⟩
abbrev main_v43 : Ref sig .tc := ⟨.hbm, 114, rfl⟩
abbrev main_call6_c : Ref sig .tc := ⟨.hbm, 115, rfl⟩
abbrev main_call6_v0 : Ref sig .tc := ⟨.hbm, 116, rfl⟩
abbrev main_call6_v1 : Ref sig .tc := ⟨.hbm, 117, rfl⟩
abbrev main_call6_c_0 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_call6_v5 : Ref sig .tc := ⟨.hbm, 122, rfl⟩
abbrev main_call6_c_1 : Ref sig .tc := ⟨.hbm, 123, rfl⟩
abbrev main_call6_c_2 : Ref sig .tc := ⟨.hbm, 124, rfl⟩
abbrev main_call6_v6 : Ref sig .tc := ⟨.hbm, 125, rfl⟩
abbrev main_call6_v7 : Ref sig .tc := ⟨.hbm, 126, rfl⟩
abbrev main_call6_v8 : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_c_3 : Ref sig .tc := ⟨.hbm, 131, rfl⟩
abbrev main_call6_v12 : Ref sig .tc := ⟨.hbm, 132, rfl⟩
abbrev main_call6_v13 : Ref sig .tc := ⟨.hbm, 133, rfl⟩
abbrev main_call6_cst : Ref sig .tc := ⟨.hbm, 134, rfl⟩
abbrev main_call6_v14 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_c_8 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_cst_9 : Ref sig .tc := ⟨.hbm, 145, rfl⟩
abbrev main_call7_v0 : Ref sig .tc := ⟨.hbm, 146, rfl⟩
abbrev main_call7_v1 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_call8_cst : Ref sig .tc := ⟨.hbm, 157, rfl⟩
abbrev main_call8_v0 : Ref sig .tc := ⟨.hbm, 158, rfl⟩
abbrev main_call8_cst_0 : Ref sig .tc := ⟨.hbm, 159, rfl⟩
abbrev main_call8_v1 : Ref sig .tc := ⟨.hbm, 160, rfl⟩
abbrev main_call8_v2 : Ref sig .tc := ⟨.hbm, 161, rfl⟩
abbrev main_call8_v3 : Ref sig .tc := ⟨.hbm, 162, rfl⟩
abbrev main_call8_v4 : Ref sig .tc := ⟨.hbm, 163, rfl⟩
abbrev main_call8_v5 : Ref sig .tc := ⟨.hbm, 164, rfl⟩
abbrev main_call8_v6 : Ref sig .tc := ⟨.hbm, 165, rfl⟩
abbrev main_call8_cst_1 : Ref sig .tc := ⟨.hbm, 166, rfl⟩
abbrev main_call8_v7 : Ref sig .tc := ⟨.hbm, 167, rfl⟩
abbrev main_call8_v8 : Ref sig .tc := ⟨.hbm, 168, rfl⟩
abbrev main_call8_v9 : Ref sig .tc := ⟨.hbm, 169, rfl⟩
abbrev main_call8_v10 : Ref sig .tc := ⟨.hbm, 170, rfl⟩
abbrev main_v61 : Ref sig .tc := ⟨.hbm, 171, rfl⟩
abbrev main_c_10 : Ref sig .tc := ⟨.hbm, 172, rfl⟩
abbrev main_v62 : Ref sig .tc := ⟨.hbm, 173, rfl⟩
abbrev main_v63 : Ref sig .tc := ⟨.hbm, 174, rfl⟩
abbrev main_c_11 : Ref sig .tc := ⟨.hbm, 175, rfl⟩
abbrev main_v64 : Ref sig .tc := ⟨.hbm, 176, rfl⟩
abbrev main_v65 : Ref sig .tc := ⟨.hbm, 177, rfl⟩
abbrev main_c_12 : Ref sig .tc := ⟨.hbm, 178, rfl⟩
abbrev main_call9_v0 : Ref sig .tc := ⟨.hbm, 179, rfl⟩
abbrev main_call9_v1 : Ref sig .tc := ⟨.hbm, 180, rfl⟩
abbrev main_v66 : Ref sig .tc := ⟨.hbm, 181, rfl⟩
abbrev main_v67 : Ref sig .tc := ⟨.hbm, 182, rfl⟩
abbrev main_call10_c : Ref sig .tc := ⟨.hbm, 183, rfl⟩
abbrev main_call10_v0 : Ref sig .tc := ⟨.hbm, 184, rfl⟩
abbrev main_call10_v1 : Ref sig .tc := ⟨.hbm, 185, rfl⟩
abbrev main_call10_c_0 : Ref sig .tc := ⟨.hbm, 186, rfl⟩
abbrev main_call10_v2 : Ref sig .tc := ⟨.hbm, 187, rfl⟩
abbrev main_call10_v3 : Ref sig .tc := ⟨.hbm, 188, rfl⟩
abbrev main_call10_v4 : Ref sig .tc := ⟨.hbm, 189, rfl⟩
abbrev main_call10_v5 : Ref sig .tc := ⟨.hbm, 190, rfl⟩
abbrev main_call10_c_1 : Ref sig .tc := ⟨.hbm, 191, rfl⟩
abbrev main_call10_c_2 : Ref sig .tc := ⟨.hbm, 192, rfl⟩
abbrev main_call10_v6 : Ref sig .tc := ⟨.hbm, 193, rfl⟩
abbrev main_call10_v7 : Ref sig .tc := ⟨.hbm, 194, rfl⟩
abbrev main_call10_v8 : Ref sig .tc := ⟨.hbm, 195, rfl⟩
abbrev main_call10_v9 : Ref sig .tc := ⟨.hbm, 196, rfl⟩
abbrev main_call10_v10 : Ref sig .tc := ⟨.hbm, 197, rfl⟩
abbrev main_call10_v11 : Ref sig .tc := ⟨.hbm, 198, rfl⟩
abbrev main_call10_c_3 : Ref sig .tc := ⟨.hbm, 199, rfl⟩
abbrev main_call10_v12 : Ref sig .tc := ⟨.hbm, 200, rfl⟩
abbrev main_call10_v13 : Ref sig .tc := ⟨.hbm, 201, rfl⟩
abbrev main_call10_cst : Ref sig .tc := ⟨.hbm, 202, rfl⟩
abbrev main_call10_v14 : Ref sig .tc := ⟨.hbm, 203, rfl⟩
abbrev main_v68 : Ref sig .tc := ⟨.hbm, 204, rfl⟩
abbrev main_v69 : Ref sig .tc := ⟨.hbm, 205, rfl⟩
abbrev main_v70 : Ref sig .tc := ⟨.hbm, 206, rfl⟩
abbrev main_v71 : Ref sig .tc := ⟨.hbm, 207, rfl⟩
abbrev main_c_13 : Ref sig .tc := ⟨.hbm, 208, rfl⟩
abbrev main_v72 : Ref sig .tc := ⟨.hbm, 209, rfl⟩
abbrev main_v73 : Ref sig .tc := ⟨.hbm, 210, rfl⟩
abbrev main_v74 : Ref sig .tc := ⟨.hbm, 211, rfl⟩
abbrev main_v75 : Ref sig .tc := ⟨.hbm, 212, rfl⟩
abbrev main_cst_14 : Ref sig .tc := ⟨.hbm, 213, rfl⟩
abbrev main_call11_v0 : Ref sig .tc := ⟨.hbm, 214, rfl⟩
abbrev main_call11_v1 : Ref sig .tc := ⟨.hbm, 215, rfl⟩
abbrev main_v76 : Ref sig .tc := ⟨.hbm, 216, rfl⟩
abbrev main_v77 : Ref sig .tc := ⟨.hbm, 217, rfl⟩
abbrev main_cst_15 : Ref sig .tc := ⟨.hbm, 218, rfl⟩
abbrev main_v78 : Ref sig .tc := ⟨.hbm, 219, rfl⟩
abbrev main_cst_16 : Ref sig .tc := ⟨.hbm, 220, rfl⟩
abbrev main_v79 : Ref sig .tc := ⟨.hbm, 221, rfl⟩

abbrev nD : Nat := 1
abbrev τ : Topo := Topo.v7x

variable {F : FTy → Type} [FloatOps F]

class Facts₀ : Prop where
  shapeCasts_S8x512x1024_S4096x1024 : S8x512x1024.ShapeCasts S4096x1024
  bcast_S_S4096 : S_.BroadcastsInDim S4096 (![] : Fin 0 → Fin S4096.rank)
  natLt_1_32 : 1 < 32
  slices_S50000x1024_S4000x1024_0_0 : S50000x1024.Slices ![0, 0] S4000x1024
  concatenates_S4000x1024_S2x1024_S4002x1024_d0 : Shape.Concatenates [S4000x1024, S2x1024] S4002x1024 0
  slices_S50000_S4000_0 : S50000.Slices ![0] S4000
  concatenates_S4000_S2_S4002_d0 : Shape.Concatenates [S4000, S2] S4002 0
  transposes_S4002x1024_S1024x4002_1_0 : S4002x1024.Transposes [1, 0] S1024x4002
  bcast_S4002_S1x4002_1 : S4002.BroadcastsInDim S1x4002 (![1] : Fin 1 → Fin S1x4002.rank)
  bcast_S1x4002_S4096x4002_0_1 : S1x4002.BroadcastsInDim S4096x4002 (![0, 1] : Fin 2 → Fin S4096x4002.rank)
  reducesTo_S4096x4002_S4096_d1 : S4096x4002.ReducesTo [1] S4096
  h_S_ : 0 < S_.numel
  bcast_S4096_S4096x1_0 : S4096.BroadcastsInDim S4096x1 (![0] : Fin 1 → Fin S4096x1.rank)
  bcast_S4096x1_S4096x4002_0_1 : S4096x1.BroadcastsInDim S4096x4002 (![0, 1] : Fin 2 → Fin S4096x4002.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  slices_S50000x1024_S16000x1024_4000_0 : S50000x1024.Slices ![4000, 0] S16000x1024
  transposes_S16000x1024_S1024x16000_1_0 : S16000x1024.Transposes [1, 0] S1024x16000
  slices_S50000_S16000_4000 : S50000.Slices ![4000] S16000
  bcast_S16000_S1x16000_1 : S16000.BroadcastsInDim S1x16000 (![1] : Fin 1 → Fin S1x16000.rank)
  bcast_S1x16000_S4096x16000_0_1 : S1x16000.BroadcastsInDim S4096x16000 (![0, 1] : Fin 2 → Fin S4096x16000.rank)
  reducesTo_S4096x16000_S4096_d1 : S4096x16000.ReducesTo [1] S4096
  bcast_S4096x1_S4096x16000_0_1 : S4096x1.BroadcastsInDim S4096x16000 (![0, 1] : Fin 2 → Fin S4096x16000.rank)
  slices_S4096x4002_S4096x1_0_4001 : S4096x4002.Slices ![0, 4001] S4096x1
  slices_S50000x1024_S30000x1024_20000_0 : S50000x1024.Slices ![20000, 0] S30000x1024
  transposes_S30000x1024_S1024x30000_1_0 : S30000x1024.Transposes [1, 0] S1024x30000
  slices_S50000_S30000_20000 : S50000.Slices ![20000] S30000
  bcast_S30000_S1x30000_1 : S30000.BroadcastsInDim S1x30000 (![1] : Fin 1 → Fin S1x30000.rank)
  bcast_S1x30000_S4096x30000_0_1 : S1x30000.BroadcastsInDim S4096x30000 (![0, 1] : Fin 2 → Fin S4096x30000.rank)
  reducesTo_S4096x30000_S4096_d1 : S4096x30000.ReducesTo [1] S4096
  bcast_S4096x1_S4096x30000_0_1 : S4096x1.BroadcastsInDim S4096x30000 (![0, 1] : Fin 2 → Fin S4096x30000.rank)
  slices_S4096x4002_S4096x1_0_4000 : S4096x4002.Slices ![0, 4000] S4096x1
  reducesTo_S4096_S_d0 : S4096.ReducesTo [0] S_
  dot_S4096x1024_S1024x4002_S4096x4002_1_0_0_1_n_n_wf : DotDims.WF S4096x1024 S1024x4002 S4096x4002 [1] [0] [0] [1] [] []
  gather_S4096x4002_S4096x1x1_S4096x1_n_1_0_0_1_2_11_wf : GatherDims.WF S4096x4002 S4096x1x1 S4096x1 [] [1] [0] [1] [0] 2 ![1, 1]
  dot_S4096x1024_S1024x16000_S4096x16000_1_0_0_1_n_n_wf : DotDims.WF S4096x1024 S1024x16000 S4096x16000 [1] [0] [0] [1] [] []
  gather_S4096x16000_S4096x1x1_S4096x1_n_1_0_0_1_2_11_wf : GatherDims.WF S4096x16000 S4096x1x1 S4096x1 [] [1] [0] [1] [0] 2 ![1, 1]
  dot_S4096x1024_S1024x30000_S4096x30000_1_0_0_1_n_n_wf : DotDims.WF S4096x1024 S1024x30000 S4096x30000 [1] [0] [0] [1] [] []
  gather_S4096x30000_S4096x1x1_S4096x1_n_1_0_0_1_2_11_wf : GatherDims.WF S4096x30000 S4096x1x1 S4096x1 [] [1] [0] [1] [0] 2 ![1, 1]

variable [Facts₀]

def dot_S4096x1024_S1024x4002_S4096x4002_1_0_0_1_n_n : DotDims S4096x1024 S1024x4002 S4096x4002 where
  lhsContracting := [1]
  rhsContracting := [0]
  lhsNonContracting := [0]
  rhsNonContracting := [1]
  lhsBatch := []
  rhsBatch := []
  wf := dot_S4096x1024_S1024x4002_S4096x4002_1_0_0_1_n_n_wf
def gather_S4096x4002_S4096x1x1_S4096x1_n_1_0_0_1_2_11 : GatherDims S4096x4002 S4096x1x1 S4096x1 where
  offsetDims := []
  collapsedSliceDims := [1]
  operandBatchingDims := [0]
  startIndicesBatchingDims := [0]
  startIndexMap := [1]
  indexVectorDim := 2
  sliceSizes := ![1, 1]
  wf := gather_S4096x4002_S4096x1x1_S4096x1_n_1_0_0_1_2_11_wf
def dot_S4096x1024_S1024x16000_S4096x16000_1_0_0_1_n_n : DotDims S4096x1024 S1024x16000 S4096x16000 where
  lhsContracting := [1]
  rhsContracting := [0]
  lhsNonContracting := [0]
  rhsNonContracting := [1]
  lhsBatch := []
  rhsBatch := []
  wf := dot_S4096x1024_S1024x16000_S4096x16000_1_0_0_1_n_n_wf
def gather_S4096x16000_S4096x1x1_S4096x1_n_1_0_0_1_2_11 : GatherDims S4096x16000 S4096x1x1 S4096x1 where
  offsetDims := []
  collapsedSliceDims := [1]
  operandBatchingDims := [0]
  startIndicesBatchingDims := [0]
  startIndexMap := [1]
  indexVectorDim := 2
  sliceSizes := ![1, 1]
  wf := gather_S4096x16000_S4096x1x1_S4096x1_n_1_0_0_1_2_11_wf
def dot_S4096x1024_S1024x30000_S4096x30000_1_0_0_1_n_n : DotDims S4096x1024 S1024x30000 S4096x30000 where
  lhsContracting := [1]
  rhsContracting := [0]
  lhsNonContracting := [0]
  rhsNonContracting := [1]
  lhsBatch := []
  rhsBatch := []
  wf := dot_S4096x1024_S1024x30000_S4096x30000_1_0_0_1_n_n_wf
def gather_S4096x30000_S4096x1x1_S4096x1_n_1_0_0_1_2_11 : GatherDims S4096x30000 S4096x1x1 S4096x1 where
  offsetDims := []
  collapsedSliceDims := [1]
  operandBatchingDims := [0]
  startIndicesBatchingDims := [0]
  startIndexMap := [1]
  indexVectorDim := 2
  sliceSizes := ![1, 1]
  wf := gather_S4096x30000_S4096x1x1_S4096x1_n_1_0_0_1_2_11_wf

class Facts : Prop extends Facts₀ where

variable [Facts]
-- ==== Proof.K.Launch.lean ====
/- The launch of @main for the word-level program: the run of its 25 items from one record per kernel region, with
   every unscoped buffer named at the end; the three region records from proof data whose arrays are the entry
   contents and whose outputs are the unknowns of the valuations; the frame read off the last valuation. -/
import proofs.«427234_j53386443489982_1_alg».proof.Proof.Gen.Kernel.Regions
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1164

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-! ## The run, given the regions' records, with every unscoped buffer named at the end -/

set_option backward.isDefEq.respectTransparency.types false in
/-- The run of @main from one segment record per kernel region: every weakly fair execution from memory `m` with zero
    counters terminates, and in every final memory each unscoped buffer of each core holds the last valuation's contents. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V23 m outs c) ∗ E 2 c) ⊢ R2.pre c)
    (hpost2 : ∀ c : Dev nD, R2.post c ⊢ iprop(StableHlo.held (c : Thread nD τ) (Pipeline.ucRefs τ sig) (V24 m outs c) ∗ E 3 c)) :
    θ_run defs (onTc (τ := τ) (main (F := F))) ⟨m, fun _ => 0, ρ⟩ (fun r => ∀ c : Dev nD, ∀ b ∈ Pipeline.ucRefs τ sig,
      r.2.mem ((c : Thread nD τ).1, b) = V25 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V25 m outs c))
    (hch := fun c => ⟨.rfl, .rfl, .rfl, .rfl, .rfl, .rfl, .rfl, hpre0 c, hpost0 c, .rfl, .rfl, .rfl, .rfl, .rfl, .rfl, hpre1 c, hpost1 c, .rfl, .rfl, .rfl, .rfl, .rfl, .rfl, hpre2 c, hpost2 c, sep_mono .rfl (hE3 c)⟩)
    (hinit := ?_) (QY := fun c s => ∀ b ∈ Pipeline.ucRefs τ sig, s.mem ((c : Thread nD τ).1, b) = V25 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V25 m outs c) s')
    isplitl [Hh] <;> iassumption

/-! ## The algebra, the levels and what rides beside the buffers -/

local notation "𝕄" => MT nD τ sig Unit (Elt F) ℕ (UR sig nD τ) ℕ

/-- No core owes another anything: no level is assigned. -/
abbrev runL : GSem nD τ sig → Finset Unit := fun _ => ∅
abbrev runLv : GSem nD τ sig → Unit → ℕ := fun _ _ => 0
/-- What rides beside the buffers through every item: the core's generator register at some state and its dues, at nothing. -/
abbrev runR (c : Dev nD) : sProp 𝕄 := iprop((∃ r, prngReg c r) ∗ ∃ W, owes (c : Thread nD τ) (0 : CellTallies nD τ sig Unit) W)

/-- The three pipelines' proof data as one family — a literal `match`, so that the family at a numeral reduces to the
    given proof data. -/
def pdatsOf (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c) :
    (p : Fin 3) → (c : Dev nD) → Dat τ (Elt F) Unit ℕ (UR sig nD τ) ℕ (Pipeline.pin (pcfgs (F := F)) adm p) c
  | ⟨0, _⟩ => fun c => d0 c
  | ⟨1, _⟩ => fun c => d1 c
  | ⟨2, _⟩ => fun c => d2 c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (m : (ℓ : Loc nD τ sig) → Buf (Elt F) ℓ) (outs : Outs (F := F))

/-- A property of the seven windows, window by window. -/
theorem forall_fin7 {P : Fin 7 → Prop} (h0 : P 0) (h1 : P 1) (h2 : P 2) (h3 : P 3) (h4 : P 4) (h5 : P 5) (h6 : P 6) : ∀ w, P w := fun
  | 0 => h0 | 1 => h1 | 2 => h2 | 3 => h3 | 4 => h4 | 5 => h5 | 6 => h6
  | ⟨_ + 7, h⟩ => absurd h (Nat.not_lt.2 (Nat.le_add_left _ _))

/-! ### Region 0's exit valuation at its three results -/

theorem V8_out0 (c : Dev nD) : V8 m outs c main_v23_0 = outs 8 main_v23_0 c := by
  simp only [V8, Function.update_of_ne (StableHlo.devRef_ne_of_ne (by decide) : (Proc.devRef .tc main_v23_0 : DevRef τ sig) ≠ Proc.devRef .tc main_v23_2), Function.update_of_ne (StableHlo.devRef_ne_of_ne (by decide) : (Proc.devRef .tc main_v23_0 : DevRef τ sig) ≠ Proc.devRef .tc main_v23_1), Function.update_self]
theorem V8_out1 (c : Dev nD) : V8 m outs c main_v23_1 = outs 8 main_v23_1 c := by
  simp only [V8, Function.update_of_ne (StableHlo.devRef_ne_of_ne (by decide) : (Proc.devRef .tc main_v23_1 : DevRef τ sig) ≠ Proc.devRef .tc main_v23_2), Function.update_self]
theorem V8_out2 (c : Dev nD) : V8 m outs c main_v23_2 = outs 8 main_v23_2 c := by
  simp only [V8, Function.update_self]

/-! ### Region 0's arrays at its exit -/

theorem hF0_in0 (d0 : (c : Dev nD) → Dat τ (Elt F) Unit ℕ (UR sig nD τ) ℕ cfg0 c) (hA : ∀ c w, (d0 c).A w = V7 m c (Pipeline.arrRef spec0 w)) (c : Dev nD) :
    (d0 c).arrAt 0 cfg0.N = V8 m outs c (Pipeline.arrRef spec0 0) :=
  (((d0 c).arrAt_in 0 rfl _).trans (hA c 0)).trans (V8_of m outs c _ (by decide)).symm
theorem hF0_in1 (d0 : (c : Dev nD) → Dat τ (Elt F) Unit ℕ (UR sig nD τ) ℕ cfg0 c) (hA : ∀ c w, (d0 c).A w = V7 m c (Pipeline.arrRef spec0 w)) (c : Dev nD) :
    (d0 c).arrAt 1 cfg0.N = V8 m outs c (Pipeline.arrRef spec0 1) :=
  (((d0 c).arrAt_in 1 rfl _).trans (hA c 1)).trans (V8_of m outs c _ (by decide)).symm
theorem hF0_in2 (d0 : (c : Dev nD) → Dat τ (Elt F) Unit ℕ (UR sig nD τ) ℕ cfg0 c) (hA : ∀ c w, (d0 c).A w = V7 m c (Pipeline.arrRef spec0 w)) (c : Dev nD) :
    (d0 c).arrAt 2 cfg0.N = V8 m outs c (Pipeline.arrRef spec0 2) :=
  (((d0 c).arrAt_in 2 rfl _).trans (hA c 2)).trans (V8_of m outs c _ (by decide)).symm
theorem hF0_in3 (d0 : (c : Dev nD) → Dat τ (Elt F) Unit ℕ (UR sig nD τ) ℕ cfg0 c) (hA : ∀ c w, (d0 c).A w = V7 m c (Pipeline.arrRef spec0 w)) (c : Dev nD) :
    (d0 c).arrAt 3 cfg0.N = V8 m outs c (Pipeline.arrRef spec0 3) :=
  (((d0 c).arrAt_in 3 rfl _).trans (hA c 3)).trans (V8_of m outs c _ (by decide)).symm
theorem hF0_out0 (d0 : (c : Dev nD) → Dat τ (Elt F) Unit ℕ (UR sig nD τ) ℕ cfg0 c) (c : Dev nD) (ho : outs 8 main_v23_0 c = (d0 c).arrAt 4 cfg0.N) :
    (d0 c).arrAt 4 cfg0.N = V8 m outs c (Pipeline.arrRef spec0 4) :=
  ho.symm.trans (V8_out0 m outs c).symm
theorem hF0_out1 (d0 : (c : Dev nD) → Dat τ (Elt F) Unit ℕ (UR sig nD τ) ℕ cfg0 c) (c : Dev nD) (ho : outs 8 main_v23_1 c = (d0 c).arrAt 5 cfg0.N) :
    (d0 c).arrAt 5 cfg0.N = V8 m outs c (Pipeline.arrRef spec0 5) :=
  ho.symm.trans (V8_out1 m outs c).symm
theorem hF0_out2 (d0 : (c : Dev nD) → Dat τ (Elt F) Unit ℕ (UR sig nD τ) ℕ cfg0 c) (c : Dev nD) (ho : outs 8 main_v23_2 c = (d0 c).arrAt 6 cfg0.N) :
    (d0 c).arrAt 6 cfg0.N = V8 m outs c (Pipeline.arrRef spec0 6) :=
  ho.symm.trans (V8_out2 m outs c).symm

/-- At region 0's exit each of its arrays holds what the pipeline leaves: an input's array is never written and is no
    result, so the exit valuation has it at the entry contents; a result's array is the unknown the valuation is written over. -/
theorem hF0 (d0 : (c : Dev nD) → Dat τ (Elt F) Unit ℕ (UR sig nD τ) ℕ cfg0 c)
    (hA : ∀ c w, (d0 c).A w = V7 m c (Pipeline.arrRef spec0 w))
    (ho : ∀ c, outs 8 main_v23_0 c = (d0 c).arrAt 4 cfg0.N ∧ outs 8 main_v23_1 c = (d0 c).arrAt 5 cfg0.N ∧ outs 8 main_v23_2 c = (d0 c).arrAt 6 cfg0.N)
    (c : Dev nD) : ∀ w : Fin 7, (d0 c).arrAt w cfg0.N = V8 m outs c (Pipeline.arrRef spec0 w) :=
  forall_fin7 (P := fun w => (d0 c).arrAt w cfg0.N = V8 m outs c (Pipeline.arrRef spec0 w))
    (hF0_in0 m outs d0 hA c) (hF0_in1 m outs d0 hA c) (hF0_in2 m outs d0 hA c) (hF0_in3 m outs d0 hA c)
    (hF0_out0 m outs d0 c (ho c).1) (hF0_out1 m outs d0 c (ho c).2.1) (hF0_out2 m outs d0 c (ho c).2.2)

/-- and every buffer that is no array of the region holds what it held at entry. -/
theorem hrest0 (c : Dev nD) : ∀ b : Ref sig .tc, b ∉ Finset.univ.image (Pipeline.arrRef spec0) → V8 m outs c b = V7 m c b := fun b hb =>
  V8_of m outs c b (by
    intro hmem
    simp only [List.mem_cons, List.mem_nil_iff, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

/-! ### Region 0 as a segment -/

set_option backward.isDefEq.respectTransparency.types false in
/-- REGION 0 over the thread state: entered from every unscoped buffer at the valuation before it, left at the one after
    it. Its arrays split out of the unscoped buffers and put back at the exit contents; the generator register into the
    body's invariant and out; nothing owed; no semaphore of the kernel's own. -/
def regOf0 (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA : ∀ c w, (d0 c).A w = V7 m c (Pipeline.arrRef spec0 w))
    (hq : ∀ c w, (d0 c).q w = fullShare) (howed : ∀ c t, (d0 c).owed t = 0) (hrec : ∀ c, (d0 c).recorded 0 = Set.univ)
    (hbody : ∀ c, BodyObligation (d0 c) (defs₀ (F := F)) Variants.none () Set.univ)
    (hin : ∀ c, Pipeline.ΦA spec0 c ⊢ (d0 c).Φ 0) (hout : ∀ c, (d0 c).Φ (Fin.last cfg0.N) ⊢ Pipeline.ΦA spec0 c)
    (ho : ∀ c, outs 8 main_v23_0 c = (d0 c).arrAt 4 cfg0.N ∧ outs 8 main_v23_1 c = (d0 c).arrAt 5 cfg0.N ∧ outs 8 main_v23_2 c = (d0 c).arrAt 6 cfg0.N) :
    Pipeline.RegionSeg (pcfgs (F := F)) adm (pdatsOf d0 d1 d2) () defs₀ Variants.none runL runLv 0 where
  win := launch0.win.to₀
  block_pos := launch0.block_pos
  stage_whole := launch0.stage_whole
  K := PEmpty
  osem k := k.elim
  ho := Pipeline.OwnSemFacts.none _
  hbody c := (hbody c).loose
  hwaits := Pipeline.hwaits_of_owed_zero _ _ _ _ runL runLv 0 fun c t => howed c t
  pre c := iprop(StableHlo.held (c : Thread nD τ) (Pipeline.ucRefs τ sig) (V7 m c) ∗ runR c)
  post c := iprop(StableHlo.held (c : Thread nD τ) (Pipeline.ucRefs τ sig) (V8 m outs c) ∗ runR c)
  X c := iprop(∃ r, prngReg c r)
  Y c := iprop(∃ r, prngReg c r)
  Z c := Pipeline.unscopedRest (Ix := Unit) (Name := ℕ) (U := UR sig nD τ) (Lvl := ℕ) spec0 c (fun b => V7 m c b)
  hentry c := by
    rw [Pipeline.ownSems0_none]
    have hsplit := Pipeline.arrays_of_unscopedBufs (p := 0) (pcfgs (F := F)) adm (pdatsOf d0 d1 d2) launch0.win launch0.arr_whole c
      ((pdatsOf d0 d1 d2 0 c).share_full fun w => hq c w) (fun b => V7 m c b) fun w => hA c w
    rw [Pipeline.unscopedBufs_held c (V7 m c)] at hsplit
    have h0 : (pdatsOf d0 d1 d2 0 c).owed 0 = 0 := howed c 0
    have hr0 : (pdatsOf d0 d1 d2 0 c).recorded 0 = Set.univ := hrec c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr0]
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (hin c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout c).trans h
  hexit c := by
    have hjoin := Pipeline.unscopedBufs_of_arrays (p := 0) (pcfgs (F := F)) adm (Ix := Unit) (Name := ℕ) (U := UR sig nD τ) (Lvl := ℕ)
      launch0.win launch0.arr_whole c (pdatsOf d0 d1 d2) ((pdatsOf d0 d1 d2 0 c).share_full fun w => hq c w)
      (fun b => V7 m c b) (fun b => V8 m outs c b) ((pdatsOf d0 d1 d2 0 c).arrAt · cfg0.N) (hF0 m outs d0 hA ho c) (hrest0 m outs c)
    rw [Pipeline.unscopedBufs_held c (V8 m outs c)] at hjoin
    have hN : (pdatsOf d0 d1 d2 0 c).owed (Fin.last (Pipeline.pin (pcfgs (F := F)) adm 0).N) = 0 := howed c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

/-! ### Region 1's exit valuation at its three results -/

theorem V16_out0 (c : Dev nD) : V16 m outs c main_v37_0 = outs 16 main_v37_0 c := by
  simp only [V16, Function.update_of_ne (StableHlo.devRef_ne_of_ne (by decide) : (Proc.devRef .tc main_v37_0 : DevRef τ sig) ≠ Proc.devRef .tc main_v37_2), Function.update_of_ne (StableHlo.devRef_ne_of_ne (by decide) : (Proc.devRef .tc main_v37_0 : DevRef τ sig) ≠ Proc.devRef .tc main_v37_1), Function.update_self]
theorem V16_out1 (c : Dev nD) : V16 m outs c main_v37_1 = outs 16 main_v37_1 c := by
  simp only [V16, Function.update_of_ne (StableHlo.devRef_ne_of_ne (by decide) : (Proc.devRef .tc main_v37_1 : DevRef τ sig) ≠ Proc.devRef .tc main_v37_2), Function.update_self]
theorem V16_out2 (c : Dev nD) : V16 m outs c main_v37_2 = outs 16 main_v37_2 c := by
  simp only [V16, Function.update_self]

/-! ### Region 1's arrays at its exit -/

theorem hF1_in0 (d1 : (c : Dev nD) → Dat τ (Elt F) Unit ℕ (UR sig nD τ) ℕ cfg1 c) (hA : ∀ c w, (d1 c).A w = V15 m outs c (Pipeline.arrRef spec1 w)) (c : Dev nD) :
    (d1 c).arrAt 0 cfg1.N = V16 m outs c (Pipeline.arrRef spec1 0) :=
  (((d1 c).arrAt_in 0 rfl _).trans (hA c 0)).trans (V16_of m outs c _ (by decide)).symm
theorem hF1_in1 (d1 : (c : Dev nD) → Dat τ (Elt F) Unit ℕ (UR sig nD τ) ℕ cfg1 c) (hA : ∀ c w, (d1 c).A w = V15 m outs c (Pipeline.arrRef spec1 w)) (c : Dev nD) :
    (d1 c).arrAt 1 cfg1.N = V16 m outs c (Pipeline.arrRef spec1 1) :=
  (((d1 c).arrAt_in 1 rfl _).trans (hA c 1)).trans (V16_of m outs c _ (by decide)).symm
theorem hF1_in2 (d1 : (c : Dev nD) → Dat τ (Elt F) Unit ℕ (UR sig nD τ) ℕ cfg1 c) (hA : ∀ c w, (d1 c).A w = V15 m outs c (Pipeline.arrRef spec1 w)) (c : Dev nD) :
    (d1 c).arrAt 2 cfg1.N = V16 m outs c (Pipeline.arrRef spec1 2) :=
  (((d1 c).arrAt_in 2 rfl _).trans (hA c 2)).trans (V16_of m outs c _ (by decide)).symm
theorem hF1_in3 (d1 : (c : Dev nD) → Dat τ (Elt F) Unit ℕ (UR sig nD τ) ℕ cfg1 c) (hA : ∀ c w, (d1 c).A w = V15 m outs c (Pipeline.arrRef spec1 w)) (c : Dev nD) :
    (d1 c).arrAt 3 cfg1.N = V16 m outs c (Pipeline.arrRef spec1 3) :=
  (((d1 c).arrAt_in 3 rfl _).trans (hA c 3)).trans (V16_of m outs c _ (by decide)).symm
theorem hF1_out0 (d1 : (c : Dev nD) → Dat τ (Elt F) Unit ℕ (UR sig nD τ) ℕ cfg1 c) (c : Dev nD) (ho : outs 16 main_v37_0 c = (d1 c).arrAt 4 cfg1.N) :
    (d1 c).arrAt 4 cfg1.N = V16 m outs c (Pipeline.arrRef spec1 4) :=
  ho.symm.trans (V16_out0 m outs c).symm
theorem hF1_out1 (d1 : (c : Dev nD) → Dat τ (Elt F) Unit ℕ (UR sig nD τ) ℕ cfg1 c) (c : Dev nD) (ho : outs 16 main_v37_1 c = (d1 c).arrAt 5 cfg1.N) :
    (d1 c).arrAt 5 cfg1.N = V16 m outs c (Pipeline.arrRef spec1 5) :=
  ho.symm.trans (V16_out1 m outs c).symm
theorem hF1_out2 (d1 : (c : Dev nD) → Dat τ (Elt F) Unit ℕ (UR sig nD τ) ℕ cfg1 c) (c : Dev nD) (ho : outs 16 main_v37_2 c = (d1 c).arrAt 6 cfg1.N) :
    (d1 c).arrAt 6 cfg1.N = V16 m outs c (Pipeline.arrRef spec1 6) :=
  ho.symm.trans (V16_out2 m outs c).symm

/-- At region 1's exit each of its arrays holds what the pipeline leaves: an input's array is never written and is no
    result, so the exit valuation has it at the entry contents; a result's array is the unknown the valuation is written over. -/
theorem hF1 (d1 : (c : Dev nD) → Dat τ (Elt F) Unit ℕ (UR sig nD τ) ℕ cfg1 c)
    (hA : ∀ c w, (d1 c).A w = V15 m outs c (Pipeline.arrRef spec1 w))
    (ho : ∀ c, outs 16 main_v37_0 c = (d1 c).arrAt 4 cfg1.N ∧ outs 16 main_v37_1 c = (d1 c).arrAt 5 cfg1.N ∧ outs 16 main_v37_2 c = (d1 c).arrAt 6 cfg1.N)
    (c : Dev nD) : ∀ w : Fin 7, (d1 c).arrAt w cfg1.N = V16 m outs c (Pipeline.arrRef spec1 w) :=
  forall_fin7 (P := fun w => (d1 c).arrAt w cfg1.N = V16 m outs c (Pipeline.arrRef spec1 w))
    (hF1_in0 m outs d1 hA c) (hF1_in1 m outs d1 hA c) (hF1_in2 m outs d1 hA c) (hF1_in3 m outs d1 hA c)
    (hF1_out0 m outs d1 c (ho c).1) (hF1_out1 m outs d1 c (ho c).2.1) (hF1_out2 m outs d1 c (ho c).2.2)

/-- and every buffer that is no array of the region holds what it held at entry. -/
theorem hrest1 (c : Dev nD) : ∀ b : Ref sig .tc, b ∉ Finset.univ.image (Pipeline.arrRef spec1) → V16 m outs c b = V15 m outs c b := fun b hb =>
  V16_of m outs c b (by
    intro hmem
    simp only [List.mem_cons, List.mem_nil_iff, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

/-! ### Region 1 as a segment -/

set_option backward.isDefEq.respectTransparency.types false in
/-- REGION 1 over the thread state: entered from every unscoped buffer at the valuation before it, left at the one after
    it. Its arrays split out of the unscoped buffers and put back at the exit contents; the generator register into the
    body's invariant and out; nothing owed; no semaphore of the kernel's own. -/
def regOf1 (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA : ∀ c w, (d1 c).A w = V15 m outs c (Pipeline.arrRef spec1 w))
    (hq : ∀ c w, (d1 c).q w = fullShare) (howed : ∀ c t, (d1 c).owed t = 0) (hrec : ∀ c, (d1 c).recorded 0 = Set.univ)
    (hbody : ∀ c, BodyObligation (d1 c) (defs₀ (F := F)) Variants.none () Set.univ)
    (hin : ∀ c, Pipeline.ΦA spec1 c ⊢ (d1 c).Φ 0) (hout : ∀ c, (d1 c).Φ (Fin.last cfg1.N) ⊢ Pipeline.ΦA spec1 c)
    (ho : ∀ c, outs 16 main_v37_0 c = (d1 c).arrAt 4 cfg1.N ∧ outs 16 main_v37_1 c = (d1 c).arrAt 5 cfg1.N ∧ outs 16 main_v37_2 c = (d1 c).arrAt 6 cfg1.N) :
    Pipeline.RegionSeg (pcfgs (F := F)) adm (pdatsOf d0 d1 d2) () defs₀ Variants.none runL runLv 1 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ runL runLv 1 fun c t => howed c t
  pre c := iprop(StableHlo.held (c : Thread nD τ) (Pipeline.ucRefs τ sig) (V15 m outs c) ∗ runR c)
  post c := iprop(StableHlo.held (c : Thread nD τ) (Pipeline.ucRefs τ sig) (V16 m outs c) ∗ runR c)
  X c := iprop(∃ r, prngReg c r)
  Y c := iprop(∃ r, prngReg c r)
  Z c := Pipeline.unscopedRest (Ix := Unit) (Name := ℕ) (U := UR sig nD τ) (Lvl := ℕ) spec1 c (fun b => V15 m outs c b)
  hentry c := by
    rw [Pipeline.ownSems0_none]
    have hsplit := Pipeline.arrays_of_unscopedBufs (p := 1) (pcfgs (F := F)) adm (pdatsOf d0 d1 d2) launch1.win launch1.arr_whole c
      ((pdatsOf d0 d1 d2 1 c).share_full fun w => hq c w) (fun b => V15 m outs c b) fun w => hA c w
    rw [Pipeline.unscopedBufs_held c (V15 m outs c)] at hsplit
    have h0 : (pdatsOf d0 d1 d2 1 c).owed 0 = 0 := howed c 0
    have hr0 : (pdatsOf d0 d1 d2 1 c).recorded 0 = Set.univ := hrec c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr0]
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout c).trans h
  hexit c := by
    have hjoin := Pipeline.unscopedBufs_of_arrays (p := 1) (pcfgs (F := F)) adm (Ix := Unit) (Name := ℕ) (U := UR sig nD τ) (Lvl := ℕ)
      launch1.win launch1.arr_whole c (pdatsOf d0 d1 d2) ((pdatsOf d0 d1 d2 1 c).share_full fun w => hq c w)
      (fun b => V15 m outs c b) (fun b => V16 m outs c b) ((pdatsOf d0 d1 d2 1 c).arrAt · cfg1.N) (hF1 m outs d1 hA ho c) (hrest1 m outs c)
    rw [Pipeline.unscopedBufs_held c (V16 m outs c)] at hjoin
    have hN : (pdatsOf d0 d1 d2 1 c).owed (Fin.last (Pipeline.pin (pcfgs (F := F)) adm 1).N) = 0 := howed c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

/-! ### Region 2's exit valuation at its three results -/

theorem V24_out0 (c : Dev nD) : V24 m outs c main_v51_0 = outs 24 main_v51_0 c := by
  simp only [V24, Function.update_of_ne (StableHlo.devRef_ne_of_ne (by decide) : (Proc.devRef .tc main_v51_0 : DevRef τ sig) ≠ Proc.devRef .tc main_v51_2), Function.update_of_ne (StableHlo.devRef_ne_of_ne (by decide) : (Proc.devRef .tc main_v51_0 : DevRef τ sig) ≠ Proc.devRef .tc main_v51_1), Function.update_self]
theorem V24_out1 (c : Dev nD) : V24 m outs c main_v51_1 = outs 24 main_v51_1 c := by
  simp only [V24, Function.update_of_ne (StableHlo.devRef_ne_of_ne (by decide) : (Proc.devRef .tc main_v51_1 : DevRef τ sig) ≠ Proc.devRef .tc main_v51_2), Function.update_self]
theorem V24_out2 (c : Dev nD) : V24 m outs c main_v51_2 = outs 24 main_v51_2 c := by
  simp only [V24, Function.update_self]

/-! ### Region 2's arrays at its exit -/

theorem hF2_in0 (d2 : (c : Dev nD) → Dat τ (Elt F) Unit ℕ (UR sig nD τ) ℕ cfg2 c) (hA : ∀ c w, (d2 c).A w = V23 m outs c (Pipeline.arrRef spec2 w)) (c : Dev nD) :
    (d2 c).arrAt 0 cfg2.N = V24 m outs c (Pipeline.arrRef spec2 0) :=
  (((d2 c).arrAt_in 0 rfl _).trans (hA c 0)).trans (V24_of m outs c _ (by decide)).symm
theorem hF2_in1 (d2 : (c : Dev nD) → Dat τ (Elt F) Unit ℕ (UR sig nD τ) ℕ cfg2 c) (hA : ∀ c w, (d2 c).A w = V23 m outs c (Pipeline.arrRef spec2 w)) (c : Dev nD) :
    (d2 c).arrAt 1 cfg2.N = V24 m outs c (Pipeline.arrRef spec2 1) :=
  (((d2 c).arrAt_in 1 rfl _).trans (hA c 1)).trans (V24_of m outs c _ (by decide)).symm
theorem hF2_in2 (d2 : (c : Dev nD) → Dat τ (Elt F) Unit ℕ (UR sig nD τ) ℕ cfg2 c) (hA : ∀ c w, (d2 c).A w = V23 m outs c (Pipeline.arrRef spec2 w)) (c : Dev nD) :
    (d2 c).arrAt 2 cfg2.N = V24 m outs c (Pipeline.arrRef spec2 2) :=
  (((d2 c).arrAt_in 2 rfl _).trans (hA c 2)).trans (V24_of m outs c _ (by decide)).symm
theorem hF2_in3 (d2 : (c : Dev nD) → Dat τ (Elt F) Unit ℕ (UR sig nD τ) ℕ cfg2 c) (hA : ∀ c w, (d2 c).A w = V23 m outs c (Pipeline.arrRef spec2 w)) (c : Dev nD) :
    (d2 c).arrAt 3 cfg2.N = V24 m outs c (Pipeline.arrRef spec2 3) :=
  (((d2 c).arrAt_in 3 rfl _).trans (hA c 3)).trans (V24_of m outs c _ (by decide)).symm
theorem hF2_out0 (d2 : (c : Dev nD) → Dat τ (Elt F) Unit ℕ (UR sig nD τ) ℕ cfg2 c) (c : Dev nD) (ho : outs 24 main_v51_0 c = (d2 c).arrAt 4 cfg2.N) :
    (d2 c).arrAt 4 cfg2.N = V24 m outs c (Pipeline.arrRef spec2 4) :=
  ho.symm.trans (V24_out0 m outs c).symm
theorem hF2_out1 (d2 : (c : Dev nD) → Dat τ (Elt F) Unit ℕ (UR sig nD τ) ℕ cfg2 c) (c : Dev nD) (ho : outs 24 main_v51_1 c = (d2 c).arrAt 5 cfg2.N) :
    (d2 c).arrAt 5 cfg2.N = V24 m outs c (Pipeline.arrRef spec2 5) :=
  ho.symm.trans (V24_out1 m outs c).symm
theorem hF2_out2 (d2 : (c : Dev nD) → Dat τ (Elt F) Unit ℕ (UR sig nD τ) ℕ cfg2 c) (c : Dev nD) (ho : outs 24 main_v51_2 c = (d2 c).arrAt 6 cfg2.N) :
    (d2 c).arrAt 6 cfg2.N = V24 m outs c (Pipeline.arrRef spec2 6) :=
  ho.symm.trans (V24_out2 m outs c).symm

/-- At region 2's exit each of its arrays holds what the pipeline leaves: an input's array is never written and is no
    result, so the exit valuation has it at the entry contents; a result's array is the unknown the valuation is written over. -/
theorem hF2 (d2 : (c : Dev nD) → Dat τ (Elt F) Unit ℕ (UR sig nD τ) ℕ cfg2 c)
    (hA : ∀ c w, (d2 c).A w = V23 m outs c (Pipeline.arrRef spec2 w))
    (ho : ∀ c, outs 24 main_v51_0 c = (d2 c).arrAt 4 cfg2.N ∧ outs 24 main_v51_1 c = (d2 c).arrAt 5 cfg2.N ∧ outs 24 main_v51_2 c = (d2 c).arrAt 6 cfg2.N)
    (c : Dev nD) : ∀ w : Fin 7, (d2 c).arrAt w cfg2.N = V24 m outs c (Pipeline.arrRef spec2 w) :=
  forall_fin7 (P := fun w => (d2 c).arrAt w cfg2.N = V24 m outs c (Pipeline.arrRef spec2 w))
    (hF2_in0 m outs d2 hA c) (hF2_in1 m outs d2 hA c) (hF2_in2 m outs d2 hA c) (hF2_in3 m outs d2 hA c)
    (hF2_out0 m outs d2 c (ho c).1) (hF2_out1 m outs d2 c (ho c).2.1) (hF2_out2 m outs d2 c (ho c).2.2)

/-- and every buffer that is no array of the region holds what it held at entry. -/
theorem hrest2 (c : Dev nD) : ∀ b : Ref sig .tc, b ∉ Finset.univ.image (Pipeline.arrRef spec2) → V24 m outs c b = V23 m outs c b := fun b hb =>
  V24_of m outs c b (by
    intro hmem
    simp only [List.mem_cons, List.mem_nil_iff, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

/-! ### Region 2 as a segment -/

set_option backward.isDefEq.respectTransparency.types false in
/-- REGION 2 over the thread state: entered from every unscoped buffer at the valuation before it, left at the one after
    it. Its arrays split out of the unscoped buffers and put back at the exit contents; the generator register into the
    body's invariant and out; nothing owed; no semaphore of the kernel's own. -/
def regOf2 (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA : ∀ c w, (d2 c).A w = V23 m outs c (Pipeline.arrRef spec2 w))
    (hq : ∀ c w, (d2 c).q w = fullShare) (howed : ∀ c t, (d2 c).owed t = 0) (hrec : ∀ c, (d2 c).recorded 0 = Set.univ)
    (hbody : ∀ c, BodyObligation (d2 c) (defs₀ (F := F)) Variants.none () Set.univ)
    (hin : ∀ c, Pipeline.ΦA spec2 c ⊢ (d2 c).Φ 0) (hout : ∀ c, (d2 c).Φ (Fin.last cfg2.N) ⊢ Pipeline.ΦA spec2 c)
    (ho : ∀ c, outs 24 main_v51_0 c = (d2 c).arrAt 4 cfg2.N ∧ outs 24 main_v51_1 c = (d2 c).arrAt 5 cfg2.N ∧ outs 24 main_v51_2 c = (d2 c).arrAt 6 cfg2.N) :
    Pipeline.RegionSeg (pcfgs (F := F)) adm (pdatsOf d0 d1 d2) () defs₀ Variants.none runL runLv 2 where
  win := launch2.win.to₀
  block_pos := launch2.block_pos
  stage_whole := launch2.stage_whole
  K := PEmpty
  osem k := k.elim
  ho := Pipeline.OwnSemFacts.none _
  hbody c := (hbody c).loose
  hwaits := Pipeline.hwaits_of_owed_zero _ _ _ _ runL runLv 2 fun c t => howed c t
  pre c := iprop(StableHlo.held (c : Thread nD τ) (Pipeline.ucRefs τ sig) (V23 m outs c) ∗ runR c)
  post c := iprop(StableHlo.held (c : Thread nD τ) (Pipeline.ucRefs τ sig) (V24 m outs c) ∗ runR c)
  X c := iprop(∃ r, prngReg c r)
  Y c := iprop(∃ r, prngReg c r)
  Z c := Pipeline.unscopedRest (Ix := Unit) (Name := ℕ) (U := UR sig nD τ) (Lvl := ℕ) spec2 c (fun b => V23 m outs c b)
  hentry c := by
    rw [Pipeline.ownSems0_none]
    have hsplit := Pipeline.arrays_of_unscopedBufs (p := 2) (pcfgs (F := F)) adm (pdatsOf d0 d1 d2) launch2.win launch2.arr_whole c
      ((pdatsOf d0 d1 d2 2 c).share_full fun w => hq c w) (fun b => V23 m outs c b) fun w => hA c w
    rw [Pipeline.unscopedBufs_held c (V23 m outs c)] at hsplit
    have h0 : (pdatsOf d0 d1 d2 2 c).owed 0 = 0 := howed c 0
    have hr0 : (pdatsOf d0 d1 d2 2 c).recorded 0 = Set.univ := hrec c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr0]
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin c)
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout c).trans h
  hexit c := by
    have hjoin := Pipeline.unscopedBufs_of_arrays (p := 2) (pcfgs (F := F)) adm (Ix := Unit) (Name := ℕ) (U := UR sig nD τ) (Lvl := ℕ)
      launch2.win launch2.arr_whole c (pdatsOf d0 d1 d2) ((pdatsOf d0 d1 d2 2 c).share_full fun w => hq c w)
      (fun b => V23 m outs c b) (fun b => V24 m outs c b) ((pdatsOf d0 d1 d2 2 c).arrAt · cfg2.N) (hF2 m outs d2 hA ho c) (hrest2 m outs c)
    rw [Pipeline.unscopedBufs_held c (V24 m outs c)] at hjoin
    have hN : (pdatsOf d0 d1 d2 2 c).owed (Fin.last (Pipeline.pin (pcfgs (F := F)) adm 2).N) = 0 := howed c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

/-! ## The run from the three pipelines' proof data -/

set_option backward.isDefEq.respectTransparency.types false in
/-- THE RUN. Given, per region, proof data whose arrays are the entry valuation's (`hAK`), held whole (`hqK`), owing
    nothing (`howedK`) with no bound on the recorded pairs at entry (`hrecK`), with the body obligation (`hbodyK`) and an
    invariant entered from and left at the scoped rest beside the generator register (`hinK`, `houtK`), and whose three
    results' arrays at the last point are the unknowns the valuations are written over (`hoJ`): every weakly fair
    execution of @main from memory `m` with zero counters terminates, and in every final memory each unscoped buffer of
    each core holds the last valuation's contents. -/
theorem run_regions (ρ : Dev nD → PrngReg)
    (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA0 : ∀ c w, (d0 c).A w = V7 m c (Pipeline.arrRef spec0 w))
    (hq0 : ∀ c w, (d0 c).q w = fullShare) (howed0 : ∀ c t, (d0 c).owed t = 0) (hrec0 : ∀ c, (d0 c).recorded 0 = Set.univ)
    (hbody0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (ho8 : ∀ c, outs 8 main_v23_0 c = (d0 c).arrAt 4 cfg0.N ∧ outs 8 main_v23_1 c = (d0 c).arrAt 5 cfg0.N ∧ outs 8 main_v23_2 c = (d0 c).arrAt 6 cfg0.N)
    (hA1 : ∀ c w, (d1 c).A w = V15 m outs c (Pipeline.arrRef spec1 w))
    (hq1 : ∀ c w, (d1 c).q w = fullShare) (howed1 : ∀ c t, (d1 c).owed t = 0) (hrec1 : ∀ c, (d1 c).recorded 0 = Set.univ)
    (hbody1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c)
    (ho16 : ∀ c, outs 16 main_v37_0 c = (d1 c).arrAt 4 cfg1.N ∧ outs 16 main_v37_1 c = (d1 c).arrAt 5 cfg1.N ∧ outs 16 main_v37_2 c = (d1 c).arrAt 6 cfg1.N)
    (hA2 : ∀ c w, (d2 c).A w = V23 m outs c (Pipeline.arrRef spec2 w))
    (hq2 : ∀ c w, (d2 c).q w = fullShare) (howed2 : ∀ c t, (d2 c).owed t = 0) (hrec2 : ∀ c, (d2 c).recorded 0 = Set.univ)
    (hbody2 : ∀ c, BodyObligation (d2 c) (defs₀ (F := F)) Variants.none () Set.univ)
    (hin2 : ∀ c, Pipeline.ΦA spec2 c ⊢ (d2 c).Φ 0) (hout2 : ∀ c, (d2 c).Φ (Fin.last cfg2.N) ⊢ Pipeline.ΦA spec2 c)
    (ho24 : ∀ c, outs 24 main_v51_0 c = (d2 c).arrAt 4 cfg2.N ∧ outs 24 main_v51_1 c = (d2 c).arrAt 5 cfg2.N ∧ outs 24 main_v51_2 c = (d2 c).arrAt 6 cfg2.N) :
    θ_run defs (onTc (τ := τ) (main (F := F))) ⟨m, fun _ => 0, ρ⟩ (fun r => ∀ c : Dev nD, ∀ b ∈ Pipeline.ucRefs τ sig,
      r.2.mem ((c : Thread nD τ).1, b) = V25 m outs c b) :=
  run_cond m (Ix := Unit) (U := UR sig nD τ) (Lvl := ℕ) emb₁ () Variants.none runL runLv (fun _ _ => rfl) ρ outs (pdatsOf d0 d1 d2)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := regOf0 m outs d0 d1 d2 hA0 hq0 howed0 hrec0 hbody0 hin0 hout0 ho8) (hpre0 := fun _ => .rfl) (hpost0 := fun _ => .rfl)
    (R1 := regOf1 m outs d0 d1 d2 hA1 hq1 howed1 hrec1 hbody1 hin1 hout1 ho16) (hpre1 := fun _ => .rfl) (hpost1 := fun _ => .rfl)
    (R2 := regOf2 m outs d0 d1 d2 hA2 hq2 howed2 hrec2 hbody2 hin2 hout2 ho24) (hpre2 := fun _ => .rfl) (hpost2 := fun _ => .rfl)

/-! ## The frame, read off the last valuation -/

/-- The six argument arrays end as launched: no host stretch writes one and no region may change one. -/
theorem frame_of_regions (ρ : Dev nD → PrngReg)
    (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA0 : ∀ c w, (d0 c).A w = V7 m c (Pipeline.arrRef spec0 w))
    (hq0 : ∀ c w, (d0 c).q w = fullShare) (howed0 : ∀ c t, (d0 c).owed t = 0) (hrec0 : ∀ c, (d0 c).recorded 0 = Set.univ)
    (hbody0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (ho8 : ∀ c, outs 8 main_v23_0 c = (d0 c).arrAt 4 cfg0.N ∧ outs 8 main_v23_1 c = (d0 c).arrAt 5 cfg0.N ∧ outs 8 main_v23_2 c = (d0 c).arrAt 6 cfg0.N)
    (hA1 : ∀ c w, (d1 c).A w = V15 m outs c (Pipeline.arrRef spec1 w))
    (hq1 : ∀ c w, (d1 c).q w = fullShare) (howed1 : ∀ c t, (d1 c).owed t = 0) (hrec1 : ∀ c, (d1 c).recorded 0 = Set.univ)
    (hbody1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c)
    (ho16 : ∀ c, outs 16 main_v37_0 c = (d1 c).arrAt 4 cfg1.N ∧ outs 16 main_v37_1 c = (d1 c).arrAt 5 cfg1.N ∧ outs 16 main_v37_2 c = (d1 c).arrAt 6 cfg1.N)
    (hA2 : ∀ c w, (d2 c).A w = V23 m outs c (Pipeline.arrRef spec2 w))
    (hq2 : ∀ c w, (d2 c).q w = fullShare) (howed2 : ∀ c t, (d2 c).owed t = 0) (hrec2 : ∀ c, (d2 c).recorded 0 = Set.univ)
    (hbody2 : ∀ c, BodyObligation (d2 c) (defs₀ (F := F)) Variants.none () Set.univ)
    (hin2 : ∀ c, Pipeline.ΦA spec2 c ⊢ (d2 c).Φ 0) (hout2 : ∀ c, (d2 c).Φ (Fin.last cfg2.N) ⊢ Pipeline.ΦA spec2 c)
    (ho24 : ∀ c, outs 24 main_v51_0 c = (d2 c).arrAt 4 cfg2.N ∧ outs 24 main_v51_1 c = (d2 c).arrAt 5 cfg2.N ∧ outs 24 main_v51_2 c = (d2 c).arrAt 6 cfg2.N) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V25_main_arg0 m outs c),
     (h c _ (mem_uc main_arg1 (by decide))).trans (V25_main_arg1 m outs c),
     (h c _ (mem_uc main_arg2 (by decide))).trans (V25_main_arg2 m outs c),
     (h c _ (mem_uc main_arg3 (by decide))).trans (V25_main_arg3 m outs c),
     (h c _ (mem_uc main_arg4 (by decide))).trans (V25_main_arg4 m outs c),
     (h c _ (mem_uc main_arg5 (by decide))).trans (V25_main_arg5 m outs c)⟩)
    (run_regions m outs ρ d0 d1 d2 hA0 hq0 howed0 hrec0 hbody0 hin0 hout0 ho8 hA1 hq1 howed1 hrec1 hbody1 hin1 hout1 ho16 hA2 hq2 howed2 hrec2 hbody2 hin2 hout2 ho24)

end Cert.Kernel.Hand

end
-- ==== Proof.K.Tile0Shared.lean ====
/- The body of region 0 (the first vocabulary split's call): what its three cases share — the region-entry
   contents as a parameter, each window's block at a point, the two branch conditions of the body decided over
   the grid, where the output windows are idle, the staging and scratch memrefs, and the region invariant with
   the three scratch operands opened; everything is stated for arbitrary region-entry contents V. -/
import proofs.«427234_j53386443489982_1_alg».proof.Proof.Gen.Kernel.Launch
import proofs.«427234_j53386443489982_1_alg».proof.Proof.Gen.Kernel.Skeleton
import proofs.«427234_j53386443489982_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (the column tile is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if` (the column tile is the last), from the grid coordinates. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- At the points of case A output 4 is idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B output 4 is idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C output 4 is live: the case stores into it. -/
theorem liveAt0_4_C : ∀ t : Fin cfg0.N, ¬cond0_0 (grid0.coords t) → cond0_1 (grid0.coords t) → cfg0.idle 4 (grid0.coords t) = false := by decide +kernel
/-- At the points of case A output 5 is idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B output 5 is idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C output 5 is live: the case stores into it. -/
theorem liveAt0_5_C : ∀ t : Fin cfg0.N, ¬cond0_0 (grid0.coords t) → cond0_1 (grid0.coords t) → cfg0.idle 5 (grid0.coords t) = false := by decide +kernel
/-- At the points of case A output 6 is idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B output 6 is idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C output 6 is live: the case stores into it. -/
theorem liveAt0_6_C : ∀ t : Fin cfg0.N, ¬cond0_0 (grid0.coords t) → cond0_1 (grid0.coords t) → cfg0.idle 6 (grid0.coords t) = false := by decide +kernel

/-! ## The staging and scratch memrefs -/

/-- One staging buffer of output window 4, through which its contents are stated. -/
abbrev VO0_4 : View sig .tc .vmem S1024x1 .f32 := (Memref.whole cc0_stg4_0 : Memref sig .tc .vmem S1024x1 .f32).view
/-- One staging buffer of output window 5, through which its contents are stated. -/
abbrev VO0_5 : View sig .tc .vmem S1024x1 .f32 := (Memref.whole cc0_stg5_0 : Memref sig .tc .vmem S1024x1 .f32).view
/-- One staging buffer of output window 6, through which its contents are stated. -/
abbrev VO0_6 : View sig .tc .vmem S1024x1 .f32 := (Memref.whole cc0_stg6_0 : Memref sig .tc .vmem S1024x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
/-- Scratch operand 0: a whole scoped buffer of the call's own, passed beside the windows and carried between points. -/
abbrev scM0_0 : Memref sig .tc .vmem S1024x1 .f32 := Memref.whole cc0_scratch0
abbrev VS0_0 : View sig .tc .vmem S1024x1 .f32 := scM0_0.view
/-- Scratch operand 1: a whole scoped buffer of the call's own, passed beside the windows and carried between points. -/
abbrev scM0_1 : Memref sig .tc .vmem S1024x1 .f32 := Memref.whole cc0_scratch1
abbrev VS0_1 : View sig .tc .vmem S1024x1 .f32 := scM0_1.view
/-- Scratch operand 2: a whole scoped buffer of the call's own, passed beside the windows and carried between points. -/
abbrev scM0_2 : Memref sig .tc .vmem S1024x1 .f32 := Memref.whole cc0_scratch2
abbrev VS0_2 : View sig .tc .vmem S1024x1 .f32 := scM0_2.view

/-- The scoped buffers of the core that are neither a staging buffer of this call nor one of its three scratch operands. -/
abbrev restBut0 (c : Dev nD) : sProp 𝕄 :=
  Pipeline.scopedRestBut (Ix := Unit) (Name := ℕ) (U := UR sig nD τ) (Lvl := ℕ) (Val := Elt F) spec0 c [cc0_scratch0, cc0_scratch1, cc0_scratch2]

/-- The class's region invariant with the three scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d)) ∗ restBut0 (F := F) c) ∗ (∃ r, prngReg c r)) := by
  unfold Pipeline.ΦA; rw [scopedRest0_split]; simp only [scM0_0, scM0_1, scM0_2, owns_whole]; try rfl

end Cert.Kernel.Hand

end
-- ==== Proof.K.Tile0First.lean ====
/- The body of region 0 run in its first case (the first column tile): the carried scratch starts from −∞, 0, 0, one tile of the recurrence is applied, no output is stored. -/
import proofs.«427234_j53386443489982_1_alg».proof.Proof.K.Tile0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run IN CASE A (first column tile: the scratch reset then updated, the outputs untouched; points ≡ 0 (mod 4)): on whole memrefs — the inputs' at their
    contents, the outputs' at contents handed back untouched, the scratch at anything — the body runs to the
    continuation holding the inputs' as they were and each scratch buffer with its pieces written (last first);
    the pieces are the witness the run finds. Components: the outputs' pieces (windows 4, 5, 6), then the scratch's (0, 1, 2). -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc0__split_kernel_eq_skeleton]; unfold cc0__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.Tile0Mid.lean ====
/- The body of region 0 run in its second case (a middle column tile): the carried scratch takes one more tile of the recurrence, no output is stored. -/
import proofs.«427234_j53386443489982_1_alg».proof.Proof.K.Tile0First

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run IN CASE B (a middle column tile: the scratch updated from what the point before left, the outputs untouched; the points that are neither ≡ 0 nor the last residue (mod 4)): on whole memrefs — the inputs' at their
    contents, the outputs' at contents handed back untouched, the scratch at the contents the point before left — the body runs to the
    continuation holding the inputs' as they were and each scratch buffer with its pieces written (last first);
    the pieces are the witness the run finds. Components: the outputs' pieces (windows 4, 5, 6), then the scratch's (0, 1, 2). -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc0__split_kernel_eq_skeleton]; unfold cc0__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.Tile0Last.lean ====
/- The body of region 0 run in its third case (the last column tile): the last tile of the recurrence, then the three outputs are stored. -/
import proofs.«427234_j53386443489982_1_alg».proof.Proof.K.Tile0Mid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run IN CASE C (last column tile: the scratch updated from what the point before left, then the three outputs stored from it; points ≡ 3 (mod 4)): on whole memrefs — the inputs' at their
    contents, the outputs' at anything, the scratch at the contents the point before left — the body runs to the
    continuation holding the inputs' as they were and each output and scratch buffer with its pieces written (last first);
    the pieces are the witness the run finds. Components: the outputs' pieces (windows 4, 5, 6), then the scratch's (0, 1, 2). -/
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__split_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__split_kernel_eq_skeleton]; unfold cc0__split_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.K.Tile0Data.lean ====
/- Region 0's proof data: what the outputs and the three scratch operands hold per case and point by point, the
   region invariant, the body obligation, and the invariant's two ends, for arbitrary region-entry contents V. -/
import proofs.«427234_j53386443489982_1_alg».proof.Proof.K.Tile0Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in output 4's staging buffer: its pieces read back over junk (no pieces: a placeholder nothing consults, the window being idle and not written back at the case's points). -/
def out0_A_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2 x3).1)

/-- What case A leaves in output 5's staging buffer: its pieces read back over junk (no pieces: a placeholder nothing consults, the window being idle and not written back at the case's points). -/
def out0_A_5 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3).2.1)

/-- What case A leaves in output 6's staging buffer: its pieces read back over junk (no pieces: a placeholder nothing consults, the window being idle and not written back at the case's points). -/
def out0_A_6 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3).2.2.1)

/-- Case A's pieces for scratch operand 0 cover it. -/
theorem scover0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S1024x1.size (by sl_kernel_rfl) y

/-- What case A leaves in scratch operand 0: its pieces read back over junk. -/
def sout0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- Case A's pieces for scratch operand 1 cover it. -/
theorem scover0_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S1024x1.size (by sl_kernel_rfl) y

/-- What case A leaves in scratch operand 1: its pieces read back over junk. -/
def sout0_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.2.2.2.1)

/-- Case A's pieces for scratch operand 2 cover it. -/
theorem scover0_A_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S1024x1.size (by sl_kernel_rfl) y

/-- What case A leaves in scratch operand 2: its pieces read back over junk. -/
def sout0_A_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.2.1)

/-- What case B leaves in output 4's staging buffer: its pieces read back over junk (no pieces: a placeholder nothing consults, the window being idle and not written back at the case's points). -/
def out0_B_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).1)

/-- What case B leaves in output 5's staging buffer: its pieces read back over junk (no pieces: a placeholder nothing consults, the window being idle and not written back at the case's points). -/
def out0_B_5 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1)

/-- What case B leaves in output 6's staging buffer: its pieces read back over junk (no pieces: a placeholder nothing consults, the window being idle and not written back at the case's points). -/
def out0_B_6 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case B's pieces for scratch operand 0 cover it. -/
theorem scover0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case B leaves in scratch operand 0: its pieces read back over junk. -/
def sout0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case B's pieces for scratch operand 1 cover it. -/
theorem scover0_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case B leaves in scratch operand 1: its pieces read back over junk. -/
def sout0_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case B's pieces for scratch operand 2 cover it. -/
theorem scover0_B_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case B leaves in scratch operand 2: its pieces read back over junk. -/
def sout0_B_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-- Case C's pieces for output 4 tile its block, so they cover it. -/
theorem cover0_C_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

/-- What case C leaves in output 4's staging buffer: its pieces read back over junk. -/
def out0_C_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).1)

/-- Case C's pieces for output 5 tile its block, so they cover it. -/
theorem cover0_C_5 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

/-- What case C leaves in output 5's staging buffer: its pieces read back over junk. -/
def out0_C_5 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1)

/-- Case C's pieces for output 6 tile its block, so they cover it. -/
theorem cover0_C_6 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- What case C leaves in output 6's staging buffer: its pieces read back over junk. -/
def out0_C_6 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case C's pieces for scratch operand 0 cover it. -/
theorem scover0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case C leaves in scratch operand 0: its pieces read back over junk. -/
def sout0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case C's pieces for scratch operand 1 cover it. -/
theorem scover0_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case C leaves in scratch operand 1: its pieces read back over junk. -/
def sout0_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case C's pieces for scratch operand 2 cover it. -/
theorem scover0_C_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case C leaves in scratch operand 2: its pieces read back over junk. -/
def sout0_C_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-! ## What the outputs and the scratch hold after each point -/

/-- What the outputs' staging buffers (windows 4, 5, 6) and the three scratch operands hold after the body at position `n`:
    the case the closed forms select at `n`, run at the point's memrefs and input blocks, the scratch at what this leaves at `n - 1`. -/
def outsAt0 (c : Dev nD) : (n : ℕ) → n < cfg0.N → (Vec F S1024x1 .f32 × Vec F S1024x1 .f32 × Vec F S1024x1 .f32) × (Vec F S1024x1 .f32 × Vec F S1024x1 .f32 × Vec F S1024x1 .f32)
  | 0, hn => ((out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)))
  | n + 1, hn =>
    if h0 : (n + 1) % 4 = 0 then
      if h1 : (n + 1) % 4 = 3 then
        False.elim (by omega)
      else
        ((out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)), (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)))
    else
      if h1 : (n + 1) % 4 = 3 then
        ((out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2), (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2))
      else
        ((out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2))

/-- `outsAt0` at a point of case A: that case's contents. -/
theorem outsAt0_A (c : Dev nD) (t : Fin cfg0.N) (h0 : t.val % 4 = 0) (h1 : ¬t.val % 4 = 3) :
    outsAt0 V c t.val t.isLt = ((out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t)), (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t))) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = ((out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2), (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = ((out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2), (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    three scratch operands at what the point before left in them, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ restBut0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2)) ∗ restBut0 (F := F) c) ∗ (∃ r, prngReg c r)) := by
  cases n with
  | zero => exact absurd rfl hz
  | succ n => rfl

/-! ## The pipeline's proof data -/

/-- The proof data of region 0's pipeline on core `c`: the arrays as the region finds them (`V`); after the body at point `t`
    each input's buffer at its block and the outputs' at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1.1
    | ⟨5, _⟩ => (outsAt0 V c t.val t.isLt).1.2.1
    | ⟨6, _⟩ => (outsAt0 V c t.val t.isLt).1.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1.1 := by dsimp only [dat0]
theorem after0_5 (c : Dev nD) (t : Fin cfg0.N) : (dat0 V c).after 5 t = (outsAt0 V c t.val t.isLt).1.2.1 := by dsimp only [dat0]
theorem after0_6 (c : Dev nD) (t : Fin cfg0.N) : (dat0 V c).after 6 t = (outsAt0 V c t.val t.isLt).1.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the closed forms say which case the point is in; the run of that case
    applies; the invariant hands the body the scratch at what the point before left (at anything at the first point) and takes it back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1 sout0_A_2; (try dsimp only)
      by_cases hz : t.val = 0
      · rw [PhiS0_castSucc V c t, PhiS0_zero V c _ _ hz, PhiA0_eq]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS0_castSucc V c t, PhiS0_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_4 out0_C_5 out0_C_6 sout0_C_0 sout0_C_1 sout0_C_2; (try dsimp only)
      by_cases hz : t.val = 0
      · exfalso; omega
      · rw [PhiS0_castSucc V c t, PhiS0_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        iintro ⟨H0, H1, H2, H3, ⟨%e4, H4⟩, ⟨%e5, H5⟩, ⟨%e6, H6⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1 sout0_B_2; (try dsimp only)
      by_cases hz : t.val = 0
      · exfalso; omega
      · rw [PhiS0_castSucc V c t, PhiS0_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.K.Tile1Shared.lean ====
/- The body of region 1 (the second vocabulary split's call): what its three cases share — the region-entry
   contents as a parameter, each window's block at a point, the two branch conditions of the body decided over
   the grid, where the output windows are idle, the staging and scratch memrefs, and the region invariant with
   the three scratch operands opened; everything is stated for arbitrary region-entry contents V. -/
import proofs.«427234_j53386443489982_1_alg».proof.Proof.Gen.Kernel.Launch
import proofs.«427234_j53386443489982_1_alg».proof.Proof.Gen.Kernel.Skeleton
import proofs.«427234_j53386443489982_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the column tile is the first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the column tile is the last), from the grid coordinates. -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At the points of case A output 4 is idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B output 4 is idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C output 4 is live: the case stores into it. -/
theorem liveAt1_4_C : ∀ t : Fin cfg1.N, ¬cond1_0 (grid1.coords t) → cond1_1 (grid1.coords t) → cfg1.idle 4 (grid1.coords t) = false := by decide +kernel
/-- At the points of case A output 5 is idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B output 5 is idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C output 5 is live: the case stores into it. -/
theorem liveAt1_5_C : ∀ t : Fin cfg1.N, ¬cond1_0 (grid1.coords t) → cond1_1 (grid1.coords t) → cfg1.idle 5 (grid1.coords t) = false := by decide +kernel
/-- At the points of case A output 6 is idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B output 6 is idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C output 6 is live: the case stores into it. -/
theorem liveAt1_6_C : ∀ t : Fin cfg1.N, ¬cond1_0 (grid1.coords t) → cond1_1 (grid1.coords t) → cfg1.idle 6 (grid1.coords t) = false := by decide +kernel

/-! ## The staging and scratch memrefs -/

/-- One staging buffer of output window 4, through which its contents are stated. -/
abbrev VO1_4 : View sig .tc .vmem S1024x1 .f32 := (Memref.whole cc1_stg4_0 : Memref sig .tc .vmem S1024x1 .f32).view
/-- One staging buffer of output window 5, through which its contents are stated. -/
abbrev VO1_5 : View sig .tc .vmem S1024x1 .f32 := (Memref.whole cc1_stg5_0 : Memref sig .tc .vmem S1024x1 .f32).view
/-- One staging buffer of output window 6, through which its contents are stated. -/
abbrev VO1_6 : View sig .tc .vmem S1024x1 .f32 := (Memref.whole cc1_stg6_0 : Memref sig .tc .vmem S1024x1 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- Scratch operand 0: a whole scoped buffer of the call's own, passed beside the windows and carried between points. -/
abbrev scM1_0 : Memref sig .tc .vmem S1024x1 .f32 := Memref.whole cc1_scratch0
abbrev VS1_0 : View sig .tc .vmem S1024x1 .f32 := scM1_0.view
/-- Scratch operand 1: a whole scoped buffer of the call's own, passed beside the windows and carried between points. -/
abbrev scM1_1 : Memref sig .tc .vmem S1024x1 .f32 := Memref.whole cc1_scratch1
abbrev VS1_1 : View sig .tc .vmem S1024x1 .f32 := scM1_1.view
/-- Scratch operand 2: a whole scoped buffer of the call's own, passed beside the windows and carried between points. -/
abbrev scM1_2 : Memref sig .tc .vmem S1024x1 .f32 := Memref.whole cc1_scratch2
abbrev VS1_2 : View sig .tc .vmem S1024x1 .f32 := scM1_2.view

/-- The scoped buffers of the core that are neither a staging buffer of this call nor one of its three scratch operands. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class's region invariant with the three scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 (F := F) c) ∗ (∃ r, prngReg c r)) := by
  unfold Pipeline.ΦA; rw [scopedRest1_split]; simp only [scM1_0, scM1_1, scM1_2, owns_whole]; try rfl

end Cert.Kernel.Hand

end
-- ==== Proof.K.Tile1First.lean ====
/- The body of region 1 run in its first case (the first column tile): the carried scratch starts from −∞, 0, 0, one tile of the recurrence is applied, no output is stored. -/
import proofs.«427234_j53386443489982_1_alg».proof.Proof.K.Tile1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run IN CASE A (first column tile: the scratch reset then updated, the outputs untouched; points ≡ 0 (mod 16)): on whole memrefs — the inputs' at their
    contents, the outputs' at contents handed back untouched, the scratch at anything — the body runs to the
    continuation holding the inputs' as they were and each scratch buffer with its pieces written (last first);
    the pieces are the witness the run finds. Components: the outputs' pieces (windows 4, 5, 6), then the scratch's (0, 1, 2). -/
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc1__split_kernel_eq_skeleton]; unfold cc1__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.Tile1Mid.lean ====
/- The body of region 1 run in its second case (a middle column tile): the carried scratch takes one more tile of the recurrence, no output is stored. -/
import proofs.«427234_j53386443489982_1_alg».proof.Proof.K.Tile1First

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run IN CASE B (a middle column tile: the scratch updated from what the point before left, the outputs untouched; the points that are neither ≡ 0 nor the last residue (mod 16)): on whole memrefs — the inputs' at their
    contents, the outputs' at contents handed back untouched, the scratch at the contents the point before left — the body runs to the
    continuation holding the inputs' as they were and each scratch buffer with its pieces written (last first);
    the pieces are the witness the run finds. Components: the outputs' pieces (windows 4, 5, 6), then the scratch's (0, 1, 2). -/
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc1__split_kernel_eq_skeleton]; unfold cc1__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.Tile1Last.lean ====
/- The body of region 1 run in its third case (the last column tile): the last tile of the recurrence, then the three outputs are stored. -/
import proofs.«427234_j53386443489982_1_alg».proof.Proof.K.Tile1Mid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run IN CASE C (last column tile: the scratch updated from what the point before left, then the three outputs stored from it; points ≡ 15 (mod 16)): on whole memrefs — the inputs' at their
    contents, the outputs' at anything, the scratch at the contents the point before left — the body runs to the
    continuation holding the inputs' as they were and each output and scratch buffer with its pieces written (last first);
    the pieces are the witness the run finds. Components: the outputs' pieces (windows 4, 5, 6), then the scratch's (0, 1, 2). -/
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__split_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__split_kernel_eq_skeleton]; unfold cc1__split_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.K.Tile1Data.lean ====
/- Region 1's proof data: what the outputs and the three scratch operands hold per case and point by point, the
   region invariant, the body obligation, and the invariant's two ends, for arbitrary region-entry contents V. -/
import proofs.«427234_j53386443489982_1_alg».proof.Proof.K.Tile1Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in output 4's staging buffer: its pieces read back over junk (no pieces: a placeholder nothing consults, the window being idle and not written back at the case's points). -/
def out1_A_4 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 arg11 harg11 hc0 hc1 x0 x1 x2 x3).1)

/-- What case A leaves in output 5's staging buffer: its pieces read back over junk (no pieces: a placeholder nothing consults, the window being idle and not written back at the case's points). -/
def out1_A_5 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 hc0 hc1 x0 x1 x2 x3).2.1)

/-- What case A leaves in output 6's staging buffer: its pieces read back over junk (no pieces: a placeholder nothing consults, the window being idle and not written back at the case's points). -/
def out1_A_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 hc1 x0 x1 x2 x3).2.2.1)

/-- Case A's pieces for scratch operand 0 cover it. -/
theorem scover1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.1 S1024x1.size (by sl_kernel_rfl) y

/-- What case A leaves in scratch operand 0: its pieces read back over junk. -/
def sout1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3).2.2.2.1)

/-- Case A's pieces for scratch operand 1 cover it. -/
theorem scover1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.2.1 S1024x1.size (by sl_kernel_rfl) y

/-- What case A leaves in scratch operand 1: its pieces read back over junk. -/
def sout1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3).2.2.2.2.1)

/-- Case A's pieces for scratch operand 2 cover it. -/
theorem scover1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.2.2.1 S1024x1.size (by sl_kernel_rfl) y

/-- What case A leaves in scratch operand 2: its pieces read back over junk. -/
def sout1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3).2.2.2.2.2.1)

/-- What case B leaves in output 4's staging buffer: its pieces read back over junk (no pieces: a placeholder nothing consults, the window being idle and not written back at the case's points). -/
def out1_B_4 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).1)

/-- What case B leaves in output 5's staging buffer: its pieces read back over junk (no pieces: a placeholder nothing consults, the window being idle and not written back at the case's points). -/
def out1_B_5 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.1)

/-- What case B leaves in output 6's staging buffer: its pieces read back over junk (no pieces: a placeholder nothing consults, the window being idle and not written back at the case's points). -/
def out1_B_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case B's pieces for scratch operand 0 cover it. -/
theorem scover1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case B leaves in scratch operand 0: its pieces read back over junk. -/
def sout1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case B's pieces for scratch operand 1 cover it. -/
theorem scover1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case B leaves in scratch operand 1: its pieces read back over junk. -/
def sout1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case B's pieces for scratch operand 2 cover it. -/
theorem scover1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case B leaves in scratch operand 2: its pieces read back over junk. -/
def sout1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-- Case C's pieces for output 4 tile its block, so they cover it. -/
theorem cover1_C_4 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

/-- What case C leaves in output 4's staging buffer: its pieces read back over junk. -/
def out1_C_4 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).1)

/-- Case C's pieces for output 5 tile its block, so they cover it. -/
theorem cover1_C_5 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

/-- What case C leaves in output 5's staging buffer: its pieces read back over junk. -/
def out1_C_5 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1)

/-- Case C's pieces for output 6 tile its block, so they cover it. -/
theorem cover1_C_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- What case C leaves in output 6's staging buffer: its pieces read back over junk. -/
def out1_C_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case C's pieces for scratch operand 0 cover it. -/
theorem scover1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case C leaves in scratch operand 0: its pieces read back over junk. -/
def sout1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case C's pieces for scratch operand 1 cover it. -/
theorem scover1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case C leaves in scratch operand 1: its pieces read back over junk. -/
def sout1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case C's pieces for scratch operand 2 cover it. -/
theorem scover1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case C leaves in scratch operand 2: its pieces read back over junk. -/
def sout1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-! ## What the outputs and the scratch hold after each point -/

/-- What the outputs' staging buffers (windows 4, 5, 6) and the three scratch operands hold after the body at position `n`:
    the case the closed forms select at `n`, run at the point's memrefs and input blocks, the scratch at what this leaves at `n - 1`. -/
def outsAt1 (c : Dev nD) : (n : ℕ) → n < cfg1.N → (Vec F S1024x1 .f32 × Vec F S1024x1 .f32 × Vec F S1024x1 .f32) × (Vec F S1024x1 .f32 × Vec F S1024x1 .f32 × Vec F S1024x1 .f32)
  | 0, hn => ((out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)), (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)))
  | n + 1, hn =>
    if h0 : (n + 1) % 16 = 0 then
      if h1 : (n + 1) % 16 = 15 then
        False.elim (by omega)
      else
        ((out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)), (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)))
    else
      if h1 : (n + 1) % 16 = 15 then
        ((out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2), (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2))
      else
        ((out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2), (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2))

/-- `outsAt1` at a point of case A: that case's contents. -/
theorem outsAt1_A (c : Dev nD) (t : Fin cfg1.N) (h0 : t.val % 16 = 0) (h1 : ¬t.val % 16 = 15) :
    outsAt1 V c t.val t.isLt = ((out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)), (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = ((out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2), (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = ((out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2), (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    three scratch operands at what the point before left in them, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ restBut1 (F := F) c) ∗ (∃ r, prngReg c r)) := by
  cases n with
  | zero => exact absurd rfl hz
  | succ n => rfl

/-! ## The pipeline's proof data -/

/-- The proof data of region 1's pipeline on core `c`: the arrays as the region finds them (`V`); after the body at point `t`
    each input's buffer at its block and the outputs' at `outsAt1`'s components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1.1
    | ⟨5, _⟩ => (outsAt1 V c t.val t.isLt).1.2.1
    | ⟨6, _⟩ => (outsAt1 V c t.val t.isLt).1.2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1.1 := by dsimp only [dat1]
theorem after1_5 (c : Dev nD) (t : Fin cfg1.N) : (dat1 V c).after 5 t = (outsAt1 V c t.val t.isLt).1.2.1 := by dsimp only [dat1]
theorem after1_6 (c : Dev nD) (t : Fin cfg1.N) : (dat1 V c).after 6 t = (outsAt1 V c t.val t.isLt).1.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which case the point is in; the run of that case
    applies; the invariant hands the body the scratch at what the point before left (at anything at the first point) and takes it back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 16 = 15
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_4 out1_C_5 out1_C_6 sout1_C_0 sout1_C_1 sout1_C_2; (try dsimp only)
      by_cases hz : t.val = 0
      · exfalso; omega
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        iintro ⟨H0, H1, H2, H3, ⟨%e4, H4⟩, ⟨%e5, H5⟩, ⟨%e6, H6⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Tile2Shared.lean ====
/- The body of region 2 (the third vocabulary split's call): what its three cases share — the region-entry
   contents as a parameter, each window's block at a point, the two branch conditions of the body decided over
   the grid, where the output windows are idle, the staging and scratch memrefs, and the region invariant with
   the three scratch operands opened; everything is stated for arbitrary region-entry contents V. -/
import proofs.«427234_j53386443489982_1_alg».proof.Proof.Gen.Kernel.Launch
import proofs.«427234_j53386443489982_1_alg».proof.Proof.Gen.Kernel.Skeleton
import proofs.«427234_j53386443489982_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the column tile is the first), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 30) — decided over the grid. -/
theorem hcond2_0 : ∀ t : Fin cfg2.N, cond2_0 (grid2.coords t) ↔ t.val % 30 = 0 :=
  (by decide +kernel : ∀ t : Fin grid2.N, cond2_0 (grid2.coords t) ↔ t.val % 30 = 0)

/-- The condition of the body's second `scf.if` (the column tile is the last), from the grid coordinates. -/
abbrev cond2_1 (i : grid2.Coords) : Prop := k2_cond2 i = 1#1
/-- It holds at the points ≡ 29 (mod 30) — decided over the grid. -/
theorem hcond2_1 : ∀ t : Fin cfg2.N, cond2_1 (grid2.coords t) ↔ t.val % 30 = 29 :=
  (by decide +kernel : ∀ t : Fin grid2.N, cond2_1 (grid2.coords t) ↔ t.val % 30 = 29)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- At the points of case A output 4 is idle: the case stores nothing into it. -/
theorem idleAt2_4_A : ∀ t : Fin cfg2.N, cond2_0 (grid2.coords t) → ¬cond2_1 (grid2.coords t) → cfg2.idle 4 (grid2.coords t) = true := by decide +kernel
/-- At the points of case A the pipeline does not write output 4's block back. -/
theorem noFlush2_4_A : ∀ t : Fin cfg2.N, cond2_0 (grid2.coords t) → ¬cond2_1 (grid2.coords t) → (cfg2.win 4).flush t = false := by decide +kernel
/-- At the points of case B output 4 is idle: the case stores nothing into it. -/
theorem idleAt2_4_B : ∀ t : Fin cfg2.N, ¬cond2_0 (grid2.coords t) → ¬cond2_1 (grid2.coords t) → cfg2.idle 4 (grid2.coords t) = true := by decide +kernel
/-- At the points of case B the pipeline does not write output 4's block back. -/
theorem noFlush2_4_B : ∀ t : Fin cfg2.N, ¬cond2_0 (grid2.coords t) → ¬cond2_1 (grid2.coords t) → (cfg2.win 4).flush t = false := by decide +kernel
/-- At the points of case C output 4 is live: the case stores into it. -/
theorem liveAt2_4_C : ∀ t : Fin cfg2.N, ¬cond2_0 (grid2.coords t) → cond2_1 (grid2.coords t) → cfg2.idle 4 (grid2.coords t) = false := by decide +kernel
/-- At the points of case A output 5 is idle: the case stores nothing into it. -/
theorem idleAt2_5_A : ∀ t : Fin cfg2.N, cond2_0 (grid2.coords t) → ¬cond2_1 (grid2.coords t) → cfg2.idle 5 (grid2.coords t) = true := by decide +kernel
/-- At the points of case A the pipeline does not write output 5's block back. -/
theorem noFlush2_5_A : ∀ t : Fin cfg2.N, cond2_0 (grid2.coords t) → ¬cond2_1 (grid2.coords t) → (cfg2.win 5).flush t = false := by decide +kernel
/-- At the points of case B output 5 is idle: the case stores nothing into it. -/
theorem idleAt2_5_B : ∀ t : Fin cfg2.N, ¬cond2_0 (grid2.coords t) → ¬cond2_1 (grid2.coords t) → cfg2.idle 5 (grid2.coords t) = true := by decide +kernel
/-- At the points of case B the pipeline does not write output 5's block back. -/
theorem noFlush2_5_B : ∀ t : Fin cfg2.N, ¬cond2_0 (grid2.coords t) → ¬cond2_1 (grid2.coords t) → (cfg2.win 5).flush t = false := by decide +kernel
/-- At the points of case C output 5 is live: the case stores into it. -/
theorem liveAt2_5_C : ∀ t : Fin cfg2.N, ¬cond2_0 (grid2.coords t) → cond2_1 (grid2.coords t) → cfg2.idle 5 (grid2.coords t) = false := by decide +kernel
/-- At the points of case A output 6 is idle: the case stores nothing into it. -/
theorem idleAt2_6_A : ∀ t : Fin cfg2.N, cond2_0 (grid2.coords t) → ¬cond2_1 (grid2.coords t) → cfg2.idle 6 (grid2.coords t) = true := by decide +kernel
/-- At the points of case A the pipeline does not write output 6's block back. -/
theorem noFlush2_6_A : ∀ t : Fin cfg2.N, cond2_0 (grid2.coords t) → ¬cond2_1 (grid2.coords t) → (cfg2.win 6).flush t = false := by decide +kernel
/-- At the points of case B output 6 is idle: the case stores nothing into it. -/
theorem idleAt2_6_B : ∀ t : Fin cfg2.N, ¬cond2_0 (grid2.coords t) → ¬cond2_1 (grid2.coords t) → cfg2.idle 6 (grid2.coords t) = true := by decide +kernel
/-- At the points of case B the pipeline does not write output 6's block back. -/
theorem noFlush2_6_B : ∀ t : Fin cfg2.N, ¬cond2_0 (grid2.coords t) → ¬cond2_1 (grid2.coords t) → (cfg2.win 6).flush t = false := by decide +kernel
/-- At the points of case C output 6 is live: the case stores into it. -/
theorem liveAt2_6_C : ∀ t : Fin cfg2.N, ¬cond2_0 (grid2.coords t) → cond2_1 (grid2.coords t) → cfg2.idle 6 (grid2.coords t) = false := by decide +kernel

/-! ## The staging and scratch memrefs -/

/-- One staging buffer of output window 4, through which its contents are stated. -/
abbrev VO2_4 : View sig .tc .vmem S1024x1 .f32 := (Memref.whole cc2_stg4_0 : Memref sig .tc .vmem S1024x1 .f32).view
/-- One staging buffer of output window 5, through which its contents are stated. -/
abbrev VO2_5 : View sig .tc .vmem S1024x1 .f32 := (Memref.whole cc2_stg5_0 : Memref sig .tc .vmem S1024x1 .f32).view
/-- One staging buffer of output window 6, through which its contents are stated. -/
abbrev VO2_6 : View sig .tc .vmem S1024x1 .f32 := (Memref.whole cc2_stg6_0 : Memref sig .tc .vmem S1024x1 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x1 .f32 := win2_6.stage (cfg2.slots t 6)
abbrev hs2_6 (t : Fin cfg2.N) : (ms2_6 t).IsWhole := hstage2_6 ((cfg2.slots t 6).cast nbuf2_6)
/-- Scratch operand 0: a whole scoped buffer of the call's own, passed beside the windows and carried between points. -/
abbrev scM2_0 : Memref sig .tc .vmem S1024x1 .f32 := Memref.whole cc2_scratch0
abbrev VS2_0 : View sig .tc .vmem S1024x1 .f32 := scM2_0.view
/-- Scratch operand 1: a whole scoped buffer of the call's own, passed beside the windows and carried between points. -/
abbrev scM2_1 : Memref sig .tc .vmem S1024x1 .f32 := Memref.whole cc2_scratch1
abbrev VS2_1 : View sig .tc .vmem S1024x1 .f32 := scM2_1.view
/-- Scratch operand 2: a whole scoped buffer of the call's own, passed beside the windows and carried between points. -/
abbrev scM2_2 : Memref sig .tc .vmem S1024x1 .f32 := Memref.whole cc2_scratch2
abbrev VS2_2 : View sig .tc .vmem S1024x1 .f32 := scM2_2.view

/-- The scoped buffers of the core that are neither a staging buffer of this call nor one of its three scratch operands. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The class's region invariant with the three scratch operands as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ restBut2 (F := F) c) ∗ (∃ r, prngReg c r)) := by
  unfold Pipeline.ΦA; rw [scopedRest2_split]; simp only [scM2_0, scM2_1, scM2_2, owns_whole]; try rfl

end Cert.Kernel.Hand

end
-- ==== Proof.K.Tile2First.lean ====
/- The body of region 2 run in its first case (the first column tile): the carried scratch starts from −∞, 0, 0, one tile of the recurrence is applied, no output is stored. -/
import proofs.«427234_j53386443489982_1_alg».proof.Proof.K.Tile2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run IN CASE A (first column tile: the scratch reset then updated, the outputs untouched; points ≡ 0 (mod 30)): on whole memrefs — the inputs' at their
    contents, the outputs' at contents handed back untouched, the scratch at anything — the body runs to the
    continuation holding the inputs' as they were and each scratch buffer with its pieces written (last first);
    the pieces are the witness the run finds. Components: the outputs' pieces (windows 4, 5, 6), then the scratch's (0, 1, 2). -/
noncomputable def kernelRun2_A (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc2__split_kernel_eq_skeleton]; unfold cc2__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.Tile2Mid.lean ====
/- The body of region 2 run in its second case (a middle column tile): the carried scratch takes one more tile of the recurrence, no output is stored. -/
import proofs.«427234_j53386443489982_1_alg».proof.Proof.K.Tile2First

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run IN CASE B (a middle column tile: the scratch updated from what the point before left, the outputs untouched; the points that are neither ≡ 0 nor the last residue (mod 30)): on whole memrefs — the inputs' at their
    contents, the outputs' at contents handed back untouched, the scratch at the contents the point before left — the body runs to the
    continuation holding the inputs' as they were and each scratch buffer with its pieces written (last first);
    the pieces are the witness the run finds. Components: the outputs' pieces (windows 4, 5, 6), then the scratch's (0, 1, 2). -/
noncomputable def kernelRun2_B (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc2__split_kernel_eq_skeleton]; unfold cc2__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.Tile2Last.lean ====
/- The body of region 2 run in its third case (the last column tile): the last tile of the recurrence, then the three outputs are stored. -/
import proofs.«427234_j53386443489982_1_alg».proof.Proof.K.Tile2Mid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run IN CASE C (last column tile: the scratch updated from what the point before left, then the three outputs stored from it; points ≡ 29 (mod 30)): on whole memrefs — the inputs' at their
    contents, the outputs' at anything, the scratch at the contents the point before left — the body runs to the
    continuation holding the inputs' as they were and each output and scratch buffer with its pieces written (last first);
    the pieces are the witness the run finds. Components: the outputs' pieces (windows 4, 5, 6), then the scratch's (0, 1, 2). -/
noncomputable def kernelRun2_C (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__split_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc2__split_kernel_eq_skeleton]; unfold cc2__split_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.K.Tile2Data.lean ====
/- Region 2's proof data: what the outputs and the three scratch operands hold per case and point by point, the
   region invariant, the body obligation, and the invariant's two ends, for arbitrary region-entry contents V. -/
import proofs.«427234_j53386443489982_1_alg».proof.Proof.K.Tile2Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in output 4's staging buffer: its pieces read back over junk (no pieces: a placeholder nothing consults, the window being idle and not written back at the case's points). -/
def out2_A_4 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VO2_4.read (Elt F) (VO2_4.writes (Elt F) VO2_4.junk (kernelRun2_A c i arg2 harg2 arg3 harg3 arg4 harg4 arg5 harg5 arg6 harg6 arg7 harg7 arg8 harg8 arg9 harg9 arg10 harg10 arg11 harg11 hc0 hc1 x0 x1 x2 x3).1)

/-- What case A leaves in output 5's staging buffer: its pieces read back over junk (no pieces: a placeholder nothing consults, the window being idle and not written back at the case's points). -/
def out2_A_5 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VO2_5.read (Elt F) (VO2_5.writes (Elt F) VO2_5.junk (kernelRun2_A c i arg2 harg2 arg3 harg3 arg4 harg4 arg5 harg5 arg6 harg6 arg7 harg7 arg8 harg8 arg9 harg9 arg10 harg10 arg11 harg11 hc0 hc1 x0 x1 x2 x3).2.1)

/-- What case A leaves in output 6's staging buffer: its pieces read back over junk (no pieces: a placeholder nothing consults, the window being idle and not written back at the case's points). -/
def out2_A_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VO2_6.read (Elt F) (VO2_6.writes (Elt F) VO2_6.junk (kernelRun2_A c i arg2 harg2 arg3 harg3 arg4 harg4 arg5 harg5 arg6 harg6 arg7 harg7 arg8 harg8 arg9 harg9 arg10 harg10 arg11 harg11 hc0 hc1 x0 x1 x2 x3).2.2.1)

/-- Case A's pieces for scratch operand 0 cover it. -/
theorem scover2_A_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) (y : S1024x1.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3).2.2.2.1 S1024x1.size (by sl_kernel_rfl) y

/-- What case A leaves in scratch operand 0: its pieces read back over junk. -/
def sout2_A_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 hc0 hc1 x0 x1 x2 x3).2.2.2.1)

/-- Case A's pieces for scratch operand 1 cover it. -/
theorem scover2_A_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) (y : S1024x1.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3).2.2.2.2.1 S1024x1.size (by sl_kernel_rfl) y

/-- What case A leaves in scratch operand 1: its pieces read back over junk. -/
def sout2_A_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 hc0 hc1 x0 x1 x2 x3).2.2.2.2.1)

/-- Case A's pieces for scratch operand 2 cover it. -/
theorem scover2_A_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) (y : S1024x1.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3).2.2.2.2.2.1 S1024x1.size (by sl_kernel_rfl) y

/-- What case A leaves in scratch operand 2: its pieces read back over junk. -/
def sout2_A_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 arg11 harg11 hc0 hc1 x0 x1 x2 x3).2.2.2.2.2.1)

/-- What case B leaves in output 4's staging buffer: its pieces read back over junk (no pieces: a placeholder nothing consults, the window being idle and not written back at the case's points). -/
def out2_B_4 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_4.read (Elt F) (VO2_4.writes (Elt F) VO2_4.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).1)

/-- What case B leaves in output 5's staging buffer: its pieces read back over junk (no pieces: a placeholder nothing consults, the window being idle and not written back at the case's points). -/
def out2_B_5 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_5.read (Elt F) (VO2_5.writes (Elt F) VO2_5.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.1)

/-- What case B leaves in output 6's staging buffer: its pieces read back over junk (no pieces: a placeholder nothing consults, the window being idle and not written back at the case's points). -/
def out2_B_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_6.read (Elt F) (VO2_6.writes (Elt F) VO2_6.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case B's pieces for scratch operand 0 cover it. -/
theorem scover2_B_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case B leaves in scratch operand 0: its pieces read back over junk. -/
def sout2_B_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case B's pieces for scratch operand 1 cover it. -/
theorem scover2_B_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case B leaves in scratch operand 1: its pieces read back over junk. -/
def sout2_B_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case B's pieces for scratch operand 2 cover it. -/
theorem scover2_B_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case B leaves in scratch operand 2: its pieces read back over junk. -/
def sout2_B_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-- Case C's pieces for output 4 tile its block, so they cover it. -/
theorem cover2_C_4 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

/-- What case C leaves in output 4's staging buffer: its pieces read back over junk. -/
def out2_C_4 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_4.read (Elt F) (VO2_4.writes (Elt F) VO2_4.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).1)

/-- Case C's pieces for output 5 tile its block, so they cover it. -/
theorem cover2_C_5 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

/-- What case C leaves in output 5's staging buffer: its pieces read back over junk. -/
def out2_C_5 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_5.read (Elt F) (VO2_5.writes (Elt F) VO2_5.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.1)

/-- Case C's pieces for output 6 tile its block, so they cover it. -/
theorem cover2_C_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- What case C leaves in output 6's staging buffer: its pieces read back over junk. -/
def out2_C_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_6.read (Elt F) (VO2_6.writes (Elt F) VO2_6.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case C's pieces for scratch operand 0 cover it. -/
theorem scover2_C_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case C leaves in scratch operand 0: its pieces read back over junk. -/
def sout2_C_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case C's pieces for scratch operand 1 cover it. -/
theorem scover2_C_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case C leaves in scratch operand 1: its pieces read back over junk. -/
def sout2_C_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case C's pieces for scratch operand 2 cover it. -/
theorem scover2_C_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case C leaves in scratch operand 2: its pieces read back over junk. -/
def sout2_C_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-! ## What the outputs and the scratch hold after each point -/

/-- What the outputs' staging buffers (windows 4, 5, 6) and the three scratch operands hold after the body at position `n`:
    the case the closed forms select at `n`, run at the point's memrefs and input blocks, the scratch at what this leaves at `n - 1`. -/
def outsAt2 (c : Dev nD) : (n : ℕ) → n < cfg2.N → (Vec F S1024x1 .f32 × Vec F S1024x1 .f32 × Vec F S1024x1 .f32) × (Vec F S1024x1 .f32 × Vec F S1024x1 .f32 × Vec F S1024x1 .f32)
  | 0, hn => ((out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩)), (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩)))
  | n + 1, hn =>
    if h0 : (n + 1) % 30 = 0 then
      if h1 : (n + 1) % 30 = 29 then
        False.elim (by omega)
      else
        ((out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)), (sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)))
    else
      if h1 : (n + 1) % 30 = 29 then
        ((out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2), (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2))
      else
        ((out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2), (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2))

/-- `outsAt2` at a point of case A: that case's contents. -/
theorem outsAt2_A (c : Dev nD) (t : Fin cfg2.N) (h0 : t.val % 30 = 0) (h1 : ¬t.val % 30 = 29) :
    outsAt2 V c t.val t.isLt = ((out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t)), (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t))) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 30 = 0) (h1 : ¬t.val % 30 = 29) :
    outsAt2 V c t.val t.isLt = ((out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2), (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 30 = 0) (h1 : t.val % 30 = 29) :
    outsAt2 V c t.val t.isLt = ((out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2), (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    three scratch operands at what the point before left in them, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2)) ∗ restBut2 (F := F) c) ∗ (∃ r, prngReg c r)) := by
  cases n with
  | zero => exact absurd rfl hz
  | succ n => rfl

/-! ## The pipeline's proof data -/

/-- The proof data of region 2's pipeline on core `c`: the arrays as the region finds them (`V`); after the body at point `t`
    each input's buffer at its block and the outputs' at `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1.1
    | ⟨5, _⟩ => (outsAt2 V c t.val t.isLt).1.2.1
    | ⟨6, _⟩ => (outsAt2 V c t.val t.isLt).1.2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1.1 := by dsimp only [dat2]
theorem after2_5 (c : Dev nD) (t : Fin cfg2.N) : (dat2 V c).after 5 t = (outsAt2 V c t.val t.isLt).1.2.1 := by dsimp only [dat2]
theorem after2_6 (c : Dev nD) (t : Fin cfg2.N) : (dat2 V c).after 6 t = (outsAt2 V c t.val t.isLt).1.2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which case the point is in; the run of that case
    applies; the invariant hands the body the scratch at what the point before left (at anything at the first point) and takes it back
    at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 120 := lt_of_lt_of_eq t.isLt (show cfg2.N = 120 from N_2)
  by_cases h0 : t.val % 30 = 0
  · by_cases h1 : t.val % 30 = 29
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0 sout2_A_1 sout2_A_2; (try dsimp only)
      by_cases hz : t.val = 0
      · rw [PhiS2_castSucc V c t, PhiS2_zero V c _ _ hz, PhiA2_eq]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_A_1 c _ _ _ _ _ _ _ _ _ _ _ _ _ _ _ _ _ _ _ _ _ _ _ _ _ _ _)
              unfold owns; iexists _; isplitr
              swap; · iexact HS2
              ipureintro; exact View.read_writes_of_cover _ _ _ _ _ (scover2_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS2_castSucc V c t, PhiS2_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_A_1 c _ _ _ _ _ _ _ _ _ _ _ _ _ _ _ _ _ _ _ _ _ _ _ _ _ _ _)
              unfold owns; iexists _; isplitr
              swap; · iexact HS2
              ipureintro; exact View.read_writes_of_cover _ _ _ _ _ (scover2_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 30 = 29
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_4 out2_C_5 out2_C_6 sout2_C_0 sout2_C_1 sout2_C_2; (try dsimp only)
      by_cases hz : t.val = 0
      · exfalso; omega
      · rw [PhiS2_castSucc V c t, PhiS2_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        iintro ⟨H0, H1, H2, H3, ⟨%e4, H4⟩, ⟨%e5, H5⟩, ⟨%e6, H6⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_C_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover2_C_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_C_4 c _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover2_C_5 c _ _ _ _ _ _ _ _ _ _ _ _ _ _ _ _ _ _ _ _ _ _ _ _ _ _ _ _ _ _)
        unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0 sout2_B_1 sout2_B_2; (try dsimp only)
      by_cases hz : t.val = 0
      · exfalso; omega
      · rw [PhiS2_castSucc V c t, PhiS2_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_B_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover2_B_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 120 := N_2; omega)

end Cert.Kernel.Hand

end
-- ==== Proof.K.Instance.lean ====
/-
  The launch of @main for the word-level program, at the three pipelines' proof data.

  The contents the three kernel regions leave in their result arrays are fixed region by region: region 0's from the
  contents it is entered at (which no region has touched), region 1's from the contents after region 0 and the host
  lines between, region 2's likewise after region 1.  With these the run of @main names every unscoped buffer at the end,
  the six argument arrays end as launched, and the result's buffer ends at the last valuation's contents.
-/
import proofs.«427234_j53386443489982_1_alg».proof.Proof.K.Launch
import proofs.«427234_j53386443489982_1_alg».proof.Proof.K.Tile0Data
import proofs.«427234_j53386443489982_1_alg».proof.Proof.K.Tile1Data
import proofs.«427234_j53386443489982_1_alg».proof.Proof.K.Tile2Data
import Idealize.ShloMosaic.Lib.Pipeline.FrameSuffix

set_option maxRecDepth 1164

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-! ## The valuations depend on the regions' results only where they read them -/

theorem V8_congr (outs outs' : Outs (F := F)) (c : Dev nD) (h8 : ∀ r, outs 8 r c = outs' 8 r c) :
    V8 m outs c = V8 m outs' c := by
  unfold V8
  rw [h8 main_v23_0, h8 main_v23_1, h8 main_v23_2]

theorem V15_congr (outs outs' : Outs (F := F)) (c : Dev nD) (h8 : ∀ r, outs 8 r c = outs' 8 r c) :
    V15 m outs c = V15 m outs' c := by
  unfold V15 V14 V13 V12 V11 V10 V9
  rw [V8_congr m outs outs' c h8]

theorem V16_congr (outs outs' : Outs (F := F)) (c : Dev nD) (h8 : ∀ r, outs 8 r c = outs' 8 r c)
    (h16 : ∀ r, outs 16 r c = outs' 16 r c) : V16 m outs c = V16 m outs' c := by
  unfold V16
  rw [V15_congr m outs outs' c h8, h16 main_v37_0, h16 main_v37_1, h16 main_v37_2]

theorem V23_congr (outs outs' : Outs (F := F)) (c : Dev nD) (h8 : ∀ r, outs 8 r c = outs' 8 r c)
    (h16 : ∀ r, outs 16 r c = outs' 16 r c) : V23 m outs c = V23 m outs' c := by
  unfold V23 V22 V21 V20 V19 V18 V17
  rw [V16_congr m outs outs' c h8 h16]

/-! ## The regions' entry contents and results, region by region -/

/-- The contents region 0 is entered at. -/
abbrev Vat7 : (c : Dev nD) → (b : Ref sig .tc) → Buf (Elt F) ((c : Thread nD τ).loc b) := fun c b => V7 m c b
/-- The contents region 1 is entered at, given the regions' results. -/
abbrev Vat15 (outs : Outs (F := F)) : (c : Dev nD) → (b : Ref sig .tc) → Buf (Elt F) ((c : Thread nD τ).loc b) :=
  fun c b => V15 m outs c b
/-- The contents region 2 is entered at, given the regions' results. -/
abbrev Vat23 (outs : Outs (F := F)) : (c : Dev nD) → (b : Ref sig .tc) → Buf (Elt F) ((c : Thread nD τ).loc b) :=
  fun c b => V23 m outs c b

/-- Region 0's results: its arrays at what its pipeline leaves. -/
def outs8 : Outs (F := F) := fun _ r c =>
  Pipeline.withArrays spec0 c (V7 m c) (fun w => (dat0 (Vat7 m) c).arrAt w cfg0.N) (Proc.devRef .tc r)

/-- Region 0's results, then region 1's: its arrays at what its pipeline leaves, entered after region 0. -/
def outs16 : Outs (F := F) := fun j r c =>
  if j ≤ 8 then outs8 m j r c
  else Pipeline.withArrays spec1 c (V15 m (outs8 m) c) (fun w => (dat1 (Vat15 m (outs8 m)) c).arrAt w cfg1.N) (Proc.devRef .tc r)

/-- The three regions' results. -/
def outsI : Outs (F := F) := fun j r c =>
  if j ≤ 16 then outs16 m j r c
  else Pipeline.withArrays spec2 c (V23 m (outs16 m) c) (fun w => (dat2 (Vat23 m (outs16 m)) c).arrAt w cfg2.N) (Proc.devRef .tc r)

theorem outs16_8 (r : Ref sig .tc) (c : Dev nD) : outs16 m 8 r c = outs8 m 8 r c := by
  unfold outs16; rw [if_pos (by decide)]
theorem outs16_16 (r : Ref sig .tc) (c : Dev nD) : outs16 m 16 r c =
    Pipeline.withArrays spec1 c (V15 m (outs8 m) c) (fun w => (dat1 (Vat15 m (outs8 m)) c).arrAt w cfg1.N) (Proc.devRef .tc r) := by
  unfold outs16; rw [if_neg (by decide)]
theorem outsI_8 (r : Ref sig .tc) (c : Dev nD) : outsI m 8 r c = outs8 m 8 r c := by
  unfold outsI; rw [if_pos (by decide), outs16_8]
theorem outsI_16 (r : Ref sig .tc) (c : Dev nD) : outsI m 16 r c = outs16 m 16 r c := by
  unfold outsI; rw [if_pos (by decide)]
theorem outsI_24 (r : Ref sig .tc) (c : Dev nD) : outsI m 24 r c =
    Pipeline.withArrays spec2 c (V23 m (outs16 m) c) (fun w => (dat2 (Vat23 m (outs16 m)) c).arrAt w cfg2.N) (Proc.devRef .tc r) := by
  unfold outsI; rw [if_neg (by decide)]

/-- Region 1 is entered at the same contents whether or not the later regions' results are named. -/
theorem Vat15_outsI : Vat15 m (outsI m) = Vat15 m (outs8 m) :=
  funext fun c => funext fun b => by
    show V15 m (outsI m) c b = V15 m (outs8 m) c b
    rw [V15_congr m (outsI m) (outs8 m) c fun r => outsI_8 m r c]

/-- and region 2 likewise. -/
theorem Vat23_outsI : Vat23 m (outsI m) = Vat23 m (outs16 m) :=
  funext fun c => funext fun b => by
    show V23 m (outsI m) c b = V23 m (outs16 m) c b
    rw [V23_congr m (outsI m) (outs16 m) c (fun r => (outsI_8 m r c).trans (outs16_8 m r c).symm) fun r => outsI_16 m r c]

/-! ## The regions' results are what their pipelines leave -/

theorem ho8I (c : Dev nD) : outsI m 8 main_v23_0 c = (dat0 (Vat7 m) c).arrAt 4 cfg0.N
    ∧ outsI m 8 main_v23_1 c = (dat0 (Vat7 m) c).arrAt 5 cfg0.N
    ∧ outsI m 8 main_v23_2 c = (dat0 (Vat7 m) c).arrAt 6 cfg0.N :=
  ⟨(outsI_8 m _ c).trans (Pipeline.withArrays_arr spec0 launch0.win.arr_inj c _ _ 4),
   (outsI_8 m _ c).trans (Pipeline.withArrays_arr spec0 launch0.win.arr_inj c _ _ 5),
   (outsI_8 m _ c).trans (Pipeline.withArrays_arr spec0 launch0.win.arr_inj c _ _ 6)⟩

theorem ho16I (c : Dev nD) : outsI m 16 main_v37_0 c = (dat1 (Vat15 m (outsI m)) c).arrAt 4 cfg1.N
    ∧ outsI m 16 main_v37_1 c = (dat1 (Vat15 m (outsI m)) c).arrAt 5 cfg1.N
    ∧ outsI m 16 main_v37_2 c = (dat1 (Vat15 m (outsI m)) c).arrAt 6 cfg1.N := by
  rw [Vat15_outsI]
  exact ⟨((outsI_16 m _ c).trans (outs16_16 m _ c)).trans (Pipeline.withArrays_arr spec1 launch1.win.arr_inj c _ _ 4),
   ((outsI_16 m _ c).trans (outs16_16 m _ c)).trans (Pipeline.withArrays_arr spec1 launch1.win.arr_inj c _ _ 5),
   ((outsI_16 m _ c).trans (outs16_16 m _ c)).trans (Pipeline.withArrays_arr spec1 launch1.win.arr_inj c _ _ 6)⟩

theorem ho24I (c : Dev nD) : outsI m 24 main_v51_0 c = (dat2 (Vat23 m (outsI m)) c).arrAt 4 cfg2.N
    ∧ outsI m 24 main_v51_1 c = (dat2 (Vat23 m (outsI m)) c).arrAt 5 cfg2.N
    ∧ outsI m 24 main_v51_2 c = (dat2 (Vat23 m (outsI m)) c).arrAt 6 cfg2.N := by
  rw [Vat23_outsI]
  exact ⟨(outsI_24 m _ c).trans (Pipeline.withArrays_arr spec2 launch2.win.arr_inj c _ _ 4),
   (outsI_24 m _ c).trans (Pipeline.withArrays_arr spec2 launch2.win.arr_inj c _ _ 5),
   (outsI_24 m _ c).trans (Pipeline.withArrays_arr spec2 launch2.win.arr_inj c _ _ 6)⟩

/-! ## The frame -/

/-- The six argument arrays end as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_regions m (outsI m) ρ (dat0 (Vat7 m)) (dat1 (Vat15 m (outsI m))) (dat2 (Vat23 m (outsI m)))
    (fun c w => A_eq0 (Vat7 m) c w) (fun _ _ => rfl) (fun _ _ => rfl) (fun _ => rfl)
    (fun c => body_obligation0 (Vat7 m) c) (fun c => hin0 (Vat7 m) c) (fun c => hout0 (Vat7 m) c) (ho8I m)
    (fun c w => A_eq1 (Vat15 m (outsI m)) c w) (fun _ _ => rfl) (fun _ _ => rfl) (fun _ => rfl)
    (fun c => body_obligation1 (Vat15 m (outsI m)) c) (fun c => hin1 (Vat15 m (outsI m)) c) (fun c => hout1 (Vat15 m (outsI m)) c) (ho16I m)
    (fun c w => A_eq2 (Vat23 m (outsI m)) c w) (fun _ _ => rfl) (fun _ _ => rfl) (fun _ => rfl)
    (fun c => body_obligation2 (Vat23 m (outsI m)) c) (fun c => hin2 (Vat23 m (outsI m)) c) (fun c => hout2 (Vat23 m (outsI m)) c) (ho24I m)

end Cert.Kernel.Hand

end
-- ==== Proof.KI.Launch.lean ====
/- The launch of @main for the idealized program: the run of its 25 items from one record per kernel region, with
   every unscoped buffer named at the end; the three region records from proof data whose arrays are the entry
   contents and whose outputs are the unknowns of the valuations; the frame and the result read off the last valuation. -/
import proofs.«427234_j53386443489982_1_alg».proof.Proof.Gen.KernelIdeal.Regions
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1164

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

/-! ## The run, given the regions' records, with every unscoped buffer named at the end -/

set_option backward.isDefEq.respectTransparency.types false in
/-- The run of @main from one segment record per kernel region: every weakly fair execution from memory `m` with zero
    counters terminates, and in every final memory each unscoped buffer of each core holds the last valuation's contents. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V15 m outs c) ∗ E 1 c) ⊢ R1.pre c)
    (hpost1 : ∀ c : Dev nD, R1.post c ⊢ iprop(StableHlo.held (c : Thread nD τ) (Pipeline.ucRefs τ sig) (V16 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V23 m outs c) ∗ E 2 c) ⊢ R2.pre c)
    (hpost2 : ∀ c : Dev nD, R2.post c ⊢ iprop(StableHlo.held (c : Thread nD τ) (Pipeline.ucRefs τ sig) (V24 m outs c) ∗ E 3 c)) :
    θ_run defs (onTc (τ := τ) (main (F := F))) ⟨m, fun _ => 0, ρ⟩ (fun r => ∀ c : Dev nD, ∀ b ∈ Pipeline.ucRefs τ sig,
      r.2.mem ((c : Thread nD τ).1, b) = V25 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V25 m outs c))
    (hch := fun c => ⟨.rfl, .rfl, .rfl, .rfl, .rfl, .rfl, .rfl, hpre0 c, hpost0 c, .rfl, .rfl, .rfl, .rfl, .rfl, .rfl, hpre1 c, hpost1 c, .rfl, .rfl, .rfl, .rfl, .rfl, .rfl, hpre2 c, hpost2 c, sep_mono .rfl (hE3 c)⟩)
    (hinit := ?_) (QY := fun c s => ∀ b ∈ Pipeline.ucRefs τ sig, s.mem ((c : Thread nD τ).1, b) = V25 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V25 m outs c) s')
    isplitl [Hh] <;> iassumption

/-! ## The algebra, the levels and what rides beside the buffers -/

local notation "𝕄" => MT nD τ sig Unit (Elt F) ℕ (UR sig nD τ) ℕ

/-- No core owes another anything: no level is assigned. -/
abbrev runL : GSem nD τ sig → Finset Unit := fun _ => ∅
abbrev runLv : GSem nD τ sig → Unit → ℕ := fun _ _ => 0
/-- What rides beside the buffers through every item: the core's generator register at some state and its dues, at nothing. -/
abbrev runR (c : Dev nD) : sProp 𝕄 := iprop((∃ r, prngReg c r) ∗ ∃ W, owes (c : Thread nD τ) (0 : CellTallies nD τ sig Unit) W)

/-- The three pipelines' proof data as one family — a literal `match`, so that the family at a numeral reduces to the
    given proof data. -/
def pdatsOf (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c) :
    (p : Fin 3) → (c : Dev nD) → Dat τ (Elt F) Unit ℕ (UR sig nD τ) ℕ (Pipeline.pin (pcfgs (F := F)) adm p) c
  | ⟨0, _⟩ => fun c => d0 c
  | ⟨1, _⟩ => fun c => d1 c
  | ⟨2, _⟩ => fun c => d2 c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (m : (ℓ : Loc nD τ sig) → Buf (Elt F) ℓ) (outs : Outs (F := F))

/-- A property of the seven windows, window by window. -/
theorem forall_fin7 {P : Fin 7 → Prop} (h0 : P 0) (h1 : P 1) (h2 : P 2) (h3 : P 3) (h4 : P 4) (h5 : P 5) (h6 : P 6) : ∀ w, P w := fun
  | 0 => h0 | 1 => h1 | 2 => h2 | 3 => h3 | 4 => h4 | 5 => h5 | 6 => h6
  | ⟨_ + 7, h⟩ => absurd h (Nat.not_lt.2 (Nat.le_add_left _ _))

/-! ### Region 0's exit valuation at its three results -/

theorem V8_out0 (c : Dev nD) : V8 m outs c main_v23_0 = outs 8 main_v23_0 c := by
  simp only [V8, Function.update_of_ne (StableHlo.devRef_ne_of_ne (by decide) : (Proc.devRef .tc main_v23_0 : DevRef τ sig) ≠ Proc.devRef .tc main_v23_2), Function.update_of_ne (StableHlo.devRef_ne_of_ne (by decide) : (Proc.devRef .tc main_v23_0 : DevRef τ sig) ≠ Proc.devRef .tc main_v23_1), Function.update_self]
theorem V8_out1 (c : Dev nD) : V8 m outs c main_v23_1 = outs 8 main_v23_1 c := by
  simp only [V8, Function.update_of_ne (StableHlo.devRef_ne_of_ne (by decide) : (Proc.devRef .tc main_v23_1 : DevRef τ sig) ≠ Proc.devRef .tc main_v23_2), Function.update_self]
theorem V8_out2 (c : Dev nD) : V8 m outs c main_v23_2 = outs 8 main_v23_2 c := by
  simp only [V8, Function.update_self]

/-! ### Region 0's arrays at its exit -/

theorem hF0_in0 (d0 : (c : Dev nD) → Dat τ (Elt F) Unit ℕ (UR sig nD τ) ℕ cfg0 c) (hA : ∀ c w, (d0 c).A w = V7 m c (Pipeline.arrRef spec0 w)) (c : Dev nD) :
    (d0 c).arrAt 0 cfg0.N = V8 m outs c (Pipeline.arrRef spec0 0) :=
  (((d0 c).arrAt_in 0 rfl _).trans (hA c 0)).trans (V8_of m outs c _ (by decide)).symm
theorem hF0_in1 (d0 : (c : Dev nD) → Dat τ (Elt F) Unit ℕ (UR sig nD τ) ℕ cfg0 c) (hA : ∀ c w, (d0 c).A w = V7 m c (Pipeline.arrRef spec0 w)) (c : Dev nD) :
    (d0 c).arrAt 1 cfg0.N = V8 m outs c (Pipeline.arrRef spec0 1) :=
  (((d0 c).arrAt_in 1 rfl _).trans (hA c 1)).trans (V8_of m outs c _ (by decide)).symm
theorem hF0_in2 (d0 : (c : Dev nD) → Dat τ (Elt F) Unit ℕ (UR sig nD τ) ℕ cfg0 c) (hA : ∀ c w, (d0 c).A w = V7 m c (Pipeline.arrRef spec0 w)) (c : Dev nD) :
    (d0 c).arrAt 2 cfg0.N = V8 m outs c (Pipeline.arrRef spec0 2) :=
  (((d0 c).arrAt_in 2 rfl _).trans (hA c 2)).trans (V8_of m outs c _ (by decide)).symm
theorem hF0_in3 (d0 : (c : Dev nD) → Dat τ (Elt F) Unit ℕ (UR sig nD τ) ℕ cfg0 c) (hA : ∀ c w, (d0 c).A w = V7 m c (Pipeline.arrRef spec0 w)) (c : Dev nD) :
    (d0 c).arrAt 3 cfg0.N = V8 m outs c (Pipeline.arrRef spec0 3) :=
  (((d0 c).arrAt_in 3 rfl _).trans (hA c 3)).trans (V8_of m outs c _ (by decide)).symm
theorem hF0_out0 (d0 : (c : Dev nD) → Dat τ (Elt F) Unit ℕ (UR sig nD τ) ℕ cfg0 c) (c : Dev nD) (ho : outs 8 main_v23_0 c = (d0 c).arrAt 4 cfg0.N) :
    (d0 c).arrAt 4 cfg0.N = V8 m outs c (Pipeline.arrRef spec0 4) :=
  ho.symm.trans (V8_out0 m outs c).symm
theorem hF0_out1 (d0 : (c : Dev nD) → Dat τ (Elt F) Unit ℕ (UR sig nD τ) ℕ cfg0 c) (c : Dev nD) (ho : outs 8 main_v23_1 c = (d0 c).arrAt 5 cfg0.N) :
    (d0 c).arrAt 5 cfg0.N = V8 m outs c (Pipeline.arrRef spec0 5) :=
  ho.symm.trans (V8_out1 m outs c).symm
theorem hF0_out2 (d0 : (c : Dev nD) → Dat τ (Elt F) Unit ℕ (UR sig nD τ) ℕ cfg0 c) (c : Dev nD) (ho : outs 8 main_v23_2 c = (d0 c).arrAt 6 cfg0.N) :
    (d0 c).arrAt 6 cfg0.N = V8 m outs c (Pipeline.arrRef spec0 6) :=
  ho.symm.trans (V8_out2 m outs c).symm

/-- At region 0's exit each of its arrays holds what the pipeline leaves: an input's array is never written and is no
    result, so the exit valuation has it at the entry contents; a result's array is the unknown the valuation is written over. -/
theorem hF0 (d0 : (c : Dev nD) → Dat τ (Elt F) Unit ℕ (UR sig nD τ) ℕ cfg0 c)
    (hA : ∀ c w, (d0 c).A w = V7 m c (Pipeline.arrRef spec0 w))
    (ho : ∀ c, outs 8 main_v23_0 c = (d0 c).arrAt 4 cfg0.N ∧ outs 8 main_v23_1 c = (d0 c).arrAt 5 cfg0.N ∧ outs 8 main_v23_2 c = (d0 c).arrAt 6 cfg0.N)
    (c : Dev nD) : ∀ w : Fin 7, (d0 c).arrAt w cfg0.N = V8 m outs c (Pipeline.arrRef spec0 w) :=
  forall_fin7 (P := fun w => (d0 c).arrAt w cfg0.N = V8 m outs c (Pipeline.arrRef spec0 w))
    (hF0_in0 m outs d0 hA c) (hF0_in1 m outs d0 hA c) (hF0_in2 m outs d0 hA c) (hF0_in3 m outs d0 hA c)
    (hF0_out0 m outs d0 c (ho c).1) (hF0_out1 m outs d0 c (ho c).2.1) (hF0_out2 m outs d0 c (ho c).2.2)

/-- and every buffer that is no array of the region holds what it held at entry. -/
theorem hrest0 (c : Dev nD) : ∀ b : Ref sig .tc, b ∉ Finset.univ.image (Pipeline.arrRef spec0) → V8 m outs c b = V7 m c b := fun b hb =>
  V8_of m outs c b (by
    intro hmem
    simp only [List.mem_cons, List.mem_nil_iff, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

/-! ### Region 0 as a segment -/

set_option backward.isDefEq.respectTransparency.types false in
/-- REGION 0 over the thread state: entered from every unscoped buffer at the valuation before it, left at the one after
    it. Its arrays split out of the unscoped buffers and put back at the exit contents; the generator register into the
    body's invariant and out; nothing owed; no semaphore of the kernel's own. -/
def regOf0 (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA : ∀ c w, (d0 c).A w = V7 m c (Pipeline.arrRef spec0 w))
    (hq : ∀ c w, (d0 c).q w = fullShare) (howed : ∀ c t, (d0 c).owed t = 0) (hrec : ∀ c, (d0 c).recorded 0 = Set.univ)
    (hbody : ∀ c, BodyObligation (d0 c) (defs₀ (F := F)) Variants.none () Set.univ)
    (hin : ∀ c, Pipeline.ΦA spec0 c ⊢ (d0 c).Φ 0) (hout : ∀ c, (d0 c).Φ (Fin.last cfg0.N) ⊢ Pipeline.ΦA spec0 c)
    (ho : ∀ c, outs 8 main_v23_0 c = (d0 c).arrAt 4 cfg0.N ∧ outs 8 main_v23_1 c = (d0 c).arrAt 5 cfg0.N ∧ outs 8 main_v23_2 c = (d0 c).arrAt 6 cfg0.N) :
    Pipeline.RegionSeg (pcfgs (F := F)) adm (pdatsOf d0 d1 d2) () defs₀ Variants.none runL runLv 0 where
  win := launch0.win.to₀
  block_pos := launch0.block_pos
  stage_whole := launch0.stage_whole
  K := PEmpty
  osem k := k.elim
  ho := Pipeline.OwnSemFacts.none _
  hbody c := (hbody c).loose
  hwaits := Pipeline.hwaits_of_owed_zero _ _ _ _ runL runLv 0 fun c t => howed c t
  pre c := iprop(StableHlo.held (c : Thread nD τ) (Pipeline.ucRefs τ sig) (V7 m c) ∗ runR c)
  post c := iprop(StableHlo.held (c : Thread nD τ) (Pipeline.ucRefs τ sig) (V8 m outs c) ∗ runR c)
  X c := iprop(∃ r, prngReg c r)
  Y c := iprop(∃ r, prngReg c r)
  Z c := Pipeline.unscopedRest (Ix := Unit) (Name := ℕ) (U := UR sig nD τ) (Lvl := ℕ) spec0 c (fun b => V7 m c b)
  hentry c := by
    rw [Pipeline.ownSems0_none]
    have hsplit := Pipeline.arrays_of_unscopedBufs (p := 0) (pcfgs (F := F)) adm (pdatsOf d0 d1 d2) launch0.win launch0.arr_whole c
      ((pdatsOf d0 d1 d2 0 c).share_full fun w => hq c w) (fun b => V7 m c b) fun w => hA c w
    rw [Pipeline.unscopedBufs_held c (V7 m c)] at hsplit
    have h0 : (pdatsOf d0 d1 d2 0 c).owed 0 = 0 := howed c 0
    have hr0 : (pdatsOf d0 d1 d2 0 c).recorded 0 = Set.univ := hrec c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr0]
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (hin c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout c).trans h
  hexit c := by
    have hjoin := Pipeline.unscopedBufs_of_arrays (p := 0) (pcfgs (F := F)) adm (Ix := Unit) (Name := ℕ) (U := UR sig nD τ) (Lvl := ℕ)
      launch0.win launch0.arr_whole c (pdatsOf d0 d1 d2) ((pdatsOf d0 d1 d2 0 c).share_full fun w => hq c w)
      (fun b => V7 m c b) (fun b => V8 m outs c b) ((pdatsOf d0 d1 d2 0 c).arrAt · cfg0.N) (hF0 m outs d0 hA ho c) (hrest0 m outs c)
    rw [Pipeline.unscopedBufs_held c (V8 m outs c)] at hjoin
    have hN : (pdatsOf d0 d1 d2 0 c).owed (Fin.last (Pipeline.pin (pcfgs (F := F)) adm 0).N) = 0 := howed c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

/-! ### Region 1's exit valuation at its three results -/

theorem V16_out0 (c : Dev nD) : V16 m outs c main_v37_0 = outs 16 main_v37_0 c := by
  simp only [V16, Function.update_of_ne (StableHlo.devRef_ne_of_ne (by decide) : (Proc.devRef .tc main_v37_0 : DevRef τ sig) ≠ Proc.devRef .tc main_v37_2), Function.update_of_ne (StableHlo.devRef_ne_of_ne (by decide) : (Proc.devRef .tc main_v37_0 : DevRef τ sig) ≠ Proc.devRef .tc main_v37_1), Function.update_self]
theorem V16_out1 (c : Dev nD) : V16 m outs c main_v37_1 = outs 16 main_v37_1 c := by
  simp only [V16, Function.update_of_ne (StableHlo.devRef_ne_of_ne (by decide) : (Proc.devRef .tc main_v37_1 : DevRef τ sig) ≠ Proc.devRef .tc main_v37_2), Function.update_self]
theorem V16_out2 (c : Dev nD) : V16 m outs c main_v37_2 = outs 16 main_v37_2 c := by
  simp only [V16, Function.update_self]

/-! ### Region 1's arrays at its exit -/

theorem hF1_in0 (d1 : (c : Dev nD) → Dat τ (Elt F) Unit ℕ (UR sig nD τ) ℕ cfg1 c) (hA : ∀ c w, (d1 c).A w = V15 m outs c (Pipeline.arrRef spec1 w)) (c : Dev nD) :
    (d1 c).arrAt 0 cfg1.N = V16 m outs c (Pipeline.arrRef spec1 0) :=
  (((d1 c).arrAt_in 0 rfl _).trans (hA c 0)).trans (V16_of m outs c _ (by decide)).symm
theorem hF1_in1 (d1 : (c : Dev nD) → Dat τ (Elt F) Unit ℕ (UR sig nD τ) ℕ cfg1 c) (hA : ∀ c w, (d1 c).A w = V15 m outs c (Pipeline.arrRef spec1 w)) (c : Dev nD) :
    (d1 c).arrAt 1 cfg1.N = V16 m outs c (Pipeline.arrRef spec1 1) :=
  (((d1 c).arrAt_in 1 rfl _).trans (hA c 1)).trans (V16_of m outs c _ (by decide)).symm
theorem hF1_in2 (d1 : (c : Dev nD) → Dat τ (Elt F) Unit ℕ (UR sig nD τ) ℕ cfg1 c) (hA : ∀ c w, (d1 c).A w = V15 m outs c (Pipeline.arrRef spec1 w)) (c : Dev nD) :
    (d1 c).arrAt 2 cfg1.N = V16 m outs c (Pipeline.arrRef spec1 2) :=
  (((d1 c).arrAt_in 2 rfl _).trans (hA c 2)).trans (V16_of m outs c _ (by decide)).symm
theorem hF1_in3 (d1 : (c : Dev nD) → Dat τ (Elt F) Unit ℕ (UR sig nD τ) ℕ cfg1 c) (hA : ∀ c w, (d1 c).A w = V15 m outs c (Pipeline.arrRef spec1 w)) (c : Dev nD) :
    (d1 c).arrAt 3 cfg1.N = V16 m outs c (Pipeline.arrRef spec1 3) :=
  (((d1 c).arrAt_in 3 rfl _).trans (hA c 3)).trans (V16_of m outs c _ (by decide)).symm
theorem hF1_out0 (d1 : (c : Dev nD) → Dat τ (Elt F) Unit ℕ (UR sig nD τ) ℕ cfg1 c) (c : Dev nD) (ho : outs 16 main_v37_0 c = (d1 c).arrAt 4 cfg1.N) :
    (d1 c).arrAt 4 cfg1.N = V16 m outs c (Pipeline.arrRef spec1 4) :=
  ho.symm.trans (V16_out0 m outs c).symm
theorem hF1_out1 (d1 : (c : Dev nD) → Dat τ (Elt F) Unit ℕ (UR sig nD τ) ℕ cfg1 c) (c : Dev nD) (ho : outs 16 main_v37_1 c = (d1 c).arrAt 5 cfg1.N) :
    (d1 c).arrAt 5 cfg1.N = V16 m outs c (Pipeline.arrRef spec1 5) :=
  ho.symm.trans (V16_out1 m outs c).symm
theorem hF1_out2 (d1 : (c : Dev nD) → Dat τ (Elt F) Unit ℕ (UR sig nD τ) ℕ cfg1 c) (c : Dev nD) (ho : outs 16 main_v37_2 c = (d1 c).arrAt 6 cfg1.N) :
    (d1 c).arrAt 6 cfg1.N = V16 m outs c (Pipeline.arrRef spec1 6) :=
  ho.symm.trans (V16_out2 m outs c).symm

/-- At region 1's exit each of its arrays holds what the pipeline leaves: an input's array is never written and is no
    result, so the exit valuation has it at the entry contents; a result's array is the unknown the valuation is written over. -/
theorem hF1 (d1 : (c : Dev nD) → Dat τ (Elt F) Unit ℕ (UR sig nD τ) ℕ cfg1 c)
    (hA : ∀ c w, (d1 c).A w = V15 m outs c (Pipeline.arrRef spec1 w))
    (ho : ∀ c, outs 16 main_v37_0 c = (d1 c).arrAt 4 cfg1.N ∧ outs 16 main_v37_1 c = (d1 c).arrAt 5 cfg1.N ∧ outs 16 main_v37_2 c = (d1 c).arrAt 6 cfg1.N)
    (c : Dev nD) : ∀ w : Fin 7, (d1 c).arrAt w cfg1.N = V16 m outs c (Pipeline.arrRef spec1 w) :=
  forall_fin7 (P := fun w => (d1 c).arrAt w cfg1.N = V16 m outs c (Pipeline.arrRef spec1 w))
    (hF1_in0 m outs d1 hA c) (hF1_in1 m outs d1 hA c) (hF1_in2 m outs d1 hA c) (hF1_in3 m outs d1 hA c)
    (hF1_out0 m outs d1 c (ho c).1) (hF1_out1 m outs d1 c (ho c).2.1) (hF1_out2 m outs d1 c (ho c).2.2)

/-- and every buffer that is no array of the region holds what it held at entry. -/
theorem hrest1 (c : Dev nD) : ∀ b : Ref sig .tc, b ∉ Finset.univ.image (Pipeline.arrRef spec1) → V16 m outs c b = V15 m outs c b := fun b hb =>
  V16_of m outs c b (by
    intro hmem
    simp only [List.mem_cons, List.mem_nil_iff, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

/-! ### Region 1 as a segment -/

set_option backward.isDefEq.respectTransparency.types false in
/-- REGION 1 over the thread state: entered from every unscoped buffer at the valuation before it, left at the one after
    it. Its arrays split out of the unscoped buffers and put back at the exit contents; the generator register into the
    body's invariant and out; nothing owed; no semaphore of the kernel's own. -/
def regOf1 (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA : ∀ c w, (d1 c).A w = V15 m outs c (Pipeline.arrRef spec1 w))
    (hq : ∀ c w, (d1 c).q w = fullShare) (howed : ∀ c t, (d1 c).owed t = 0) (hrec : ∀ c, (d1 c).recorded 0 = Set.univ)
    (hbody : ∀ c, BodyObligation (d1 c) (defs₀ (F := F)) Variants.none () Set.univ)
    (hin : ∀ c, Pipeline.ΦA spec1 c ⊢ (d1 c).Φ 0) (hout : ∀ c, (d1 c).Φ (Fin.last cfg1.N) ⊢ Pipeline.ΦA spec1 c)
    (ho : ∀ c, outs 16 main_v37_0 c = (d1 c).arrAt 4 cfg1.N ∧ outs 16 main_v37_1 c = (d1 c).arrAt 5 cfg1.N ∧ outs 16 main_v37_2 c = (d1 c).arrAt 6 cfg1.N) :
    Pipeline.RegionSeg (pcfgs (F := F)) adm (pdatsOf d0 d1 d2) () defs₀ Variants.none runL runLv 1 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ runL runLv 1 fun c t => howed c t
  pre c := iprop(StableHlo.held (c : Thread nD τ) (Pipeline.ucRefs τ sig) (V15 m outs c) ∗ runR c)
  post c := iprop(StableHlo.held (c : Thread nD τ) (Pipeline.ucRefs τ sig) (V16 m outs c) ∗ runR c)
  X c := iprop(∃ r, prngReg c r)
  Y c := iprop(∃ r, prngReg c r)
  Z c := Pipeline.unscopedRest (Ix := Unit) (Name := ℕ) (U := UR sig nD τ) (Lvl := ℕ) spec1 c (fun b => V15 m outs c b)
  hentry c := by
    rw [Pipeline.ownSems0_none]
    have hsplit := Pipeline.arrays_of_unscopedBufs (p := 1) (pcfgs (F := F)) adm (pdatsOf d0 d1 d2) launch1.win launch1.arr_whole c
      ((pdatsOf d0 d1 d2 1 c).share_full fun w => hq c w) (fun b => V15 m outs c b) fun w => hA c w
    rw [Pipeline.unscopedBufs_held c (V15 m outs c)] at hsplit
    have h0 : (pdatsOf d0 d1 d2 1 c).owed 0 = 0 := howed c 0
    have hr0 : (pdatsOf d0 d1 d2 1 c).recorded 0 = Set.univ := hrec c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr0]
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout c).trans h
  hexit c := by
    have hjoin := Pipeline.unscopedBufs_of_arrays (p := 1) (pcfgs (F := F)) adm (Ix := Unit) (Name := ℕ) (U := UR sig nD τ) (Lvl := ℕ)
      launch1.win launch1.arr_whole c (pdatsOf d0 d1 d2) ((pdatsOf d0 d1 d2 1 c).share_full fun w => hq c w)
      (fun b => V15 m outs c b) (fun b => V16 m outs c b) ((pdatsOf d0 d1 d2 1 c).arrAt · cfg1.N) (hF1 m outs d1 hA ho c) (hrest1 m outs c)
    rw [Pipeline.unscopedBufs_held c (V16 m outs c)] at hjoin
    have hN : (pdatsOf d0 d1 d2 1 c).owed (Fin.last (Pipeline.pin (pcfgs (F := F)) adm 1).N) = 0 := howed c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

/-! ### Region 2's exit valuation at its three results -/

theorem V24_out0 (c : Dev nD) : V24 m outs c main_v51_0 = outs 24 main_v51_0 c := by
  simp only [V24, Function.update_of_ne (StableHlo.devRef_ne_of_ne (by decide) : (Proc.devRef .tc main_v51_0 : DevRef τ sig) ≠ Proc.devRef .tc main_v51_2), Function.update_of_ne (StableHlo.devRef_ne_of_ne (by decide) : (Proc.devRef .tc main_v51_0 : DevRef τ sig) ≠ Proc.devRef .tc main_v51_1), Function.update_self]
theorem V24_out1 (c : Dev nD) : V24 m outs c main_v51_1 = outs 24 main_v51_1 c := by
  simp only [V24, Function.update_of_ne (StableHlo.devRef_ne_of_ne (by decide) : (Proc.devRef .tc main_v51_1 : DevRef τ sig) ≠ Proc.devRef .tc main_v51_2), Function.update_self]
theorem V24_out2 (c : Dev nD) : V24 m outs c main_v51_2 = outs 24 main_v51_2 c := by
  simp only [V24, Function.update_self]

/-! ### Region 2's arrays at its exit -/

theorem hF2_in0 (d2 : (c : Dev nD) → Dat τ (Elt F) Unit ℕ (UR sig nD τ) ℕ cfg2 c) (hA : ∀ c w, (d2 c).A w = V23 m outs c (Pipeline.arrRef spec2 w)) (c : Dev nD) :
    (d2 c).arrAt 0 cfg2.N = V24 m outs c (Pipeline.arrRef spec2 0) :=
  (((d2 c).arrAt_in 0 rfl _).trans (hA c 0)).trans (V24_of m outs c _ (by decide)).symm
theorem hF2_in1 (d2 : (c : Dev nD) → Dat τ (Elt F) Unit ℕ (UR sig nD τ) ℕ cfg2 c) (hA : ∀ c w, (d2 c).A w = V23 m outs c (Pipeline.arrRef spec2 w)) (c : Dev nD) :
    (d2 c).arrAt 1 cfg2.N = V24 m outs c (Pipeline.arrRef spec2 1) :=
  (((d2 c).arrAt_in 1 rfl _).trans (hA c 1)).trans (V24_of m outs c _ (by decide)).symm
theorem hF2_in2 (d2 : (c : Dev nD) → Dat τ (Elt F) Unit ℕ (UR sig nD τ) ℕ cfg2 c) (hA : ∀ c w, (d2 c).A w = V23 m outs c (Pipeline.arrRef spec2 w)) (c : Dev nD) :
    (d2 c).arrAt 2 cfg2.N = V24 m outs c (Pipeline.arrRef spec2 2) :=
  (((d2 c).arrAt_in 2 rfl _).trans (hA c 2)).trans (V24_of m outs c _ (by decide)).symm
theorem hF2_in3 (d2 : (c : Dev nD) → Dat τ (Elt F) Unit ℕ (UR sig nD τ) ℕ cfg2 c) (hA : ∀ c w, (d2 c).A w = V23 m outs c (Pipeline.arrRef spec2 w)) (c : Dev nD) :
    (d2 c).arrAt 3 cfg2.N = V24 m outs c (Pipeline.arrRef spec2 3) :=
  (((d2 c).arrAt_in 3 rfl _).trans (hA c 3)).trans (V24_of m outs c _ (by decide)).symm
theorem hF2_out0 (d2 : (c : Dev nD) → Dat τ (Elt F) Unit ℕ (UR sig nD τ) ℕ cfg2 c) (c : Dev nD) (ho : outs 24 main_v51_0 c = (d2 c).arrAt 4 cfg2.N) :
    (d2 c).arrAt 4 cfg2.N = V24 m outs c (Pipeline.arrRef spec2 4) :=
  ho.symm.trans (V24_out0 m outs c).symm
theorem hF2_out1 (d2 : (c : Dev nD) → Dat τ (Elt F) Unit ℕ (UR sig nD τ) ℕ cfg2 c) (c : Dev nD) (ho : outs 24 main_v51_1 c = (d2 c).arrAt 5 cfg2.N) :
    (d2 c).arrAt 5 cfg2.N = V24 m outs c (Pipeline.arrRef spec2 5) :=
  ho.symm.trans (V24_out1 m outs c).symm
theorem hF2_out2 (d2 : (c : Dev nD) → Dat τ (Elt F) Unit ℕ (UR sig nD τ) ℕ cfg2 c) (c : Dev nD) (ho : outs 24 main_v51_2 c = (d2 c).arrAt 6 cfg2.N) :
    (d2 c).arrAt 6 cfg2.N = V24 m outs c (Pipeline.arrRef spec2 6) :=
  ho.symm.trans (V24_out2 m outs c).symm

/-- At region 2's exit each of its arrays holds what the pipeline leaves: an input's array is never written and is no
    result, so the exit valuation has it at the entry contents; a result's array is the unknown the valuation is written over. -/
theorem hF2 (d2 : (c : Dev nD) → Dat τ (Elt F) Unit ℕ (UR sig nD τ) ℕ cfg2 c)
    (hA : ∀ c w, (d2 c).A w = V23 m outs c (Pipeline.arrRef spec2 w))
    (ho : ∀ c, outs 24 main_v51_0 c = (d2 c).arrAt 4 cfg2.N ∧ outs 24 main_v51_1 c = (d2 c).arrAt 5 cfg2.N ∧ outs 24 main_v51_2 c = (d2 c).arrAt 6 cfg2.N)
    (c : Dev nD) : ∀ w : Fin 7, (d2 c).arrAt w cfg2.N = V24 m outs c (Pipeline.arrRef spec2 w) :=
  forall_fin7 (P := fun w => (d2 c).arrAt w cfg2.N = V24 m outs c (Pipeline.arrRef spec2 w))
    (hF2_in0 m outs d2 hA c) (hF2_in1 m outs d2 hA c) (hF2_in2 m outs d2 hA c) (hF2_in3 m outs d2 hA c)
    (hF2_out0 m outs d2 c (ho c).1) (hF2_out1 m outs d2 c (ho c).2.1) (hF2_out2 m outs d2 c (ho c).2.2)

/-- and every buffer that is no array of the region holds what it held at entry. -/
theorem hrest2 (c : Dev nD) : ∀ b : Ref sig .tc, b ∉ Finset.univ.image (Pipeline.arrRef spec2) → V24 m outs c b = V23 m outs c b := fun b hb =>
  V24_of m outs c b (by
    intro hmem
    simp only [List.mem_cons, List.mem_nil_iff, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

/-! ### Region 2 as a segment -/

set_option backward.isDefEq.respectTransparency.types false in
/-- REGION 2 over the thread state: entered from every unscoped buffer at the valuation before it, left at the one after
    it. Its arrays split out of the unscoped buffers and put back at the exit contents; the generator register into the
    body's invariant and out; nothing owed; no semaphore of the kernel's own. -/
def regOf2 (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA : ∀ c w, (d2 c).A w = V23 m outs c (Pipeline.arrRef spec2 w))
    (hq : ∀ c w, (d2 c).q w = fullShare) (howed : ∀ c t, (d2 c).owed t = 0) (hrec : ∀ c, (d2 c).recorded 0 = Set.univ)
    (hbody : ∀ c, BodyObligation (d2 c) (defs₀ (F := F)) Variants.none () Set.univ)
    (hin : ∀ c, Pipeline.ΦA spec2 c ⊢ (d2 c).Φ 0) (hout : ∀ c, (d2 c).Φ (Fin.last cfg2.N) ⊢ Pipeline.ΦA spec2 c)
    (ho : ∀ c, outs 24 main_v51_0 c = (d2 c).arrAt 4 cfg2.N ∧ outs 24 main_v51_1 c = (d2 c).arrAt 5 cfg2.N ∧ outs 24 main_v51_2 c = (d2 c).arrAt 6 cfg2.N) :
    Pipeline.RegionSeg (pcfgs (F := F)) adm (pdatsOf d0 d1 d2) () defs₀ Variants.none runL runLv 2 where
  win := launch2.win.to₀
  block_pos := launch2.block_pos
  stage_whole := launch2.stage_whole
  K := PEmpty
  osem k := k.elim
  ho := Pipeline.OwnSemFacts.none _
  hbody c := (hbody c).loose
  hwaits := Pipeline.hwaits_of_owed_zero _ _ _ _ runL runLv 2 fun c t => howed c t
  pre c := iprop(StableHlo.held (c : Thread nD τ) (Pipeline.ucRefs τ sig) (V23 m outs c) ∗ runR c)
  post c := iprop(StableHlo.held (c : Thread nD τ) (Pipeline.ucRefs τ sig) (V24 m outs c) ∗ runR c)
  X c := iprop(∃ r, prngReg c r)
  Y c := iprop(∃ r, prngReg c r)
  Z c := Pipeline.unscopedRest (Ix := Unit) (Name := ℕ) (U := UR sig nD τ) (Lvl := ℕ) spec2 c (fun b => V23 m outs c b)
  hentry c := by
    rw [Pipeline.ownSems0_none]
    have hsplit := Pipeline.arrays_of_unscopedBufs (p := 2) (pcfgs (F := F)) adm (pdatsOf d0 d1 d2) launch2.win launch2.arr_whole c
      ((pdatsOf d0 d1 d2 2 c).share_full fun w => hq c w) (fun b => V23 m outs c b) fun w => hA c w
    rw [Pipeline.unscopedBufs_held c (V23 m outs c)] at hsplit
    have h0 : (pdatsOf d0 d1 d2 2 c).owed 0 = 0 := howed c 0
    have hr0 : (pdatsOf d0 d1 d2 2 c).recorded 0 = Set.univ := hrec c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr0]
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin c)
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout c).trans h
  hexit c := by
    have hjoin := Pipeline.unscopedBufs_of_arrays (p := 2) (pcfgs (F := F)) adm (Ix := Unit) (Name := ℕ) (U := UR sig nD τ) (Lvl := ℕ)
      launch2.win launch2.arr_whole c (pdatsOf d0 d1 d2) ((pdatsOf d0 d1 d2 2 c).share_full fun w => hq c w)
      (fun b => V23 m outs c b) (fun b => V24 m outs c b) ((pdatsOf d0 d1 d2 2 c).arrAt · cfg2.N) (hF2 m outs d2 hA ho c) (hrest2 m outs c)
    rw [Pipeline.unscopedBufs_held c (V24 m outs c)] at hjoin
    have hN : (pdatsOf d0 d1 d2 2 c).owed (Fin.last (Pipeline.pin (pcfgs (F := F)) adm 2).N) = 0 := howed c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

/-! ## The run from the three pipelines' proof data -/

set_option backward.isDefEq.respectTransparency.types false in
/-- THE RUN. Given, per region, proof data whose arrays are the entry valuation's (`hAK`), held whole (`hqK`), owing
    nothing (`howedK`) with no bound on the recorded pairs at entry (`hrecK`), with the body obligation (`hbodyK`) and an
    invariant entered from and left at the scoped rest beside the generator register (`hinK`, `houtK`), and whose three
    results' arrays at the last point are the unknowns the valuations are written over (`hoJ`): every weakly fair
    execution of @main from memory `m` with zero counters terminates, and in every final memory each unscoped buffer of
    each core holds the last valuation's contents. -/
theorem run_regions (ρ : Dev nD → PrngReg)
    (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA0 : ∀ c w, (d0 c).A w = V7 m c (Pipeline.arrRef spec0 w))
    (hq0 : ∀ c w, (d0 c).q w = fullShare) (howed0 : ∀ c t, (d0 c).owed t = 0) (hrec0 : ∀ c, (d0 c).recorded 0 = Set.univ)
    (hbody0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (ho8 : ∀ c, outs 8 main_v23_0 c = (d0 c).arrAt 4 cfg0.N ∧ outs 8 main_v23_1 c = (d0 c).arrAt 5 cfg0.N ∧ outs 8 main_v23_2 c = (d0 c).arrAt 6 cfg0.N)
    (hA1 : ∀ c w, (d1 c).A w = V15 m outs c (Pipeline.arrRef spec1 w))
    (hq1 : ∀ c w, (d1 c).q w = fullShare) (howed1 : ∀ c t, (d1 c).owed t = 0) (hrec1 : ∀ c, (d1 c).recorded 0 = Set.univ)
    (hbody1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c)
    (ho16 : ∀ c, outs 16 main_v37_0 c = (d1 c).arrAt 4 cfg1.N ∧ outs 16 main_v37_1 c = (d1 c).arrAt 5 cfg1.N ∧ outs 16 main_v37_2 c = (d1 c).arrAt 6 cfg1.N)
    (hA2 : ∀ c w, (d2 c).A w = V23 m outs c (Pipeline.arrRef spec2 w))
    (hq2 : ∀ c w, (d2 c).q w = fullShare) (howed2 : ∀ c t, (d2 c).owed t = 0) (hrec2 : ∀ c, (d2 c).recorded 0 = Set.univ)
    (hbody2 : ∀ c, BodyObligation (d2 c) (defs₀ (F := F)) Variants.none () Set.univ)
    (hin2 : ∀ c, Pipeline.ΦA spec2 c ⊢ (d2 c).Φ 0) (hout2 : ∀ c, (d2 c).Φ (Fin.last cfg2.N) ⊢ Pipeline.ΦA spec2 c)
    (ho24 : ∀ c, outs 24 main_v51_0 c = (d2 c).arrAt 4 cfg2.N ∧ outs 24 main_v51_1 c = (d2 c).arrAt 5 cfg2.N ∧ outs 24 main_v51_2 c = (d2 c).arrAt 6 cfg2.N) :
    θ_run defs (onTc (τ := τ) (main (F := F))) ⟨m, fun _ => 0, ρ⟩ (fun r => ∀ c : Dev nD, ∀ b ∈ Pipeline.ucRefs τ sig,
      r.2.mem ((c : Thread nD τ).1, b) = V25 m outs c b) :=
  run_cond m (Ix := Unit) (U := UR sig nD τ) (Lvl := ℕ) emb₁ () Variants.none runL runLv (fun _ _ => rfl) ρ outs (pdatsOf d0 d1 d2)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := regOf0 m outs d0 d1 d2 hA0 hq0 howed0 hrec0 hbody0 hin0 hout0 ho8) (hpre0 := fun _ => .rfl) (hpost0 := fun _ => .rfl)
    (R1 := regOf1 m outs d0 d1 d2 hA1 hq1 howed1 hrec1 hbody1 hin1 hout1 ho16) (hpre1 := fun _ => .rfl) (hpost1 := fun _ => .rfl)
    (R2 := regOf2 m outs d0 d1 d2 hA2 hq2 howed2 hrec2 hbody2 hin2 hout2 ho24) (hpre2 := fun _ => .rfl) (hpost2 := fun _ => .rfl)

/-! ## The frame and the result, read off the last valuation -/

/-- The six argument arrays end as launched: no host stretch writes one and no region may change one. -/
theorem frame_of_regions (ρ : Dev nD → PrngReg)
    (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA0 : ∀ c w, (d0 c).A w = V7 m c (Pipeline.arrRef spec0 w))
    (hq0 : ∀ c w, (d0 c).q w = fullShare) (howed0 : ∀ c t, (d0 c).owed t = 0) (hrec0 : ∀ c, (d0 c).recorded 0 = Set.univ)
    (hbody0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (ho8 : ∀ c, outs 8 main_v23_0 c = (d0 c).arrAt 4 cfg0.N ∧ outs 8 main_v23_1 c = (d0 c).arrAt 5 cfg0.N ∧ outs 8 main_v23_2 c = (d0 c).arrAt 6 cfg0.N)
    (hA1 : ∀ c w, (d1 c).A w = V15 m outs c (Pipeline.arrRef spec1 w))
    (hq1 : ∀ c w, (d1 c).q w = fullShare) (howed1 : ∀ c t, (d1 c).owed t = 0) (hrec1 : ∀ c, (d1 c).recorded 0 = Set.univ)
    (hbody1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c)
    (ho16 : ∀ c, outs 16 main_v37_0 c = (d1 c).arrAt 4 cfg1.N ∧ outs 16 main_v37_1 c = (d1 c).arrAt 5 cfg1.N ∧ outs 16 main_v37_2 c = (d1 c).arrAt 6 cfg1.N)
    (hA2 : ∀ c w, (d2 c).A w = V23 m outs c (Pipeline.arrRef spec2 w))
    (hq2 : ∀ c w, (d2 c).q w = fullShare) (howed2 : ∀ c t, (d2 c).owed t = 0) (hrec2 : ∀ c, (d2 c).recorded 0 = Set.univ)
    (hbody2 : ∀ c, BodyObligation (d2 c) (defs₀ (F := F)) Variants.none () Set.univ)
    (hin2 : ∀ c, Pipeline.ΦA spec2 c ⊢ (d2 c).Φ 0) (hout2 : ∀ c, (d2 c).Φ (Fin.last cfg2.N) ⊢ Pipeline.ΦA spec2 c)
    (ho24 : ∀ c, outs 24 main_v51_0 c = (d2 c).arrAt 4 cfg2.N ∧ outs 24 main_v51_1 c = (d2 c).arrAt 5 cfg2.N ∧ outs 24 main_v51_2 c = (d2 c).arrAt 6 cfg2.N) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V25_main_arg0 m outs c),
     (h c _ (mem_uc main_arg1 (by decide))).trans (V25_main_arg1 m outs c),
     (h c _ (mem_uc main_arg2 (by decide))).trans (V25_main_arg2 m outs c),
     (h c _ (mem_uc main_arg3 (by decide))).trans (V25_main_arg3 m outs c),
     (h c _ (mem_uc main_arg4 (by decide))).trans (V25_main_arg4 m outs c),
     (h c _ (mem_uc main_arg5 (by decide))).trans (V25_main_arg5 m outs c)⟩)
    (run_regions m outs ρ d0 d1 d2 hA0 hq0 howed0 hrec0 hbody0 hin0 hout0 ho8 hA1 hq1 howed1 hrec1 hbody1 hin1 hout1 ho16 hA2 hq2 howed2 hrec2 hbody2 hin2 hout2 ho24)

/-- The result's buffer ends at the last valuation's contents. -/
theorem result_of_regions (ρ : Dev nD → PrngReg)
    (d0 : (c : Dev nD) → Dat τ (Elt F) Unit ℕ (UR sig nD τ) ℕ cfg0 c) (d1 : (c : Dev nD) → Dat τ (Elt F) Unit ℕ (UR sig nD τ) ℕ cfg1 c) (d2 : (c : Dev nD) → Dat τ (Elt F) Unit ℕ (UR sig nD τ) ℕ cfg2 c)
    (hA0 : ∀ c w, (d0 c).A w = V7 m c (Pipeline.arrRef spec0 w))
    (hq0 : ∀ c w, (d0 c).q w = fullShare) (howed0 : ∀ c t, (d0 c).owed t = 0) (hrec0 : ∀ c, (d0 c).recorded 0 = Set.univ)
    (hbody0 : ∀ c, BodyObligation (d0 c) (defs₀ (F := F)) Variants.none () Set.univ)
    (hin0 : ∀ c, Pipeline.ΦA spec0 c ⊢ (d0 c).Φ 0) (hout0 : ∀ c, (d0 c).Φ (Fin.last cfg0.N) ⊢ Pipeline.ΦA spec0 c)
    (ho8 : ∀ c, outs 8 main_v23_0 c = (d0 c).arrAt 4 cfg0.N ∧ outs 8 main_v23_1 c = (d0 c).arrAt 5 cfg0.N ∧ outs 8 main_v23_2 c = (d0 c).arrAt 6 cfg0.N)
    (hA1 : ∀ c w, (d1 c).A w = V15 m outs c (Pipeline.arrRef spec1 w))
    (hq1 : ∀ c w, (d1 c).q w = fullShare) (howed1 : ∀ c t, (d1 c).owed t = 0) (hrec1 : ∀ c, (d1 c).recorded 0 = Set.univ)
    (hbody1 : ∀ c, BodyObligation (d1 c) (defs₀ (F := F)) Variants.none () Set.univ)
    (hin1 : ∀ c, Pipeline.ΦA spec1 c ⊢ (d1 c).Φ 0) (hout1 : ∀ c, (d1 c).Φ (Fin.last cfg1.N) ⊢ Pipeline.ΦA spec1 c)
    (ho16 : ∀ c, outs 16 main_v37_0 c = (d1 c).arrAt 4 cfg1.N ∧ outs 16 main_v37_1 c = (d1 c).arrAt 5 cfg1.N ∧ outs 16 main_v37_2 c = (d1 c).arrAt 6 cfg1.N)
    (hA2 : ∀ c w, (d2 c).A w = V23 m outs c (Pipeline.arrRef spec2 w))
    (hq2 : ∀ c w, (d2 c).q w = fullShare) (howed2 : ∀ c t, (d2 c).owed t = 0) (hrec2 : ∀ c, (d2 c).recorded 0 = Set.univ)
    (hbody2 : ∀ c, BodyObligation (d2 c) (defs₀ (F := F)) Variants.none () Set.univ)
    (hin2 : ∀ c, Pipeline.ΦA spec2 c ⊢ (d2 c).Φ 0) (hout2 : ∀ c, (d2 c).Φ (Fin.last cfg2.N) ⊢ Pipeline.ΦA spec2 c)
    (ho24 : ∀ c, outs 24 main_v51_0 c = (d2 c).arrAt 4 cfg2.N ∧ outs 24 main_v51_1 c = (d2 c).arrAt 5 cfg2.N ∧ outs 24 main_v51_2 c = (d2 c).arrAt 6 cfg2.N) :
    θ_run defs (onTc (τ := τ) (main (F := F))) ⟨m, fun _ => 0, ρ⟩ (fun r => ∀ c : Dev nD,
      r.2.mem ((c.tc : Thread nD τ).loc main_v68) = V25 m outs c (Proc.devRef .tc main_v68)) :=
  (θ_run defs _ _).mono (fun r h c => h c _ (mem_uc main_v68 (by decide)))
    (run_regions m outs ρ d0 d1 d2 hA0 hq0 howed0 hrec0 hbody0 hin0 hout0 ho8 hA1 hq1 howed1 hrec1 hbody1 hin1 hout1 ho16 hA2 hq2 howed2 hrec2 hbody2 hin2 hout2 ho24)

end Cert.KernelIdeal.Hand

end
-- ==== Proof.KI.Tile0Shared.lean ====
/- The body of region 0 (the first vocabulary split's call): what its three cases share — the region-entry
   contents as a parameter, each window's block at a point, the two branch conditions of the body decided over
   the grid, where the output windows are idle, the staging and scratch memrefs, and the region invariant with
   the three scratch operands opened; everything is stated for arbitrary region-entry contents V. -/
import proofs.«427234_j53386443489982_1_alg».proof.Proof.Gen.KernelIdeal.Launch
import proofs.«427234_j53386443489982_1_alg».proof.Proof.Gen.KernelIdeal.Skeleton
import proofs.«427234_j53386443489982_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (the column tile is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if` (the column tile is the last), from the grid coordinates. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- At the points of case A output 4 is idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B output 4 is idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C output 4 is live: the case stores into it. -/
theorem liveAt0_4_C : ∀ t : Fin cfg0.N, ¬cond0_0 (grid0.coords t) → cond0_1 (grid0.coords t) → cfg0.idle 4 (grid0.coords t) = false := by decide +kernel
/-- At the points of case A output 5 is idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B output 5 is idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C output 5 is live: the case stores into it. -/
theorem liveAt0_5_C : ∀ t : Fin cfg0.N, ¬cond0_0 (grid0.coords t) → cond0_1 (grid0.coords t) → cfg0.idle 5 (grid0.coords t) = false := by decide +kernel
/-- At the points of case A output 6 is idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B output 6 is idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C output 6 is live: the case stores into it. -/
theorem liveAt0_6_C : ∀ t : Fin cfg0.N, ¬cond0_0 (grid0.coords t) → cond0_1 (grid0.coords t) → cfg0.idle 6 (grid0.coords t) = false := by decide +kernel

/-! ## The staging and scratch memrefs -/

/-- One staging buffer of output window 4, through which its contents are stated. -/
abbrev VO0_4 : View sig .tc .vmem S1024x1 .f32 := (Memref.whole cc0_stg4_0 : Memref sig .tc .vmem S1024x1 .f32).view
/-- One staging buffer of output window 5, through which its contents are stated. -/
abbrev VO0_5 : View sig .tc .vmem S1024x1 .f32 := (Memref.whole cc0_stg5_0 : Memref sig .tc .vmem S1024x1 .f32).view
/-- One staging buffer of output window 6, through which its contents are stated. -/
abbrev VO0_6 : View sig .tc .vmem S1024x1 .f32 := (Memref.whole cc0_stg6_0 : Memref sig .tc .vmem S1024x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
/-- Scratch operand 0: a whole scoped buffer of the call's own, passed beside the windows and carried between points. -/
abbrev scM0_0 : Memref sig .tc .vmem S1024x1 .f32 := Memref.whole cc0_scratch0
abbrev VS0_0 : View sig .tc .vmem S1024x1 .f32 := scM0_0.view
/-- Scratch operand 1: a whole scoped buffer of the call's own, passed beside the windows and carried between points. -/
abbrev scM0_1 : Memref sig .tc .vmem S1024x1 .f32 := Memref.whole cc0_scratch1
abbrev VS0_1 : View sig .tc .vmem S1024x1 .f32 := scM0_1.view
/-- Scratch operand 2: a whole scoped buffer of the call's own, passed beside the windows and carried between points. -/
abbrev scM0_2 : Memref sig .tc .vmem S1024x1 .f32 := Memref.whole cc0_scratch2
abbrev VS0_2 : View sig .tc .vmem S1024x1 .f32 := scM0_2.view

/-- The scoped buffers of the core that are neither a staging buffer of this call nor one of its three scratch operands. -/
abbrev restBut0 (c : Dev nD) : sProp 𝕄 :=
  Pipeline.scopedRestBut (Ix := Unit) (Name := ℕ) (U := UR sig nD τ) (Lvl := ℕ) (Val := Elt F) spec0 c [cc0_scratch0, cc0_scratch1, cc0_scratch2]

/-- The class's region invariant with the three scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d)) ∗ restBut0 (F := F) c) ∗ (∃ r, prngReg c r)) := by
  unfold Pipeline.ΦA; rw [scopedRest0_split]; simp only [scM0_0, scM0_1, scM0_2, owns_whole]; try rfl

end Cert.KernelIdeal.Hand

end
-- ==== Proof.KI.Tile0First.lean ====
/- The body of region 0 run in its first case (the first column tile): the carried scratch starts from −∞, 0, 0, one tile of the recurrence is applied, no output is stored. -/
import proofs.«427234_j53386443489982_1_alg».proof.Proof.KI.Tile0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run IN CASE A (first column tile: the scratch reset then updated, the outputs untouched; points ≡ 0 (mod 4)): on whole memrefs — the inputs' at their
    contents, the outputs' at contents handed back untouched, the scratch at anything — the body runs to the
    continuation holding the inputs' as they were and each scratch buffer with its pieces written (last first);
    the pieces are the witness the run finds. Components: the outputs' pieces (windows 4, 5, 6), then the scratch's (0, 1, 2). -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc0__split_kernel_eq_skeleton]; unfold cc0__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.Tile0Mid.lean ====
/- The body of region 0 run in its second case (a middle column tile): the carried scratch takes one more tile of the recurrence, no output is stored. -/
import proofs.«427234_j53386443489982_1_alg».proof.Proof.KI.Tile0First

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run IN CASE B (a middle column tile: the scratch updated from what the point before left, the outputs untouched; the points that are neither ≡ 0 nor the last residue (mod 4)): on whole memrefs — the inputs' at their
    contents, the outputs' at contents handed back untouched, the scratch at the contents the point before left — the body runs to the
    continuation holding the inputs' as they were and each scratch buffer with its pieces written (last first);
    the pieces are the witness the run finds. Components: the outputs' pieces (windows 4, 5, 6), then the scratch's (0, 1, 2). -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc0__split_kernel_eq_skeleton]; unfold cc0__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.Tile0Last.lean ====
/- The body of region 0 run in its third case (the last column tile): the last tile of the recurrence, then the three outputs are stored. -/
import proofs.«427234_j53386443489982_1_alg».proof.Proof.KI.Tile0Mid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run IN CASE C (last column tile: the scratch updated from what the point before left, then the three outputs stored from it; points ≡ 3 (mod 4)): on whole memrefs — the inputs' at their
    contents, the outputs' at anything, the scratch at the contents the point before left — the body runs to the
    continuation holding the inputs' as they were and each output and scratch buffer with its pieces written (last first);
    the pieces are the witness the run finds. Components: the outputs' pieces (windows 4, 5, 6), then the scratch's (0, 1, 2). -/
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__split_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__split_kernel_eq_skeleton]; unfold cc0__split_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.KI.Tile0Data.lean ====
/- Region 0's proof data: what the outputs and the three scratch operands hold per case and point by point, the
   region invariant, the body obligation, and the invariant's two ends, for arbitrary region-entry contents V. -/
import proofs.«427234_j53386443489982_1_alg».proof.Proof.KI.Tile0Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What case A leaves in output 4's staging buffer: its pieces read back over junk (no pieces: a placeholder nothing consults, the window being idle and not written back at the case's points). -/
def out0_A_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2 x3).1)

/-- What case A leaves in output 5's staging buffer: its pieces read back over junk (no pieces: a placeholder nothing consults, the window being idle and not written back at the case's points). -/
def out0_A_5 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3).2.1)

/-- What case A leaves in output 6's staging buffer: its pieces read back over junk (no pieces: a placeholder nothing consults, the window being idle and not written back at the case's points). -/
def out0_A_6 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3).2.2.1)

/-- Case A's pieces for scratch operand 0 cover it. -/
theorem scover0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S1024x1.size (by sl_kernel_rfl) y

/-- What case A leaves in scratch operand 0: its pieces read back over junk. -/
def sout0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- Case A's pieces for scratch operand 1 cover it. -/
theorem scover0_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S1024x1.size (by sl_kernel_rfl) y

/-- What case A leaves in scratch operand 1: its pieces read back over junk. -/
def sout0_A_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.2.2.2.1)

/-- Case A's pieces for scratch operand 2 cover it. -/
theorem scover0_A_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S1024x1.size (by sl_kernel_rfl) y

/-- What case A leaves in scratch operand 2: its pieces read back over junk. -/
def sout0_A_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.2.1)

/-- What case B leaves in output 4's staging buffer: its pieces read back over junk (no pieces: a placeholder nothing consults, the window being idle and not written back at the case's points). -/
def out0_B_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).1)

/-- What case B leaves in output 5's staging buffer: its pieces read back over junk (no pieces: a placeholder nothing consults, the window being idle and not written back at the case's points). -/
def out0_B_5 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1)

/-- What case B leaves in output 6's staging buffer: its pieces read back over junk (no pieces: a placeholder nothing consults, the window being idle and not written back at the case's points). -/
def out0_B_6 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case B's pieces for scratch operand 0 cover it. -/
theorem scover0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case B leaves in scratch operand 0: its pieces read back over junk. -/
def sout0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case B's pieces for scratch operand 1 cover it. -/
theorem scover0_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case B leaves in scratch operand 1: its pieces read back over junk. -/
def sout0_B_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case B's pieces for scratch operand 2 cover it. -/
theorem scover0_B_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case B leaves in scratch operand 2: its pieces read back over junk. -/
def sout0_B_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-- Case C's pieces for output 4 tile its block, so they cover it. -/
theorem cover0_C_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

/-- What case C leaves in output 4's staging buffer: its pieces read back over junk. -/
def out0_C_4 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).1)

/-- Case C's pieces for output 5 tile its block, so they cover it. -/
theorem cover0_C_5 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

/-- What case C leaves in output 5's staging buffer: its pieces read back over junk. -/
def out0_C_5 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1)

/-- Case C's pieces for output 6 tile its block, so they cover it. -/
theorem cover0_C_6 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- What case C leaves in output 6's staging buffer: its pieces read back over junk. -/
def out0_C_6 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case C's pieces for scratch operand 0 cover it. -/
theorem scover0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case C leaves in scratch operand 0: its pieces read back over junk. -/
def sout0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case C's pieces for scratch operand 1 cover it. -/
theorem scover0_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case C leaves in scratch operand 1: its pieces read back over junk. -/
def sout0_C_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case C's pieces for scratch operand 2 cover it. -/
theorem scover0_C_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case C leaves in scratch operand 2: its pieces read back over junk. -/
def sout0_C_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-! ## What the outputs and the scratch hold after each point -/

/-- What the outputs' staging buffers (windows 4, 5, 6) and the three scratch operands hold after the body at position `n`:
    the case the closed forms select at `n`, run at the point's memrefs and input blocks, the scratch at what this leaves at `n - 1`. -/
def outsAt0 (c : Dev nD) : (n : ℕ) → n < cfg0.N → (Vec F S1024x1 .f32 × Vec F S1024x1 .f32 × Vec F S1024x1 .f32) × (Vec F S1024x1 .f32 × Vec F S1024x1 .f32 × Vec F S1024x1 .f32)
  | 0, hn => ((out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩)))
  | n + 1, hn =>
    if h0 : (n + 1) % 4 = 0 then
      if h1 : (n + 1) % 4 = 3 then
        False.elim (by omega)
      else
        ((out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)), (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)))
    else
      if h1 : (n + 1) % 4 = 3 then
        ((out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2), (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2))
      else
        ((out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2))

/-- `outsAt0` at a point of case A: that case's contents. -/
theorem outsAt0_A (c : Dev nD) (t : Fin cfg0.N) (h0 : t.val % 4 = 0) (h1 : ¬t.val % 4 = 3) :
    outsAt0 V c t.val t.isLt = ((out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t)), (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t))) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = ((out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2), (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = ((out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2), (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    three scratch operands at what the point before left in them, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ restBut0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2)) ∗ restBut0 (F := F) c) ∗ (∃ r, prngReg c r)) := by
  cases n with
  | zero => exact absurd rfl hz
  | succ n => rfl

/-! ## The pipeline's proof data -/

/-- The proof data of region 0's pipeline on core `c`: the arrays as the region finds them (`V`); after the body at point `t`
    each input's buffer at its block and the outputs' at `outsAt0`'s components; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1.1
    | ⟨5, _⟩ => (outsAt0 V c t.val t.isLt).1.2.1
    | ⟨6, _⟩ => (outsAt0 V c t.val t.isLt).1.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1.1 := by dsimp only [dat0]
theorem after0_5 (c : Dev nD) (t : Fin cfg0.N) : (dat0 V c).after 5 t = (outsAt0 V c t.val t.isLt).1.2.1 := by dsimp only [dat0]
theorem after0_6 (c : Dev nD) (t : Fin cfg0.N) : (dat0 V c).after 6 t = (outsAt0 V c t.val t.isLt).1.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' memrefs hold their blocks; the closed forms say which case the point is in; the run of that case
    applies; the invariant hands the body the scratch at what the point before left (at anything at the first point) and takes it back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1 sout0_A_2; (try dsimp only)
      by_cases hz : t.val = 0
      · rw [PhiS0_castSucc V c t, PhiS0_zero V c _ _ hz, PhiA0_eq]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS0_castSucc V c t, PhiS0_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_4 out0_C_5 out0_C_6 sout0_C_0 sout0_C_1 sout0_C_2; (try dsimp only)
      by_cases hz : t.val = 0
      · exfalso; omega
      · rw [PhiS0_castSucc V c t, PhiS0_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        iintro ⟨H0, H1, H2, H3, ⟨%e4, H4⟩, ⟨%e5, H5⟩, ⟨%e6, H6⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1 sout0_B_2; (try dsimp only)
      by_cases hz : t.val = 0
      · exfalso; omega
      · rw [PhiS0_castSucc V c t, PhiS0_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KI.Tile1Shared.lean ====
/- The body of region 1 (the second vocabulary split's call): what its three cases share — the region-entry
   contents as a parameter, each window's block at a point, the two branch conditions of the body decided over
   the grid, where the output windows are idle, the staging and scratch memrefs, and the region invariant with
   the three scratch operands opened; everything is stated for arbitrary region-entry contents V. -/
import proofs.«427234_j53386443489982_1_alg».proof.Proof.Gen.KernelIdeal.Launch
import proofs.«427234_j53386443489982_1_alg».proof.Proof.Gen.KernelIdeal.Skeleton
import proofs.«427234_j53386443489982_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the column tile is the first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the column tile is the last), from the grid coordinates. -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At the points of case A output 4 is idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B output 4 is idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C output 4 is live: the case stores into it. -/
theorem liveAt1_4_C : ∀ t : Fin cfg1.N, ¬cond1_0 (grid1.coords t) → cond1_1 (grid1.coords t) → cfg1.idle 4 (grid1.coords t) = false := by decide +kernel
/-- At the points of case A output 5 is idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B output 5 is idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C output 5 is live: the case stores into it. -/
theorem liveAt1_5_C : ∀ t : Fin cfg1.N, ¬cond1_0 (grid1.coords t) → cond1_1 (grid1.coords t) → cfg1.idle 5 (grid1.coords t) = false := by decide +kernel
/-- At the points of case A output 6 is idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B output 6 is idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C output 6 is live: the case stores into it. -/
theorem liveAt1_6_C : ∀ t : Fin cfg1.N, ¬cond1_0 (grid1.coords t) → cond1_1 (grid1.coords t) → cfg1.idle 6 (grid1.coords t) = false := by decide +kernel

/-! ## The staging and scratch memrefs -/

/-- One staging buffer of output window 4, through which its contents are stated. -/
abbrev VO1_4 : View sig .tc .vmem S1024x1 .f32 := (Memref.whole cc1_stg4_0 : Memref sig .tc .vmem S1024x1 .f32).view
/-- One staging buffer of output window 5, through which its contents are stated. -/
abbrev VO1_5 : View sig .tc .vmem S1024x1 .f32 := (Memref.whole cc1_stg5_0 : Memref sig .tc .vmem S1024x1 .f32).view
/-- One staging buffer of output window 6, through which its contents are stated. -/
abbrev VO1_6 : View sig .tc .vmem S1024x1 .f32 := (Memref.whole cc1_stg6_0 : Memref sig .tc .vmem S1024x1 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- Scratch operand 0: a whole scoped buffer of the call's own, passed beside the windows and carried between points. -/
abbrev scM1_0 : Memref sig .tc .vmem S1024x1 .f32 := Memref.whole cc1_scratch0
abbrev VS1_0 : View sig .tc .vmem S1024x1 .f32 := scM1_0.view
/-- Scratch operand 1: a whole scoped buffer of the call's own, passed beside the windows and carried between points. -/
abbrev scM1_1 : Memref sig .tc .vmem S1024x1 .f32 := Memref.whole cc1_scratch1
abbrev VS1_1 : View sig .tc .vmem S1024x1 .f32 := scM1_1.view
/-- Scratch operand 2: a whole scoped buffer of the call's own, passed beside the windows and carried between points. -/
abbrev scM1_2 : Memref sig .tc .vmem S1024x1 .f32 := Memref.whole cc1_scratch2
abbrev VS1_2 : View sig .tc .vmem S1024x1 .f32 := scM1_2.view

/-- The scoped buffers of the core that are neither a staging buffer of this call nor one of its three scratch operands. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class's region invariant with the three scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 (F := F) c) ∗ (∃ r, prngReg c r)) := by
  unfold Pipeline.ΦA; rw [scopedRest1_split]; simp only [scM1_0, scM1_1, scM1_2, owns_whole]; try rfl

end Cert.KernelIdeal.Hand

end
-- ==== Proof.KI.Tile1First.lean ====
/- The body of region 1 run in its first case (the first column tile): the carried scratch starts from −∞, 0, 0, one tile of the recurrence is applied, no output is stored. -/
import proofs.«427234_j53386443489982_1_alg».proof.Proof.KI.Tile1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run IN CASE A (first column tile: the scratch reset then updated, the outputs untouched; points ≡ 0 (mod 16)): on whole memrefs — the inputs' at their
    contents, the outputs' at contents handed back untouched, the scratch at anything — the body runs to the
    continuation holding the inputs' as they were and each scratch buffer with its pieces written (last first);
    the pieces are the witness the run finds. Components: the outputs' pieces (windows 4, 5, 6), then the scratch's (0, 1, 2). -/
noncomputable def kernelRun1_A (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc1__split_kernel_eq_skeleton]; unfold cc1__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.Tile1Mid.lean ====
/- The body of region 1 run in its second case (a middle column tile): the carried scratch takes one more tile of the recurrence, no output is stored. -/
import proofs.«427234_j53386443489982_1_alg».proof.Proof.KI.Tile1First

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run IN CASE B (a middle column tile: the scratch updated from what the point before left, the outputs untouched; the points that are neither ≡ 0 nor the last residue (mod 16)): on whole memrefs — the inputs' at their
    contents, the outputs' at contents handed back untouched, the scratch at the contents the point before left — the body runs to the
    continuation holding the inputs' as they were and each scratch buffer with its pieces written (last first);
    the pieces are the witness the run finds. Components: the outputs' pieces (windows 4, 5, 6), then the scratch's (0, 1, 2). -/
noncomputable def kernelRun1_B (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc1__split_kernel_eq_skeleton]; unfold cc1__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.Tile1Last.lean ====
/- The body of region 1 run in its third case (the last column tile): the last tile of the recurrence, then the three outputs are stored. -/
import proofs.«427234_j53386443489982_1_alg».proof.Proof.KI.Tile1Mid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run IN CASE C (last column tile: the scratch updated from what the point before left, then the three outputs stored from it; points ≡ 15 (mod 16)): on whole memrefs — the inputs' at their
    contents, the outputs' at anything, the scratch at the contents the point before left — the body runs to the
    continuation holding the inputs' as they were and each output and scratch buffer with its pieces written (last first);
    the pieces are the witness the run finds. Components: the outputs' pieces (windows 4, 5, 6), then the scratch's (0, 1, 2). -/
noncomputable def kernelRun1_C (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__split_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__split_kernel_eq_skeleton]; unfold cc1__split_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.KI.Tile1Data.lean ====
/- Region 1's proof data: what the outputs and the three scratch operands hold per case and point by point, the
   region invariant, the body obligation, and the invariant's two ends, for arbitrary region-entry contents V. -/
import proofs.«427234_j53386443489982_1_alg».proof.Proof.KI.Tile1Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What case A leaves in output 4's staging buffer: its pieces read back over junk (no pieces: a placeholder nothing consults, the window being idle and not written back at the case's points). -/
def out1_A_4 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 arg11 harg11 hc0 hc1 x0 x1 x2 x3).1)

/-- What case A leaves in output 5's staging buffer: its pieces read back over junk (no pieces: a placeholder nothing consults, the window being idle and not written back at the case's points). -/
def out1_A_5 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 hc0 hc1 x0 x1 x2 x3).2.1)

/-- What case A leaves in output 6's staging buffer: its pieces read back over junk (no pieces: a placeholder nothing consults, the window being idle and not written back at the case's points). -/
def out1_A_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 hc1 x0 x1 x2 x3).2.2.1)

/-- Case A's pieces for scratch operand 0 cover it. -/
theorem scover1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.1 S1024x1.size (by sl_kernel_rfl) y

/-- What case A leaves in scratch operand 0: its pieces read back over junk. -/
def sout1_A_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3).2.2.2.1)

/-- Case A's pieces for scratch operand 1 cover it. -/
theorem scover1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.2.1 S1024x1.size (by sl_kernel_rfl) y

/-- What case A leaves in scratch operand 1: its pieces read back over junk. -/
def sout1_A_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3).2.2.2.2.1)

/-- Case A's pieces for scratch operand 2 cover it. -/
theorem scover1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.2.2.1 S1024x1.size (by sl_kernel_rfl) y

/-- What case A leaves in scratch operand 2: its pieces read back over junk. -/
def sout1_A_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3).2.2.2.2.2.1)

/-- What case B leaves in output 4's staging buffer: its pieces read back over junk (no pieces: a placeholder nothing consults, the window being idle and not written back at the case's points). -/
def out1_B_4 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).1)

/-- What case B leaves in output 5's staging buffer: its pieces read back over junk (no pieces: a placeholder nothing consults, the window being idle and not written back at the case's points). -/
def out1_B_5 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.1)

/-- What case B leaves in output 6's staging buffer: its pieces read back over junk (no pieces: a placeholder nothing consults, the window being idle and not written back at the case's points). -/
def out1_B_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case B's pieces for scratch operand 0 cover it. -/
theorem scover1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case B leaves in scratch operand 0: its pieces read back over junk. -/
def sout1_B_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case B's pieces for scratch operand 1 cover it. -/
theorem scover1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case B leaves in scratch operand 1: its pieces read back over junk. -/
def sout1_B_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case B's pieces for scratch operand 2 cover it. -/
theorem scover1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case B leaves in scratch operand 2: its pieces read back over junk. -/
def sout1_B_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-- Case C's pieces for output 4 tile its block, so they cover it. -/
theorem cover1_C_4 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

/-- What case C leaves in output 4's staging buffer: its pieces read back over junk. -/
def out1_C_4 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).1)

/-- Case C's pieces for output 5 tile its block, so they cover it. -/
theorem cover1_C_5 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

/-- What case C leaves in output 5's staging buffer: its pieces read back over junk. -/
def out1_C_5 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1)

/-- Case C's pieces for output 6 tile its block, so they cover it. -/
theorem cover1_C_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- What case C leaves in output 6's staging buffer: its pieces read back over junk. -/
def out1_C_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case C's pieces for scratch operand 0 cover it. -/
theorem scover1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case C leaves in scratch operand 0: its pieces read back over junk. -/
def sout1_C_0 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case C's pieces for scratch operand 1 cover it. -/
theorem scover1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case C leaves in scratch operand 1: its pieces read back over junk. -/
def sout1_C_1 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case C's pieces for scratch operand 2 cover it. -/
theorem scover1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case C leaves in scratch operand 2: its pieces read back over junk. -/
def sout1_C_2 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-! ## What the outputs and the scratch hold after each point -/

/-- What the outputs' staging buffers (windows 4, 5, 6) and the three scratch operands hold after the body at position `n`:
    the case the closed forms select at `n`, run at the point's memrefs and input blocks, the scratch at what this leaves at `n - 1`. -/
def outsAt1 (c : Dev nD) : (n : ℕ) → n < cfg1.N → (Vec F S1024x1 .f32 × Vec F S1024x1 .f32 × Vec F S1024x1 .f32) × (Vec F S1024x1 .f32 × Vec F S1024x1 .f32 × Vec F S1024x1 .f32)
  | 0, hn => ((out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)), (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)))
  | n + 1, hn =>
    if h0 : (n + 1) % 16 = 0 then
      if h1 : (n + 1) % 16 = 15 then
        False.elim (by omega)
      else
        ((out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)), (sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)))
    else
      if h1 : (n + 1) % 16 = 15 then
        ((out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2), (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2))
      else
        ((out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2), (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2))

/-- `outsAt1` at a point of case A: that case's contents. -/
theorem outsAt1_A (c : Dev nD) (t : Fin cfg1.N) (h0 : t.val % 16 = 0) (h1 : ¬t.val % 16 = 15) :
    outsAt1 V c t.val t.isLt = ((out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)), (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = ((out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2), (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = ((out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2), (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    three scratch operands at what the point before left in them, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ restBut1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ restBut1 (F := F) c) ∗ (∃ r, prngReg c r)) := by
  cases n with
  | zero => exact absurd rfl hz
  | succ n => rfl

/-! ## The pipeline's proof data -/

/-- The proof data of region 1's pipeline on core `c`: the arrays as the region finds them (`V`); after the body at point `t`
    each input's buffer at its block and the outputs' at `outsAt1`'s components; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1.1
    | ⟨5, _⟩ => (outsAt1 V c t.val t.isLt).1.2.1
    | ⟨6, _⟩ => (outsAt1 V c t.val t.isLt).1.2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1.1 := by dsimp only [dat1]
theorem after1_5 (c : Dev nD) (t : Fin cfg1.N) : (dat1 V c).after 5 t = (outsAt1 V c t.val t.isLt).1.2.1 := by dsimp only [dat1]
theorem after1_6 (c : Dev nD) (t : Fin cfg1.N) : (dat1 V c).after 6 t = (outsAt1 V c t.val t.isLt).1.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which case the point is in; the run of that case
    applies; the invariant hands the body the scratch at what the point before left (at anything at the first point) and takes it back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 16 = 15
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_4 out1_C_5 out1_C_6 sout1_C_0 sout1_C_1 sout1_C_2; (try dsimp only)
      by_cases hz : t.val = 0
      · exfalso; omega
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        iintro ⟨H0, H1, H2, H3, ⟨%e4, H4⟩, ⟨%e5, H5⟩, ⟨%e6, H6⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover1_B_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Tile2Shared.lean ====
/- The body of region 2 (the third vocabulary split's call): what its three cases share — the region-entry
   contents as a parameter, each window's block at a point, the two branch conditions of the body decided over
   the grid, where the output windows are idle, the staging and scratch memrefs, and the region invariant with
   the three scratch operands opened; everything is stated for arbitrary region-entry contents V. -/
import proofs.«427234_j53386443489982_1_alg».proof.Proof.Gen.KernelIdeal.Launch
import proofs.«427234_j53386443489982_1_alg».proof.Proof.Gen.KernelIdeal.Skeleton
import proofs.«427234_j53386443489982_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the column tile is the first), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 30) — decided over the grid. -/
theorem hcond2_0 : ∀ t : Fin cfg2.N, cond2_0 (grid2.coords t) ↔ t.val % 30 = 0 :=
  (by decide +kernel : ∀ t : Fin grid2.N, cond2_0 (grid2.coords t) ↔ t.val % 30 = 0)

/-- The condition of the body's second `scf.if` (the column tile is the last), from the grid coordinates. -/
abbrev cond2_1 (i : grid2.Coords) : Prop := k2_cond2 i = 1#1
/-- It holds at the points ≡ 29 (mod 30) — decided over the grid. -/
theorem hcond2_1 : ∀ t : Fin cfg2.N, cond2_1 (grid2.coords t) ↔ t.val % 30 = 29 :=
  (by decide +kernel : ∀ t : Fin grid2.N, cond2_1 (grid2.coords t) ↔ t.val % 30 = 29)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- At the points of case A output 4 is idle: the case stores nothing into it. -/
theorem idleAt2_4_A : ∀ t : Fin cfg2.N, cond2_0 (grid2.coords t) → ¬cond2_1 (grid2.coords t) → cfg2.idle 4 (grid2.coords t) = true := by decide +kernel
/-- At the points of case A the pipeline does not write output 4's block back. -/
theorem noFlush2_4_A : ∀ t : Fin cfg2.N, cond2_0 (grid2.coords t) → ¬cond2_1 (grid2.coords t) → (cfg2.win 4).flush t = false := by decide +kernel
/-- At the points of case B output 4 is idle: the case stores nothing into it. -/
theorem idleAt2_4_B : ∀ t : Fin cfg2.N, ¬cond2_0 (grid2.coords t) → ¬cond2_1 (grid2.coords t) → cfg2.idle 4 (grid2.coords t) = true := by decide +kernel
/-- At the points of case B the pipeline does not write output 4's block back. -/
theorem noFlush2_4_B : ∀ t : Fin cfg2.N, ¬cond2_0 (grid2.coords t) → ¬cond2_1 (grid2.coords t) → (cfg2.win 4).flush t = false := by decide +kernel
/-- At the points of case C output 4 is live: the case stores into it. -/
theorem liveAt2_4_C : ∀ t : Fin cfg2.N, ¬cond2_0 (grid2.coords t) → cond2_1 (grid2.coords t) → cfg2.idle 4 (grid2.coords t) = false := by decide +kernel
/-- At the points of case A output 5 is idle: the case stores nothing into it. -/
theorem idleAt2_5_A : ∀ t : Fin cfg2.N, cond2_0 (grid2.coords t) → ¬cond2_1 (grid2.coords t) → cfg2.idle 5 (grid2.coords t) = true := by decide +kernel
/-- At the points of case A the pipeline does not write output 5's block back. -/
theorem noFlush2_5_A : ∀ t : Fin cfg2.N, cond2_0 (grid2.coords t) → ¬cond2_1 (grid2.coords t) → (cfg2.win 5).flush t = false := by decide +kernel
/-- At the points of case B output 5 is idle: the case stores nothing into it. -/
theorem idleAt2_5_B : ∀ t : Fin cfg2.N, ¬cond2_0 (grid2.coords t) → ¬cond2_1 (grid2.coords t) → cfg2.idle 5 (grid2.coords t) = true := by decide +kernel
/-- At the points of case B the pipeline does not write output 5's block back. -/
theorem noFlush2_5_B : ∀ t : Fin cfg2.N, ¬cond2_0 (grid2.coords t) → ¬cond2_1 (grid2.coords t) → (cfg2.win 5).flush t = false := by decide +kernel
/-- At the points of case C output 5 is live: the case stores into it. -/
theorem liveAt2_5_C : ∀ t : Fin cfg2.N, ¬cond2_0 (grid2.coords t) → cond2_1 (grid2.coords t) → cfg2.idle 5 (grid2.coords t) = false := by decide +kernel
/-- At the points of case A output 6 is idle: the case stores nothing into it. -/
theorem idleAt2_6_A : ∀ t : Fin cfg2.N, cond2_0 (grid2.coords t) → ¬cond2_1 (grid2.coords t) → cfg2.idle 6 (grid2.coords t) = true := by decide +kernel
/-- At the points of case A the pipeline does not write output 6's block back. -/
theorem noFlush2_6_A : ∀ t : Fin cfg2.N, cond2_0 (grid2.coords t) → ¬cond2_1 (grid2.coords t) → (cfg2.win 6).flush t = false := by decide +kernel
/-- At the points of case B output 6 is idle: the case stores nothing into it. -/
theorem idleAt2_6_B : ∀ t : Fin cfg2.N, ¬cond2_0 (grid2.coords t) → ¬cond2_1 (grid2.coords t) → cfg2.idle 6 (grid2.coords t) = true := by decide +kernel
/-- At the points of case B the pipeline does not write output 6's block back. -/
theorem noFlush2_6_B : ∀ t : Fin cfg2.N, ¬cond2_0 (grid2.coords t) → ¬cond2_1 (grid2.coords t) → (cfg2.win 6).flush t = false := by decide +kernel
/-- At the points of case C output 6 is live: the case stores into it. -/
theorem liveAt2_6_C : ∀ t : Fin cfg2.N, ¬cond2_0 (grid2.coords t) → cond2_1 (grid2.coords t) → cfg2.idle 6 (grid2.coords t) = false := by decide +kernel

/-! ## The staging and scratch memrefs -/

/-- One staging buffer of output window 4, through which its contents are stated. -/
abbrev VO2_4 : View sig .tc .vmem S1024x1 .f32 := (Memref.whole cc2_stg4_0 : Memref sig .tc .vmem S1024x1 .f32).view
/-- One staging buffer of output window 5, through which its contents are stated. -/
abbrev VO2_5 : View sig .tc .vmem S1024x1 .f32 := (Memref.whole cc2_stg5_0 : Memref sig .tc .vmem S1024x1 .f32).view
/-- One staging buffer of output window 6, through which its contents are stated. -/
abbrev VO2_6 : View sig .tc .vmem S1024x1 .f32 := (Memref.whole cc2_stg6_0 : Memref sig .tc .vmem S1024x1 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x1 .f32 := win2_6.stage (cfg2.slots t 6)
abbrev hs2_6 (t : Fin cfg2.N) : (ms2_6 t).IsWhole := hstage2_6 ((cfg2.slots t 6).cast nbuf2_6)
/-- Scratch operand 0: a whole scoped buffer of the call's own, passed beside the windows and carried between points. -/
abbrev scM2_0 : Memref sig .tc .vmem S1024x1 .f32 := Memref.whole cc2_scratch0
abbrev VS2_0 : View sig .tc .vmem S1024x1 .f32 := scM2_0.view
/-- Scratch operand 1: a whole scoped buffer of the call's own, passed beside the windows and carried between points. -/
abbrev scM2_1 : Memref sig .tc .vmem S1024x1 .f32 := Memref.whole cc2_scratch1
abbrev VS2_1 : View sig .tc .vmem S1024x1 .f32 := scM2_1.view
/-- Scratch operand 2: a whole scoped buffer of the call's own, passed beside the windows and carried between points. -/
abbrev scM2_2 : Memref sig .tc .vmem S1024x1 .f32 := Memref.whole cc2_scratch2
abbrev VS2_2 : View sig .tc .vmem S1024x1 .f32 := scM2_2.view

/-- The scoped buffers of the core that are neither a staging buffer of this call nor one of its three scratch operands. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The class's region invariant with the three scratch operands as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ restBut2 (F := F) c) ∗ (∃ r, prngReg c r)) := by
  unfold Pipeline.ΦA; rw [scopedRest2_split]; simp only [scM2_0, scM2_1, scM2_2, owns_whole]; try rfl

end Cert.KernelIdeal.Hand

end
-- ==== Proof.KI.Tile2First.lean ====
/- The body of region 2 run in its first case (the first column tile): the carried scratch starts from −∞, 0, 0, one tile of the recurrence is applied, no output is stored. -/
import proofs.«427234_j53386443489982_1_alg».proof.Proof.KI.Tile2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run IN CASE A (first column tile: the scratch reset then updated, the outputs untouched; points ≡ 0 (mod 30)): on whole memrefs — the inputs' at their
    contents, the outputs' at contents handed back untouched, the scratch at anything — the body runs to the
    continuation holding the inputs' as they were and each scratch buffer with its pieces written (last first);
    the pieces are the witness the run finds. Components: the outputs' pieces (windows 4, 5, 6), then the scratch's (0, 1, 2). -/
noncomputable def kernelRun2_A (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc2__split_kernel_eq_skeleton]; unfold cc2__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.Tile2Mid.lean ====
/- The body of region 2 run in its second case (a middle column tile): the carried scratch takes one more tile of the recurrence, no output is stored. -/
import proofs.«427234_j53386443489982_1_alg».proof.Proof.KI.Tile2First

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run IN CASE B (a middle column tile: the scratch updated from what the point before left, the outputs untouched; the points that are neither ≡ 0 nor the last residue (mod 30)): on whole memrefs — the inputs' at their
    contents, the outputs' at contents handed back untouched, the scratch at the contents the point before left — the body runs to the
    continuation holding the inputs' as they were and each scratch buffer with its pieces written (last first);
    the pieces are the witness the run finds. Components: the outputs' pieces (windows 4, 5, 6), then the scratch's (0, 1, 2). -/
noncomputable def kernelRun2_B (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__split_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc2__split_kernel_eq_skeleton]; unfold cc2__split_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.Tile2Last.lean ====
/- The body of region 2 run in its third case (the last column tile): the last tile of the recurrence, then the three outputs are stored. -/
import proofs.«427234_j53386443489982_1_alg».proof.Proof.KI.Tile2Mid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run IN CASE C (last column tile: the scratch updated from what the point before left, then the three outputs stored from it; points ≡ 29 (mod 30)): on whole memrefs — the inputs' at their
    contents, the outputs' at anything, the scratch at the contents the point before left — the body runs to the
    continuation holding the inputs' as they were and each output and scratch buffer with its pieces written (last first);
    the pieces are the witness the run finds. Components: the outputs' pieces (windows 4, 5, 6), then the scratch's (0, 1, 2). -/
noncomputable def kernelRun2_C (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    Σ' (L4 : List (View.Piece (Elt F) S1024x1 .f32)) (L5 : List (View.Piece (Elt F) S1024x1 .f32)) (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__split_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc2__split_kernel_eq_skeleton]; unfold cc2__split_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.KI.Tile2Data.lean ====
/- Region 2's proof data: what the outputs and the three scratch operands hold per case and point by point, the
   region invariant, the body obligation, and the invariant's two ends, for arbitrary region-entry contents V. -/
import proofs.«427234_j53386443489982_1_alg».proof.Proof.KI.Tile2Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What case A leaves in output 4's staging buffer: its pieces read back over junk (no pieces: a placeholder nothing consults, the window being idle and not written back at the case's points). -/
def out2_A_4 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VO2_4.read (Elt F) (VO2_4.writes (Elt F) VO2_4.junk (kernelRun2_A c i arg2 harg2 arg3 harg3 arg4 harg4 arg5 harg5 arg6 harg6 arg7 harg7 arg8 harg8 arg9 harg9 arg10 harg10 arg11 harg11 hc0 hc1 x0 x1 x2 x3).1)

/-- What case A leaves in output 5's staging buffer: its pieces read back over junk (no pieces: a placeholder nothing consults, the window being idle and not written back at the case's points). -/
def out2_A_5 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VO2_5.read (Elt F) (VO2_5.writes (Elt F) VO2_5.junk (kernelRun2_A c i arg2 harg2 arg3 harg3 arg4 harg4 arg5 harg5 arg6 harg6 arg7 harg7 arg8 harg8 arg9 harg9 arg10 harg10 arg11 harg11 hc0 hc1 x0 x1 x2 x3).2.1)

/-- What case A leaves in output 6's staging buffer: its pieces read back over junk (no pieces: a placeholder nothing consults, the window being idle and not written back at the case's points). -/
def out2_A_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VO2_6.read (Elt F) (VO2_6.writes (Elt F) VO2_6.junk (kernelRun2_A c i arg2 harg2 arg3 harg3 arg4 harg4 arg5 harg5 arg6 harg6 arg7 harg7 arg8 harg8 arg9 harg9 arg10 harg10 arg11 harg11 hc0 hc1 x0 x1 x2 x3).2.2.1)

/-- Case A's pieces for scratch operand 0 cover it. -/
theorem scover2_A_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) (y : S1024x1.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3).2.2.2.1 S1024x1.size (by sl_kernel_rfl) y

/-- What case A leaves in scratch operand 0: its pieces read back over junk. -/
def sout2_A_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 hc0 hc1 x0 x1 x2 x3).2.2.2.1)

/-- Case A's pieces for scratch operand 1 cover it. -/
theorem scover2_A_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) (y : S1024x1.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3).2.2.2.2.1 S1024x1.size (by sl_kernel_rfl) y

/-- What case A leaves in scratch operand 1: its pieces read back over junk. -/
def sout2_A_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 hc0 hc1 x0 x1 x2 x3).2.2.2.2.1)

/-- Case A's pieces for scratch operand 2 cover it. -/
theorem scover2_A_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) (y : S1024x1.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3).2.2.2.2.2.1 S1024x1.size (by sl_kernel_rfl) y

/-- What case A leaves in scratch operand 2: its pieces read back over junk. -/
def sout2_A_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) : Vec F S1024x1 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 arg11 harg11 hc0 hc1 x0 x1 x2 x3).2.2.2.2.2.1)

/-- What case B leaves in output 4's staging buffer: its pieces read back over junk (no pieces: a placeholder nothing consults, the window being idle and not written back at the case's points). -/
def out2_B_4 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_4.read (Elt F) (VO2_4.writes (Elt F) VO2_4.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).1)

/-- What case B leaves in output 5's staging buffer: its pieces read back over junk (no pieces: a placeholder nothing consults, the window being idle and not written back at the case's points). -/
def out2_B_5 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_5.read (Elt F) (VO2_5.writes (Elt F) VO2_5.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.1)

/-- What case B leaves in output 6's staging buffer: its pieces read back over junk (no pieces: a placeholder nothing consults, the window being idle and not written back at the case's points). -/
def out2_B_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_6.read (Elt F) (VO2_6.writes (Elt F) VO2_6.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case B's pieces for scratch operand 0 cover it. -/
theorem scover2_B_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case B leaves in scratch operand 0: its pieces read back over junk. -/
def sout2_B_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case B's pieces for scratch operand 1 cover it. -/
theorem scover2_B_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case B leaves in scratch operand 1: its pieces read back over junk. -/
def sout2_B_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case B's pieces for scratch operand 2 cover it. -/
theorem scover2_B_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case B leaves in scratch operand 2: its pieces read back over junk. -/
def sout2_B_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-- Case C's pieces for output 4 tile its block, so they cover it. -/
theorem cover2_C_4 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

/-- What case C leaves in output 4's staging buffer: its pieces read back over junk. -/
def out2_C_4 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_4.read (Elt F) (VO2_4.writes (Elt F) VO2_4.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).1)

/-- Case C's pieces for output 5 tile its block, so they cover it. -/
theorem cover2_C_5 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y

/-- What case C leaves in output 5's staging buffer: its pieces read back over junk. -/
def out2_C_5 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_5.read (Elt F) (VO2_5.writes (Elt F) VO2_5.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.1)

/-- Case C's pieces for output 6 tile its block, so they cover it. -/
theorem cover2_C_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.1 S1024x1.size (by sl_kernel_rfl) y

/-- What case C leaves in output 6's staging buffer: its pieces read back over junk. -/
def out2_C_6 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VO2_6.read (Elt F) (VO2_6.writes (Elt F) VO2_6.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case C's pieces for scratch operand 0 cover it. -/
theorem scover2_C_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

/-- What case C leaves in scratch operand 0: its pieces read back over junk. -/
def sout2_C_0 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case C's pieces for scratch operand 1 cover it. -/
theorem scover2_C_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y

/-- What case C leaves in scratch operand 1: its pieces read back over junk. -/
def sout2_C_1 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case C's pieces for scratch operand 2 cover it. -/
theorem scover2_C_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x1.size (by sl_kernel_rfl) y

/-- What case C leaves in scratch operand 2: its pieces read back over junk. -/
def sout2_C_2 (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) : Vec F S1024x1 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-! ## What the outputs and the scratch hold after each point -/

/-- What the outputs' staging buffers (windows 4, 5, 6) and the three scratch operands hold after the body at position `n`:
    the case the closed forms select at `n`, run at the point's memrefs and input blocks, the scratch at what this leaves at `n - 1`. -/
def outsAt2 (c : Dev nD) : (n : ℕ) → n < cfg2.N → (Vec F S1024x1 .f32 × Vec F S1024x1 .f32 × Vec F S1024x1 .f32) × (Vec F S1024x1 .f32 × Vec F S1024x1 .f32 × Vec F S1024x1 .f32)
  | 0, hn => ((out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩)), (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩)))
  | n + 1, hn =>
    if h0 : (n + 1) % 30 = 0 then
      if h1 : (n + 1) % 30 = 29 then
        False.elim (by omega)
      else
        ((out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)), (sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩)))
    else
      if h1 : (n + 1) % 30 = 29 then
        ((out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2), (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2))
      else
        ((out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2), (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.1 (outsAt2 c n (Nat.lt_of_succ_lt hn)).2.2.1 (outsAt2 c n (Nat.lt_of_succ_lt hn)).2.2.2))

/-- `outsAt2` at a point of case A: that case's contents. -/
theorem outsAt2_A (c : Dev nD) (t : Fin cfg2.N) (h0 : t.val % 30 = 0) (h1 : ¬t.val % 30 = 29) :
    outsAt2 V c t.val t.isLt = ((out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t)), (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t), sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t))) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 30 = 0) (h1 : ¬t.val % 30 = 29) :
    outsAt2 V c t.val t.isLt = ((out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2), (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 30 = 0) (h1 : t.val % 30 = 29) :
    outsAt2 V c t.val t.isLt = ((out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2), (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2, sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything); afterwards the
    three scratch operands at what the point before left in them, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2)) ∗ restBut2 (F := F) c) ∗ (∃ r, prngReg c r)) := by
  cases n with
  | zero => exact absurd rfl hz
  | succ n => rfl

/-! ## The pipeline's proof data -/

/-- The proof data of region 2's pipeline on core `c`: the arrays as the region finds them (`V`); after the body at point `t`
    each input's buffer at its block and the outputs' at `outsAt2`'s components; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1.1
    | ⟨5, _⟩ => (outsAt2 V c t.val t.isLt).1.2.1
    | ⟨6, _⟩ => (outsAt2 V c t.val t.isLt).1.2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1.1 := by dsimp only [dat2]
theorem after2_5 (c : Dev nD) (t : Fin cfg2.N) : (dat2 V c).after 5 t = (outsAt2 V c t.val t.isLt).1.2.1 := by dsimp only [dat2]
theorem after2_6 (c : Dev nD) (t : Fin cfg2.N) : (dat2 V c).after 6 t = (outsAt2 V c t.val t.isLt).1.2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms say which case the point is in; the run of that case
    applies; the invariant hands the body the scratch at what the point before left (at anything at the first point) and takes it back
    at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 120 := lt_of_lt_of_eq t.isLt (show cfg2.N = 120 from N_2)
  by_cases h0 : t.val % 30 = 0
  · by_cases h1 : t.val % 30 = 29
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0 sout2_A_1 sout2_A_2; (try dsimp only)
      by_cases hz : t.val = 0
      · rw [PhiS2_castSucc V c t, PhiS2_zero V c _ _ hz, PhiA2_eq]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_A_1 c _ _ _ _ _ _ _ _ _ _ _ _ _ _ _ _ _ _ _ _ _ _ _ _ _ _ _)
              unfold owns; iexists _; isplitr
              swap; · iexact HS2
              ipureintro; exact View.read_writes_of_cover _ _ _ _ _ (scover2_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
      · rw [PhiS2_castSucc V c t, PhiS2_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_A_1 c _ _ _ _ _ _ _ _ _ _ _ _ _ _ _ _ _ _ _ _ _ _ _ _ _ _ _)
              unfold owns; iexists _; isplitr
              swap; · iexact HS2
              ipureintro; exact View.read_writes_of_cover _ _ _ _ _ (scover2_A_2 c _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6
  · by_cases h1 : t.val % 30 = 29
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_4 out2_C_5 out2_C_6 sout2_C_0 sout2_C_1 sout2_C_2; (try dsimp only)
      by_cases hz : t.val = 0
      · exfalso; omega
      · rw [PhiS2_castSucc V c t, PhiS2_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        iintro ⟨H0, H1, H2, H3, ⟨%e4, H4⟩, ⟨%e5, H5⟩, ⟨%e6, H6⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_C_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover2_C_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover2_C_4 c _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover2_C_5 c _ _ _ _ _ _ _ _ _ _ _ _ _ _ _ _ _ _ _ _ _ _ _ _ _ _ _ _ _ _)
        unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0 sout2_B_1 sout2_B_2; (try dsimp only)
      by_cases hz : t.val = 0
      · exfalso; omega
      · rw [PhiS2_castSucc V c t, PhiS2_pos V c _ _ hz]
        iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover2_B_1 c _ _ _ _ _ _ _ _ _ _ _ _ _ _ _ _ _ _ _ _ _ _ _ _ _ _ _ _ _ _)
              unfold owns; iexists _; isplitr
              swap; · iexact HS2
              ipureintro; exact View.read_writes_of_cover _ _ _ _ _ (scover2_B_2 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 120 := N_2; omega)

end Cert.KernelIdeal.Hand

end
-- ==== Proof.KI.Instance.lean ====
/-
  The launch of @main for the idealized program, at the three pipelines' proof data.

  The contents the three kernel regions leave in their result arrays are fixed region by region: region 0's from the
  contents it is entered at (which no region has touched), region 1's from the contents after region 0 and the host
  lines between, region 2's likewise after region 1.  With these the run of @main names every unscoped buffer at the end,
  the six argument arrays end as launched, and the result's buffer ends at the last valuation's contents.
-/
import proofs.«427234_j53386443489982_1_alg».proof.Proof.KI.Launch
import proofs.«427234_j53386443489982_1_alg».proof.Proof.KI.Tile0Data
import proofs.«427234_j53386443489982_1_alg».proof.Proof.KI.Tile1Data
import proofs.«427234_j53386443489982_1_alg».proof.Proof.KI.Tile2Data
import Idealize.ShloMosaic.Lib.Pipeline.FrameSuffix

set_option maxRecDepth 1164

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

variable (m : (ℓ : Loc nD τ sig) → Buf (Elt F) ℓ)

/-! ## The valuations depend on the regions' results only where they read them -/

theorem V8_congr (outs outs' : Outs (F := F)) (c : Dev nD) (h8 : ∀ r, outs 8 r c = outs' 8 r c) :
    V8 m outs c = V8 m outs' c := by
  unfold V8
  rw [h8 main_v23_0, h8 main_v23_1, h8 main_v23_2]

theorem V15_congr (outs outs' : Outs (F := F)) (c : Dev nD) (h8 : ∀ r, outs 8 r c = outs' 8 r c) :
    V15 m outs c = V15 m outs' c := by
  unfold V15 V14 V13 V12 V11 V10 V9
  rw [V8_congr m outs outs' c h8]

theorem V16_congr (outs outs' : Outs (F := F)) (c : Dev nD) (h8 : ∀ r, outs 8 r c = outs' 8 r c)
    (h16 : ∀ r, outs 16 r c = outs' 16 r c) : V16 m outs c = V16 m outs' c := by
  unfold V16
  rw [V15_congr m outs outs' c h8, h16 main_v37_0, h16 main_v37_1, h16 main_v37_2]

theorem V23_congr (outs outs' : Outs (F := F)) (c : Dev nD) (h8 : ∀ r, outs 8 r c = outs' 8 r c)
    (h16 : ∀ r, outs 16 r c = outs' 16 r c) : V23 m outs c = V23 m outs' c := by
  unfold V23 V22 V21 V20 V19 V18 V17
  rw [V16_congr m outs outs' c h8 h16]

/-! ## The regions' entry contents and results, region by region -/

/-- The contents region 0 is entered at. -/
abbrev Vat7 : (c : Dev nD) → (b : Ref sig .tc) → Buf (Elt F) ((c : Thread nD τ).loc b) := fun c b => V7 m c b
/-- The contents region 1 is entered at, given the regions' results. -/
abbrev Vat15 (outs : Outs (F := F)) : (c : Dev nD) → (b : Ref sig .tc) → Buf (Elt F) ((c : Thread nD τ).loc b) :=
  fun c b => V15 m outs c b
/-- The contents region 2 is entered at, given the regions' results. -/
abbrev Vat23 (outs : Outs (F := F)) : (c : Dev nD) → (b : Ref sig .tc) → Buf (Elt F) ((c : Thread nD τ).loc b) :=
  fun c b => V23 m outs c b

/-- Region 0's results: its arrays at what its pipeline leaves. -/
def outs8 : Outs (F := F) := fun _ r c =>
  Pipeline.withArrays spec0 c (V7 m c) (fun w => (dat0 (Vat7 m) c).arrAt w cfg0.N) (Proc.devRef .tc r)

/-- Region 0's results, then region 1's: its arrays at what its pipeline leaves, entered after region 0. -/
def outs16 : Outs (F := F) := fun j r c =>
  if j ≤ 8 then outs8 m j r c
  else Pipeline.withArrays spec1 c (V15 m (outs8 m) c) (fun w => (dat1 (Vat15 m (outs8 m)) c).arrAt w cfg1.N) (Proc.devRef .tc r)

/-- The three regions' results. -/
def outsI : Outs (F := F) := fun j r c =>
  if j ≤ 16 then outs16 m j r c
  else Pipeline.withArrays spec2 c (V23 m (outs16 m) c) (fun w => (dat2 (Vat23 m (outs16 m)) c).arrAt w cfg2.N) (Proc.devRef .tc r)

theorem outs16_8 (r : Ref sig .tc) (c : Dev nD) : outs16 m 8 r c = outs8 m 8 r c := by
  unfold outs16; rw [if_pos (by decide)]
theorem outs16_16 (r : Ref sig .tc) (c : Dev nD) : outs16 m 16 r c =
    Pipeline.withArrays spec1 c (V15 m (outs8 m) c) (fun w => (dat1 (Vat15 m (outs8 m)) c).arrAt w cfg1.N) (Proc.devRef .tc r) := by
  unfold outs16; rw [if_neg (by decide)]
theorem outsI_8 (r : Ref sig .tc) (c : Dev nD) : outsI m 8 r c = outs8 m 8 r c := by
  unfold outsI; rw [if_pos (by decide), outs16_8]
theorem outsI_16 (r : Ref sig .tc) (c : Dev nD) : outsI m 16 r c = outs16 m 16 r c := by
  unfold outsI; rw [if_pos (by decide)]
theorem outsI_24 (r : Ref sig .tc) (c : Dev nD) : outsI m 24 r c =
    Pipeline.withArrays spec2 c (V23 m (outs16 m) c) (fun w => (dat2 (Vat23 m (outs16 m)) c).arrAt w cfg2.N) (Proc.devRef .tc r) := by
  unfold outsI; rw [if_neg (by decide)]

/-- Region 1 is entered at the same contents whether or not the later regions' results are named. -/
theorem Vat15_outsI : Vat15 m (outsI m) = Vat15 m (outs8 m) :=
  funext fun c => funext fun b => by
    show V15 m (outsI m) c b = V15 m (outs8 m) c b
    rw [V15_congr m (outsI m) (outs8 m) c fun r => outsI_8 m r c]

/-- and region 2 likewise. -/
theorem Vat23_outsI : Vat23 m (outsI m) = Vat23 m (outs16 m) :=
  funext fun c => funext fun b => by
    show V23 m (outsI m) c b = V23 m (outs16 m) c b
    rw [V23_congr m (outsI m) (outs16 m) c (fun r => (outsI_8 m r c).trans (outs16_8 m r c).symm) fun r => outsI_16 m r c]

/-! ## The regions' results are what their pipelines leave -/

theorem ho8I (c : Dev nD) : outsI m 8 main_v23_0 c = (dat0 (Vat7 m) c).arrAt 4 cfg0.N
    ∧ outsI m 8 main_v23_1 c = (dat0 (Vat7 m) c).arrAt 5 cfg0.N
    ∧ outsI m 8 main_v23_2 c = (dat0 (Vat7 m) c).arrAt 6 cfg0.N :=
  ⟨(outsI_8 m _ c).trans (Pipeline.withArrays_arr spec0 launch0.win.arr_inj c _ _ 4),
   (outsI_8 m _ c).trans (Pipeline.withArrays_arr spec0 launch0.win.arr_inj c _ _ 5),
   (outsI_8 m _ c).trans (Pipeline.withArrays_arr spec0 launch0.win.arr_inj c _ _ 6)⟩

theorem ho16I (c : Dev nD) : outsI m 16 main_v37_0 c = (dat1 (Vat15 m (outsI m)) c).arrAt 4 cfg1.N
    ∧ outsI m 16 main_v37_1 c = (dat1 (Vat15 m (outsI m)) c).arrAt 5 cfg1.N
    ∧ outsI m 16 main_v37_2 c = (dat1 (Vat15 m (outsI m)) c).arrAt 6 cfg1.N := by
  rw [Vat15_outsI]
  exact ⟨((outsI_16 m _ c).trans (outs16_16 m _ c)).trans (Pipeline.withArrays_arr spec1 launch1.win.arr_inj c _ _ 4),
   ((outsI_16 m _ c).trans (outs16_16 m _ c)).trans (Pipeline.withArrays_arr spec1 launch1.win.arr_inj c _ _ 5),
   ((outsI_16 m _ c).trans (outs16_16 m _ c)).trans (Pipeline.withArrays_arr spec1 launch1.win.arr_inj c _ _ 6)⟩

theorem ho24I (c : Dev nD) : outsI m 24 main_v51_0 c = (dat2 (Vat23 m (outsI m)) c).arrAt 4 cfg2.N
    ∧ outsI m 24 main_v51_1 c = (dat2 (Vat23 m (outsI m)) c).arrAt 5 cfg2.N
    ∧ outsI m 24 main_v51_2 c = (dat2 (Vat23 m (outsI m)) c).arrAt 6 cfg2.N := by
  rw [Vat23_outsI]
  exact ⟨(outsI_24 m _ c).trans (Pipeline.withArrays_arr spec2 launch2.win.arr_inj c _ _ 4),
   (outsI_24 m _ c).trans (Pipeline.withArrays_arr spec2 launch2.win.arr_inj c _ _ 5),
   (outsI_24 m _ c).trans (Pipeline.withArrays_arr spec2 launch2.win.arr_inj c _ _ 6)⟩

/-! ## The run, the frame and the result -/

/-- Every weakly fair execution of @main from memory `m` with zero counters terminates, and in every final memory each
    unscoped buffer of each core holds the last valuation's contents. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = V25 m (outsI m) c b) :=
  run_regions m (outsI m) ρ (dat0 (Vat7 m)) (dat1 (Vat15 m (outsI m))) (dat2 (Vat23 m (outsI m)))
    (fun c w => A_eq0 (Vat7 m) c w) (fun _ _ => rfl) (fun _ _ => rfl) (fun _ => rfl)
    (fun c => body_obligation0 (Vat7 m) c) (fun c => hin0 (Vat7 m) c) (fun c => hout0 (Vat7 m) c) (ho8I m)
    (fun c w => A_eq1 (Vat15 m (outsI m)) c w) (fun _ _ => rfl) (fun _ _ => rfl) (fun _ => rfl)
    (fun c => body_obligation1 (Vat15 m (outsI m)) c) (fun c => hin1 (Vat15 m (outsI m)) c) (fun c => hout1 (Vat15 m (outsI m)) c) (ho16I m)
    (fun c w => A_eq2 (Vat23 m (outsI m)) c w) (fun _ _ => rfl) (fun _ _ => rfl) (fun _ => rfl)
    (fun c => body_obligation2 (Vat23 m (outsI m)) c) (fun c => hin2 (Vat23 m (outsI m)) c) (fun c => hout2 (Vat23 m (outsI m)) c) (ho24I m)

/-- The six argument arrays end as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_regions m (outsI m) ρ (dat0 (Vat7 m)) (dat1 (Vat15 m (outsI m))) (dat2 (Vat23 m (outsI m)))
    (fun c w => A_eq0 (Vat7 m) c w) (fun _ _ => rfl) (fun _ _ => rfl) (fun _ => rfl)
    (fun c => body_obligation0 (Vat7 m) c) (fun c => hin0 (Vat7 m) c) (fun c => hout0 (Vat7 m) c) (ho8I m)
    (fun c w => A_eq1 (Vat15 m (outsI m)) c w) (fun _ _ => rfl) (fun _ _ => rfl) (fun _ => rfl)
    (fun c => body_obligation1 (Vat15 m (outsI m)) c) (fun c => hin1 (Vat15 m (outsI m)) c) (fun c => hout1 (Vat15 m (outsI m)) c) (ho16I m)
    (fun c w => A_eq2 (Vat23 m (outsI m)) c w) (fun _ _ => rfl) (fun _ _ => rfl) (fun _ => rfl)
    (fun c => body_obligation2 (Vat23 m (outsI m)) c) (fun c => hin2 (Vat23 m (outsI m)) c) (fun c => hout2 (Vat23 m (outsI m)) c) (ho24I m)

/-- The result's buffer ends at the last valuation's contents. -/
theorem result_all (ρ : Dev nD → PrngReg) :
    θ_run defs (onTc (τ := τ) (main (F := F))) ⟨m, fun _ => 0, ρ⟩ (fun r => ∀ c : Dev nD,
      r.2.mem ((c.tc : Thread nD τ).loc main_v68) = V25 m (outsI m) c (Proc.devRef .tc main_v68)) :=
  result_of_regions m (outsI m) ρ (dat0 (Vat7 m)) (dat1 (Vat15 m (outsI m))) (dat2 (Vat23 m (outsI m)))
    (fun c w => A_eq0 (Vat7 m) c w) (fun _ _ => rfl) (fun _ _ => rfl) (fun _ => rfl)
    (fun c => body_obligation0 (Vat7 m) c) (fun c => hin0 (Vat7 m) c) (fun c => hout0 (Vat7 m) c) (ho8I m)
    (fun c w => A_eq1 (Vat15 m (outsI m)) c w) (fun _ _ => rfl) (fun _ _ => rfl) (fun _ => rfl)
    (fun c => body_obligation1 (Vat15 m (outsI m)) c) (fun c => hin1 (Vat15 m (outsI m)) c) (fun c => hout1 (Vat15 m (outsI m)) c) (ho16I m)
    (fun c w => A_eq2 (Vat23 m (outsI m)) c w) (fun _ _ => rfl) (fun _ _ => rfl) (fun _ => rfl)
    (fun c => body_obligation2 (Vat23 m (outsI m)) c) (fun c => hin2 (Vat23 m (outsI m)) c) (fun c => hout2 (Vat23 m (outsI m)) c) (ho24I m)

end Cert.KernelIdeal.Hand

end
-- ==== Proof.Spec.lean ====
/-
  The closed-form specification both programs are compared with.

  An adaptive softmax over a vocabulary of 50000 classes in three splits: the head (the first 4000 classes and one
  "cluster" column per tail split, 4002 columns), and two tails (16000 and 30000 classes).  For a row of logits `x`
  over `n` columns, `logProb x j = (x j - max x) - log (Σ_i exp (x i - max x))` is the log-probability of column `j`.
  The loss of a token with target class `t` is `-logProb head t` for a head class, and for a class of tail `s`
  `-(logProb head (4002 - s) + logProb tail_s (t - start_s))`; the result is the mean over the 4096 tokens.
  Everything is an extended real; no finiteness is assumed by the definitions.
-/
import Idealize.ShloMosaic.PureOps.Ideal
import Mathlib.Algebra.BigOperators.Group.Finset.Basic
import Idealize.ShloMosaic.Lib.ValueIdx

noncomputable section

namespace Cert.Spec

open Idealize.ShloMosaic
open scoped BigOperators

/-- The largest entry of a row (`⊥` for an empty row). -/
def rowMax {n : ℕ} (x : Fin n → EReal) : EReal := Finset.univ.sup x

/-- The sum of the exponentials of a row shifted by its largest entry. -/
def rowSum {n : ℕ} (x : Fin n → EReal) : EReal := ∑ j : Fin n, Ideal.exp (x j - rowMax x)

/-- The log-probability of column `j` under the softmax of the row `x`. -/
def logProb {n : ℕ} (x : Fin n → EReal) (j : Fin n) : EReal := (x j - rowMax x) - Ideal.log (rowSum x)

/-- Column `j` of a row of `n` columns, as an index (any natural number is wrapped into range; the columns used are in range). -/
def col (n : ℕ) (hn : 0 < n) (j : ℕ) : Fin n := ⟨j % n, Nat.mod_lt _ hn⟩

theorem col_val {n : ℕ} (hn : 0 < n) {j : ℕ} (hj : j < n) : (col n hn j).val = j := Nat.mod_eq_of_lt hj

/-- One entry of the logits of a split: the hidden row against the class's weight row, plus the class's bias. -/
def logit {n : ℕ} (H : Fin 4096 → Fin 1024 → EReal) (W : Fin n → Fin 1024 → EReal) (B : Fin n → EReal)
    (r : Fin 4096) (j : Fin n) : EReal :=
  (∑ k : Fin 1024, H r k * W j k) + B j

section Splits

variable (weight : Fin 50000 → Fin 1024 → EReal) (bias : Fin 50000 → EReal)
  (tailv : Fin 2 → Fin 1024 → EReal) (tailb : Fin 2 → EReal)

/-- The head split's weight rows: the first 4000 classes, then the two cluster rows. -/
def headW (j : Fin 4002) (k : Fin 1024) : EReal :=
  if h : j.val < 4000 then weight ⟨j.val, by omega⟩ k else tailv ⟨j.val - 4000, by omega⟩ k
/-- The head split's biases. -/
def headB (j : Fin 4002) : EReal :=
  if h : j.val < 4000 then bias ⟨j.val, by omega⟩ else tailb ⟨j.val - 4000, by omega⟩
/-- The first tail's weight rows: classes 4000 … 19999. -/
def tail1W (j : Fin 16000) (k : Fin 1024) : EReal := weight ⟨j.val + 4000, by omega⟩ k
def tail1B (j : Fin 16000) : EReal := bias ⟨j.val + 4000, by omega⟩
/-- The second tail's weight rows: classes 20000 … 49999. -/
def tail2W (j : Fin 30000) (k : Fin 1024) : EReal := weight ⟨j.val + 20000, by omega⟩ k
def tail2B (j : Fin 30000) : EReal := bias ⟨j.val + 20000, by omega⟩

variable (H : Fin 4096 → Fin 1024 → EReal) (tgt : Fin 4096 → ℕ)

/-- The three rows of logits of token `r`. -/
def headRow (r : Fin 4096) : Fin 4002 → EReal := logit H (headW weight tailv) (headB bias tailb) r
def tail1Row (r : Fin 4096) : Fin 16000 → EReal := logit H (tail1W weight) (tail1B bias) r
def tail2Row (r : Fin 4096) : Fin 30000 → EReal := logit H (tail2W weight) (tail2B bias) r

/-- The loss of token `r` with target class `tgt r`. -/
def lossRow (r : Fin 4096) : EReal :=
  if tgt r < 4000 then
    -(logProb (headRow weight bias tailv tailb H r) (col 4002 (by decide) (tgt r)))
  else if tgt r < 20000 then
    -(logProb (headRow weight bias tailv tailb H r) (col 4002 (by decide) 4001)
        + logProb (tail1Row weight bias H r) (col 16000 (by decide) (tgt r - 4000)))
  else
    -(logProb (headRow weight bias tailv tailb H r) (col 4002 (by decide) 4000)
        + logProb (tail2Row weight bias H r) (col 30000 (by decide) (tgt r - 20000)))

/-- The mean loss over the 4096 tokens (the divisor is the binary32 word of 4096). -/
def loss : EReal :=
  Ideal.div (∑ r : Fin 4096, lossRow weight bias tailv tailb H tgt r) (Ideal.ofBits .f32 0x45800000#32)

end Splits

/-! ## The specification over the programs' argument arrays -/

section Arrays

open Idealize.ShloMosaic.ValueIdx

/-- A rank-2 array as a function of row and column. -/
def mat {a b : ℕ} (A : (⟨2, ![a, b]⟩ : Shape).Idx → EReal) : Fin a → Fin b → EReal := fun i j => A (ix2 i j)
/-- A rank-1 array as a function of its position. -/
def vec {a : ℕ} (A : (⟨1, ![a]⟩ : Shape).Idx → EReal) : Fin a → EReal := fun i => A (ix1 i)
/-- The hidden states [8, 512, 1024] flattened to 4096 token rows: row `r` is (r / 512, r % 512). -/
def hid (A : (⟨3, ![8, 512, 1024]⟩ : Shape).Idx → EReal) : Fin 4096 → Fin 1024 → EReal :=
  fun r k => A (ix3 (⟨r.val / 512, by omega⟩ : Fin 8) (⟨r.val % 512, by omega⟩ : Fin 512) k)
/-- The target classes as natural numbers (the 32-bit words read unsigned; in range they are the classes). -/
def tgt (A : (⟨1, ![4096]⟩ : Shape).Idx → BitVec 32) : Fin 4096 → ℕ := fun r => (A (ix1 r)).toNat

/-- The specification's loss of the six argument arrays (weight, bias, hiddens, targets, tail_vectors, tail_bias). -/
def lossOf (w : (⟨2, ![50000, 1024]⟩ : Shape).Idx → EReal) (b : (⟨1, ![50000]⟩ : Shape).Idx → EReal)
    (h : (⟨3, ![8, 512, 1024]⟩ : Shape).Idx → EReal) (t : (⟨1, ![4096]⟩ : Shape).Idx → BitVec 32)
    (tv : (⟨2, ![2, 1024]⟩ : Shape).Idx → EReal) (tb : (⟨1, ![2]⟩ : Shape).Idx → EReal) : EReal :=
  loss (mat w) (vec b) (mat tv) (vec tb) (hid h) (tgt t)

end Arrays

end Cert.Spec

end
-- ==== Proof.KI.HostBase.lean ====
/- The host side of the idealized program, common part: the integer words the host computes from a target class (the bucket, the three index words handed to the kernel regions, the two masks of the final sum); the host's layout operations read at an index; the argument arrays; the hidden rows and the bucket words after the first host stretch, and their carry to the later items. -/
import proofs.«427234_j53386443489982_1_alg».proof.Proof.Gen.KernelIdeal.Regions
import proofs.«427234_j53386443489982_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

set_option maxRecDepth 1164

noncomputable section

namespace Cert.KernelIdeal.Hand

open Cert.KernelIdeal Cert.KernelIdeal.Gen
open Idealize.ShloMosaic Idealize.ShloMosaic.TcCoe Idealize.ShloMosaic.ValueIdx
open scoped BigOperators

/-! ## The words computed from a target class -/

/-- The bucket word of a target word: the number of the boundaries 4000, 20000 at or below it (signed compares). -/
def bucketW (t : BitVec 32) : BitVec 32 :=
  IntOp.addi (IntOp.addi 0#32 ((IntOp.cmpi .sge t 4000#32).setWidth 32)) ((IntOp.cmpi .sge t 20000#32).setWidth 32)

/-- The head split's index word: the class itself in bucket 0, else the cluster column 4002 − bucket. -/
def idx0W (t : BitVec 32) : BitVec 32 := Scalar.select (IntOp.cmpi .eq (bucketW t) 0#32) t (IntOp.subi 4002#32 (bucketW t))
/-- The first tail's index word: the class less 4000 in bucket 1, else 0. -/
def idx1W (t : BitVec 32) : BitVec 32 := Scalar.select (IntOp.cmpi .eq (bucketW t) 1#32) (IntOp.subi t 4000#32) 0#32
/-- The second tail's index word: the class less 20000 in bucket 2, else 0. -/
def idx2W (t : BitVec 32) : BitVec 32 := Scalar.select (IntOp.cmpi .eq (bucketW t) 2#32) (IntOp.subi t 20000#32) 0#32
/-- The first tail's mask: the compare "bucket = 1" as an extended real. -/
def mask1 (t : BitVec 32) : EReal := (((IntOp.cmpi .eq (bucketW t) 1#32).toNat : ℝ) : EReal)
/-- The second tail's mask: the compare "bucket = 2" as an extended real. -/
def mask2 (t : BitVec 32) : EReal := (((IntOp.cmpi .eq (bucketW t) 2#32).toNat : ℝ) : EReal)

theorem toInt_4000 : (4000#32).toInt = 4000 := by decide
theorem toInt_20000 : (20000#32).toInt = 20000 := by decide

theorem bucketW_lo (t : BitVec 32) (h : t.toInt < 4000) : bucketW t = 0#32 := by
  have e1 : (4000#32).sle t = false := by rw [BitVec.sle, toInt_4000]; exact decide_eq_false (by omega)
  have e2 : (20000#32).sle t = false := by rw [BitVec.sle, toInt_20000]; exact decide_eq_false (by omega)
  show (0#32 + (BitVec.ofBool ((4000#32).sle t)).setWidth 32) + (BitVec.ofBool ((20000#32).sle t)).setWidth 32 = 0#32
  rw [e1, e2]; decide

theorem bucketW_mid (t : BitVec 32) (h1 : 4000 ≤ t.toInt) (h2 : t.toInt < 20000) : bucketW t = 1#32 := by
  have e1 : (4000#32).sle t = true := by rw [BitVec.sle, toInt_4000]; exact decide_eq_true (by omega)
  have e2 : (20000#32).sle t = false := by rw [BitVec.sle, toInt_20000]; exact decide_eq_false (by omega)
  show (0#32 + (BitVec.ofBool ((4000#32).sle t)).setWidth 32) + (BitVec.ofBool ((20000#32).sle t)).setWidth 32 = 1#32
  rw [e1, e2]; decide

theorem bucketW_hi (t : BitVec 32) (h : 20000 ≤ t.toInt) : bucketW t = 2#32 := by
  have e1 : (4000#32).sle t = true := by rw [BitVec.sle, toInt_4000]; exact decide_eq_true (by omega)
  have e2 : (20000#32).sle t = true := by rw [BitVec.sle, toInt_20000]; exact decide_eq_true (by omega)
  show (0#32 + (BitVec.ofBool ((4000#32).sle t)).setWidth 32) + (BitVec.ofBool ((20000#32).sle t)).setWidth 32 = 2#32
  rw [e1, e2]; decide

theorem slt_4000 (t : BitVec 32) : t.slt 4000#32 = decide (t.toInt < 4000) := by rw [BitVec.slt, toInt_4000]
theorem slt_20000 (t : BitVec 32) : t.slt 20000#32 = decide (t.toInt < 20000) := by rw [BitVec.slt, toInt_20000]

/-! ## As signed compares -/

theorem idx0W_eq (t : BitVec 32) : idx0W t = if t.slt 4000#32 then t else if t.slt 20000#32 then 4001#32 else 4000#32 := by
  rw [slt_4000, slt_20000]
  by_cases h1 : t.toInt < 4000
  · rw [if_pos (decide_eq_true h1)]; unfold idx0W; rw [bucketW_lo t h1]; rfl
  · rw [if_neg (by simpa using h1)]
    by_cases h2 : t.toInt < 20000
    · rw [if_pos (decide_eq_true h2)]; unfold idx0W; rw [bucketW_mid t (by omega) h2]; rfl
    · rw [if_neg (by simpa using h2)]; unfold idx0W; rw [bucketW_hi t (by omega)]; rfl

theorem idx1W_eq (t : BitVec 32) : idx1W t = if (!t.slt 4000#32 && t.slt 20000#32) then t - 4000#32 else 0#32 := by
  rw [slt_4000, slt_20000]
  by_cases h1 : t.toInt < 4000
  · rw [decide_eq_true h1]; unfold idx1W; rw [bucketW_lo t h1]; rfl
  · rw [decide_eq_false h1]
    by_cases h2 : t.toInt < 20000
    · rw [decide_eq_true h2]; unfold idx1W; rw [bucketW_mid t (by omega) h2]; rfl
    · rw [decide_eq_false h2]; unfold idx1W; rw [bucketW_hi t (by omega)]; rfl

theorem idx2W_eq (t : BitVec 32) : idx2W t = if t.slt 20000#32 then 0#32 else t - 20000#32 := by
  rw [slt_20000]
  by_cases h1 : t.toInt < 4000
  · rw [decide_eq_true (show t.toInt < 20000 by omega)]; unfold idx2W; rw [bucketW_lo t h1]; rfl
  · by_cases h2 : t.toInt < 20000
    · rw [decide_eq_true h2]; unfold idx2W; rw [bucketW_mid t (by omega) h2]; rfl
    · rw [decide_eq_false h2]; unfold idx2W; rw [bucketW_hi t (by omega)]; rfl

/-! ## For a class in [0, 50000): as numbers -/

section Range
variable (t : BitVec 32) (h0 : 0 ≤ t.toInt) (h1 : t.toInt < 50000)
include h0 h1

theorem toInt_eq_toNat : t.toInt = (t.toNat : ℤ) := by
  have h := BitVec.toInt_eq_toNat_cond t
  have hl := t.isLt
  by_cases hc : 2 * t.toNat < 2 ^ 32
  · rw [h, if_pos hc]
  · exfalso; rw [h, if_neg hc] at h0; push_cast at h0; omega

theorem toNat_lt : t.toNat < 50000 := by have := toInt_eq_toNat t h0 h1; omega

theorem idx0W_toNat : (idx0W t).toNat = if t.toNat < 4000 then t.toNat else if t.toNat < 20000 then 4001 else 4000 := by
  have e := toInt_eq_toNat t h0 h1
  by_cases a1 : t.toNat < 4000
  · rw [if_pos a1]; unfold idx0W; rw [bucketW_lo t (by omega)]; rfl
  · rw [if_neg a1]
    by_cases a2 : t.toNat < 20000
    · rw [if_pos a2]; unfold idx0W; rw [bucketW_mid t (by omega) (by omega)]; rfl
    · rw [if_neg a2]; unfold idx0W; rw [bucketW_hi t (by omega)]; rfl

theorem idx1W_toNat : (idx1W t).toNat = if 4000 ≤ t.toNat ∧ t.toNat < 20000 then t.toNat - 4000 else 0 := by
  have e := toInt_eq_toNat t h0 h1
  have hlt := toNat_lt t h0 h1
  by_cases a1 : t.toNat < 4000
  · rw [if_neg (by omega)]; unfold idx1W; rw [bucketW_lo t (by omega)]; rfl
  · by_cases a2 : t.toNat < 20000
    · rw [if_pos ⟨by omega, a2⟩]; unfold idx1W; rw [bucketW_mid t (by omega) (by omega)]
      show (t - 4000#32).toNat = _
      rw [BitVec.toNat_sub]; simp only [BitVec.toNat_ofNat]; omega
    · rw [if_neg (by omega)]; unfold idx1W; rw [bucketW_hi t (by omega)]; rfl

theorem idx2W_toNat : (idx2W t).toNat = if 20000 ≤ t.toNat then t.toNat - 20000 else 0 := by
  have e := toInt_eq_toNat t h0 h1
  have hlt := toNat_lt t h0 h1
  by_cases a1 : t.toNat < 4000
  · rw [if_neg (by omega)]; unfold idx2W; rw [bucketW_lo t (by omega)]; rfl
  · by_cases a2 : t.toNat < 20000
    · rw [if_neg (by omega)]; unfold idx2W; rw [bucketW_mid t (by omega) (by omega)]; rfl
    · rw [if_pos (by omega)]; unfold idx2W; rw [bucketW_hi t (by omega)]
      show (t - 20000#32).toNat = _
      rw [BitVec.toNat_sub]; simp only [BitVec.toNat_ofNat]; omega

theorem mask1_eq : mask1 t = if 4000 ≤ t.toNat ∧ t.toNat < 20000 then 1 else 0 := by
  have e := toInt_eq_toNat t h0 h1
  by_cases a1 : t.toNat < 4000
  · rw [if_neg (by omega)]; unfold mask1; rw [bucketW_lo t (by omega)]
    show (((0 : ℕ) : ℝ) : EReal) = 0; simp
  · by_cases a2 : t.toNat < 20000
    · rw [if_pos ⟨by omega, a2⟩]; unfold mask1; rw [bucketW_mid t (by omega) (by omega)]
      show (((1 : ℕ) : ℝ) : EReal) = 1; simp
    · rw [if_neg (by omega)]; unfold mask1; rw [bucketW_hi t (by omega)]
      show (((0 : ℕ) : ℝ) : EReal) = 0; simp

theorem mask2_eq : mask2 t = if 20000 ≤ t.toNat then 1 else 0 := by
  have e := toInt_eq_toNat t h0 h1
  by_cases a1 : t.toNat < 4000
  · rw [if_neg (by omega)]; unfold mask2; rw [bucketW_lo t (by omega)]
    show (((0 : ℕ) : ℝ) : EReal) = 0; simp
  · by_cases a2 : t.toNat < 20000
    · rw [if_neg (by omega)]; unfold mask2; rw [bucketW_mid t (by omega) (by omega)]
      show (((0 : ℕ) : ℝ) : EReal) = 0; simp
    · rw [if_pos (by omega)]; unfold mask2; rw [bucketW_hi t (by omega)]
      show (((1 : ℕ) : ℝ) : EReal) = 1; simp

end Range

/-! ## Layout operations of the host read at an index -/

section Generic
variable {α : Type}

/-- Rows appended below a matrix: inside the operand its entry, below it the padding value. -/
theorem pad_rows_apply {n N K p : ℕ} (x : (⟨2, ![n, K]⟩ : Shape).Idx → α) {u : Shape} (v : u.Idx → α)
    (h : (⟨2, ![n, K]⟩ : Shape).Pads ![0, 0] ![p, 0] ![0, 0] ⟨2, ![N, K]⟩) (hu : 0 < u.numel) (j : Fin N) (k : Fin K) :
    pad ⟨2, ![N, K]⟩ ![0, 0] ![p, 0] ![0, 0] x v h hu (ix2 j k)
      = if hj : j.val < n then x (ix2 ⟨j.val, hj⟩ k) else v (Shape.Idx.first hu) := by
  by_cases hj : j.val < n
  · rw [dif_pos hj]
    refine pad_apply_of_inside _ _ _ x v h hu _ _ fun a => ?_
    match a with
    | ⟨0, _⟩ => show j.val = 0 + j.val * (0 + 1); omega
    | ⟨1, _⟩ => show k.val = 0 + k.val * (0 + 1); omega
  · rw [dif_neg hj]
    refine pad_apply_of_not_inside _ _ _ x v h hu _ ⟨0, Nat.succ_pos _⟩ ?_
    show ¬(0 ≤ j.val ∧ (j.val - 0) % (0 + 1) = 0 ∧ (j.val - 0) / (0 + 1) < n)
    omega

/-- Entries appended to a vector: inside the operand its entry, past it the padding value. -/
theorem pad_vec_apply {n N p : ℕ} (x : (⟨1, ![n]⟩ : Shape).Idx → α) {u : Shape} (v : u.Idx → α)
    (h : (⟨1, ![n]⟩ : Shape).Pads ![0] ![p] ![0] ⟨1, ![N]⟩) (hu : 0 < u.numel) (j : Fin N) :
    pad ⟨1, ![N]⟩ ![0] ![p] ![0] x v h hu (ix1 j)
      = if hj : j.val < n then x (ix1 ⟨j.val, hj⟩) else v (Shape.Idx.first hu) := by
  by_cases hj : j.val < n
  · rw [dif_pos hj]
    refine pad_apply_of_inside _ _ _ x v h hu _ _ fun a => ?_
    match a with
    | ⟨0, _⟩ => show j.val = 0 + j.val * (0 + 1); omega
  · rw [dif_neg hj]
    refine pad_apply_of_not_inside _ _ _ x v h hu _ ⟨0, Nat.succ_pos _⟩ ?_
    show ¬(0 ≤ j.val ∧ (j.val - 0) % (0 + 1) = 0 ∧ (j.val - 0) / (0 + 1) < n)
    omega

/-- A block of rows cut out of a matrix, every column kept. -/
theorem slice_rows_apply {n0 K n : ℕ} (o : ℕ) (x : (⟨2, ![n0, K]⟩ : Shape).Idx → α)
    (h : (⟨2, ![n0, K]⟩ : Shape).Slices ![o, 0] ⟨2, ![n, K]⟩) (j : Fin n) (k : Fin K) (hb : o + j.val < n0) :
    extractStridedSlice ⟨2, ![n, K]⟩ ![o, 0] x h (ix2 j k) = x (ix2 ⟨o + j.val, hb⟩ k) := by
  refine extractStridedSlice_apply _ x h _ _ fun a => ?_
  match a with
  | ⟨0, _⟩ => rfl
  | ⟨1, _⟩ => show k.val = 0 + k.val; omega

/-- A stretch cut out of a vector. -/
theorem slice_vec_apply {n0 n : ℕ} (o : ℕ) (x : (⟨1, ![n0]⟩ : Shape).Idx → α)
    (h : (⟨1, ![n0]⟩ : Shape).Slices ![o] ⟨1, ![n]⟩) (j : Fin n) (hb : o + j.val < n0) :
    extractStridedSlice ⟨1, ![n]⟩ ![o] x h (ix1 j) = x (ix1 ⟨o + j.val, hb⟩) := by
  refine extractStridedSlice_apply _ x h _ _ fun a => ?_
  match a with
  | ⟨0, _⟩ => rfl

/-- A vector as a one-row matrix. -/
theorem reshape_row_apply {n : ℕ} (x : (⟨1, ![n]⟩ : Shape).Idx → α) (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_one, Shape.rowMajor_val_two]
  show j.val = 0 * n + j.val; omega

/-- A vector as a one-column matrix. -/
theorem reshape_col_apply {n : ℕ} (x : (⟨1, ![n]⟩ : Shape).Idx → α) (h : (⟨1, ![n]⟩ : Shape).ShapeCasts ⟨2, ![n, 1]⟩) (r : Fin n) :
    shapeCast ⟨2, ![n, 1]⟩ x h (ix2 r 0) = x (ix1 r) := by
  refine shapeCast_apply x h _ _ ?_
  rw [Shape.rowMajor_val_one, Shape.rowMajor_val_two]
  show r.val = r.val * 1 + 0; omega

/-- The padding value the host converts from the integer 0: the zero word. -/
theorem padval_zero (i : S_.Idx) :
    (sitofp .f32 (constantI S_ 32 0#32 : IVec S_ 32) : FVec Ideal S_ .f32) i = 0 := by
  show (((0#32 : BitVec 32).toInt : ℝ) : EReal) = 0
  simp

end Generic

/-! ## The argument arrays, and what the first host stretch leaves -/

variable (m : (ℓ : Loc nD τ sig) → Buf (Elt Ideal) ℓ) (outs : Outs (F := Ideal)) (c : Dev nD)

/-- Core `c`'s weight argument at launch. -/
abbrev aW : S50000x1024.Idx → EReal := V0 m c main_arg0
/-- Core `c`'s bias argument at launch. -/
abbrev aB : S50000.Idx → EReal := V0 m c main_arg1
/-- Core `c`'s hidden states at launch. -/
abbrev aH : S8x512x1024.Idx → EReal := V0 m c main_arg2
/-- Core `c`'s target classes at launch. -/
abbrev aT : S4096.Idx → BitVec 32 := V0 m c main_arg3
/-- Core `c`'s cluster vectors at launch. -/
abbrev aTV : S2x1024.Idx → EReal := V0 m c main_arg4
/-- Core `c`'s cluster biases at launch. -/
abbrev aTB : S2.Idx → EReal := V0 m c main_arg5

/-- The hidden states flattened to token rows. -/
theorem V1_v0 :
    (V1 m c main_v0 : S4096x1024.Idx → EReal) = shapeCast S4096x1024 (aH m c) shapeCasts_S8x512x1024_S4096x1024 := by
  show StableHlo.after hostOps0 (V0 m c) (Proc.devRef .tc main_v0) = _
  after_results
  rfl

/-- The bucket words of the targets. -/
theorem V1_v9 : (V1 m c main_v9 : S4096.Idx → BitVec 32) = fun i => bucketW (aT m c i) := by
  show StableHlo.after hostOps0 (V0 m c) (Proc.devRef .tc main_v9) = _
  after_results
  rfl

theorem hid_read (A : S8x512x1024.Idx → EReal) (r : Fin 4096) (k : Fin 1024) :
    shapeCast S4096x1024 A shapeCasts_S8x512x1024_S4096x1024 (ix2 r k) = Cert.Spec.hid A r k := by
  refine shapeCast_apply A _ _ _ ?_
  rw [Shape.rowMajor_val_three, Shape.rowMajor_val_two]
  show ((r.val / 512) * 512 + r.val % 512) * 1024 + k.val = r.val * 1024 + k.val
  omega

/-! ## What later items leave unchanged -/

theorem V7_v0_eq : V7 m c main_v0 = V1 m c main_v0 := (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))
theorem V15_v0_eq : V15 m outs c main_v0 = V1 m c main_v0 := (V15_of m outs c main_v0 (by decide)).trans <| (V14_of m outs c main_v0 (by decide)).trans <| (V13_of m outs c main_v0 (by decide)).trans <| (V12_of m outs c main_v0 (by decide)).trans <| (V11_of m outs c main_v0 (by decide)).trans <| (V10_of m outs c main_v0 (by decide)).trans <| (V9_of m outs c main_v0 (by decide)).trans <| (V8_of m outs c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))
theorem V23_v0_eq : V23 m outs c main_v0 = V1 m c main_v0 := (V23_of m outs c main_v0 (by decide)).trans <| (V22_of m outs c main_v0 (by decide)).trans <| (V21_of m outs c main_v0 (by decide)).trans <| (V20_of m outs c main_v0 (by decide)).trans <| (V19_of m outs c main_v0 (by decide)).trans <| (V18_of m outs c main_v0 (by decide)).trans <| (V17_of m outs c main_v0 (by decide)).trans <| (V16_of m outs c main_v0 (by decide)).trans <| (V15_of m outs c main_v0 (by decide)).trans <| (V14_of m outs c main_v0 (by decide)).trans <| (V13_of m outs c main_v0 (by decide)).trans <| (V12_of m outs c main_v0 (by decide)).trans <| (V11_of m outs c main_v0 (by decide)).trans <| (V10_of m outs c main_v0 (by decide)).trans <| (V9_of m outs c main_v0 (by decide)).trans <| (V8_of m outs c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))
theorem V4_v9_eq : V4 m c main_v9 = V1 m c main_v9 := (V4_of m c main_v9 (by decide)).trans <| (V3_of m c main_v9 (by decide)).trans <| (V2_of m c main_v9 (by decide))
theorem V12_v9_eq : V12 m outs c main_v9 = V1 m c main_v9 := (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m c main_v9 (by decide)).trans <| (V6_of m c main_v9 (by decide)).trans <| (V5_of m c main_v9 (by decide)).trans <| (V4_of m c main_v9 (by decide)).trans <| (V3_of m c main_v9 (by decide)).trans <| (V2_of m c main_v9 (by decide))
theorem V20_v9_eq : V20 m outs c main_v9 = V1 m c main_v9 := (V20_of m outs c main_v9 (by decide)).trans <| (V19_of m outs c main_v9 (by decide)).trans <| (V18_of m outs c main_v9 (by decide)).trans <| (V17_of m outs c main_v9 (by decide)).trans <| (V16_of m outs c main_v9 (by decide)).trans <| (V15_of m outs c main_v9 (by decide)).trans <| (V14_of m outs c main_v9 (by decide)).trans <| (V13_of m outs c main_v9 (by decide)).trans <| (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m c main_v9 (by decide)).trans <| (V6_of m c main_v9 (by decide)).trans <| (V5_of m c main_v9 (by decide)).trans <| (V4_of m c main_v9 (by decide)).trans <| (V3_of m c main_v9 (by decide)).trans <| (V2_of m c main_v9 (by decide))
theorem V24_v9_eq : V24 m outs c main_v9 = V1 m c main_v9 := (V24_of m outs c main_v9 (by decide)).trans <| (V23_of m outs c main_v9 (by decide)).trans <| (V22_of m outs c main_v9 (by decide)).trans <| (V21_of m outs c main_v9 (by decide)).trans <| (V20_of m outs c main_v9 (by decide)).trans <| (V19_of m outs c main_v9 (by decide)).trans <| (V18_of m outs c main_v9 (by decide)).trans <| (V17_of m outs c main_v9 (by decide)).trans <| (V16_of m outs c main_v9 (by decide)).trans <| (V15_of m outs c main_v9 (by decide)).trans <| (V14_of m outs c main_v9 (by decide)).trans <| (V13_of m outs c main_v9 (by decide)).trans <| (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m c main_v9 (by decide)).trans <| (V6_of m c main_v9 (by decide)).trans <| (V5_of m c main_v9 (by decide)).trans <| (V4_of m c main_v9 (by decide)).trans <| (V3_of m c main_v9 (by decide)).trans <| (V2_of m c main_v9 (by decide))
theorem V5_arg3_eq : V5 m c main_arg3 = V0 m c main_arg3 := (V5_of m c main_arg3 (by decide)).trans <| (V4_of m c main_arg3 (by decide)).trans <| (V3_of m c main_arg3 (by decide)).trans <| (V2_of m c main_arg3 (by decide)).trans <| (V1_of m c main_arg3 (by decide))
theorem V12_arg3_eq : V12 m outs c main_arg3 = V0 m c main_arg3 := (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem V20_arg3_eq : V20 m outs c main_arg3 = V0 m c main_arg3 := (V20_of m outs c main_arg3 (by decide)).trans <| (V19_of m outs c main_arg3 (by decide)).trans <| (V18_of m outs c main_arg3 (by decide)).trans <| (V17_of m outs c main_arg3 (by decide)).trans <| (V16_of m outs c main_arg3 (by decide)).trans <| (V15_of m outs c main_arg3 (by decide)).trans <| (V14_of m outs c main_arg3 (by decide)).trans <| (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem V8_arg0_eq : V8 m outs c main_arg0 = V0 m c main_arg0 := (V8_of m outs c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem V8_arg1_eq : V8 m outs c main_arg1 = V0 m c main_arg1 := (V8_of m outs c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem V16_arg0_eq : V16 m outs c main_arg0 = V0 m c main_arg0 := (V16_of m outs c main_arg0 (by decide)).trans <| (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem V16_arg1_eq : V16 m outs c main_arg1 = V0 m c main_arg1 := (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))

/-! ## The hidden rows at each region's entry -/

theorem V7_v0 (r : Fin 4096) (k : Fin 1024) :
    (V7 m c main_v0 : S4096x1024.Idx → EReal) (ix2 r k) = Cert.Spec.hid (aH m c) r k := by
  rw [V7_v0_eq, V1_v0]; exact hid_read _ r k
theorem V15_v0 (r : Fin 4096) (k : Fin 1024) :
    (V15 m outs c main_v0 : S4096x1024.Idx → EReal) (ix2 r k) = Cert.Spec.hid (aH m c) r k := by
  rw [V15_v0_eq, V1_v0]; exact hid_read _ r k
theorem V23_v0 (r : Fin 4096) (k : Fin 1024) :
    (V23 m outs c main_v0 : S4096x1024.Idx → EReal) (ix2 r k) = Cert.Spec.hid (aH m c) r k := by
  rw [V23_v0_eq, V1_v0]; exact hid_read _ r k

end Cert.KernelIdeal.Hand
end
-- ==== Proof.PreDecode.lean ====
/-
  The printed precondition, read back at the exact-real instance. The predicate is the conjunction of five statements
  "every entry x of a float input has |x| < +∞" and of "every target t has 0 ≤ t < 50000" (signed 32-bit words), each a
  reduction by `and` over a whole array, the conjunction one `and` per statement. At the exact-real instance a float is an
  extended real, |x| is max x (-x) and the pattern 0x7F800000 denotes ⊤, so |x| < ⊤ says x is neither ⊥ nor ⊤: x is a real
  number. A signed word in [0, 50000) reads the same unsigned.
-/
import proofs.«427234_j53386443489982_1_alg».proof.Pre_finite_inputs
import proofs.«427234_j53386443489982_1_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

noncomputable section

namespace Cert.PreDecode

open Idealize.ShloMosaic Cert.Pre_finite_inputs

/-- The rank-0 shape has one index. -/
instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < ⊤) : ∃ v : ℝ, x = (v : EReal) := by
  induction x using EReal.rec with
  | bot => exact absurd h (by simp)
  | coe v => exact ⟨v, rfl⟩
  | top => exact absurd h (by simp)

/-- One element of "|x| < +∞" being 1 says the entry is a real number (any shape). -/
theorem elt_real {s : Shape} (bc : S_.BroadcastsInDim s (![] : Fin 0 → Fin s.rank)) (x : FVec Ideal s .f32) (i : s.Idx)
    (h : cmpf .olt (Host.absf x) (broadcastInDim s ![] bc (constant (F := Ideal) S_ .f32 0x7F800000#32)) i = 1#1) :
    ∃ v : ℝ, x i = (v : EReal) := by
  have h' : Ideal.cmp .olt (max (x i) (-(x i))) (Ideal.ofBits .f32 0x7F800000#32) = 1#1 := h
  rw [ofBits_inf] at h'
  simp only [Ideal.cmp, StableHlo.Predicate.ofBool_eq_one_iff, decide_eq_true_eq] at h'
  exact real_of_abs_lt_top _ h'

/-- A whole-array "all(|x| < +∞)" being 1 says every entry is a real number. -/
theorem all_real {s : Shape} {axes : List (Fin s.rank)} (bc : S_.BroadcastsInDim s (![] : Fin 0 → Fin s.rank))
    (red : s.ReducesTo axes S_) (h0 : 0 < S_.numel) (x : FVec Ideal s .f32) (init : IVec S_ 1)
    (h : Host.reduce IntOp.andi
      (cmpf .olt (Host.absf x) (broadcastInDim s ![] bc (constant (F := Ideal) S_ .f32 0x7F800000#32))) init red h0 ValueIdx.ix0 = 1#1) :
    ∀ i, ∃ v : ℝ, x i = (v : EReal) :=
  fun i => elt_real bc x i (Host.reduce_andi_all _ init red h0 ValueIdx.ix0 h i)

/-- The conjunction of two rank-0 bits at the one index. -/
theorem andi_ix0 (x y : IVec S_ 1) (h : andi x y ValueIdx.ix0 = 1#1) : x ValueIdx.ix0 = 1#1 ∧ y ValueIdx.ix0 = 1#1 :=
  IntOp.andi_eq_one.1 h

/-- A signed word that is ≥ 0 and < 50000 (both comparisons 1): its signed value, and its unsigned value. -/
theorem word_range (w : BitVec 32) (h : IntOp.andi (IntOp.cmpi .sge w 0#32) (IntOp.cmpi .slt w 50000#32) = 1#1) :
    (0 ≤ w.toInt ∧ w.toInt < 50000) ∧ w.toNat < 50000 := by
  obtain ⟨h0, h1⟩ := IntOp.andi_eq_one.1 h
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e5 : (50000#32 : BitVec 32).toInt = 50000 := by decide
  rw [e0] at h0
  rw [e5] at h1
  refine ⟨⟨h0, h1⟩, ?_⟩
  have h32 := w.isLt
  unfold BitVec.toInt at h0 h1
  split at h1 <;> omega

variable [Cert.Pre_finite_inputs.Facts]

section AnyFloat
/-! The targets' statement does not look at the floats: it reads the same at every float instance. -/
variable {F : FTy → Type} [FloatOps F]
variable {b0 : FVec F S50000x1024 .f32} {b1 : FVec F S50000 .f32} {b2 : FVec F S8x512x1024 .f32}
  {a3 : IVec S4096 32} {b4 : FVec F S2x1024 .f32} {b5 : FVec F S2 .f32}

theorem targets_all (h : Cert.Pre_finite_inputs.fn (F := F) b0 b1 b2 a3 b4 b5 = (fun _ => 1#1)) :
    ∀ i : S4096.Idx, (0 ≤ (a3 i).toInt ∧ (a3 i).toInt < 50000) ∧ (a3 i).toNat < 50000 := by
  have e := congrFun h ValueIdx.ix0
  dsimp only [Cert.Pre_finite_inputs.fn, Cert.Pre_finite_inputs.fn_part1] at e
  obtain ⟨-, e3⟩ := andi_ix0 _ _ e
  exact fun i => word_range (a3 i) (Host.reduce_andi_all _ _ _ _ ValueIdx.ix0 e3 i)

theorem targets_range (h : Cert.Pre_finite_inputs.fn (F := F) b0 b1 b2 a3 b4 b5 = (fun _ => 1#1)) :
    ∀ i : S4096.Idx, 0 ≤ (a3 i).toInt ∧ (a3 i).toInt < 50000 := fun i => (targets_all h i).1

theorem targets_lt (h : Cert.Pre_finite_inputs.fn (F := F) b0 b1 b2 a3 b4 b5 = (fun _ => 1#1)) :
    ∀ i : S4096.Idx, (a3 i).toNat < 50000 := fun i => (targets_all h i).2

/-- A target's signed value is its unsigned value. -/
theorem targets_toInt (h : Cert.Pre_finite_inputs.fn (F := F) b0 b1 b2 a3 b4 b5 = (fun _ => 1#1)) :
    ∀ i : S4096.Idx, (a3 i).toInt = ((a3 i).toNat : ℤ) :=
  fun i => StableHlo.Predicate.toInt_eq_toNat_of_lt (by have := targets_lt h i; omega)

end AnyFloat

variable {a0 : FVec Ideal S50000x1024 .f32} {a1 : FVec Ideal S50000 .f32} {a2 : FVec Ideal S8x512x1024 .f32}
  {a3 : IVec S4096 32} {a4 : FVec Ideal S2x1024 .f32} {a5 : FVec Ideal S2 .f32}

/-- The precondition split into its six statements. -/
theorem split (h : Cert.Pre_finite_inputs.fn (F := Ideal) a0 a1 a2 a3 a4 a5 = (fun _ => 1#1)) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a4 i = (v : EReal)) ∧ (∀ i, ∃ v : ℝ, a5 i = (v : EReal))
      ∧ (∀ i, (0 ≤ (a3 i).toInt ∧ (a3 i).toInt < 50000) ∧ (a3 i).toNat < 50000) := by
  have e := congrFun h ValueIdx.ix0
  dsimp only [Cert.Pre_finite_inputs.fn, Cert.Pre_finite_inputs.fn_part1] at e
  obtain ⟨e, e3⟩ := andi_ix0 _ _ e
  obtain ⟨e, e5⟩ := andi_ix0 _ _ e
  obtain ⟨e, e4⟩ := andi_ix0 _ _ e
  obtain ⟨e, e2⟩ := andi_ix0 _ _ e
  obtain ⟨e0, e1⟩ := andi_ix0 _ _ e
  refine ⟨all_real _ _ _ a0 _ e0, all_real _ _ _ a1 _ e1, all_real _ _ _ a2 _ e2, all_real _ _ _ a4 _ e4,
    all_real _ _ _ a5 _ e5, fun i => ?_⟩
  exact word_range (a3 i) (Host.reduce_andi_all _ _ _ _ ValueIdx.ix0 e3 i)

theorem weight_real (h : Cert.Pre_finite_inputs.fn (F := Ideal) a0 a1 a2 a3 a4 a5 = (fun _ => 1#1)) :
    ∀ i : S50000x1024.Idx, ∃ v : ℝ, a0 i = (v : EReal) := (split h).1

theorem bias_real (h : Cert.Pre_finite_inputs.fn (F := Ideal) a0 a1 a2 a3 a4 a5 = (fun _ => 1#1)) :
    ∀ i : S50000.Idx, ∃ v : ℝ, a1 i = (v : EReal) := (split h).2.1

theorem hiddens_real (h : Cert.Pre_finite_inputs.fn (F := Ideal) a0 a1 a2 a3 a4 a5 = (fun _ => 1#1)) :
    ∀ i : S8x512x1024.Idx, ∃ v : ℝ, a2 i = (v : EReal) := (split h).2.2.1

theorem tailv_real (h : Cert.Pre_finite_inputs.fn (F := Ideal) a0 a1 a2 a3 a4 a5 = (fun _ => 1#1)) :
    ∀ i : S2x1024.Idx, ∃ v : ℝ, a4 i = (v : EReal) := (split h).2.2.2.1

theorem tailb_real (h : Cert.Pre_finite_inputs.fn (F := Ideal) a0 a1 a2 a3 a4 a5 = (fun _ => 1#1)) :
    ∀ i : S2.Idx, ∃ v : ℝ, a5 i = (v : EReal) := (split h).2.2.2.2.1

end Cert.PreDecode

end
-- ==== Proof.PreDecodeK.lean ====
/-
  The decoded precondition in the shape the claims take it: on every device, the printed predicate of the program's six
  argument buffers is all ones. Then every float argument entry is a real number (at the exact-real instance) and every
  target is in [0, 50000) (at either instance: that statement does not look at the floats).
-/
import proofs.«427234_j53386443489982_1_alg».proof.Defs
import proofs.«427234_j53386443489982_1_alg».proof.Proof.PreDecode

noncomputable section

namespace Cert.PreDecode

open Idealize.ShloMosaic Idealize.SL.Sem

variable [Cert.Pre_finite_inputs.Facts]

section ki
variable {m : (ℓ : Loc Cert.KernelIdeal.nD Cert.KernelIdeal.τ Cert.KernelIdeal.sig) → Buf (Elt Ideal) ℓ}

theorem ki_weight_real (h : Cert.Pre_KernelIdeal m) (c : Dev Cert.KernelIdeal.nD) :
    ∀ i, ∃ v : ℝ, m ((c.tc : Thread Cert.KernelIdeal.nD Cert.KernelIdeal.τ).loc Cert.KernelIdeal.main_arg0) i = (v : EReal) := weight_real (h c)

theorem ki_bias_real (h : Cert.Pre_KernelIdeal m) (c : Dev Cert.KernelIdeal.nD) :
    ∀ i, ∃ v : ℝ, m ((c.tc : Thread Cert.KernelIdeal.nD Cert.KernelIdeal.τ).loc Cert.KernelIdeal.main_arg1) i = (v : EReal) := bias_real (h c)

theorem ki_hiddens_real (h : Cert.Pre_KernelIdeal m) (c : Dev Cert.KernelIdeal.nD) :
    ∀ i, ∃ v : ℝ, m ((c.tc : Thread Cert.KernelIdeal.nD Cert.KernelIdeal.τ).loc Cert.KernelIdeal.main_arg2) i = (v : EReal) := hiddens_real (h c)

theorem ki_tailv_real (h : Cert.Pre_KernelIdeal m) (c : Dev Cert.KernelIdeal.nD) :
    ∀ i, ∃ v : ℝ, m ((c.tc : Thread Cert.KernelIdeal.nD Cert.KernelIdeal.τ).loc Cert.KernelIdeal.main_arg4) i = (v : EReal) := tailv_real (h c)

theorem ki_tailb_real (h : Cert.Pre_KernelIdeal m) (c : Dev Cert.KernelIdeal.nD) :
    ∀ i, ∃ v : ℝ, m ((c.tc : Thread Cert.KernelIdeal.nD Cert.KernelIdeal.τ).loc Cert.KernelIdeal.main_arg5) i = (v : EReal) := tailb_real (h c)

theorem ki_targets_range (h : Cert.Pre_KernelIdeal m) (c : Dev Cert.KernelIdeal.nD) :
    ∀ i, 0 ≤ (m ((c.tc : Thread Cert.KernelIdeal.nD Cert.KernelIdeal.τ).loc Cert.KernelIdeal.main_arg3) i).toInt ∧ (m ((c.tc : Thread Cert.KernelIdeal.nD Cert.KernelIdeal.τ).loc Cert.KernelIdeal.main_arg3) i).toInt < 50000 := targets_range (h c)

theorem ki_targets_lt (h : Cert.Pre_KernelIdeal m) (c : Dev Cert.KernelIdeal.nD) :
    ∀ i, (m ((c.tc : Thread Cert.KernelIdeal.nD Cert.KernelIdeal.τ).loc Cert.KernelIdeal.main_arg3) i).toNat < 50000 := targets_lt (h c)

theorem ki_targets_toInt (h : Cert.Pre_KernelIdeal m) (c : Dev Cert.KernelIdeal.nD) :
    ∀ i, (m ((c.tc : Thread Cert.KernelIdeal.nD Cert.KernelIdeal.τ).loc Cert.KernelIdeal.main_arg3) i).toInt = ((m ((c.tc : Thread Cert.KernelIdeal.nD Cert.KernelIdeal.τ).loc Cert.KernelIdeal.main_arg3) i).toNat : ℤ) := targets_toInt (h c)

end ki

section ri
variable {m : (ℓ : Loc Cert.ReferenceIdeal.nD Cert.ReferenceIdeal.τ Cert.ReferenceIdeal.sig) → Buf (Elt Ideal) ℓ}

theorem ri_weight_real (h : Cert.Pre_ReferenceIdeal m) (c : Dev Cert.ReferenceIdeal.nD) :
    ∀ i, ∃ v : ℝ, m ((c.tc : Thread Cert.ReferenceIdeal.nD Cert.ReferenceIdeal.τ).loc Cert.ReferenceIdeal.main_arg0) i = (v : EReal) := weight_real (h c)

theorem ri_bias_real (h : Cert.Pre_ReferenceIdeal m) (c : Dev Cert.ReferenceIdeal.nD) :
    ∀ i, ∃ v : ℝ, m ((c.tc : Thread Cert.ReferenceIdeal.nD Cert.ReferenceIdeal.τ).loc Cert.ReferenceIdeal.main_arg1) i = (v : EReal) := bias_real (h c)

theorem ri_hiddens_real (h : Cert.Pre_ReferenceIdeal m) (c : Dev Cert.ReferenceIdeal.nD) :
    ∀ i, ∃ v : ℝ, m ((c.tc : Thread Cert.ReferenceIdeal.nD Cert.ReferenceIdeal.τ).loc Cert.ReferenceIdeal.main_arg2) i = (v : EReal) := hiddens_real (h c)

theorem ri_tailv_real (h : Cert.Pre_ReferenceIdeal m) (c : Dev Cert.ReferenceIdeal.nD) :
    ∀ i, ∃ v : ℝ, m ((c.tc : Thread Cert.ReferenceIdeal.nD Cert.ReferenceIdeal.τ).loc Cert.ReferenceIdeal.main_arg4) i = (v : EReal) := tailv_real (h c)

theorem ri_tailb_real (h : Cert.Pre_ReferenceIdeal m) (c : Dev Cert.ReferenceIdeal.nD) :
    ∀ i, ∃ v : ℝ, m ((c.tc : Thread Cert.ReferenceIdeal.nD Cert.ReferenceIdeal.τ).loc Cert.ReferenceIdeal.main_arg5) i = (v : EReal) := tailb_real (h c)

theorem ri_targets_range (h : Cert.Pre_ReferenceIdeal m) (c : Dev Cert.ReferenceIdeal.nD) :
    ∀ i, 0 ≤ (m ((c.tc : Thread Cert.ReferenceIdeal.nD Cert.ReferenceIdeal.τ).loc Cert.ReferenceIdeal.main_arg3) i).toInt ∧ (m ((c.tc : Thread Cert.ReferenceIdeal.nD Cert.ReferenceIdeal.τ).loc Cert.ReferenceIdeal.main_arg3) i).toInt < 50000 := targets_range (h c)

theorem ri_targets_lt (h : Cert.Pre_ReferenceIdeal m) (c : Dev Cert.ReferenceIdeal.nD) :
    ∀ i, (m ((c.tc : Thread Cert.ReferenceIdeal.nD Cert.ReferenceIdeal.τ).loc Cert.ReferenceIdeal.main_arg3) i).toNat < 50000 := targets_lt (h c)

theorem ri_targets_toInt (h : Cert.Pre_ReferenceIdeal m) (c : Dev Cert.ReferenceIdeal.nD) :
    ∀ i, (m ((c.tc : Thread Cert.ReferenceIdeal.nD Cert.ReferenceIdeal.τ).loc Cert.ReferenceIdeal.main_arg3) i).toInt = ((m ((c.tc : Thread Cert.ReferenceIdeal.nD Cert.ReferenceIdeal.τ).loc Cert.ReferenceIdeal.main_arg3) i).toNat : ℤ) := targets_toInt (h c)

end ri

section k
variable {m : (ℓ : Loc Cert.Kernel.nD Cert.Kernel.τ Cert.Kernel.sig) → Buf (Elt Bits) ℓ}

theorem k_targets_range (h : Cert.Pre_Kernel m) (c : Dev Cert.Kernel.nD) :
    ∀ i, 0 ≤ (m ((c.tc : Thread Cert.Kernel.nD Cert.Kernel.τ).loc Cert.Kernel.main_arg3) i).toInt ∧ (m ((c.tc : Thread Cert.Kernel.nD Cert.Kernel.τ).loc Cert.Kernel.main_arg3) i).toInt < 50000 := targets_range (h c)

theorem k_targets_lt (h : Cert.Pre_Kernel m) (c : Dev Cert.Kernel.nD) :
    ∀ i, (m ((c.tc : Thread Cert.Kernel.nD Cert.Kernel.τ).loc Cert.Kernel.main_arg3) i).toNat < 50000 := targets_lt (h c)

theorem k_targets_toInt (h : Cert.Pre_Kernel m) (c : Dev Cert.Kernel.nD) :
    ∀ i, (m ((c.tc : Thread Cert.Kernel.nD Cert.Kernel.τ).loc Cert.Kernel.main_arg3) i).toInt = ((m ((c.tc : Thread Cert.Kernel.nD Cert.Kernel.τ).loc Cert.Kernel.main_arg3) i).toNat : ℤ) := targets_toInt (h c)

end k

end Cert.PreDecode

end
-- ==== Proof.LossRow.lean ====
/-
  The per-token combination of the three splits equals the specification's loss of the token.

  For a token with target class `t`, the three log-probabilities `a0` (head), `a1` (first tail), `a2` (second tail)
  are combined as `-(a0 + k1 * a1 + k2 * a2)` with `k1 = 1` exactly when `t` is a class of the first tail and
  `k2 = 1` exactly when it is a class of the second tail (`0` otherwise).  In the extended reals `0 * x = 0`,
  `1 * x = x` and `x + 0 = x` for every `x`, so the combination is `-a0`, `-(a0 + a1)` or `-(a0 + a2)` in the three
  cases, with no finiteness assumed.  The column read from the head is `t` for a head class and the cluster column
  `4001` or `4000` for a class of the first or second tail.
-/
import proofs.«427234_j53386443489982_1_alg».proof.Proof.Spec
import Mathlib.Data.EReal.Operations

noncomputable section

namespace Cert.LossRow

open Idealize.ShloMosaic Cert.Spec
open scoped BigOperators

theorem col_eq {n : ℕ} (hn : 0 < n) {j : ℕ} (hj : j < n) : col n hn j = ⟨j, hj⟩ :=
  Fin.ext (col_val hn hj)

/-- The bare combination, by the three cases of the target. -/
theorem combine (t : ℕ) (k1 k2 a0 a1 a2 : EReal)
    (hk1 : k1 = if 4000 ≤ t ∧ t < 20000 then 1 else 0) (hk2 : k2 = if 20000 ≤ t then 1 else 0) :
    -(a0 + k1 * a1 + k2 * a2) = if t < 4000 then -a0 else if t < 20000 then -(a0 + a1) else -(a0 + a2) := by
  subst hk1 hk2
  by_cases c1 : t < 4000
  · have n1 : ¬ (4000 ≤ t ∧ t < 20000) := fun h => by omega
    have n2 : ¬ (20000 ≤ t) := by omega
    rw [if_pos c1, if_neg n1, if_neg n2, zero_mul, zero_mul, add_zero, add_zero]
  · by_cases c2 : t < 20000
    · have p1 : 4000 ≤ t ∧ t < 20000 := ⟨by omega, c2⟩
      have n2 : ¬ (20000 ≤ t) := by omega
      rw [if_neg c1, if_pos c2, if_pos p1, if_neg n2, one_mul, zero_mul, add_zero]
    · have n1 : ¬ (4000 ≤ t ∧ t < 20000) := fun h => c2 h.2
      have p2 : 20000 ≤ t := by omega
      rw [if_neg c1, if_neg c2, if_neg n1, if_pos p2, zero_mul, one_mul, add_zero]

/-- The indices read are in range when the target is a class. -/
theorem idx_bounds (t : ℕ) (ht : t < 50000) :
    (if t < 4000 then t else if t < 20000 then 4001 else 4000) < 4002
    ∧ (if 4000 ≤ t ∧ t < 20000 then t - 4000 else 0) < 16000
    ∧ (if 20000 ≤ t then t - 20000 else 0) < 30000 := by
  refine ⟨?_, ?_, ?_⟩
  · split
    · omega
    · split <;> omega
  · split
    · omega
    · omega
  · split
    · omega
    · omega

section Rows

variable (weight : Fin 50000 → Fin 1024 → EReal) (bias : Fin 50000 → EReal)
  (tailv : Fin 2 → Fin 1024 → EReal) (tailb : Fin 2 → EReal)
  (H : Fin 4096 → Fin 1024 → EReal) (tgt : Fin 4096 → ℕ)

/-- The combination of the three splits' log-probabilities at the columns read is the loss of the token. -/
theorem kernel_row (r : Fin 4096) (k1 k2 : EReal) (j0 j1 j2 : ℕ)
    (hj0 : j0 = if tgt r < 4000 then tgt r else if tgt r < 20000 then 4001 else 4000)
    (hj1 : j1 = if 4000 ≤ tgt r ∧ tgt r < 20000 then tgt r - 4000 else 0)
    (hj2 : j2 = if 20000 ≤ tgt r then tgt r - 20000 else 0)
    (hk1 : k1 = if 4000 ≤ tgt r ∧ tgt r < 20000 then 1 else 0)
    (hk2 : k2 = if 20000 ≤ tgt r then 1 else 0) :
    -(((headRow weight bias tailv tailb H r (col 4002 (by decide) j0) - rowMax (headRow weight bias tailv tailb H r))
          - Ideal.log (rowSum (headRow weight bias tailv tailb H r)))
        + k1 * ((tail1Row weight bias H r (col 16000 (by decide) j1) - rowMax (tail1Row weight bias H r))
          - Ideal.log (rowSum (tail1Row weight bias H r)))
        + k2 * ((tail2Row weight bias H r (col 30000 (by decide) j2) - rowMax (tail2Row weight bias H r))
          - Ideal.log (rowSum (tail2Row weight bias H r))))
      = lossRow weight bias tailv tailb H tgt r := by
  rw [combine (tgt r) k1 k2 _ _ _ hk1 hk2]
  unfold lossRow logProb
  by_cases c1 : tgt r < 4000
  · rw [if_pos c1, if_pos c1, hj0, if_pos c1]
  · by_cases c2 : tgt r < 20000
    · have p1 : 4000 ≤ tgt r ∧ tgt r < 20000 := ⟨by omega, c2⟩
      rw [if_neg c1, if_pos c2, if_neg c1, if_pos c2, hj0, if_neg c1, if_pos c2, hj1, if_pos p1]
    · have p2 : 20000 ≤ tgt r := by omega
      rw [if_neg c1, if_neg c2, if_neg c1, if_neg c2, hj0, if_neg c1, if_neg c2, hj2, if_pos p2]

/-- The same with the gathered entries given as values, at indices built from bound proofs. -/
theorem kernel_row_vals (r : Fin 4096) (k1 k2 g0 g1 g2 : EReal) (j0 j1 j2 : ℕ)
    (h0 : j0 < 4002) (h1 : j1 < 16000) (h2 : j2 < 30000)
    (hj0 : j0 = if tgt r < 4000 then tgt r else if tgt r < 20000 then 4001 else 4000)
    (hj1 : j1 = if 4000 ≤ tgt r ∧ tgt r < 20000 then tgt r - 4000 else 0)
    (hj2 : j2 = if 20000 ≤ tgt r then tgt r - 20000 else 0)
    (hk1 : k1 = if 4000 ≤ tgt r ∧ tgt r < 20000 then 1 else 0)
    (hk2 : k2 = if 20000 ≤ tgt r then 1 else 0)
    (hg0 : g0 = headRow weight bias tailv tailb H r ⟨j0, h0⟩)
    (hg1 : g1 = tail1Row weight bias H r ⟨j1, h1⟩)
    (hg2 : g2 = tail2Row weight bias H r ⟨j2, h2⟩) :
    -(((g0 - rowMax (headRow weight bias tailv tailb H r)) - Ideal.log (rowSum (headRow weight bias tailv tailb H r)))
        + k1 * ((g1 - rowMax (tail1Row weight bias H r)) - Ideal.log (rowSum (tail1Row weight bias H r)))
        + k2 * ((g2 - rowMax (tail2Row weight bias H r)) - Ideal.log (rowSum (tail2Row weight bias H r))))
      = lossRow weight bias tailv tailb H tgt r := by
  rw [hg0, hg1, hg2, ← col_eq (by decide : 0 < 4002) h0, ← col_eq (by decide : 0 < 16000) h1,
    ← col_eq (by decide : 0 < 30000) h2]
  exact kernel_row weight bias tailv tailb H tgt r k1 k2 j0 j1 j2 hj0 hj1 hj2 hk1 hk2

/-- The mean of per-token values that are the tokens' losses is the loss. -/
theorem loss_of_rows (f : Fin 4096 → EReal) (hf : ∀ r, f r = lossRow weight bias tailv tailb H tgt r) :
    Ideal.div (∑ r : Fin 4096, f r) (Ideal.ofBits .f32 0x45800000#32) = loss weight bias tailv tailb H tgt := by
  rw [loss, Finset.sum_congr rfl fun r _ => hf r]

end Rows

end Cert.LossRow

end
-- ==== Proof.KI.ResultIn.lean ====
/-
  The specification's arguments read off the launch memory, and what the precondition says of them: every float
  entry is a real number, every target word is a class in [0, 50000), so the three index words the host hands the
  regions are columns of their splits. The regions' weight and bias operands are the splits' rows padded with zero
  rows; the logits of the unpadded part are the specification's rows.
-/
import proofs.«427234_j53386443489982_1_alg».proof.Proof.KI.HostBase
import proofs.«427234_j53386443489982_1_alg».proof.Proof.PreDecodeK
import proofs.«427234_j53386443489982_1_alg».proof.Proof.LossRow
import proofs.«427234_j53386443489982_1_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (outs : Outs (F := Ideal)) (c : Dev nD)

/-! ## The specification's arguments -/

abbrev sW : Fin 50000 → Fin 1024 → EReal := Cert.Spec.mat (aW m c)
abbrev sB : Fin 50000 → EReal := Cert.Spec.vec (aB m c)
abbrev sTV : Fin 2 → Fin 1024 → EReal := Cert.Spec.mat (aTV m c)
abbrev sTB : Fin 2 → EReal := Cert.Spec.vec (aTB m c)
abbrev sH : Fin 4096 → Fin 1024 → EReal := Cert.Spec.hid (aH m c)
abbrev sT : Fin 4096 → ℕ := Cert.Spec.tgt (aT m c)
/-- The target word of token r. -/
abbrev tW (r : Fin 4096) : BitVec 32 := aT m c (ix1 r)
abbrev row0 (r : Fin 4096) : Fin 4002 → EReal := Cert.Spec.headRow (sW m c) (sB m c) (sTV m c) (sTB m c) (sH m c) r
abbrev row1 (r : Fin 4096) : Fin 16000 → EReal := Cert.Spec.tail1Row (sW m c) (sB m c) (sH m c) r
abbrev row2 (r : Fin 4096) : Fin 30000 → EReal := Cert.Spec.tail2Row (sW m c) (sB m c) (sH m c) r

/-! ## What the precondition says of them -/

variable (hpre : Cert.Pre_KernelIdeal m)
include hpre

theorem sH_real (r : Fin 4096) (k : Fin 1024) : ∃ v : ℝ, sH m c r k = (v : EReal) :=
  Cert.PreDecode.ki_hiddens_real hpre c _

theorem sW_real (j : Fin 50000) (k : Fin 1024) : ∃ v : ℝ, sW m c j k = (v : EReal) :=
  Cert.PreDecode.ki_weight_real hpre c _

theorem sB_real (j : Fin 50000) : ∃ v : ℝ, sB m c j = (v : EReal) :=
  Cert.PreDecode.ki_bias_real hpre c _

theorem sTV_real (j : Fin 2) (k : Fin 1024) : ∃ v : ℝ, sTV m c j k = (v : EReal) :=
  Cert.PreDecode.ki_tailv_real hpre c _

theorem sTB_real (j : Fin 2) : ∃ v : ℝ, sTB m c j = (v : EReal) :=
  Cert.PreDecode.ki_tailb_real hpre c _

theorem headW_real (j : Fin 4002) (k : Fin 1024) : ∃ v : ℝ, Cert.Spec.headW (sW m c) (sTV m c) j k = (v : EReal) := by
  unfold Cert.Spec.headW
  split
  · exact sW_real m c hpre _ _
  · exact sTV_real m c hpre _ _

theorem headB_real (j : Fin 4002) : ∃ v : ℝ, Cert.Spec.headB (sB m c) (sTB m c) j = (v : EReal) := by
  unfold Cert.Spec.headB
  split
  · exact sB_real m c hpre _
  · exact sTB_real m c hpre _

theorem tail1W_real (j : Fin 16000) (k : Fin 1024) : ∃ v : ℝ, Cert.Spec.tail1W (sW m c) j k = (v : EReal) := sW_real m c hpre _ _
theorem tail1B_real (j : Fin 16000) : ∃ v : ℝ, Cert.Spec.tail1B (sB m c) j = (v : EReal) := sB_real m c hpre _
theorem tail2W_real (j : Fin 30000) (k : Fin 1024) : ∃ v : ℝ, Cert.Spec.tail2W (sW m c) j k = (v : EReal) := sW_real m c hpre _ _
theorem tail2B_real (j : Fin 30000) : ∃ v : ℝ, Cert.Spec.tail2B (sB m c) j = (v : EReal) := sB_real m c hpre _

theorem tW_range (r : Fin 4096) : 0 ≤ (tW m c r).toInt ∧ (tW m c r).toInt < 50000 :=
  Cert.PreDecode.ki_targets_range hpre c _

theorem sT_lt (r : Fin 4096) : sT m c r < 50000 := Cert.PreDecode.ki_targets_lt hpre c _

theorem idx0_lt (r : Fin 4096) : (idx0W (tW m c r)).toNat < 4002 := by
  rw [idx0W_toNat _ (tW_range m c hpre r).1 (tW_range m c hpre r).2]
  exact (Cert.LossRow.idx_bounds _ (sT_lt m c hpre r)).1

theorem idx1_lt (r : Fin 4096) : (idx1W (tW m c r)).toNat < 16000 := by
  rw [idx1W_toNat _ (tW_range m c hpre r).1 (tW_range m c hpre r).2]
  exact (Cert.LossRow.idx_bounds _ (sT_lt m c hpre r)).2.1

theorem idx2_lt (r : Fin 4096) : (idx2W (tW m c r)).toNat < 30000 := by
  rw [idx2W_toNat _ (tW_range m c hpre r).1 (tW_range m c hpre r).2]
  exact (Cert.LossRow.idx_bounds _ (sT_lt m c hpre r)).2.2

omit hpre

/-! ## The regions' padded operands, and their rows of logits -/

/-- Region 0's weight operand: the head split's 4002 rows, then zero rows. -/
def Wp0 (j : Fin 4096) (k : Fin 1024) : EReal := if h : j.val < 4002 then Cert.Spec.headW (sW m c) (sTV m c) ⟨j.val, h⟩ k else 0
def Bp0 (j : Fin 4096) : EReal := if h : j.val < 4002 then Cert.Spec.headB (sB m c) (sTB m c) ⟨j.val, h⟩ else 0
/-- Region 1's weight operand: the first tail's 16000 rows, then zero rows. -/
def Wp1 (j : Fin 16384) (k : Fin 1024) : EReal := if h : j.val < 16000 then Cert.Spec.tail1W (sW m c) ⟨j.val, h⟩ k else 0
def Bp1 (j : Fin 16384) : EReal := if h : j.val < 16000 then Cert.Spec.tail1B (sB m c) ⟨j.val, h⟩ else 0
/-- Region 2's weight operand: the second tail's 30000 rows, then zero rows. -/
def Wp2 (j : Fin 30720) (k : Fin 1024) : EReal := if h : j.val < 30000 then Cert.Spec.tail2W (sW m c) ⟨j.val, h⟩ k else 0
def Bp2 (j : Fin 30720) : EReal := if h : j.val < 30000 then Cert.Spec.tail2B (sB m c) ⟨j.val, h⟩ else 0

/-- The unpadded logits of region 0's operands are the specification's head row. -/
theorem logit_pad0 (r : Fin 4096) :
    Cert.Spec.logit (sH m c) (fun j : Fin 4002 => Wp0 m c ⟨j.val, by omega⟩) (fun j : Fin 4002 => Bp0 m c ⟨j.val, by omega⟩) r = row0 m c r := by
  funext j
  unfold row0 Cert.Spec.headRow Cert.Spec.logit Wp0 Bp0
  simp only [dif_pos j.isLt, Fin.eta]

theorem logit_pad1 (r : Fin 4096) :
    Cert.Spec.logit (sH m c) (fun j : Fin 16000 => Wp1 m c ⟨j.val, by omega⟩) (fun j : Fin 16000 => Bp1 m c ⟨j.val, by omega⟩) r = row1 m c r := by
  funext j
  unfold row1 Cert.Spec.tail1Row Cert.Spec.logit Wp1 Bp1
  simp only [dif_pos j.isLt, Fin.eta]

theorem logit_pad2 (r : Fin 4096) :
    Cert.Spec.logit (sH m c) (fun j : Fin 30000 => Wp2 m c ⟨j.val, by omega⟩) (fun j : Fin 30000 => Bp2 m c ⟨j.val, by omega⟩) r = row2 m c r := by
  funext j
  unfold row2 Cert.Spec.tail2Row Cert.Spec.logit Wp2 Bp2
  simp only [dif_pos j.isLt, Fin.eta]

end Cert.KernelIdeal.Hand

end
-- ==== Proof.KI.HostPrep0.lean ====
/- The head split's operands at the entry of its kernel region, from the argument arrays: the weight rows (the first 4000 classes' and the two cluster rows, over zero rows), the biases likewise, and per token the head's index word of its target. -/
import proofs.«427234_j53386443489982_1_alg».proof.Proof.Gen.KernelIdeal.Regions
import proofs.«427234_j53386443489982_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«427234_j53386443489982_1_alg».proof.Proof.KI.HostBase
set_option maxRecDepth 1164

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (c : Dev nD)

/-! ## The first host stretch: the head's weight rows and biases -/

/-- The head's weight rows: the first 4000 classes' over the two cluster rows. -/
theorem V1_v11 : (V1 m c main_v11 : S4002x1024.Idx → EReal)
    = concatenate S4002x1024 0 [⟨S4000x1024, extractStridedSlice S4000x1024 ![0, 0] (aW m c) slices_S50000x1024_S4000x1024_0_0⟩, ⟨S2x1024, aTV m c⟩]
        concatenates_S4000x1024_S2x1024_S4002x1024_d0 := by
  show StableHlo.after hostOps0 (V0 m c) (Proc.devRef .tc main_v11) = _
  after_results
  first | done | rfl

/-- The head's biases. -/
theorem V1_v13 : (V1 m c main_v13 : S4002.Idx → EReal)
    = concatenate S4002 0 [⟨S4000, extractStridedSlice S4000 ![0] (aB m c) slices_S50000_S4000_0⟩, ⟨S2, aTB m c⟩] concatenates_S4000_S2_S4002_d0 := by
  show StableHlo.after hostOps0 (V0 m c) (Proc.devRef .tc main_v13) = _
  after_results
  first | done | rfl

theorem V1_c2 : (V1 m c main_c_2 : S_.Idx → BitVec 32) = constantI S_ 32 0#32 := by
  show StableHlo.after hostOps0 (V0 m c) (Proc.devRef .tc main_c_2) = _
  after_results
  first | done | rfl

theorem head_rows_read (W : S50000x1024.Idx → EReal) (TV : S2x1024.Idx → EReal) (j : Fin 4002) (k : Fin 1024) :
    concatenate S4002x1024 0 [⟨S4000x1024, extractStridedSlice S4000x1024 ![0, 0] W slices_S50000x1024_S4000x1024_0_0⟩, ⟨S2x1024, TV⟩]
        concatenates_S4000x1024_S2x1024_S4002x1024_d0 (ix2 j k)
      = Cert.Spec.headW (Cert.Spec.mat W) (Cert.Spec.mat TV) j k := by
  simp only [Cert.Spec.headW, Cert.Spec.mat]
  by_cases h : j.val < 4000
  · rw [dif_pos h]
    refine (concatenate_pair_apply_left (t := S4002x1024) 0 _ _ concatenates_S4000x1024_S2x1024_S4002x1024_d0 (ix2 j k) rfl (ix2 ⟨j.val, h⟩ k) (fun b => match b with | ⟨0, _⟩ => rfl | ⟨1, _⟩ => rfl)).trans ?_
    exact (slice_rows_apply 0 W _ ⟨j.val, h⟩ k (by show 0 + j.val < 50000; omega)).trans
      (congrArg (fun i : Fin 50000 => W (ix2 i k)) (Fin.ext (by show 0 + j.val = j.val; omega)))
  · rw [dif_neg h]
    exact concatenate_pair_apply_right (t := S4002x1024) 0 _ _ concatenates_S4000x1024_S2x1024_S4002x1024_d0 (ix2 j k) rfl rfl (ix2 ⟨j.val - 4000, by omega⟩ k)
      (fun b hb => match b, hb with | ⟨0, _⟩, hb => (hb rfl).elim | ⟨1, _⟩, _ => rfl)
      (by show (j.val - 4000) + 4000 = j.val; omega)

theorem head_bias_read (B : S50000.Idx → EReal) (TB : S2.Idx → EReal) (j : Fin 4002) :
    concatenate S4002 0 [⟨S4000, extractStridedSlice S4000 ![0] B slices_S50000_S4000_0⟩, ⟨S2, TB⟩] concatenates_S4000_S2_S4002_d0 (ix1 j)
      = Cert.Spec.headB (Cert.Spec.vec B) (Cert.Spec.vec TB) j := by
  simp only [Cert.Spec.headB, Cert.Spec.vec]
  by_cases h : j.val < 4000
  · rw [dif_pos h]
    refine (concatenate_pair_apply_left (t := S4002) 0 _ _ concatenates_S4000_S2_S4002_d0 (ix1 j) rfl (ix1 ⟨j.val, h⟩) (fun b => match b with | ⟨0, _⟩ => rfl)).trans ?_
    exact (slice_vec_apply 0 B _ ⟨j.val, h⟩ (by show 0 + j.val < 50000; omega)).trans
      (congrArg (fun i : Fin 50000 => B (ix1 i)) (Fin.ext (by show 0 + j.val = j.val; omega)))
  · rw [dif_neg h]
    exact concatenate_pair_apply_right (t := S4002) 0 _ _ concatenates_S4000_S2_S4002_d0 (ix1 j) rfl rfl (ix1 ⟨j.val - 4000, by omega⟩)
      (fun b hb => match b, hb with | ⟨0, _⟩, hb => (hb rfl).elim)
      (by show (j.val - 4000) + 4000 = j.val; omega)

/-! ## The pads (items 1 and 3) -/

theorem ops0_1_v14 (W : Valuation τ sig (Elt Ideal)) :
    (StableHlo.after hostOps0_1 W (Proc.devRef .tc main_v14) : S4096x1024.Idx → EReal)
      = pad S4096x1024 ![0, 0] ![94, 0] ![0, 0] (W (Proc.devRef .tc main_v11) : S4002x1024.Idx → EReal)
          (sitofp .f32 (W (Proc.devRef .tc main_c_2) : S_.Idx → BitVec 32) : FVec Ideal S_ .f32) pads_S4002x1024_S4096x1024_0940_000 h_S_ := by
  after_results
  first | done | rfl

theorem V7_v14_eq : V7 m c main_v14 = V2 m c main_v14 := (V7_of m c main_v14 (by decide)).trans <| (V6_of m c main_v14 (by decide)).trans <| (V5_of m c main_v14 (by decide)).trans <| (V4_of m c main_v14 (by decide)).trans <| (V3_of m c main_v14 (by decide))

/-- The head's weight operand: the 4002 rows of the head over 94 rows of zeros. -/
theorem V7_v14 (j : Fin 4096) (k : Fin 1024) :
    (V7 m c main_v14 : S4096x1024.Idx → EReal) (ix2 j k)
      = if h : j.val < 4002 then Cert.Spec.headW (Cert.Spec.mat (aW m c)) (Cert.Spec.mat (aTV m c)) ⟨j.val, h⟩ k else 0 := by
  rw [V7_v14_eq]
  refine (congrFun (ops0_1_v14 (V1 m c)) (ix2 j k)).trans ?_
  refine (pad_rows_apply _ _ _ _ j k).trans ?_
  by_cases h : j.val < 4002
  · rw [dif_pos h, dif_pos h, V1_v11]; exact head_rows_read _ _ ⟨j.val, h⟩ k
  · rw [dif_neg h, dif_neg h, V1_c2]; exact padval_zero _

theorem ops0_2_c3 (W : Valuation τ sig (Elt Ideal)) :
    (StableHlo.after hostOps0_2 W (Proc.devRef .tc main_c_3) : S_.Idx → BitVec 32) = constantI S_ 32 0#32 := by
  after_results
  first | done | rfl

theorem ops0_3_v15 (W : Valuation τ sig (Elt Ideal)) :
    (StableHlo.after hostOps0_3 W (Proc.devRef .tc main_v15) : S4096.Idx → EReal)
      = pad S4096 ![0] ![94] ![0] (W (Proc.devRef .tc main_v13) : S4002.Idx → EReal)
          (sitofp .f32 (W (Proc.devRef .tc main_c_3) : S_.Idx → BitVec 32) : FVec Ideal S_ .f32) pads_S4002_S4096_0940 h_S_ := by
  after_results
  first | done | rfl

theorem ops0_4_v16 (W : Valuation τ sig (Elt Ideal)) :
    (StableHlo.after hostOps0_4 W (Proc.devRef .tc main_v16) : S1x4096.Idx → EReal)
      = shapeCast S1x4096 (W (Proc.devRef .tc main_v15) : S4096.Idx → EReal) shapeCasts_S4096_S1x4096 := by
  after_results
  first | done | rfl

theorem V3_v13_eq : V3 m c main_v13 = V1 m c main_v13 := (V3_of m c main_v13 (by decide)).trans <| (V2_of m c main_v13 (by decide))
theorem V7_v16_eq : V7 m c main_v16 = V5 m c main_v16 := (V7_of m c main_v16 (by decide)).trans <| (V6_of m c main_v16 (by decide))

/-- The head's bias operand: the 4002 biases of the head, then zeros. -/
theorem V7_v16 (j : Fin 4096) :
    (V7 m c main_v16 : S1x4096.Idx → EReal) (ix2 0 j)
      = if h : j.val < 4002 then Cert.Spec.headB (Cert.Spec.vec (aB m c)) (Cert.Spec.vec (aTB m c)) ⟨j.val, h⟩ else 0 := by
  rw [V7_v16_eq]
  refine (congrFun (ops0_4_v16 (V4 m c)) (ix2 0 j)).trans ?_
  refine (reshape_row_apply _ _ j).trans ?_
  refine (congrFun (ops0_3_v15 (V3 m c)) (ix1 j)).trans ?_
  refine (pad_vec_apply _ _ _ _ j).trans ?_
  by_cases h : j.val < 4002
  · rw [dif_pos h, dif_pos h, V3_v13_eq, V1_v13]; exact head_bias_read _ _ ⟨j.val, h⟩
  · rw [dif_neg h, dif_neg h]
    refine (congrArg (fun z : S_.Idx → BitVec 32 => (sitofp .f32 z : FVec Ideal S_ .f32) _) (ops0_2_c3 (V2 m c))).trans ?_
    exact padval_zero _

/-! ## The head's index words (items 4 … 6) -/

theorem ops0_4_v18 (W : Valuation τ sig (Elt Ideal)) :
    (StableHlo.after hostOps0_4 W (Proc.devRef .tc main_v18) : S4096.Idx → BitVec 1)
      = fun i => IntOp.cmpi .eq ((W (Proc.devRef .tc main_v9) : S4096.Idx → BitVec 32) i) 0#32 := by
  after_results
  first | done | rfl

theorem ops0_4_v20 (W : Valuation τ sig (Elt Ideal)) :
    (StableHlo.after hostOps0_4 W (Proc.devRef .tc main_v20) : S4096.Idx → BitVec 32)
      = fun i => IntOp.subi 4002#32 ((W (Proc.devRef .tc main_v9) : S4096.Idx → BitVec 32) i) := by
  after_results
  first | done | rfl

theorem ops0_5_v21 (W : Valuation τ sig (Elt Ideal)) :
    (StableHlo.after hostOps0_5 W (Proc.devRef .tc main_v21) : S4096.Idx → BitVec 32)
      = select (W (Proc.devRef .tc main_v18) : S4096.Idx → BitVec 1) (W (Proc.devRef .tc main_arg3) : S4096.Idx → BitVec 32)
          (W (Proc.devRef .tc main_v20) : S4096.Idx → BitVec 32) := by
  after_results
  first | done | rfl

theorem ops0_6_v22 (W : Valuation τ sig (Elt Ideal)) :
    (StableHlo.after hostOps0_6 W (Proc.devRef .tc main_v22) : S4096x1.Idx → BitVec 32)
      = shapeCast S4096x1 (W (Proc.devRef .tc main_v21) : S4096.Idx → BitVec 32) shapeCasts_S4096_S4096x1 := by
  after_results
  first | done | rfl

/-- The head's index operand: per token the head's index word of its target. -/
theorem V7_v22 (r : Fin 4096) :
    (V7 m c main_v22 : S4096x1.Idx → BitVec 32) (ix2 r 0) = idx0W (aT m c (ix1 r)) := by
  refine (congrFun (ops0_6_v22 (V6 m c)) (ix2 r 0)).trans ?_
  refine (reshape_col_apply _ _ r).trans ?_
  refine (congrFun (ops0_5_v21 (V5 m c)) (ix1 r)).trans ?_
  show Scalar.select ((V5 m c main_v18 : S4096.Idx → BitVec 1) (ix1 r)) ((V5 m c main_arg3 : S4096.Idx → BitVec 32) (ix1 r))
      ((V5 m c main_v20 : S4096.Idx → BitVec 32) (ix1 r)) = _
  rw [V5_arg3_eq, show V5 m c main_v18 = _ from ops0_4_v18 (V4 m c), show V5 m c main_v20 = _ from ops0_4_v20 (V4 m c), V4_v9_eq, V1_v9]
  rfl

end Cert.KernelIdeal.Hand
end
-- ==== Proof.KI.Split0Pieces.lean ====
/- Region 0: what each case of the body leaves in the three scratch operands and, in the last case, in the three
   outputs, as the body's arithmetic applied to the point's blocks and to what the scratch held before. The first
   case resets the scratch and then updates it, so its update reads the reset values; the last case copies the
   updated scratch (the logarithm of the running sum for the second output) into the outputs. -/
import proofs.«427234_j53386443489982_1_alg».proof.Proof.KI.Tile0Data
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem shz0 : (![0, 0] : Fin 2 → Nat) = fun _ => 0 := funext fun a => by fin_cases a <;> rfl

/-- Case A, scratch operand 0: the running maximum after the first column tile: the tile's update of the reset value. -/
theorem sout0_A_0_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) :
    sout0_A_0 c i arg2 harg2 arg3 harg3 arg4 harg4 arg5 harg5 arg6 harg6 arg7 harg7 arg8 harg8 arg9 harg9 arg10 harg10 arg11 harg11 hc0 hc1 x0 x1 x2 x3 = k0_pay1 (k0_pay11 i x0 x1 x2 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case A, scratch operand 1: the running sum after the first column tile: the tile's update of the reset values. -/
theorem sout0_A_1_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) :
    sout0_A_1 c i arg2 harg2 arg3 harg3 arg4 harg4 arg5 harg5 arg6 harg6 arg7 harg7 arg8 harg8 arg9 harg9 arg10 harg10 arg11 harg11 hc0 hc1 x0 x1 x2 x3 = k0_pay2 (k0_pay12 i x0 x1 x2 k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case A, scratch operand 2: the picked logit after the first column tile: the tile's selection added to the reset value. -/
theorem sout0_A_2_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .f32) (x1 : Vec F S1024x1024 .f32) (x2 : Vec F S1x1024 .f32) (x3 : Vec F S1024x1 .i32) :
    sout0_A_2 c i arg2 harg2 arg3 harg3 arg4 harg4 arg5 harg5 arg6 harg6 arg7 harg7 arg8 harg8 arg9 harg9 arg10 harg10 arg11 harg11 hc0 hc1 x0 x1 x2 x3 = k0_pay3 (k0_pay8 x0 x1 x2) (k0_pay9 i) x3 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case B, scratch operand 0: the running maximum after a middle column tile: the tile's update of what the tile before left. -/
theorem sout0_B_0_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay11 i x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case B, scratch operand 1: the running sum after a middle column tile. -/
theorem sout0_B_1_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay12 i x0 x1 x2 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case B, scratch operand 2: the picked logit after a middle column tile. -/
theorem sout0_B_2_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 = k0_pay3 (k0_pay8 x0 x1 x2) (k0_pay9 i) x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case C, scratch operand 0: the running maximum after the last column tile. -/
theorem sout0_C_0_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay11 i x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case C, scratch operand 1: the running sum after the last column tile. -/
theorem sout0_C_1_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay12 i x0 x1 x2 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case C, scratch operand 2: the picked logit after the last column tile. -/
theorem sout0_C_2_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 = k0_pay3 (k0_pay8 x0 x1 x2) (k0_pay9 i) x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case C, output 4: the running maximum, read back from the scratch. -/
theorem out0_C_4_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay11 i x0 x1 x2 xs0) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case C, output 5: the logarithm of the running sum, read back from the scratch. -/
theorem out0_C_5_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 = k0_pay4 (k0_pay2 (k0_pay12 i x0 x1 x2 xs0 xs1)) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

/-- Case C, output 6: the picked logit, read back from the scratch. -/
theorem out0_C_6_eq (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 xs0 xs1 xs2 = k0_pay3 (k0_pay8 x0 x1 x2) (k0_pay9 i) x3 xs2 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_cons_unit_zero (S := S1024x1) shz0]
  simp only [View.readAt_eq_ld, harg2.read_unread, harg3.read_unread, harg4.read_unread, harg5.read_unread, harg9.read_unread, harg10.read_unread, harg11.read_unread, View.readCov_unit_zero (S := S1024x1) _ shz0, View.ld_unit_zero (S := S1024x1024) shz0, View.ld_unit_zero (S := S1x1024) shz0, View.ld_unit_zero (S := S1024x1) shz0]

end Cert.KernelIdeal.Hand

end
-- ==== Proof.KI.Split0Blocks.lean ====
/- Region 0 at the extended reals: the four operand arrays as the region finds them, named at their literal types,
   and each window's block at a grid point read off its array: point t = (row tile) * 4 + (column tile); the hidden
   block holds token rows (t / 4) * 1024 + q, the weight block class rows (t % 4) * 1024 + j, the bias block the
   same columns, the index block the same token rows as the hidden block. -/
import proofs.«427234_j53386443489982_1_alg».proof.Proof.KI.Tile0Shared
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The hidden states as the region finds them: 4096 token rows of 1024 entries. -/
abbrev harr0 (c : Dev nD) : Vec Ideal S4096x1024 .f32 := V c (Pipeline.arrRef spec0 0)
/-- The split's weight rows as the region finds them, padded to 4096 rows. -/
abbrev warr0 (c : Dev nD) : Vec Ideal S4096x1024 .f32 := V c (Pipeline.arrRef spec0 1)
/-- The split's biases as the region finds them, padded to 4096 columns. -/
abbrev barr0 (c : Dev nD) : Vec Ideal S1x4096 .f32 := V c (Pipeline.arrRef spec0 2)
/-- The tokens' target columns in this split, as 32-bit words. -/
abbrev iarr0 (c : Dev nD) : Vec Ideal S4096x1 .i32 := V c (Pipeline.arrRef spec0 3)

/-- The blocks of a grid point at their literal types. -/
abbrev hblk0 (c : Dev nD) (t : Fin cfg0.N) : Vec Ideal S1024x1024 .f32 := iblk0 V c 0 t
abbrev wblk0 (c : Dev nD) (t : Fin cfg0.N) : Vec Ideal S1024x1024 .f32 := iblk0 V c 1 t
abbrev bblk0 (c : Dev nD) (t : Fin cfg0.N) : Vec Ideal S1x1024 .f32 := iblk0 V c 2 t
abbrev iblkw0 (c : Dev nD) (t : Fin cfg0.N) : Vec Ideal S1024x1 .i32 := iblk0 V c 3 t

/-! ## The index maps, decided over the grid -/

theorem idx0_0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx0_1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx0_2 : ∀ t : Fin cfg0.N, win0_2.index t 0 = 0 ∧ win0_2.index t 1 = t.val % 4 :=
  (by decide +kernel : ∀ t : Fin grid0.N, win0_2.index t 0 = 0 ∧ win0_2.index t 1 = t.val % 4)
theorem idx0_3 : ∀ t : Fin cfg0.N, win0_3.index t 0 = t.val / 4 ∧ win0_3.index t 1 = 0 :=
  (by decide +kernel : ∀ t : Fin grid0.N, win0_3.index t 0 = t.val / 4 ∧ win0_3.index t 1 = 0)
theorem idx0_4 : ∀ t : Fin cfg0.N, win0_4.index t 0 = t.val / 4 ∧ win0_4.index t 1 = 0 :=
  (by decide +kernel : ∀ t : Fin grid0.N, win0_4.index t 0 = t.val / 4 ∧ win0_4.index t 1 = 0)
theorem idx0_5 : ∀ t : Fin cfg0.N, win0_5.index t 0 = t.val / 4 ∧ win0_5.index t 1 = 0 :=
  (by decide +kernel : ∀ t : Fin grid0.N, win0_5.index t 0 = t.val / 4 ∧ win0_5.index t 1 = 0)
theorem idx0_6 : ∀ t : Fin cfg0.N, win0_6.index t 0 = t.val / 4 ∧ win0_6.index t 1 = 0 :=
  (by decide +kernel : ∀ t : Fin grid0.N, win0_6.index t 0 = t.val / 4 ∧ win0_6.index t 1 = 0)

/-! ## The blocks read off the arrays -/

/-- The hidden block of point `t` holds token rows `(t / 4) * 1024 + q`. -/
theorem hblk0_read (c : Dev nD) (t : Fin cfg0.N) (q k : Fin 1024) (r : Fin 4096) (hr : r.val = t.val / 4 * 1024 + q.val) :
    hblk0 V c t (ix2 q k) = harr0 V c (ix2 r k) := by
  unfold hblk0 iblk0
  rw [View.read_apply]
  show V c (Pipeline.arrRef spec0 0) _ = V c (Pipeline.arrRef spec0 0) _
  congr 1
  funext a
  apply Fin.ext
  match a with
  | ⟨0, _⟩ => show win0_0.index t 0 * 1024 + 1 * q.val = r.val; rw [(idx0_0 t).1, hr]; omega
  | ⟨1, _⟩ => show win0_0.index t 1 * 1024 + 1 * k.val = k.val; rw [(idx0_0 t).2]; omega

/-- The weight block of point `t` holds class rows `(t % 4) * 1024 + j`. -/
theorem wblk0_read (c : Dev nD) (t : Fin cfg0.N) (j k : Fin 1024) (J : Fin 4096) (hJ : J.val = t.val % 4 * 1024 + j.val) :
    wblk0 V c t (ix2 j k) = warr0 V c (ix2 J k) := by
  unfold wblk0 iblk0
  rw [View.read_apply]
  show V c (Pipeline.arrRef spec0 1) _ = V c (Pipeline.arrRef spec0 1) _
  congr 1
  funext a
  apply Fin.ext
  match a with
  | ⟨0, _⟩ => show win0_1.index t 0 * 1024 + 1 * j.val = J.val; rw [(idx0_1 t).1, hJ]; omega
  | ⟨1, _⟩ => show win0_1.index t 1 * 1024 + 1 * k.val = k.val; rw [(idx0_1 t).2]; omega

/-- The bias block of point `t` holds columns `(t % 4) * 1024 + j`. -/
theorem bblk0_read (c : Dev nD) (t : Fin cfg0.N) (j : Fin 1024) (J : Fin 4096) (hJ : J.val = t.val % 4 * 1024 + j.val) :
    bblk0 V c t (ix2 (0 : Fin 1) j) = barr0 V c (ix2 (0 : Fin 1) J) := by
  unfold bblk0 iblk0
  rw [View.read_apply]
  show V c (Pipeline.arrRef spec0 2) _ = V c (Pipeline.arrRef spec0 2) _
  congr 1
  funext a
  apply Fin.ext
  match a with
  | ⟨0, _⟩ => show win0_2.index t 0 * 1 + 1 * 0 = 0; rw [(idx0_2 t).1]
  | ⟨1, _⟩ => show win0_2.index t 1 * 1024 + 1 * j.val = J.val; rw [(idx0_2 t).2, hJ]; omega

/-- The index block of point `t` holds token rows `(t / 4) * 1024 + q`. -/
theorem iblkw0_read (c : Dev nD) (t : Fin cfg0.N) (q : Fin 1024) (r : Fin 4096) (hr : r.val = t.val / 4 * 1024 + q.val) :
    iblkw0 V c t (ix2 q (0 : Fin 1)) = iarr0 V c (ix2 r (0 : Fin 1)) := by
  unfold iblkw0 iblk0
  rw [View.read_apply]
  show V c (Pipeline.arrRef spec0 3) _ = V c (Pipeline.arrRef spec0 3) _
  congr 1
  funext a
  apply Fin.ext
  match a with
  | ⟨0, _⟩ => show win0_3.index t 0 * 1024 + 1 * q.val = r.val; rw [(idx0_3 t).1, hr]; omega
  | ⟨1, _⟩ => show win0_3.index t 1 * 1 + 1 * 0 = 0; rw [(idx0_3 t).2]

end Cert.KernelIdeal.Hand

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KI.TileStepDefs.lean ====
/-
  One column tile of the adaptive-softmax kernel's body, as arithmetic on the blocks it loads.

  The body of each of the three calls multiplies a block of 1024 token rows of the hidden states with a block of 1024
  class rows of the weights, adds the bias row, sets the columns beyond the split's real width to `-∞`, and folds the
  row's maximum, its sum of exponentials and the logit of the target column into three running columns. Here: the
  logits of one tile (`tileLogit`), the masked row (`tileMasked`), the tile's share of the gathered logit
  (`tileGather`, which is the target's logit when the target column is in the tile and zero when it is not), and the small
  facts about words, selects and the lane maximum that the three calls' payload lemmas share.
-/
import proofs.«427234_j53386443489982_1_alg».proof.Proof.Gen.KernelIdeal.Skeleton
import proofs.«427234_j53386443489982_1_alg».proof.Proof.LibKeepdims
import Idealize.ShloMosaic.Lib.ValueLayout
import Idealize.ShloMosaic.Lib.ValueIdx
import Idealize.ShloMosaic.Lib.Pipeline.Value
import Idealize.ShloMosaic.Lib.Affine
import Idealize.ShloMosaic.Lib.DynamicIndex
import Idealize.ShloMosaic.PureOps.Ideal.Laws

noncomputable section

namespace Cert.KernelIdeal.Hand
open Cert.KernelIdeal Cert.KernelIdeal.Gen Idealize.ShloMosaic Idealize.ShloMosaic.ValueIdx
open scoped BigOperators

/-! ## The tile's arithmetic, as functions of the blocks -/

/-- One logit of a column tile: token row `r` of the hidden block against class row `j` of the weight block, plus the
    class's bias. -/
def tileLogit (hb wb : Vec Ideal S1024x1024 .f32) (bb : Vec Ideal S1x1024 .f32) (r j : Fin 1024) : EReal :=
  (∑ k : Fin 1024, hb (ix2 r k) * wb (ix2 j k)) + bb (ix2 (0 : Fin 1) j)

/-- The logits of row `r` in column tile `c`, with the columns at or beyond the split's `n` real columns set to `⊥`. -/
def tileMasked (n c : ℕ) (hb wb : Vec Ideal S1024x1024 .f32) (bb : Vec Ideal S1x1024 .f32) (r : Fin 1024) : Fin 1024 → EReal :=
  fun j => if c * 1024 + j.val < n then tileLogit hb wb bb r j else ⊥

/-- Column tile `c`'s contribution to the gathered logit of row `r`: the logit of the column whose number is the index
    word `w`, when that column is in this tile; zero otherwise. -/
def tileGather (c : ℕ) (hb wb : Vec Ideal S1024x1024 .f32) (bb : Vec Ideal S1x1024 .f32) (w : BitVec 32) (r : Fin 1024) : EReal :=
  ∑ j : Fin 1024, if BitVec.ofNat 32 (c * 1024 + j.val) = w then tileLogit hb wb bb r j else 0

/-! ## Words -/

/-- A number below 2³² as a 32-bit word equals a word exactly when it is the word's number. -/
theorem ofNat32_eq_iff {n : ℕ} (hn : n < 4294967296) (w : BitVec 32) : BitVec.ofNat 32 n = w ↔ n = w.toNat := by
  constructor
  · rintro rfl
    rw [BitVec.toNat_ofNat]
    exact (Nat.mod_eq_of_lt hn).symm
  · intro h
    apply BitVec.eq_of_toNat_eq
    rw [BitVec.toNat_ofNat, h]
    exact Nat.mod_eq_of_lt w.isLt

/-- A select on an equality comparison of words. -/
theorem select_cmpi_eq {α : Type} {w : ℕ} (x y : BitVec w) (a b : α) :
    Scalar.select (IntOp.cmpi .eq x y) a b = if x = y then a else b := by
  unfold Scalar.select
  by_cases h : x = y
  · exact (if_pos (IntOp.cmpi_eq.mpr h)).trans (if_pos h).symm
  · exact (if_neg (fun hh => h (IntOp.cmpi_eq.mp hh))).trans (if_neg h).symm

/-- A select on a signed comparison of a small number's word with another small number's word. -/
theorem select_cmpi_slt_ofNat {α : Type} {p q : ℕ} (hp : p < 2 ^ 31) (hq : q < 2 ^ 31) (a b : α) :
    Scalar.select (IntOp.cmpi .slt (BitVec.ofNat 32 p) (BitVec.ofNat 32 q)) a b = if p < q then a else b := by
  unfold Scalar.select
  have e : IntOp.cmpi .slt (BitVec.ofNat 32 p) (BitVec.ofNat 32 q) = 1#1 ↔ p < q := by
    rw [IntOp.cmpi_slt, toInt_ofNat_of_lt hp, toInt_ofNat_of_lt hq]
    exact Int.ofNat_lt
  by_cases h : p < q
  · exact (if_pos (e.mpr h)).trans (if_pos h).symm
  · exact (if_neg (fun hh => h (e.mp hh))).trans (if_neg h).symm

/-- A select on an equality comparison of word vectors, at an index. -/
theorem select_cmpi_eq_apply {α : Type} {s : Shape} {w : ℕ} (x y : IVec s w) (a b : s.Idx → α) (i : s.Idx) :
    select (cmpi .eq x y) a b i = if x i = y i then a i else b i :=
  select_cmpi_eq (x i) (y i) (a i) (b i)

/-- An exponential at an index is the exponential of the element. -/
theorem exp_idx {s : Shape} {φ : FTy} (a : FVec Ideal s φ) (i : s.Idx) : exp a i = Ideal.exp (a i) := rfl

/-- A logarithm at an index is the logarithm of the element. -/
theorem log_idx {s : Shape} {φ : FTy} (a : FVec Ideal s φ) (i : s.Idx) : log a i = Ideal.log (a i) := rfl

/-! ## The gathered logit of a tile -/

theorem tileGather_hit (hb wb : Vec Ideal S1024x1024 .f32) (bb : Vec Ideal S1x1024 .f32) (r : Fin 1024) (c : ℕ)
    (hc : (c + 1) * 1024 ≤ 4294967296) (w : BitVec 32) (j₀ : Fin 1024) (hw : w.toNat = c * 1024 + j₀.val) :
    tileGather c hb wb bb w r = tileLogit hb wb bb r j₀ := by
  unfold tileGather
  rw [Finset.sum_eq_single j₀]
  · rw [if_pos ((ofNat32_eq_iff (by have := j₀.isLt; omega) w).mpr hw.symm)]
  · intro j _ hj
    rw [if_neg]
    intro h
    have := (ofNat32_eq_iff (by have := j.isLt; omega) w).mp h
    exact hj (Fin.ext (by omega))
  · intro h
    exact absurd (Finset.mem_univ j₀) h

theorem tileGather_miss (hb wb : Vec Ideal S1024x1024 .f32) (bb : Vec Ideal S1x1024 .f32) (r : Fin 1024) (c : ℕ)
    (hc : (c + 1) * 1024 ≤ 4294967296) (w : BitVec 32) (hw : w.toNat < c * 1024 ∨ (c + 1) * 1024 ≤ w.toNat) :
    tileGather c hb wb bb w r = 0 := by
  unfold tileGather
  refine Finset.sum_eq_zero fun j _ => ?_
  rw [if_neg]
  intro h
  have := (ofNat32_eq_iff (by have := j.isLt; omega) w).mp h
  have := j.isLt
  omega

/-! ## Constants and the lane maximum -/

/-- The binary32 word of `-∞` is `⊥`. -/
theorem ofBits_neg_inf_f32 : Ideal.ofBits .f32 0xFF800000#32 = (⊥ : EReal) := by
  simp [Ideal.ofBits, Ideal.ieee]

/-- An f32 lane maximum over the COLUMNS of an `[a, b]` matrix of extended reals, started from `-∞`, is, in row `r`, the
    supremum of that row. -/
theorem multiReduction_max_cols_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r) = Finset.univ.sup fun c : Fin b => src (ix2 r c) := by
  refine (Ideal.multiReduction_maximumf_single src _ h hφ hacc (ix1 r)).trans ?_
  have e : (src ∘ h.lift (ix1 r)) = fun c : Fin b => src (ix2 r c) := funext fun c => congrArg src (funext fun ax => Fin.ext (by
    match ax with
    | ⟨0, _⟩ => rfl
    | ⟨1, _⟩ => rfl))
  rw [e]
  show Finset.fold max (Ideal.ofBits .f32 0xFF800000#32) (fun c : Fin b => src (ix2 r c)) Finset.univ = _
  rw [ofBits_neg_inf_f32]
  rfl

end Cert.KernelIdeal.Hand
-- ==== Proof.Online.lean ====
/-
  The online softmax equals the one-shot softmax.

  A row of `n` real logits is cut into tiles of width `T`; the last tile is padded with `⊥` (`-∞`).  The tiles are
  consumed left to right while two numbers are carried: the largest entry seen so far, `m`, and the sum
  `l = Σ exp (entry - m)` over the entries seen so far.  A new tile with largest entry `r` replaces `m` by
  `m' = max m r` and `l` by `l * exp (m - m') + Σ_j exp (tile j - m')`, starting from `m = ⊥`, `l = 0`.
  After the last tile, `m` is the largest entry of the row and `l` is `Σ_j exp (row j - m)`.

  The proof carries the invariant "after `c` tiles, `m` is the largest of the first `c * T` entries and `l` is the
  sum of `exp (entry - m)` over them" for the row extended by `⊥` beyond its end.  The step is
  `exp (a - m) * exp (m - m') = exp (a - m')` for `a ≤ m ≤ m' < ⊤` (both sides are `0` when `a = ⊥`), summed over the
  entries seen so far; the padding contributes `exp ⊥ = 0` to the sum and `⊥` to the maximum.
-/
import Idealize.ShloMosaic.PureOps.Ideal
import proofs.«427234_j53386443489982_1_alg».proof.Proof.Spec
import Mathlib.Data.EReal.Operations
import Mathlib.Algebra.BigOperators.Fin
import Mathlib.Algebra.Order.BigOperators.Group.Finset
import Mathlib.Order.Interval.Finset.Nat

noncomputable section

namespace Cert.Online

open Idealize.ShloMosaic
open scoped BigOperators

/-- The new running maximum after a tile. -/
def stepM {T : ℕ} (m : EReal) (row : Fin T → EReal) : EReal := max m (Finset.univ.sup row)

/-- The new running sum after a tile. -/
def stepL {T : ℕ} (m l : EReal) (row : Fin T → EReal) : EReal :=
  l * Ideal.exp (m - stepM m row) + ∑ j : Fin T, Ideal.exp (row j - stepM m row)

/-- The running maximum and the running sum after the first `c` tiles. -/
def run {T : ℕ} (x : ℕ → Fin T → EReal) : ℕ → EReal × EReal
  | 0 => (⊥, 0)
  | c + 1 => (stepM (run x c).1 (x c), stepL (run x c).1 (run x c).2 (x c))

/-- The tiles of a row of `n` entries, padded with `⊥` beyond its end. -/
def padded (n T : ℕ) (y : Fin n → EReal) (c : ℕ) (j : Fin T) : EReal :=
  if h : c * T + j.val < n then y ⟨c * T + j.val, h⟩ else ⊥

@[simp] theorem run_zero {T : ℕ} (x : ℕ → Fin T → EReal) : run x 0 = (⊥, 0) := rfl

theorem run_succ {T : ℕ} (x : ℕ → Fin T → EReal) (c : ℕ) :
    run x (c + 1) = (stepM (run x c).1 (x c), stepL (run x c).1 (run x c).2 (x c)) := rfl

/-- Only the first `C` tiles matter. -/
theorem run_congr {T : ℕ} {x x' : ℕ → Fin T → EReal} (C : ℕ) (h : ∀ c, c < C → x c = x' c) :
    run x C = run x' C := by
  induction C with
  | zero => rfl
  | succ c ih =>
    rw [run_succ, run_succ, ih (fun d hd => h d (Nat.lt_succ_of_lt hd)), h c (Nat.lt_succ_self c)]

/-! ### Facts about the exponential -/

theorem exp_nonneg (a : EReal) : 0 ≤ Ideal.exp a := by
  induction a with
  | bot => rw [Ideal.exp_bot]
  | coe r => rw [Ideal.exp_coe]; exact EReal.coe_nonneg.2 (Real.exp_pos r).le
  | top => exact le_top

/-- `exp (a - m) * exp (m - m') = exp (a - m')` when `a ≤ m ≤ m' < ⊤`. -/
theorem exp_sub_mul_exp_sub {a m m' : EReal} (ha : a ≤ m) (hm : m ≤ m') (hm' : m' ≠ ⊤) :
    Ideal.exp (a - m) * Ideal.exp (m - m') = Ideal.exp (a - m') := by
  induction a with
  | bot => rw [EReal.bot_sub, EReal.bot_sub, Ideal.exp_bot, zero_mul]
  | top => exact absurd (top_le_iff.1 (ha.trans hm)) hm'
  | coe a =>
    induction m with
    | bot => exact absurd (le_bot_iff.1 ha) (EReal.coe_ne_bot a)
    | top => exact absurd (top_le_iff.1 hm) hm'
    | coe m =>
      induction m' with
      | bot => exact absurd (le_bot_iff.1 hm) (EReal.coe_ne_bot m)
      | top => exact absurd rfl hm'
      | coe m' =>
        rw [← EReal.coe_sub, ← EReal.coe_sub, ← EReal.coe_sub, Ideal.exp_coe, Ideal.exp_coe, Ideal.exp_coe,
          ← EReal.coe_mul, ← Real.exp_add, sub_add_sub_cancel]

/-- Multiplication distributes over a finite sum of nonnegative extended reals. -/
theorem sum_mul_of_nonneg {ι : Type} (s : Finset ι) (f : ι → EReal) (hf : ∀ i ∈ s, 0 ≤ f i) (e : EReal) :
    (∑ i ∈ s, f i) * e = ∑ i ∈ s, f i * e := by
  classical
  induction s using Finset.induction_on with
  | empty => rw [Finset.sum_empty, Finset.sum_empty, zero_mul]
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- The inclusion of the reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ### The invariant, for a sequence of entries indexed by the natural numbers -/

/-- The largest of the first `k` entries. -/
def pM (z : ℕ → EReal) (k : ℕ) : EReal := (Finset.range k).sup z

/-- The sum of `exp (entry - largest)` over the first `k` entries. -/
def pS (z : ℕ → EReal) (k : ℕ) : EReal := ∑ i ∈ Finset.range k, Ideal.exp (z i - pM z k)

theorem pM_mono (z : ℕ → EReal) {k k' : ℕ} (h : k ≤ k') : pM z k ≤ pM z k' :=
  Finset.sup_mono (Finset.range_mono h)

theorem pM_ne_top (z : ℕ → EReal) (hz : ∀ i, z i ≠ ⊤) (k : ℕ) : pM z k ≠ ⊤ :=
  ((Finset.sup_lt_iff bot_lt_top).2 fun i _ => lt_top_iff_ne_top.2 (hz i)).ne

theorem pM_add (z : ℕ → EReal) (k T : ℕ) :
    pM z (k + T) = max (pM z k) (Finset.univ.sup fun j : Fin T => z (k + j.val)) := by
  apply le_antisymm
  · apply Finset.sup_le
    intro i hi
    rcases lt_or_ge i k with h | h
    · exact le_max_of_le_left (Finset.le_sup (f := z) (Finset.mem_range.2 h))
    · have hi' : i - k < T := by have := Finset.mem_range.1 hi; omega
      have e : z i = (fun j : Fin T => z (k + j.val)) ⟨i - k, hi'⟩ := congrArg z (by omega : i = k + (i - k))
      rw [e]
      exact le_max_of_le_right (Finset.le_sup (f := fun j : Fin T => z (k + j.val)) (Finset.mem_univ _))
  · apply max_le
    · exact pM_mono z (Nat.le_add_right k T)
    · apply Finset.sup_le
      intro j _
      exact Finset.le_sup (f := z) (Finset.mem_range.2 (Nat.add_lt_add_left j.2 k))

theorem pS_step (z : ℕ → EReal) (hz : ∀ i, z i ≠ ⊤) (k T : ℕ) :
    pS z k * Ideal.exp (pM z k - pM z (k + T)) + ∑ j : Fin T, Ideal.exp (z (k + j.val) - pM z (k + T))
      = pS z (k + T) := by
  have hle : pM z k ≤ pM z (k + T) := pM_mono z (Nat.le_add_right k T)
  have hne : pM z (k + T) ≠ ⊤ := pM_ne_top z hz _
  have h1 : pS z k * Ideal.exp (pM z k - pM z (k + T))
      = ∑ i ∈ Finset.range k, Ideal.exp (z i - pM z (k + T)) := by
    show (∑ i ∈ Finset.range k, Ideal.exp (z i - pM z k)) * _ = _
    rw [sum_mul_of_nonneg _ _ (fun i _ => exp_nonneg _)]
    exact Finset.sum_congr rfl fun i hi => exp_sub_mul_exp_sub (Finset.le_sup (f := z) hi) hle hne
  have h2 : ∑ j : Fin T, Ideal.exp (z (k + j.val) - pM z (k + T))
      = ∑ j ∈ Finset.range T, Ideal.exp (z (k + j) - pM z (k + T)) :=
    (Finset.sum_range (fun j => Ideal.exp (z (k + j) - pM z (k + T)))).symm
  rw [h1, h2]
  exact (Finset.sum_range_add (fun i => Ideal.exp (z i - pM z (k + T))) k T).symm

/-- After `c` tiles the carried pair is the largest of, and the shifted exponential sum over, the first `c * T` entries. -/
theorem run_eq (z : ℕ → EReal) (hz : ∀ i, z i ≠ ⊤) (T : ℕ) (x : ℕ → Fin T → EReal)
    (hx : ∀ c j, x c j = z (c * T + j.val)) (c : ℕ) :
    run x c = (pM z (c * T), pS z (c * T)) := by
  induction c with
  | zero =>
    rw [run_zero, Nat.zero_mul]
    show ((⊥ : EReal), (0 : EReal)) = ((Finset.range 0).sup z, ∑ i ∈ Finset.range 0, _)
    rw [Finset.range_zero, Finset.sup_empty, Finset.sum_empty]
  | succ c ih =>
    have hrow : x c = fun j : Fin T => z (c * T + j.val) := funext (hx c)
    have hM : stepM (pM z (c * T)) (x c) = pM z (c * T + T) := by
      rw [pM_add, hrow]; rfl
    rw [run_succ, ih, add_one_mul]
    refine Prod.ext ?_ ?_
    · exact hM
    · show stepL (pM z (c * T)) (pS z (c * T)) (x c) = pS z (c * T + T)
      rw [stepL, hM, hrow]
      exact pS_step z hz (c * T) T

/-! ### A finite row, extended by `⊥` -/

/-- The row `y` extended by `⊥` beyond its end. -/
def padRow {n : ℕ} (y : Fin n → EReal) (i : ℕ) : EReal := if h : i < n then y ⟨i, h⟩ else ⊥

theorem padRow_ne_top {n : ℕ} (y : Fin n → EReal) (hy : ∀ j, y j ≠ ⊤) (i : ℕ) : padRow y i ≠ ⊤ := by
  unfold padRow
  split
  · exact hy _
  · exact bot_ne_top

theorem padRow_val {n : ℕ} (y : Fin n → EReal) (j : Fin n) : padRow y j.val = y j := by
  rw [padRow, dif_pos j.2]

theorem pM_padRow {n : ℕ} (y : Fin n → EReal) (k : ℕ) (hk : n ≤ k) : pM (padRow y) k = Cert.Spec.rowMax y := by
  apply le_antisymm
  · apply Finset.sup_le
    intro i _
    unfold padRow
    split
    · exact Finset.le_sup (f := y) (Finset.mem_univ _)
    · exact bot_le
  · apply Finset.sup_le
    intro j _
    rw [← padRow_val y j]
    exact Finset.le_sup (f := padRow y) (Finset.mem_range.2 (lt_of_lt_of_le j.2 hk))

theorem pS_padRow {n : ℕ} (y : Fin n → EReal) (k : ℕ) (hk : n ≤ k) : pS (padRow y) k = Cert.Spec.rowSum y := by
  have h1 : ∑ i ∈ Finset.range k, Ideal.exp (padRow y i - Cert.Spec.rowMax y)
      = ∑ i ∈ Finset.range n, Ideal.exp (padRow y i - Cert.Spec.rowMax y) :=
    (Finset.sum_subset (Finset.range_mono hk) (fun i _ hi => by
      have hin : ¬ i < n := fun h => hi (Finset.mem_range.2 h)
      rw [padRow, dif_neg hin, EReal.bot_sub, Ideal.exp_bot])).symm
  show ∑ i ∈ Finset.range k, Ideal.exp (padRow y i - pM (padRow y) k) = ∑ j : Fin n, Ideal.exp (y j - Cert.Spec.rowMax y)
  rw [pM_padRow y k hk, h1, Finset.sum_range (fun i => Ideal.exp (padRow y i - Cert.Spec.rowMax y))]
  exact Finset.sum_congr rfl fun j _ => by rw [padRow_val]

/-! ### The statements -/

theorem run_padded {n T : ℕ} (y : Fin n → EReal) (hy : ∀ j, ∃ v : ℝ, y j = (v : EReal)) (C : ℕ) (hC : n ≤ C * T) :
    run (padded n T y) C = (Cert.Spec.rowMax y, Cert.Spec.rowSum y) := by
  have hy' : ∀ j, y j ≠ ⊤ := fun j => by
    obtain ⟨v, hv⟩ := hy j
    rw [hv]; exact EReal.coe_ne_top v
  rw [run_eq (padRow y) (padRow_ne_top y hy') T (padded n T y) (fun c j => rfl) C, pM_padRow y _ hC,
    pS_padRow y _ hC]

/-- The running maximum after all tiles is the largest entry of the row. -/
theorem run_padded_max {n T : ℕ} (y : Fin n → EReal) (hy : ∀ j, ∃ v : ℝ, y j = (v : EReal)) (C : ℕ)
    (hC : n ≤ C * T) : (run (padded n T y) C).1 = Cert.Spec.rowMax y := by
  rw [run_padded y hy C hC]

/-- The running sum after all tiles is the sum of the exponentials of the row shifted by its largest entry. -/
theorem run_padded_sum {n T : ℕ} (y : Fin n → EReal) (hy : ∀ j, ∃ v : ℝ, y j = (v : EReal)) (C : ℕ)
    (hC : n ≤ C * T) : (run (padded n T y) C).2 = Cert.Spec.rowSum y := by
  rw [run_padded y hy C hC]

/-- The largest entry of a nonempty row of reals is a real. -/
theorem rowMax_real {n : ℕ} (y : Fin n → EReal) (hn : 0 < n) (hy : ∀ j, ∃ v : ℝ, y j = (v : EReal)) :
    ∃ v : ℝ, Cert.Spec.rowMax y = (v : EReal) := by
  haveI : Nonempty (Fin n) := ⟨⟨0, hn⟩⟩
  obtain ⟨i, _, hi⟩ := Finset.exists_mem_eq_sup (Finset.univ : Finset (Fin n)) Finset.univ_nonempty y
  obtain ⟨v, hv⟩ := hy i
  exact ⟨v, by rw [Cert.Spec.rowMax, hi, hv]⟩

/-- The shifted exponential sum of a nonempty row of reals is a positive real. -/
theorem rowSum_pos_real {n : ℕ} (y : Fin n → EReal) (hn : 0 < n) (hy : ∀ j, ∃ v : ℝ, y j = (v : EReal)) :
    ∃ v : ℝ, 0 < v ∧ Cert.Spec.rowSum y = (v : EReal) := by
  obtain ⟨m, hm⟩ := rowMax_real y hn hy
  choose f hf using hy
  haveI : Nonempty (Fin n) := ⟨⟨0, hn⟩⟩
  refine ⟨∑ j : Fin n, Real.exp (f j - m), Finset.sum_pos (fun j _ => Real.exp_pos _) Finset.univ_nonempty, ?_⟩
  rw [coe_finset_sum, Cert.Spec.rowSum, hm]
  exact Finset.sum_congr rfl fun j _ => by rw [hf j, ← EReal.coe_sub, Ideal.exp_coe]

/-- Its logarithm is a real. -/
theorem log_rowSum_real {n : ℕ} (y : Fin n → EReal) (hn : 0 < n) (hy : ∀ j, ∃ v : ℝ, y j = (v : EReal)) :
    ∃ v : ℝ, Ideal.log (Cert.Spec.rowSum y) = (v : EReal) := by
  obtain ⟨v, hv, h⟩ := rowSum_pos_real y hn hy
  exact ⟨Real.log v, by rw [h, Ideal.log_coe, if_neg (not_le.2 hv)]⟩

/-- Every log-probability of a nonempty row of reals is a real. -/
theorem logProb_real {n : ℕ} (y : Fin n → EReal) (hn : 0 < n) (hy : ∀ j, ∃ v : ℝ, y j = (v : EReal)) (j : Fin n) :
    ∃ v : ℝ, Cert.Spec.logProb y j = (v : EReal) := by
  obtain ⟨m, hm⟩ := rowMax_real y hn hy
  obtain ⟨l, hl⟩ := log_rowSum_real y hn hy
  obtain ⟨a, ha⟩ := hy j
  exact ⟨a - m - l, by rw [Cert.Spec.logProb, hm, hl, ha, EReal.coe_sub, EReal.coe_sub]⟩

end Cert.Online

end
-- ==== Proof.SplitMath.lean ====
/-
  One vocabulary split, one token: what the three carried numbers are after each column tile.

  The split's columns are consumed in tiles of width `T`.  Three numbers are carried per token: the running maximum
  and the running shifted exponential sum of the masked logits (the online softmax of `Cert.Online`), and the logit
  picked at the token's target column, accumulated as a sum of one-hot selections: it is `0` until the tile holding
  the target column has passed and the target's logit from then on.  A tile's masked logits are the tile of the
  unpadded row extended by `⊥`.  A logit of real operands is real.
-/
import proofs.«427234_j53386443489982_1_alg».proof.Proof.Spec
import proofs.«427234_j53386443489982_1_alg».proof.Proof.Online

noncomputable section

namespace Cert.SplitMath

open Idealize.ShloMosaic
open scoped BigOperators

/-- A tile's logits, masked by `⊥` beyond the split's last real column, are that tile of the unpadded row extended by `⊥`. -/
theorem masked_eq_padded {n T : ℕ} (y : Fin n → EReal) (c : ℕ) (x : Fin T → EReal)
    (hx : ∀ (j : Fin T) (h : c * T + j.val < n), x j = y ⟨c * T + j.val, h⟩) :
    (fun j : Fin T => if c * T + j.val < n then x j else ⊥) = Cert.Online.padded n T y c := by
  funext j
  unfold Cert.Online.padded
  by_cases h : c * T + j.val < n
  · rw [if_pos h, dif_pos h]; exact hx j h
  · rw [if_neg h, dif_neg h]

/-- One tile's update of the running maximum and sum, from the state after `c` tiles to the state after `c + 1`. -/
theorem run_step {T : ℕ} (x : ℕ → Fin T → EReal) (c : ℕ) (m l : EReal) (lm : Fin T → EReal)
    (hm : m = (Cert.Online.run x c).1) (hl : l = (Cert.Online.run x c).2) (hlm : lm = x c) :
    Cert.Online.stepM m lm = (Cert.Online.run x (c + 1)).1
      ∧ Cert.Online.stepL m l lm = (Cert.Online.run x (c + 1)).2 := by
  subst hm hl hlm
  exact ⟨rfl, rfl⟩

/-- The first tile starts from `⊥` and `0`. -/
theorem run_first {T : ℕ} (x : ℕ → Fin T → EReal) (lm : Fin T → EReal) (hlm : lm = x 0) :
    Cert.Online.stepM ⊥ lm = (Cert.Online.run x 1).1 ∧ Cert.Online.stepL ⊥ 0 lm = (Cert.Online.run x 1).2 :=
  run_step x 0 ⊥ 0 lm rfl rfl hlm

/-- The picked logit after one more tile: the tile adds the target's logit if it holds the target column and `0` otherwise. -/
theorem pick_step (T c t : ℕ) (Xt g s : EReal)
    (hg : g = if t < c * T then Xt else 0)
    (hin : c * T ≤ t → t < c * T + T → s = Xt)
    (hout : (t < c * T ∨ c * T + T ≤ t) → s = 0) :
    g + s = if t < (c + 1) * T then Xt else 0 := by
  rw [Nat.succ_mul]
  by_cases h1 : t < c * T
  · rw [hg, if_pos h1, hout (Or.inl h1), add_zero, if_pos (by omega)]
  · rw [hg, if_neg h1, zero_add]
    by_cases h2 : t < c * T + T
    · rw [if_pos h2, hin (by omega) h2]
    · rw [if_neg h2, hout (Or.inr (by omega))]

/-- A logit of real operands is real. -/
theorem logit_real {n : ℕ} (H : Fin 4096 → Fin 1024 → EReal) (W : Fin n → Fin 1024 → EReal) (B : Fin n → EReal)
    (hH : ∀ r k, ∃ v : ℝ, H r k = (v : EReal)) (hW : ∀ j k, ∃ v : ℝ, W j k = (v : EReal))
    (hB : ∀ j, ∃ v : ℝ, B j = (v : EReal)) (r : Fin 4096) (j : Fin n) :
    ∃ v : ℝ, Cert.Spec.logit H W B r j = (v : EReal) := by
  choose fH hfH using hH
  choose fW hfW using hW
  choose fB hfB using hB
  refine ⟨(∑ k : Fin 1024, fH r k * fW j k) + fB j, ?_⟩
  rw [Cert.Spec.logit, EReal.coe_add, Cert.Online.coe_finset_sum, hfB j]
  congr 1
  exact Finset.sum_congr rfl fun k _ => by rw [hfH r k, hfW j k, EReal.coe_mul]

end Cert.SplitMath

end
-- ==== Proof.KI.Split0Row.lean ====
/- Region 0, one token row: the three carried numbers after each column tile, from the tile's arithmetic on blocks.
   When the blocks of a grid point hold the token's hidden row, the tile's class rows and biases and the token's index
   word, the tile's masked logits are the tile of the token's unpadded logits extended by `⊥`, so the running maximum
   and sum follow the online softmax; the tile's one-hot sum is the target's logit if the tile holds the target column
   and zero otherwise. After the last tile: the row's maximum, its shifted exponential sum, the target's logit. -/
import proofs.«427234_j53386443489982_1_alg».proof.Proof.KI.TileStepDefs
import proofs.«427234_j53386443489982_1_alg».proof.Proof.SplitMath

noncomputable section

namespace Cert.KernelIdeal.Hand
open Cert.KernelIdeal Cert.KernelIdeal.Gen Idealize.ShloMosaic Idealize.ShloMosaic.ValueIdx
open scoped BigOperators

/-- Token `r`'s unpadded logits in this split: its hidden row against the first 4002 of the padded weight rows, plus their biases. -/
abbrev xrow0 (H : Fin 4096 → Fin 1024 → EReal) (Wp : Fin 4096 → Fin 1024 → EReal) (Bp : Fin 4096 → EReal) (r : Fin 4096) :
    Fin 4002 → EReal :=
  Cert.Spec.logit H (fun j => Wp ⟨j.val, by omega⟩) (fun j => Bp ⟨j.val, by omega⟩) r

variable (H : Fin 4096 → Fin 1024 → EReal) (Wp : Fin 4096 → Fin 1024 → EReal) (Bp : Fin 4096 → EReal)
  (ix : Fin 4096 → BitVec 32) (hix : ∀ r, (ix r).toNat < 4002)

/-- The carried numbers of token `r` after `cc` column tiles: the online softmax's pair over the first `cc` tiles of the
    token's logits, and the target's logit once its tile has passed. -/
def RowState0 (r : Fin 4096) (cc : ℕ) (m l g : EReal) : Prop :=
  m = (Cert.Online.run (Cert.Online.padded 4002 1024 (xrow0 H Wp Bp r)) cc).1
  ∧ l = (Cert.Online.run (Cert.Online.padded 4002 1024 (xrow0 H Wp Bp r)) cc).2
  ∧ g = if (ix r).toNat < cc * 1024 then xrow0 H Wp Bp r ⟨(ix r).toNat, hix r⟩ else 0

/-- The blocks of column tile `cc` hold, at block row `q`, token `r`'s data. -/
structure BlocksAt0 (hb wb : Vec Ideal S1024x1024 .f32) (bb : Vec Ideal S1x1024 .f32) (ib : Vec Ideal S1024x1 .i32)
    (cc : ℕ) (q : Fin 1024) (r : Fin 4096) : Prop where
  hH : ∀ k, hb (ix2 q k) = H r k
  hW : ∀ (j : Fin 1024) (J : Fin 4096), J.val = cc * 1024 + j.val → ∀ k, wb (ix2 j k) = Wp J k
  hB : ∀ (j : Fin 1024) (J : Fin 4096), J.val = cc * 1024 + j.val → bb (ix2 (0 : Fin 1) j) = Bp J
  hI : ib (ix2 q (0 : Fin 1)) = ix r

variable {H Wp Bp ix}

/-- A logit of the tile at a real column is the token's logit at that column. -/
theorem tileLogit_eq0 {hb wb : Vec Ideal S1024x1024 .f32} {bb : Vec Ideal S1x1024 .f32} {ib : Vec Ideal S1024x1 .i32}
    {cc : ℕ} {q : Fin 1024} {r : Fin 4096} (hblk : BlocksAt0 H Wp Bp ix hb wb bb ib cc q r) (j : Fin 1024)
    (h : cc * 1024 + j.val < 4002) : tileLogit hb wb bb q j = xrow0 H Wp Bp r ⟨cc * 1024 + j.val, h⟩ := by
  unfold tileLogit
  show _ = (∑ k : Fin 1024, H r k * Wp ⟨cc * 1024 + j.val, by omega⟩ k) + Bp ⟨cc * 1024 + j.val, by omega⟩
  rw [hblk.hB j ⟨cc * 1024 + j.val, by omega⟩ rfl]
  congr 1
  exact Finset.sum_congr rfl fun k _ => by rw [hblk.hH k, hblk.hW j ⟨cc * 1024 + j.val, by omega⟩ rfl k]

/-- The tile's masked logits are the tile of the token's unpadded logits extended by `⊥`. -/
theorem tileMasked_eq0 {hb wb : Vec Ideal S1024x1024 .f32} {bb : Vec Ideal S1x1024 .f32} {ib : Vec Ideal S1024x1 .i32}
    {cc : ℕ} {q : Fin 1024} {r : Fin 4096} (hblk : BlocksAt0 H Wp Bp ix hb wb bb ib cc q r) :
    tileMasked 4002 cc hb wb bb q = Cert.Online.padded 4002 1024 (xrow0 H Wp Bp r) cc :=
  Cert.SplitMath.masked_eq_padded (xrow0 H Wp Bp r) cc (tileLogit hb wb bb q) (tileLogit_eq0 hblk)

/-- Before the first tile: `⊥`, `0`, `0`. -/
theorem rowState0_init (r : Fin 4096) : RowState0 H Wp Bp ix hix r 0 ⊥ 0 0 :=
  ⟨rfl, rfl, by rw [Nat.zero_mul, if_neg (Nat.not_lt_zero _)]⟩

/-- One column tile's update of the carried numbers. -/
theorem rowState0_step {hb wb : Vec Ideal S1024x1024 .f32} {bb : Vec Ideal S1x1024 .f32} {ib : Vec Ideal S1024x1 .i32}
    {cc : ℕ} (hcc : cc < 4) {q : Fin 1024} {r : Fin 4096} (hblk : BlocksAt0 H Wp Bp ix hb wb bb ib cc q r) {m l g : EReal}
    (hs : RowState0 H Wp Bp ix hix r cc m l g) :
    RowState0 H Wp Bp ix hix r (cc + 1) (Cert.Online.stepM m (tileMasked 4002 cc hb wb bb q))
      (Cert.Online.stepL m l (tileMasked 4002 cc hb wb bb q))
      (g + tileGather cc hb wb bb (ib (ix2 q (0 : Fin 1))) q) := by
  obtain ⟨hm, hl, hg⟩ := hs
  have hstep := Cert.SplitMath.run_step (Cert.Online.padded 4002 1024 (xrow0 H Wp Bp r)) cc m l
    (tileMasked 4002 cc hb wb bb q) hm hl (tileMasked_eq0 hblk)
  refine ⟨hstep.1, hstep.2, ?_⟩
  have ht := hix r
  refine Cert.SplitMath.pick_step 1024 cc (ix r).toNat _ g _ hg (fun h1 h2 => ?_) (fun h => ?_)
  · rw [hblk.hI]
    have hj : (ix r).toNat - cc * 1024 < 1024 := by omega
    have hw : (ix r).toNat = cc * 1024 + (⟨(ix r).toNat - cc * 1024, hj⟩ : Fin 1024).val := by
      show (ix r).toNat = cc * 1024 + ((ix r).toNat - cc * 1024); omega
    rw [tileGather_hit hb wb bb q cc (by omega) (ix r) ⟨(ix r).toNat - cc * 1024, hj⟩ hw,
      tileLogit_eq0 hblk ⟨(ix r).toNat - cc * 1024, hj⟩ (by show cc * 1024 + ((ix r).toNat - cc * 1024) < 4002; omega)]
    exact congrArg (xrow0 H Wp Bp r) (Fin.ext (by show cc * 1024 + ((ix r).toNat - cc * 1024) = (ix r).toNat; omega))
  · rw [hblk.hI]
    exact tileGather_miss hb wb bb q cc (by omega) (ix r) (by omega)

/-- After the last tile: the row's maximum, its shifted exponential sum, the target's logit. -/
theorem rowState0_final {r : Fin 4096} (hx : ∀ j, ∃ v : ℝ, xrow0 H Wp Bp r j = (v : EReal)) {m l g : EReal}
    (hs : RowState0 H Wp Bp ix hix r 4 m l g) :
    m = Cert.Spec.rowMax (xrow0 H Wp Bp r) ∧ l = Cert.Spec.rowSum (xrow0 H Wp Bp r)
      ∧ g = xrow0 H Wp Bp r ⟨(ix r).toNat, hix r⟩ := by
  obtain ⟨hm, hl, hg⟩ := hs
  have ht := hix r
  refine ⟨hm.trans (Cert.Online.run_padded_max _ hx 4 (by norm_num)), hl.trans (Cert.Online.run_padded_sum _ hx 4 (by norm_num)), ?_⟩
  rw [hg, if_pos (by omega)]

end Cert.KernelIdeal.Hand

end
-- ==== Proof.KI.TileStep0.lean ====
/-
  Region 0's body (the head split's call, 4002 real columns in 4 column tiles), its arithmetic at an index.

  Each named value of the body, read at a token row `r` (and a lane `j`), as a function of the blocks it loads: the logits
  are the hidden block times the transposed weight block plus the bias row; the column numbers are the tile's first
  column plus the lane; the masked logits are `⊥` beyond the real columns; the new running maximum and the new running
  sum of exponentials are one step of the online softmax recurrence on the masked row; the new gathered logit adds the
  target column's logit when the target is in this tile. The stores' casts are identities, the last tile's output is the
  logarithm of the running sum, and the first tile starts from `⊥`, `0`, `0`.
-/
import proofs.«427234_j53386443489982_1_alg».proof.Proof.KI.TileStepDefs
import proofs.«427234_j53386443489982_1_alg».proof.Proof.Online

noncomputable section

namespace Cert.KernelIdeal.Hand
open Cert.KernelIdeal Cert.KernelIdeal.Gen Idealize.ShloMosaic Idealize.ShloMosaic.ValueIdx
open scoped BigOperators

/-! ## The matmul of region 0's body at an index -/

theorem k0_lhs_dot_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem k0_lhs_dot_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem k0_rhs_dot_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem k0_rhs_dot_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matmul of two blocks into the zero accumulator, contracting the second axis of both: entry `(r, j)` is row `r`
    of the first against row `j` of the second. -/
theorem k0_matmul_apply (x y : FVec Ideal S1024x1024 .bf16) (r j : Fin 1024) :
    FloatOps.matmul (F := Ideal) dot_S1024x1024_S1024x1024_S1024x1024_1_1_0_0_n_n none x y (constant (F := Ideal) S1024x1024 .f32 0x00000000#32) (ix2 r j)
      = ∑ k : Fin 1024, x (ix2 r k) * y (ix2 j k) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r j) ((ValueIdx.contrEquiv1 dot_S1024x1024_S1024x1024_S1024x1024_1_1_0_0_n_n 1024 rfl rfl).symm k) = ix2 r k := funext fun a => Fin.ext (by
    match a with
    | ⟨0, _⟩ => exact k0_lhs_dot_0 _ _
    | ⟨1, _⟩ => exact (k0_lhs_dot_1 _ _).trans hk)
  have er : dot_S1024x1024_S1024x1024_S1024x1024_1_1_0_0_n_n.rhsIdx (ix2 r j) ((ValueIdx.contrEquiv1 dot_S1024x1024_S1024x1024_S1024x1024_1_1_0_0_n_n 1024 rfl rfl).symm k) = ix2 j k := funext fun a => Fin.ext (by
    match a with
    | ⟨0, _⟩ => exact k0_rhs_dot_0 _ _
    | ⟨1, _⟩ => exact (k0_rhs_dot_1 _ _).trans hk)
  rw [el, er]

/-! ## The payloads of region 0's body at an index -/

variable (hb wb : Vec Ideal S1024x1024 .f32) (bb : Vec Ideal S1x1024 .f32) (ib : Vec Ideal S1024x1 .i32)
  (m0 l0 g0 : Vec Ideal S1024x1 .f32) (i : grid0.Coords) (r j : Fin 1024)

/-- The logits: the two blocks' product plus the bias row. -/
theorem k0_pay8_apply : k0_pay8 (F := Ideal) hb wb bb (ix2 r j) = tileLogit hb wb bb r j := by
  unfold k0_pay8 tileLogit
  show (FloatOps.matmul (F := Ideal) dot_S1024x1024_S1024x1024_S1024x1024_1_1_0_0_n_n none _ _ (constant (F := Ideal) S1024x1024 .f32 0x00000000#32) (ix2 r j) : EReal)
      + (broadcastTo S1024x1024 (shapeCast S1x1024 bb shapeCasts_S1x1024_S1x1024) broadcasts_S1x1024_S1024x1024 (ix2 r j) : EReal) = _
  refine congrArg₂ (· + ·) ((k0_matmul_apply _ _ r j).trans ?_) ((broadcastTo_1b_ab_apply _ _ r j).trans ?_)
  · rw [shapeCast_self hb, shapeCast_self wb]
    rfl
  · rw [shapeCast_self bb]

/-- The column numbers: the tile's first column plus the lane. -/
theorem k0_pay9_apply : k0_pay9 i (ix2 r j) = BitVec.ofNat 32 ((i 1).val * 1024 + j.val) := by
  unfold k0_pay9
  show BitVec.ofNat 32 (i 1).val * 1024#32 + iota .tc S1024x1024 32 [1] iota_S1024x1024_d1_w32 (ix2 r j) = _
  rw [iota_single_apply]
  show BitVec.ofNat 32 (i 1).val * BitVec.ofNat 32 1024 + BitVec.ofNat 32 j.val = _
  rw [← BitVec.ofNat_mul, ← BitVec.ofNat_add]

/-- The masked logits: `⊥` beyond the split's 4002 real columns. -/
theorem k0_pay10_apply : k0_pay10 (F := Ideal) i hb wb bb (ix2 r j) = tileMasked 4002 (i 1).val hb wb bb r j := by
  unfold k0_pay10 tileMasked
  show Scalar.select (IntOp.cmpi .slt (k0_pay9 i (ix2 r j)) 4002#32) (k0_pay8 (F := Ideal) hb wb bb (ix2 r j))
      (Named.named (F := Ideal) κ "neg_big" (φ := .f32) 0xF149F2CA#32) = _
  rw [k0_pay9_apply, k0_pay8_apply, IdealRules.named_const.ideal_named_scalar κ "neg_big" _ (⊥ : EReal) rfl]
  have hi := (i 1).isLt
  have hj := j.isLt
  exact select_cmpi_slt_ofNat (p := (i 1).val * 1024 + j.val) (q := 4002) (by
    have : (i 1).val < 4 := hi
    omega) (by norm_num) _ _

/-- The running maximum after this tile. -/
theorem k0_pay11_apply : k0_pay11 (F := Ideal) i hb wb bb m0 (ix2 r (0 : Fin 1))
    = Cert.Online.stepM (m0 (ix2 r (0 : Fin 1))) (tileMasked 4002 (i 1).val hb wb bb r) := by
  unfold k0_pay11 Cert.Online.stepM
  refine (maximumf_apply _ _ _).trans (congrArg (max (m0 (ix2 r (0 : Fin 1)) : EReal)) ?_)
  refine (shapeCast_a_a1_apply _ _ r 0).trans ((multiReduction_max_cols_apply _ _ _ _ r).trans ?_)
  exact congrArg (Finset.univ.sup) (funext fun c => k0_pay10_apply hb wb bb i r c)

/-- The running sum of exponentials after this tile. -/
theorem k0_pay12_apply : k0_pay12 (F := Ideal) i hb wb bb m0 l0 (ix2 r (0 : Fin 1))
    = Cert.Online.stepL (m0 (ix2 r (0 : Fin 1))) (l0 (ix2 r (0 : Fin 1))) (tileMasked 4002 (i 1).val hb wb bb r) := by
  unfold k0_pay12 Cert.Online.stepL
  refine (addf_apply _ _ _).trans (congrArg₂ (· + ·) ?_ ?_)
  · refine (mulf_apply _ _ _).trans (congrArg ((l0 (ix2 r (0 : Fin 1)) : EReal) * ·) ?_)
    refine (exp_idx _ _).trans (congrArg Ideal.exp ?_)
    refine (subf_apply _ _ _).trans (congrArg ((m0 (ix2 r (0 : Fin 1)) : EReal) - ·) ?_)
    exact k0_pay11_apply hb wb bb m0 i r
  · refine (shapeCast_a_a1_apply _ _ r 0).trans ((multiReduction_add_cols_apply _ _ _ _ r).trans (Finset.sum_congr rfl fun c _ => ?_))
    refine (exp_idx _ _).trans (congrArg Ideal.exp ?_)
    refine (subf_apply _ _ _).trans (congrArg₂ (· - ·) (k0_pay10_apply hb wb bb i r c) ?_)
    exact (broadcastTo_a1_ab_apply _ _ r c).trans (k0_pay11_apply hb wb bb m0 i r)

/-- The gathered logit, over any logits `v13` and column numbers `v17`. -/
theorem k0_pay3_apply_of (v13 : FVec Ideal S1024x1024 .f32) (v17 : IVec S1024x1024 32) :
    k0_pay3 (F := Ideal) v13 v17 ib g0 (ix2 r (0 : Fin 1))
      = g0 (ix2 r (0 : Fin 1)) + ∑ c : Fin 1024, if v17 (ix2 r c) = ib (ix2 r (0 : Fin 1)) then v13 (ix2 r c) else 0 := by
  unfold k0_pay3
  refine (congrFun (shapeCast_self _ _) _).trans ?_
  refine (addf_apply _ _ _).trans (congrArg ((g0 (ix2 r (0 : Fin 1)) : EReal) + ·) ?_)
  refine (shapeCast_a_a1_apply _ _ r 0).trans ((multiReduction_add_cols_apply _ _ _ _ r).trans (Finset.sum_congr rfl fun c _ => ?_))
  refine (select_cmpi_eq_apply _ _ _ _ _).trans ?_
  have hz : broadcast S1024x1024 (Scalar.ofBits (F := Ideal) .f32 0x00000000#32) (ix2 r c) = (0 : EReal) := Ideal.ofBits_zero_f32
  rw [hz, broadcastTo_a1_ab_apply, shapeCast_self ib]

/-- The gathered logit after this tile. -/
theorem k0_pay3_apply : k0_pay3 (F := Ideal) (k0_pay8 (F := Ideal) hb wb bb) (k0_pay9 i) ib g0 (ix2 r (0 : Fin 1))
    = g0 (ix2 r (0 : Fin 1)) + tileGather (i 1).val hb wb bb (ib (ix2 r (0 : Fin 1))) r := by
  rw [k0_pay3_apply_of]
  unfold tileGather
  refine congrArg ((g0 (ix2 r (0 : Fin 1)) : EReal) + ·) (Finset.sum_congr rfl fun c _ => ?_)
  rw [k0_pay9_apply, k0_pay8_apply]

/-! ## The stores' casts, the last tile's logarithm, and the first tile's initial values -/

theorem k0_pay1_apply (v : FVec Ideal S1024x1 .f32) : k0_pay1 (F := Ideal) v = v := by
  unfold k0_pay1
  exact shapeCast_self _ _
theorem k0_pay2_apply (v : FVec Ideal S1024x1 .f32) : k0_pay2 (F := Ideal) v = v := by
  unfold k0_pay2
  exact shapeCast_self _ _
theorem k0_pay4_apply (v : Vec Ideal S1024x1 .f32) (r : Fin 1024) :
    k0_pay4 (F := Ideal) v (ix2 r (0 : Fin 1)) = Ideal.log (v (ix2 r (0 : Fin 1))) := by
  unfold k0_pay4
  rfl
theorem k0_pay5_apply (r : Fin 1024) : k0_pay5 (F := Ideal) (ix2 r (0 : Fin 1)) = (⊥ : EReal) := by
  unfold k0_pay5
  refine (congrFun (shapeCast_self _ _) _).trans ((broadcast_apply _ _).trans ?_)
  exact ofBits_neg_inf_f32
theorem k0_pay6_apply (r : Fin 1024) : k0_pay6 (F := Ideal) (ix2 r (0 : Fin 1)) = (0 : EReal) := by
  unfold k0_pay6
  refine (congrFun (shapeCast_self _ _) _).trans ((broadcast_apply _ _).trans ?_)
  exact Ideal.ofBits_zero_f32
theorem k0_pay7_apply (r : Fin 1024) : k0_pay7 (F := Ideal) (ix2 r (0 : Fin 1)) = (0 : EReal) := by
  unfold k0_pay7
  refine (congrFun (shapeCast_self _ _) _).trans ((broadcast_apply _ _).trans ?_)
  exact Ideal.ofBits_zero_f32

end Cert.KernelIdeal.Hand
-- ==== Proof.KI.Split0Inv.lean ====
/- Region 0 at the extended reals: what the three scratch operands hold after every grid point, token row by token
   row, by induction on the point. Point t is column tile t % 4 of row tile t / 4; block row q of the point is token
   (t / 4) * 1024 + q. After the point the scratch holds the online softmax's pair over the first t % 4 + 1 tiles of the
   token's logits and the target's logit if its tile has passed; at the last column tile the outputs receive the row's
   maximum, the logarithm of its shifted exponential sum, and the target's logit. -/
import proofs.«427234_j53386443489982_1_alg».proof.Proof.KI.Split0Pieces
import proofs.«427234_j53386443489982_1_alg».proof.Proof.KI.Split0Blocks
import proofs.«427234_j53386443489982_1_alg».proof.Proof.KI.Split0Row
import proofs.«427234_j53386443489982_1_alg».proof.Proof.KI.TileStep0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- What is assumed of the region-entry contents: the four operand arrays as functions, real entries where they are
    read (every hidden entry; the weight rows and biases of the 4002 real columns), and every index word a real column. -/
structure SplitIn0 (c : Dev nD) (H : Fin 4096 → Fin 1024 → EReal) (Wp : Fin 4096 → Fin 1024 → EReal) (Bp : Fin 4096 → EReal)
    (ix : Fin 4096 → BitVec 32) : Prop where
  hH : ∀ r k, harr0 V c (ix2 r k) = H r k
  hW : ∀ j k, warr0 V c (ix2 j k) = Wp j k
  hB : ∀ j, barr0 V c (ix2 (0 : Fin 1) j) = Bp j
  hI : ∀ r, iarr0 V c (ix2 r (0 : Fin 1)) = ix r
  hHr : ∀ r k, ∃ v : ℝ, H r k = (v : EReal)
  hWr : ∀ j k, j.val < 4002 → ∃ v : ℝ, Wp j k = (v : EReal)
  hBr : ∀ j, j.val < 4002 → ∃ v : ℝ, Bp j = (v : EReal)
  hix : ∀ r, (ix r).toNat < 4002

/-- The column tile of a grid point. -/
theorem coord0_1 : ∀ t : Fin cfg0.N, ((grid0.coords t) 1).val = t.val % 4 :=
  (by decide +kernel : ∀ t : Fin grid0.N, ((grid0.coords t) 1).val = t.val % 4)

variable {V}

/-- Every logit of a token is real. -/
theorem xrow0_real {c : Dev nD} {H : Fin 4096 → Fin 1024 → EReal} {Wp : Fin 4096 → Fin 1024 → EReal} {Bp : Fin 4096 → EReal} {ix : Fin 4096 → BitVec 32} (h : SplitIn0 V c H Wp Bp ix) (r : Fin 4096) (j : Fin 4002) :
    ∃ v : ℝ, xrow0 H Wp Bp r j = (v : EReal) :=
  Cert.SplitMath.logit_real H (fun j : Fin 4002 => Wp ⟨j.val, by omega⟩) (fun j : Fin 4002 => Bp ⟨j.val, by omega⟩) h.hHr
    (fun j k => h.hWr ⟨j.val, by omega⟩ k j.isLt) (fun j => h.hBr ⟨j.val, by omega⟩ j.isLt) r j

/-- The blocks of point `t` hold, at block row `q`, the data of token `(t / 4) * 1024 + q` and of column tile `t % 4`. -/
theorem blocksAt0 {c : Dev nD} {H : Fin 4096 → Fin 1024 → EReal} {Wp : Fin 4096 → Fin 1024 → EReal} {Bp : Fin 4096 → EReal} {ix : Fin 4096 → BitVec 32} (h : SplitIn0 V c H Wp Bp ix) (t : Fin cfg0.N) (q : Fin 1024) (r : Fin 4096)
    (hr : r.val = t.val / 4 * 1024 + q.val) :
    BlocksAt0 H Wp Bp ix (hblk0 V c t) (wblk0 V c t) (bblk0 V c t) (iblkw0 V c t) (t.val % 4) q r :=
  ⟨fun k => (hblk0_read V c t q k r hr).trans (h.hH r k),
   fun j J hJ k => (wblk0_read V c t j k J hJ).trans (h.hW J k),
   fun j J hJ => (bblk0_read V c t j J hJ).trans (h.hB J),
   (iblkw0_read V c t q r hr).trans (h.hI r)⟩

/-- One column tile, through the body's arithmetic: from the carried numbers after `cc` tiles to those after `cc + 1`. -/
theorem payStep0 {H : Fin 4096 → Fin 1024 → EReal} {Wp : Fin 4096 → Fin 1024 → EReal} {Bp : Fin 4096 → EReal} {ix : Fin 4096 → BitVec 32} (hix : ∀ r, (ix r).toNat < 4002)
    (hb wb : Vec Ideal S1024x1024 .f32) (bb : Vec Ideal S1x1024 .f32) (ib : Vec Ideal S1024x1 .i32)
    (m0 l0 g0 : Vec Ideal S1024x1 .f32) (i : grid0.Coords) (cc : ℕ) (hi : (i 1).val = cc) (hcc : cc < 4)
    (q : Fin 1024) (r : Fin 4096) (hblk : BlocksAt0 H Wp Bp ix hb wb bb ib cc q r)
    (hs : RowState0 H Wp Bp ix hix r cc (m0 (ix2 q (0 : Fin 1))) (l0 (ix2 q (0 : Fin 1))) (g0 (ix2 q (0 : Fin 1)))) :
    RowState0 H Wp Bp ix hix r (cc + 1)
      (k0_pay1 (F := Ideal) (k0_pay11 (F := Ideal) i hb wb bb m0) (ix2 q (0 : Fin 1)))
      (k0_pay2 (F := Ideal) (k0_pay12 (F := Ideal) i hb wb bb m0 l0) (ix2 q (0 : Fin 1)))
      (k0_pay3 (F := Ideal) (k0_pay8 (F := Ideal) hb wb bb) (k0_pay9 i) ib g0 (ix2 q (0 : Fin 1))) := by
  subst hi
  rw [k0_pay1_apply, k0_pay2_apply, k0_pay11_apply hb wb bb m0 i q, k0_pay12_apply hb wb bb m0 l0 i q,
    k0_pay3_apply hb wb bb ib g0 i q]
  exact rowState0_step hix hcc hblk hs

variable (V)

/-- The scratch after point `n`, token row by token row. -/
def ScrInv0 (c : Dev nD) (H : Fin 4096 → Fin 1024 → EReal) (Wp : Fin 4096 → Fin 1024 → EReal) (Bp : Fin 4096 → EReal)
    (ix : Fin 4096 → BitVec 32) (hix : ∀ r, (ix r).toNat < 4002) (n : ℕ) (hn : n < cfg0.N) : Prop :=
  ∀ (q : Fin 1024) (r : Fin 4096), r.val = n / 4 * 1024 + q.val →
    RowState0 H Wp Bp ix hix r (n % 4 + 1) ((outsAt0 V c n hn).2.1 (ix2 q (0 : Fin 1)))
      ((outsAt0 V c n hn).2.2.1 (ix2 q (0 : Fin 1))) ((outsAt0 V c n hn).2.2.2 (ix2 q (0 : Fin 1)))

variable {V}

/-- A first column tile: the reset values, then the tile. -/
theorem scr0_A {c : Dev nD} {H : Fin 4096 → Fin 1024 → EReal} {Wp : Fin 4096 → Fin 1024 → EReal} {Bp : Fin 4096 → EReal} {ix : Fin 4096 → BitVec 32} (h : SplitIn0 V c H Wp Bp ix) (t : Fin cfg0.N) (h0 : t.val % 4 = 0) :
    ScrInv0 V c H Wp Bp ix h.hix t.val t.isLt := by
  intro q r hr
  have h1 : ¬t.val % 4 = 3 := by omega
  rw [outsAt0_A V c t h0 h1]
  dsimp only
  rw [sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (hblk0 V c t) (wblk0 V c t) (bblk0 V c t) (iblkw0 V c t),
    sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (hblk0 V c t) (wblk0 V c t) (bblk0 V c t) (iblkw0 V c t),
    sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (hblk0 V c t) (wblk0 V c t) (bblk0 V c t) (iblkw0 V c t)]
  refine payStep0 h.hix (hblk0 V c t) (wblk0 V c t) (bblk0 V c t) (iblkw0 V c t) (k0_pay5 (F := Ideal)) (k0_pay6 (F := Ideal))
    (k0_pay7 (F := Ideal)) (grid0.coords t) (t.val % 4) (coord0_1 t) (Nat.mod_lt _ (by norm_num)) q r (blocksAt0 h t q r hr) ?_
  rw [k0_pay5_apply, k0_pay6_apply, k0_pay7_apply, h0]
  exact rowState0_init h.hix r

/-- A middle column tile: the tile on what the tile before left. -/
theorem scr0_B {c : Dev nD} {H : Fin 4096 → Fin 1024 → EReal} {Wp : Fin 4096 → Fin 1024 → EReal} {Bp : Fin 4096 → EReal} {ix : Fin 4096 → BitVec 32} (h : SplitIn0 V c H Wp Bp ix) (t : Fin cfg0.N) (h0 : ¬t.val % 4 = 0) (h1 : ¬t.val % 4 = 3)
    (ih : ScrInv0 V c H Wp Bp ix h.hix (t.val - 1) (Nat.lt_of_le_of_lt (Nat.sub_le _ _) t.isLt)) :
    ScrInv0 V c H Wp Bp ix h.hix t.val t.isLt := by
  intro q r hr
  rw [outsAt0_B V c t h0 h1]
  dsimp only
  rw [sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (hblk0 V c t) (wblk0 V c t) (bblk0 V c t) (iblkw0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (hblk0 V c t) (wblk0 V c t) (bblk0 V c t) (iblkw0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (hblk0 V c t) (wblk0 V c t) (bblk0 V c t) (iblkw0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]
  have hprev := ih q r (by omega)
  rw [show (t.val - 1) % 4 + 1 = t.val % 4 from by omega] at hprev
  exact payStep0 h.hix (hblk0 V c t) (wblk0 V c t) (bblk0 V c t) (iblkw0 V c t) _ _ _ (grid0.coords t) (t.val % 4) (coord0_1 t)
    (Nat.mod_lt _ (by norm_num)) q r (blocksAt0 h t q r hr) hprev

/-- A last column tile: the same for the scratch. -/
theorem scr0_C {c : Dev nD} {H : Fin 4096 → Fin 1024 → EReal} {Wp : Fin 4096 → Fin 1024 → EReal} {Bp : Fin 4096 → EReal} {ix : Fin 4096 → BitVec 32} (h : SplitIn0 V c H Wp Bp ix) (t : Fin cfg0.N) (h0 : ¬t.val % 4 = 0) (h1 : t.val % 4 = 3)
    (ih : ScrInv0 V c H Wp Bp ix h.hix (t.val - 1) (Nat.lt_of_le_of_lt (Nat.sub_le _ _) t.isLt)) :
    ScrInv0 V c H Wp Bp ix h.hix t.val t.isLt := by
  intro q r hr
  rw [outsAt0_C V c t h0 h1]
  dsimp only
  rw [sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (hblk0 V c t) (wblk0 V c t) (bblk0 V c t) (iblkw0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (hblk0 V c t) (wblk0 V c t) (bblk0 V c t) (iblkw0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (hblk0 V c t) (wblk0 V c t) (bblk0 V c t) (iblkw0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]
  have hprev := ih q r (by omega)
  rw [show (t.val - 1) % 4 + 1 = t.val % 4 from by omega] at hprev
  exact payStep0 h.hix (hblk0 V c t) (wblk0 V c t) (bblk0 V c t) (iblkw0 V c t) _ _ _ (grid0.coords t) (t.val % 4) (coord0_1 t)
    (Nat.mod_lt _ (by norm_num)) q r (blocksAt0 h t q r hr) hprev

/-- THE INVARIANT: after every point the scratch holds, for every token row of the point's row tile, the carried numbers
    after the point's column tile. -/
theorem scr0_inv {c : Dev nD} {H : Fin 4096 → Fin 1024 → EReal} {Wp : Fin 4096 → Fin 1024 → EReal} {Bp : Fin 4096 → EReal} {ix : Fin 4096 → BitVec 32} (h : SplitIn0 V c H Wp Bp ix) :
    ∀ (n : ℕ) (hn : n < cfg0.N), ScrInv0 V c H Wp Bp ix h.hix n hn
  | 0, hn => scr0_A h ⟨0, hn⟩ (Nat.zero_mod 4)
  | n + 1, hn => by
    by_cases h0 : (n + 1) % 4 = 0
    · exact scr0_A h ⟨n + 1, hn⟩ h0
    · have ih := scr0_inv h n (Nat.lt_of_succ_lt hn)
      by_cases h1 : (n + 1) % 4 = 3
      · exact scr0_C h ⟨n + 1, hn⟩ h0 h1 ih
      · exact scr0_B h ⟨n + 1, hn⟩ h0 h1 ih

/-- What a last column tile leaves in the three outputs, token row by token row. -/
theorem outs0_C {c : Dev nD} {H : Fin 4096 → Fin 1024 → EReal} {Wp : Fin 4096 → Fin 1024 → EReal} {Bp : Fin 4096 → EReal} {ix : Fin 4096 → BitVec 32} (h : SplitIn0 V c H Wp Bp ix) (t : Fin cfg0.N) (h1 : t.val % 4 = 3) (q : Fin 1024)
    (r : Fin 4096) (hr : r.val = t.val / 4 * 1024 + q.val) :
    (outsAt0 V c t.val t.isLt).1.1 (ix2 q (0 : Fin 1)) = Cert.Spec.rowMax (xrow0 H Wp Bp r)
      ∧ (outsAt0 V c t.val t.isLt).1.2.1 (ix2 q (0 : Fin 1)) = Ideal.log (Cert.Spec.rowSum (xrow0 H Wp Bp r))
      ∧ (outsAt0 V c t.val t.isLt).1.2.2 (ix2 q (0 : Fin 1)) = xrow0 H Wp Bp r ⟨(ix r).toNat, h.hix r⟩ := by
  have h0 : ¬t.val % 4 = 0 := by omega
  have hprev := scr0_inv h (t.val - 1) (Nat.lt_of_le_of_lt (Nat.sub_le _ _) t.isLt) q r (by omega)
  rw [show (t.val - 1) % 4 + 1 = t.val % 4 from by omega] at hprev
  have hs := payStep0 h.hix (hblk0 V c t) (wblk0 V c t) (bblk0 V c t) (iblkw0 V c t) _ _ _ (grid0.coords t) (t.val % 4) (coord0_1 t)
    (Nat.mod_lt _ (by norm_num)) q r (blocksAt0 h t q r hr) hprev
  rw [h1] at hs
  have hf := rowState0_final h.hix (xrow0_real h r) hs
  rw [outsAt0_C V c t h0 h1]
  dsimp only
  rw [out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (hblk0 V c t) (wblk0 V c t) (bblk0 V c t) (iblkw0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (hblk0 V c t) (wblk0 V c t) (bblk0 V c t) (iblkw0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
    out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (hblk0 V c t) (wblk0 V c t) (bblk0 V c t) (iblkw0 V c t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2]
  rw [k0_pay4_apply]
  exact ⟨hf.1, congrArg Ideal.log hf.2.1, hf.2.2⟩

end Cert.KernelIdeal.Hand

end
-- ==== Proof.KI.Split0Value.lean ====
/- Region 0 at the extended reals: its three output arrays after the region, in closed form. Token row r of each
   output is written back once, at the last column tile of row tile r / 1024, and holds there the maximum of the
   token's logits, the logarithm of their shifted exponential sum, and the logit of the token's target column. -/
import proofs.«427234_j53386443489982_1_alg».proof.Proof.KI.Split0Inv
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable {V : (c : Dev nD) → (b : Ref sig .tc) → Buf (Elt Ideal) ((c : Thread nD τ).loc b)}

/-- The closed forms: per token row, the maximum of its logits, the logarithm of their shifted exponential sum, the target's logit. -/
def gmax0 (H : Fin 4096 → Fin 1024 → EReal) (Wp : Fin 4096 → Fin 1024 → EReal) (Bp : Fin 4096 → EReal) : Vec Ideal S4096x1 .f32 :=
  fun i => Cert.Spec.rowMax (xrow0 H Wp Bp (i 0))
def glog0 (H : Fin 4096 → Fin 1024 → EReal) (Wp : Fin 4096 → Fin 1024 → EReal) (Bp : Fin 4096 → EReal) : Vec Ideal S4096x1 .f32 :=
  fun i => Ideal.log (Cert.Spec.rowSum (xrow0 H Wp Bp (i 0)))
def gpick0 (H : Fin 4096 → Fin 1024 → EReal) (Wp : Fin 4096 → Fin 1024 → EReal) (Bp : Fin 4096 → EReal) (ix : Fin 4096 → BitVec 32)
    (hix : ∀ r, (ix r).toNat < 4002) : Vec Ideal S4096x1 .f32 :=
  fun i => xrow0 H Wp Bp (i 0) ⟨(ix (i 0)).toNat, hix (i 0)⟩

/-- The closed forms at token row `r`. -/
theorem gmax0_apply (H : Fin 4096 → Fin 1024 → EReal) (Wp : Fin 4096 → Fin 1024 → EReal) (Bp : Fin 4096 → EReal) (r : Fin 4096) :
    gmax0 H Wp Bp (ix2 r (0 : Fin 1)) = Cert.Spec.rowMax (xrow0 H Wp Bp r) := rfl
theorem glog0_apply (H : Fin 4096 → Fin 1024 → EReal) (Wp : Fin 4096 → Fin 1024 → EReal) (Bp : Fin 4096 → EReal) (r : Fin 4096) :
    glog0 H Wp Bp (ix2 r (0 : Fin 1)) = Ideal.log (Cert.Spec.rowSum (xrow0 H Wp Bp r)) := rfl
theorem gpick0_apply (H : Fin 4096 → Fin 1024 → EReal) (Wp : Fin 4096 → Fin 1024 → EReal) (Bp : Fin 4096 → EReal) (ix : Fin 4096 → BitVec 32)
    (hix : ∀ r, (ix r).toNat < 4002) (r : Fin 4096) :
    gpick0 H Wp Bp ix hix (ix2 r (0 : Fin 1)) = xrow0 H Wp Bp r ⟨(ix r).toNat, hix r⟩ := rfl

/-- The token of block row `q` at point `t`. -/
def tok0 (t : Fin cfg0.N) (q : Fin 1024) : Fin 4096 :=
  ⟨t.val / 4 * 1024 + q.val, by have := t.isLt; have hN : cfg0.N = 16 := N_0; omega⟩

/-- A one-column block is determined by its rows. -/
theorem colAt0 (X : Vec Ideal S1024x1 .f32) (G : Fin 1024 → EReal) (hX : ∀ q : Fin 1024, X (ix2 q (0 : Fin 1)) = G q)
    (y : S1024x1.Idx) : X y = G (y 0) :=
  (congrArg X ((eq_ix2 y).trans (congrArg (ix2 (y 0)) (Fin.eq_zero (y 1 : Fin 1))))).trans (hX (y 0))

/-- An index of a one-column array is its row and column zero. -/
theorem tokIdx0 (i : S4096x1.Idx) : ix2 (i 0) (0 : Fin 1) = i :=
  ((eq_ix2 i).trans (congrArg (ix2 (i 0)) (Fin.eq_zero (i 1 : Fin 1)))).symm

/-- A block of output 4's array read off any contents: the contents at the block's positions. -/
theorem read_blk0_4 (t : Fin cfg0.N) (G : Vec Ideal S4096x1 .f32) (y : ((cfg0.win 4).xblock (grid0.coords t)).Idx) :
    ((cfg0.win 4).blk t).view.read (Elt Ideal) G y = G (((cfg0.win 4).blk t).view.emb y) := rfl

/-- What a point of the last column tile writes back of output 4 is its block of the closed form. -/
theorem flushed0_4 {c : Dev nD} {H : Fin 4096 → Fin 1024 → EReal} {Wp : Fin 4096 → Fin 1024 → EReal} {Bp : Fin 4096 → EReal} {ix : Fin 4096 → BitVec 32} (h : SplitIn0 V c H Wp Bp ix) (t : Fin cfg0.N) (hf : (cfg0.win 4).flush t = true) :
    (dat0 V c).flushed 4 t = ((cfg0.win 4).blk t).view.read (Elt Ideal) (gmax0 H Wp Bp) := by
  have h3 : t.val % 4 = 3 := (flush0_4 t).mp hf
  show (cfg0.win 4).cut (grid0.coords t) ((dat0 V c).after 4 t) = _
  rw [after0_4]
  funext y
  refine Eq.trans ?_ (read_blk0_4 t (gmax0 H Wp Bp) y).symm
  show (outsAt0 V c t.val t.isLt).1.1 y = _
  have hr : ((((cfg0.win 4).blk t).view.emb y) 0).val = (tok0 t (y 0)).val := by
    show win0_4.index t 0 * 1024 + 1 * (y 0).val = t.val / 4 * 1024 + (y 0).val; rw [(idx0_4 t).1]; omega
  have e : ((cfg0.win 4).blk t).view.emb y = ix2 (tok0 t (y 0)) (0 : Fin 1) :=
    (tokIdx0 _).symm.trans (congrArg (fun r : Fin 4096 => ix2 r (0 : Fin 1)) (Fin.ext hr))
  refine (colAt0 ((outsAt0 V c t.val t.isLt).1.1) _ (fun q => (outs0_C h t h3 q (tok0 t q) rfl).1) y).trans ?_
  rw [e]
  exact (gmax0_apply H Wp Bp (tok0 t (y 0))).symm

/-- An index of output 4's array is in point `t`'s block iff each coordinate is in the block's range on its axis. -/
theorem mem_blk0_4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v23_0).slice (win0_4.rect t)).set ↔ _
  rw [View.set_slice_whole, Rect.mem_set_unit]
  exact Iff.rfl

/-- Every entry of output 4's array is written back: token row `r` at the last column tile of row tile `r / 1024`. -/
theorem cover0_4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 16 := N_0
  have htl : (i 0).val / 1024 * 4 + 3 < cfg0.N := by omega
  refine ⟨⟨(i 0).val / 1024 * 4 + 3, htl⟩, (flush0_4 _).mpr (by show ((i 0).val / 1024 * 4 + 3) % 4 = 3; omega), ?_⟩
  rw [mem_blk0_4]
  intro a
  match a with
  | ⟨0, _⟩ =>
    show win0_4.index ⟨(i 0).val / 1024 * 4 + 3, htl⟩ 0 * 1024 ≤ (i 0).val ∧ (i 0).val < win0_4.index ⟨(i 0).val / 1024 * 4 + 3, htl⟩ 0 * 1024 + 1024
    rw [(idx0_4 ⟨(i 0).val / 1024 * 4 + 3, htl⟩).1]
    show ((i 0).val / 1024 * 4 + 3) / 4 * 1024 ≤ (i 0).val ∧ (i 0).val < ((i 0).val / 1024 * 4 + 3) / 4 * 1024 + 1024
    omega
  | ⟨1, _⟩ =>
    show win0_4.index ⟨(i 0).val / 1024 * 4 + 3, htl⟩ 1 * 1 ≤ (i 1).val ∧ (i 1).val < win0_4.index ⟨(i 0).val / 1024 * 4 + 3, htl⟩ 1 * 1 + 1
    rw [(idx0_4 ⟨(i 0).val / 1024 * 4 + 3, htl⟩).2]
    omega

/-- Output 4's array after the region. -/
theorem final0_4 {c : Dev nD} {H : Fin 4096 → Fin 1024 → EReal} {Wp : Fin 4096 → Fin 1024 → EReal} {Bp : Fin 4096 → EReal} {ix : Fin 4096 → BitVec 32} (h : SplitIn0 V c H Wp Bp ix) : (dat0 V c).arrAt 4 cfg0.N = gmax0 H Wp Bp :=
  (dat0 V c).arrAt_eq_of_cover 4 (gmax0 H Wp Bp) (fun t hf => flushed0_4 h t hf) cover0_4

/-- A block of output 5's array read off any contents: the contents at the block's positions. -/
theorem read_blk0_5 (t : Fin cfg0.N) (G : Vec Ideal S4096x1 .f32) (y : ((cfg0.win 5).xblock (grid0.coords t)).Idx) :
    ((cfg0.win 5).blk t).view.read (Elt Ideal) G y = G (((cfg0.win 5).blk t).view.emb y) := rfl

/-- What a point of the last column tile writes back of output 5 is its block of the closed form. -/
theorem flushed0_5 {c : Dev nD} {H : Fin 4096 → Fin 1024 → EReal} {Wp : Fin 4096 → Fin 1024 → EReal} {Bp : Fin 4096 → EReal} {ix : Fin 4096 → BitVec 32} (h : SplitIn0 V c H Wp Bp ix) (t : Fin cfg0.N) (hf : (cfg0.win 5).flush t = true) :
    (dat0 V c).flushed 5 t = ((cfg0.win 5).blk t).view.read (Elt Ideal) (glog0 H Wp Bp) := by
  have h3 : t.val % 4 = 3 := (flush0_5 t).mp hf
  show (cfg0.win 5).cut (grid0.coords t) ((dat0 V c).after 5 t) = _
  rw [after0_5]
  funext y
  refine Eq.trans ?_ (read_blk0_5 t (glog0 H Wp Bp) y).symm
  show (outsAt0 V c t.val t.isLt).1.2.1 y = _
  have hr : ((((cfg0.win 5).blk t).view.emb y) 0).val = (tok0 t (y 0)).val := by
    show win0_5.index t 0 * 1024 + 1 * (y 0).val = t.val / 4 * 1024 + (y 0).val; rw [(idx0_5 t).1]; omega
  have e : ((cfg0.win 5).blk t).view.emb y = ix2 (tok0 t (y 0)) (0 : Fin 1) :=
    (tokIdx0 _).symm.trans (congrArg (fun r : Fin 4096 => ix2 r (0 : Fin 1)) (Fin.ext hr))
  refine (colAt0 ((outsAt0 V c t.val t.isLt).1.2.1) _ (fun q => (outs0_C h t h3 q (tok0 t q) rfl).2.1) y).trans ?_
  rw [e]
  exact (glog0_apply H Wp Bp (tok0 t (y 0))).symm

/-- An index of output 5's array is in point `t`'s block iff each coordinate is in the block's range on its axis. -/
theorem mem_blk0_5 (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v23_1).slice (win0_5.rect t)).set ↔ _
  rw [View.set_slice_whole, Rect.mem_set_unit]
  exact Iff.rfl

/-- Every entry of output 5's array is written back: token row `r` at the last column tile of row tile `r / 1024`. -/
theorem cover0_5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 16 := N_0
  have htl : (i 0).val / 1024 * 4 + 3 < cfg0.N := by omega
  refine ⟨⟨(i 0).val / 1024 * 4 + 3, htl⟩, (flush0_5 _).mpr (by show ((i 0).val / 1024 * 4 + 3) % 4 = 3; omega), ?_⟩
  rw [mem_blk0_5]
  intro a
  match a with
  | ⟨0, _⟩ =>
    show win0_5.index ⟨(i 0).val / 1024 * 4 + 3, htl⟩ 0 * 1024 ≤ (i 0).val ∧ (i 0).val < win0_5.index ⟨(i 0).val / 1024 * 4 + 3, htl⟩ 0 * 1024 + 1024
    rw [(idx0_5 ⟨(i 0).val / 1024 * 4 + 3, htl⟩).1]
    show ((i 0).val / 1024 * 4 + 3) / 4 * 1024 ≤ (i 0).val ∧ (i 0).val < ((i 0).val / 1024 * 4 + 3) / 4 * 1024 + 1024
    omega
  | ⟨1, _⟩ =>
    show win0_5.index ⟨(i 0).val / 1024 * 4 + 3, htl⟩ 1 * 1 ≤ (i 1).val ∧ (i 1).val < win0_5.index ⟨(i 0).val / 1024 * 4 + 3, htl⟩ 1 * 1 + 1
    rw [(idx0_5 ⟨(i 0).val / 1024 * 4 + 3, htl⟩).2]
    omega

/-- Output 5's array after the region. -/
theorem final0_5 {c : Dev nD} {H : Fin 4096 → Fin 1024 → EReal} {Wp : Fin 4096 → Fin 1024 → EReal} {Bp : Fin 4096 → EReal} {ix : Fin 4096 → BitVec 32} (h : SplitIn0 V c H Wp Bp ix) : (dat0 V c).arrAt 5 cfg0.N = glog0 H Wp Bp :=
  (dat0 V c).arrAt_eq_of_cover 5 (glog0 H Wp Bp) (fun t hf => flushed0_5 h t hf) cover0_5

/-- A block of output 6's array read off any contents: the contents at the block's positions. -/
theorem read_blk0_6 (t : Fin cfg0.N) (G : Vec Ideal S4096x1 .f32) (y : ((cfg0.win 6).xblock (grid0.coords t)).Idx) :
    ((cfg0.win 6).blk t).view.read (Elt Ideal) G y = G (((cfg0.win 6).blk t).view.emb y) := rfl

/-- What a point of the last column tile writes back of output 6 is its block of the closed form. -/
theorem flushed0_6 {c : Dev nD} {H : Fin 4096 → Fin 1024 → EReal} {Wp : Fin 4096 → Fin 1024 → EReal} {Bp : Fin 4096 → EReal} {ix : Fin 4096 → BitVec 32} (h : SplitIn0 V c H Wp Bp ix) (t : Fin cfg0.N) (hf : (cfg0.win 6).flush t = true) :
    (dat0 V c).flushed 6 t = ((cfg0.win 6).blk t).view.read (Elt Ideal) (gpick0 H Wp Bp ix h.hix) := by
  have h3 : t.val % 4 = 3 := (flush0_6 t).mp hf
  show (cfg0.win 6).cut (grid0.coords t) ((dat0 V c).after 6 t) = _
  rw [after0_6]
  funext y
  refine Eq.trans ?_ (read_blk0_6 t (gpick0 H Wp Bp ix h.hix) y).symm
  show (outsAt0 V c t.val t.isLt).1.2.2 y = _
  have hr : ((((cfg0.win 6).blk t).view.emb y) 0).val = (tok0 t (y 0)).val := by
    show win0_6.index t 0 * 1024 + 1 * (y 0).val = t.val / 4 * 1024 + (y 0).val; rw [(idx0_6 t).1]; omega
  have e : ((cfg0.win 6).blk t).view.emb y = ix2 (tok0 t (y 0)) (0 : Fin 1) :=
    (tokIdx0 _).symm.trans (congrArg (fun r : Fin 4096 => ix2 r (0 : Fin 1)) (Fin.ext hr))
  refine (colAt0 ((outsAt0 V c t.val t.isLt).1.2.2) _ (fun q => (outs0_C h t h3 q (tok0 t q) rfl).2.2) y).trans ?_
  rw [e]
  exact (gpick0_apply H Wp Bp ix h.hix (tok0 t (y 0))).symm

/-- An index of output 6's array is in point `t`'s block iff each coordinate is in the block's range on its axis. -/
theorem mem_blk0_6 (t : Fin cfg0.N) (i : S4096x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v23_2).slice (win0_6.rect t)).set ↔ _
  rw [View.set_slice_whole, Rect.mem_set_unit]
  exact Iff.rfl

/-- Every entry of output 6's array is written back: token row `r` at the last column tile of row tile `r / 1024`. -/
theorem cover0_6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 16 := N_0
  have htl : (i 0).val / 1024 * 4 + 3 < cfg0.N := by omega
  refine ⟨⟨(i 0).val / 1024 * 4 + 3, htl⟩, (flush0_6 _).mpr (by show ((i 0).val / 1024 * 4 + 3) % 4 = 3; omega), ?_⟩
  rw [mem_blk0_6]
  intro a
  match a with
  | ⟨0, _⟩ =>
    show win0_6.index ⟨(i 0).val / 1024 * 4 + 3, htl⟩ 0 * 1024 ≤ (i 0).val ∧ (i 0).val < win0_6.index ⟨(i 0).val / 1024 * 4 + 3, htl⟩ 0 * 1024 + 1024
    rw [(idx0_6 ⟨(i 0).val / 1024 * 4 + 3, htl⟩).1]
    show ((i 0).val / 1024 * 4 + 3) / 4 * 1024 ≤ (i 0).val ∧ (i 0).val < ((i 0).val / 1024 * 4 + 3) / 4 * 1024 + 1024
    omega
  | ⟨1, _⟩ =>
    show win0_6.index ⟨(i 0).val / 1024 * 4 + 3, htl⟩ 1 * 1 ≤ (i 1).val ∧ (i 1).val < win0_6.index ⟨(i 0).val / 1024 * 4 + 3, htl⟩ 1 * 1 + 1
    rw [(idx0_6 ⟨(i 0).val / 1024 * 4 + 3, htl⟩).2]
    omega

/-- Output 6's array after the region. -/
theorem final0_6 {c : Dev nD} {H : Fin 4096 → Fin 1024 → EReal} {Wp : Fin 4096 → Fin 1024 → EReal} {Bp : Fin 4096 → EReal} {ix : Fin 4096 → BitVec 32} (h : SplitIn0 V c H Wp Bp ix) : (dat0 V c).arrAt 6 cfg0.N = gpick0 H Wp Bp ix h.hix :=
  (dat0 V c).arrAt_eq_of_cover 6 (gpick0 H Wp Bp ix h.hix) (fun t hf => flushed0_6 h t hf) cover0_6

/-! ## The three outputs, entry by entry -/

/-- Output 4: the maximum of the token's logits. -/
theorem split0_max (c : Dev nD) (H : Fin 4096 → Fin 1024 → EReal) (Wp : Fin 4096 → Fin 1024 → EReal) (Bp : Fin 4096 → EReal)
    (ix : Fin 4096 → BitVec 32) (h : SplitIn0 V c H Wp Bp ix) (r : Fin 4096) :
    (dat0 V c).arrAt 4 cfg0.N (ix2 r (0 : Fin 1)) = Cert.Spec.rowMax (xrow0 H Wp Bp r) :=
  (congrFun (final0_4 h) (ix2 r (0 : Fin 1))).trans (gmax0_apply H Wp Bp r)

/-- Output 5: the logarithm of the shifted exponential sum of the token's logits. -/
theorem split0_logsum (c : Dev nD) (H : Fin 4096 → Fin 1024 → EReal) (Wp : Fin 4096 → Fin 1024 → EReal) (Bp : Fin 4096 → EReal)
    (ix : Fin 4096 → BitVec 32) (h : SplitIn0 V c H Wp Bp ix) (r : Fin 4096) :
    (dat0 V c).arrAt 5 cfg0.N (ix2 r (0 : Fin 1)) = Ideal.log (Cert.Spec.rowSum (xrow0 H Wp Bp r)) :=
  (congrFun (final0_5 h) (ix2 r (0 : Fin 1))).trans (glog0_apply H Wp Bp r)

/-- Output 6: the logit of the token's target column. -/
theorem split0_pick (c : Dev nD) (H : Fin 4096 → Fin 1024 → EReal) (Wp : Fin 4096 → Fin 1024 → EReal) (Bp : Fin 4096 → EReal)
    (ix : Fin 4096 → BitVec 32) (h : SplitIn0 V c H Wp Bp ix) (r : Fin 4096) :
    (dat0 V c).arrAt 6 cfg0.N (ix2 r (0 : Fin 1)) = xrow0 H Wp Bp r ⟨(ix r).toNat, h.hix r⟩ :=
  (congrFun (final0_6 h) (ix2 r (0 : Fin 1))).trans (gpick0_apply H Wp Bp ix h.hix r)

end Cert.KernelIdeal.Hand

end
-- ==== Proof.KI.Result0.lean ====
/-
  Region 0 of the kernel (the head split): the operand arrays the host prepared meet what the split's value
  theorem asks of them (the hidden rows, the split's weight rows and biases padded with zeros, the index words; real
  entries; indices in range), so the region's three output arrays hold, per token, the maximum, the logarithm of the
  shifted exponential sum, and the picked entry of the specification's row of logits.
-/
import proofs.«427234_j53386443489982_1_alg».proof.Proof.KI.ResultIn
import proofs.«427234_j53386443489982_1_alg».proof.Proof.KI.HostPrep0
import proofs.«427234_j53386443489982_1_alg».proof.Proof.KI.Split0Value

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-! ## Region 0: its operands meet the split's requirements, and its outputs are the specification's row quantities -/

variable (m : (ℓ : Loc nD τ sig) → Buf (Elt Ideal) ℓ) (outs : Outs (F := Ideal)) (c : Dev nD) (hpre : Cert.Pre_KernelIdeal m)

include hpre in
theorem splitIn0 : SplitIn0 (fun c b => V7 m c b) c (sH m c) (Wp0 m c) (Bp0 m c) (fun r => idx0W (tW m c r)) := by
  refine ⟨?_, ?_, ?_, ?_, sH_real m c hpre, ?_, ?_, idx0_lt m c hpre⟩
  · exact fun r k => V7_v0 m c r k
  · intro j k
    exact (V7_v14 m c j k).trans (by unfold Wp0; rfl)
  · intro j
    exact (V7_v16 m c j).trans (by unfold Bp0; rfl)
  · exact fun r => V7_v22 m c r
  · exact fun j k hj => by unfold Wp0; rw [dif_pos hj]; exact headW_real m c hpre _ k
  · exact fun j hj => by unfold Bp0; rw [dif_pos hj]; exact headB_real m c hpre _

include hpre in
/-- Region 0's three outputs at token r. -/
theorem region0_rows
    (ho : outs 8 main_v23_0 c = (dat0 (fun c b => V7 m c b) c).arrAt 4 cfg0.N
      ∧ outs 8 main_v23_1 c = (dat0 (fun c b => V7 m c b) c).arrAt 5 cfg0.N
      ∧ outs 8 main_v23_2 c = (dat0 (fun c b => V7 m c b) c).arrAt 6 cfg0.N) (r : Fin 4096) :
      (outs 8 main_v23_0 c : S4096x1.Idx → EReal) (ix2 r 0) = Cert.Spec.rowMax (row0 m c r)
    ∧ (outs 8 main_v23_1 c : S4096x1.Idx → EReal) (ix2 r 0) = Ideal.log (Cert.Spec.rowSum (row0 m c r))
    ∧ (outs 8 main_v23_2 c : S4096x1.Idx → EReal) (ix2 r 0) = row0 m c r ⟨(idx0W (tW m c r)).toNat, idx0_lt m c hpre r⟩ := by
  obtain ⟨e0, e1, e2⟩ := ho
  have hs := splitIn0 m c hpre
  refine ⟨?_, ?_, ?_⟩
  · rw [e0]
    exact (split0_max c _ _ _ _ hs r).trans (congrArg Cert.Spec.rowMax (logit_pad0 m c r))
  · rw [e1]
    exact (split0_logsum c _ _ _ _ hs r).trans (congrArg (fun x => Ideal.log (Cert.Spec.rowSum x)) (logit_pad0 m c r))
  · rw [e2]
    exact (split0_pick c _ _ _ _ hs r).trans (congrFun (logit_pad0 m c r) _)

end Cert.KernelIdeal.Hand

end
-- ==== Proof.KI.HostPrep1.lean ====
/- The first tail split's operands at the entry of its kernel region, from the argument arrays: the weight rows of classes 4000 … 19999 over zero rows, their biases likewise, and per token the split's index word of its target. -/
import proofs.«427234_j53386443489982_1_alg».proof.Proof.Gen.KernelIdeal.Regions
import proofs.«427234_j53386443489982_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«427234_j53386443489982_1_alg».proof.Proof.KI.HostBase
set_option maxRecDepth 1164

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (outs : Outs (F := Ideal)) (c : Dev nD)

/-! ## What each host operation of the stretch writes, from any contents before it -/

theorem hostOps1_v26 (W : Valuation τ sig (Elt Ideal)) :
    (StableHlo.after hostOps1 W (Proc.devRef .tc main_v26) : S16000x1024.Idx → EReal)
      = extractStridedSlice S16000x1024 ![4000, 0] (W (Proc.devRef .tc main_arg0) : S50000x1024.Idx → EReal) slices_S50000x1024_S16000x1024_4000_0 := by
  after_results
  first | done | rfl

theorem hostOps1_v27 (W : Valuation τ sig (Elt Ideal)) :
    (StableHlo.after hostOps1 W (Proc.devRef .tc main_v27) : S16000.Idx → EReal)
      = extractStridedSlice S16000 ![4000] (W (Proc.devRef .tc main_arg1) : S50000.Idx → EReal) slices_S50000_S16000_4000 := by
  after_results
  first | done | rfl

theorem hostOps1_c_6 (W : Valuation τ sig (Elt Ideal)) :
    (StableHlo.after hostOps1 W (Proc.devRef .tc main_c_6) : S_.Idx → BitVec 32) = constantI S_ 32 0#32 := by
  after_results
  first | done | rfl

theorem hostOps1_1_v28 (W : Valuation τ sig (Elt Ideal)) :
    (StableHlo.after hostOps1_1 W (Proc.devRef .tc main_v28) : S16384x1024.Idx → EReal)
      = pad S16384x1024 ![0, 0] ![384, 0] ![0, 0] (W (Proc.devRef .tc main_v26) : S16000x1024.Idx → EReal)
          (sitofp .f32 (W (Proc.devRef .tc main_c_6) : S_.Idx → BitVec 32) : FVec Ideal S_ .f32) pads_S16000x1024_S16384x1024_03840_000 h_S_ := by
  after_results
  first | done | rfl

theorem hostOps1_2_c_7 (W : Valuation τ sig (Elt Ideal)) :
    (StableHlo.after hostOps1_2 W (Proc.devRef .tc main_c_7) : S_.Idx → BitVec 32) = constantI S_ 32 0#32 := by
  after_results
  first | done | rfl

theorem hostOps1_3_v29 (W : Valuation τ sig (Elt Ideal)) :
    (StableHlo.after hostOps1_3 W (Proc.devRef .tc main_v29) : S16384.Idx → EReal)
      = pad S16384 ![0] ![384] ![0] (W (Proc.devRef .tc main_v27) : S16000.Idx → EReal)
          (sitofp .f32 (W (Proc.devRef .tc main_c_7) : S_.Idx → BitVec 32) : FVec Ideal S_ .f32) pads_S16000_S16384_03840 h_S_ := by
  after_results
  first | done | rfl

theorem hostOps1_4_v30 (W : Valuation τ sig (Elt Ideal)) :
    (StableHlo.after hostOps1_4 W (Proc.devRef .tc main_v30) : S1x16384.Idx → EReal)
      = shapeCast S1x16384 (W (Proc.devRef .tc main_v29) : S16384.Idx → EReal) shapeCasts_S16384_S1x16384 := by
  after_results
  first | done | rfl

theorem hostOps1_4_v32 (W : Valuation τ sig (Elt Ideal)) :
    (StableHlo.after hostOps1_4 W (Proc.devRef .tc main_v32) : S4096.Idx → BitVec 1)
      = fun i => IntOp.cmpi .eq ((W (Proc.devRef .tc main_v9) : S4096.Idx → BitVec 32) i) 1#32 := by
  after_results
  first | done | rfl

theorem hostOps1_4_v34 (W : Valuation τ sig (Elt Ideal)) :
    (StableHlo.after hostOps1_4 W (Proc.devRef .tc main_v34) : S4096.Idx → BitVec 32)
      = fun i => IntOp.subi ((W (Proc.devRef .tc main_arg3) : S4096.Idx → BitVec 32) i) 4000#32 := by
  after_results
  first | done | rfl

theorem hostOps1_4_c_10 (W : Valuation τ sig (Elt Ideal)) :
    (StableHlo.after hostOps1_4 W (Proc.devRef .tc main_c_10) : S_.Idx → BitVec 32) = constantI S_ 32 0#32 := by
  after_results
  first | done | rfl

theorem hostOps1_5_v35 (W : Valuation τ sig (Elt Ideal)) :
    (StableHlo.after hostOps1_5 W (Proc.devRef .tc main_v35) : S4096.Idx → BitVec 32)
      = select (W (Proc.devRef .tc main_v32) : S4096.Idx → BitVec 1) (W (Proc.devRef .tc main_v34) : S4096.Idx → BitVec 32)
          (broadcastInDim S4096 ![] bcast_S_S4096 (W (Proc.devRef .tc main_c_10) : S_.Idx → BitVec 32)) := by
  after_results
  first | done | rfl

theorem hostOps1_6_v36 (W : Valuation τ sig (Elt Ideal)) :
    (StableHlo.after hostOps1_6 W (Proc.devRef .tc main_v36) : S4096x1.Idx → BitVec 32)
      = shapeCast S4096x1 (W (Proc.devRef .tc main_v35) : S4096.Idx → BitVec 32) shapeCasts_S4096_S4096x1 := by
  after_results
  first | done | rfl

/-! ## The region's operands at its entry -/

theorem V15_v28_eq : V15 m outs c main_v28 = V10 m outs c main_v28 := (V15_of m outs c main_v28 (by decide)).trans <| (V14_of m outs c main_v28 (by decide)).trans <| (V13_of m outs c main_v28 (by decide)).trans <| (V12_of m outs c main_v28 (by decide)).trans <| (V11_of m outs c main_v28 (by decide))

/-- The split's weight operand: its 16000 classes' rows over 384 rows of zeros. -/
theorem V15_v28 (j : Fin 16384) (k : Fin 1024) :
    (V15 m outs c main_v28 : S16384x1024.Idx → EReal) (ix2 j k)
      = if h : j.val < 16000 then Cert.Spec.tail1W (Cert.Spec.mat (aW m c)) ⟨j.val, h⟩ k else 0 := by
  rw [V15_v28_eq]
  refine (congrFun (hostOps1_1_v28 (V9 m outs c)) (ix2 j k)).trans ?_
  refine (pad_rows_apply _ _ _ _ j k).trans ?_
  by_cases h : j.val < 16000
  · rw [dif_pos h, dif_pos h, show V9 m outs c main_v26 = _ from hostOps1_v26 (V8 m outs c), V8_arg0_eq]
    exact (slice_rows_apply 4000 (aW m c) _ ⟨j.val, h⟩ k (by show 4000 + j.val < 50000; omega)).trans
      (congrArg (fun i : Fin 50000 => aW m c (ix2 i k)) (Fin.ext (by show 4000 + j.val = j.val + 4000; omega)))
  · rw [dif_neg h, dif_neg h, show V9 m outs c main_c_6 = _ from hostOps1_c_6 (V8 m outs c)]; exact padval_zero _

theorem V15_v30_eq : V15 m outs c main_v30 = V13 m outs c main_v30 := (V15_of m outs c main_v30 (by decide)).trans <| (V14_of m outs c main_v30 (by decide))
theorem V11_v27_eq : V11 m outs c main_v27 = V9 m outs c main_v27 := (V11_of m outs c main_v27 (by decide)).trans <| (V10_of m outs c main_v27 (by decide))

/-- The split's bias operand: its 16000 classes' biases, then zeros. -/
theorem V15_v30 (j : Fin 16384) :
    (V15 m outs c main_v30 : S1x16384.Idx → EReal) (ix2 0 j)
      = if h : j.val < 16000 then Cert.Spec.tail1B (Cert.Spec.vec (aB m c)) ⟨j.val, h⟩ else 0 := by
  rw [V15_v30_eq]
  refine (congrFun (hostOps1_4_v30 (V12 m outs c)) (ix2 0 j)).trans ?_
  refine (reshape_row_apply _ _ j).trans ?_
  refine (congrFun (hostOps1_3_v29 (V11 m outs c)) (ix1 j)).trans ?_
  refine (pad_vec_apply _ _ _ _ j).trans ?_
  by_cases h : j.val < 16000
  · rw [dif_pos h, dif_pos h, V11_v27_eq, show V9 m outs c main_v27 = _ from hostOps1_v27 (V8 m outs c), V8_arg1_eq]
    exact (slice_vec_apply 4000 (aB m c) _ ⟨j.val, h⟩ (by show 4000 + j.val < 50000; omega)).trans
      (congrArg (fun i : Fin 50000 => aB m c (ix1 i)) (Fin.ext (by show 4000 + j.val = j.val + 4000; omega)))
  · rw [dif_neg h, dif_neg h]
    refine (congrArg (fun z : S_.Idx → BitVec 32 => (sitofp .f32 z : FVec Ideal S_ .f32) _) (hostOps1_2_c_7 (V10 m outs c))).trans ?_
    exact padval_zero _

/-- The split's index operand: per token the split's index word of its target. -/
theorem V15_v36 (r : Fin 4096) :
    (V15 m outs c main_v36 : S4096x1.Idx → BitVec 32) (ix2 r 0) = idx1W (aT m c (ix1 r)) := by
  refine (congrFun (hostOps1_6_v36 (V14 m outs c)) (ix2 r 0)).trans ?_
  refine (reshape_col_apply _ _ r).trans ?_
  refine (congrFun (hostOps1_5_v35 (V13 m outs c)) (ix1 r)).trans ?_
  show Scalar.select ((V13 m outs c main_v32 : S4096.Idx → BitVec 1) (ix1 r)) ((V13 m outs c main_v34 : S4096.Idx → BitVec 32) (ix1 r))
      (broadcastInDim S4096 ![] bcast_S_S4096 (V13 m outs c main_c_10 : S_.Idx → BitVec 32) (ix1 r)) = _
  rw [show V13 m outs c main_v32 = _ from hostOps1_4_v32 (V12 m outs c),
    show V13 m outs c main_v34 = _ from hostOps1_4_v34 (V12 m outs c),
    show V13 m outs c main_c_10 = _ from hostOps1_4_c_10 (V12 m outs c), V12_v9_eq, V1_v9, V12_arg3_eq]
  rfl

end Cert.KernelIdeal.Hand
end
-- ==== Proof.KI.Split1Pieces.lean ====
/- Region 1: what each case of the body leaves in the three scratch operands and, in the last case, in the three
   outputs, as the body's arithmetic applied to the point's blocks and to what the scratch held before. The first
   case resets the scratch and then updates it, so its update reads the reset values; the last case copies the
   updated scratch (the logarithm of the running sum for the second output) into the outputs. -/
import proofs.«427234_j53386443489982_1_alg».proof.Proof.KI.Tile1Data
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem shz1 : (![0, 0] : Fin 2 → Nat) = fun _ => 0 := funext fun a => by fin_cases a <;> rfl

/-- Case A, scratch operand 0: the running maximum after the first column tile: the tile's update of the reset value. -/
theorem sout1_A_0_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) :
    sout1_A_0 c i arg2 harg2 arg3 harg3 arg4 harg4 arg5 harg5 arg6 harg6 arg7 harg7 arg8 harg8 arg9 harg9 arg10 harg10 arg11 harg11 hc0 hc1 x0 x1 x2 x3 = k1_pay1 (k1_pay11 i x0 x1 x2 k1_pay5) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case A, scratch operand 1: the running sum after the first column tile: the tile's update of the reset values. -/
theorem sout1_A_1_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) :
    sout1_A_1 c i arg2 harg2 arg3 harg3 arg4 harg4 arg5 harg5 arg6 harg6 arg7 harg7 arg8 harg8 arg9 harg9 arg10 harg10 arg11 harg11 hc0 hc1 x0 x1 x2 x3 = k1_pay2 (k1_pay12 i x0 x1 x2 k1_pay5 k1_pay6) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case A, scratch operand 2: the picked logit after the first column tile: the tile's selection added to the reset value. -/
theorem sout1_A_2_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond1_0 i) (hc1 : ¬cond1_1 i)
    (x0 : Vec F S1024x1024 .f32) (x1 : Vec F S1024x1024 .f32) (x2 : Vec F S1x1024 .f32) (x3 : Vec F S1024x1 .i32) :
    sout1_A_2 c i arg2 harg2 arg3 harg3 arg4 harg4 arg5 harg5 arg6 harg6 arg7 harg7 arg8 harg8 arg9 harg9 arg10 harg10 arg11 harg11 hc0 hc1 x0 x1 x2 x3 = k1_pay3 (k1_pay8 x0 x1 x2) (k1_pay9 i) x3 k1_pay7 := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case B, scratch operand 0: the running maximum after a middle column tile: the tile's update of what the tile before left. -/
theorem sout1_B_0_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout1_B_0 c i arg2 harg2 arg3 harg3 arg4 harg4 arg5 harg5 arg6 harg6 arg7 harg7 arg8 harg8 arg9 harg9 arg10 harg10 arg11 harg11 hc0 hc1 x0 x1 x2 x3 xs0 xs1 xs2 = k1_pay1 (k1_pay11 i x0 x1 x2 xs0) := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_B
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case B, scratch operand 1: the running sum after a middle column tile. -/
theorem sout1_B_1_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout1_B_1 c i arg2 harg2 arg3 harg3 arg4 harg4 arg5 harg5 arg6 harg6 arg7 harg7 arg8 harg8 arg9 harg9 arg10 harg10 arg11 harg11 hc0 hc1 x0 x1 x2 x3 xs0 xs1 xs2 = k1_pay2 (k1_pay12 i x0 x1 x2 xs0 xs1) := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_B
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case B, scratch operand 2: the picked logit after a middle column tile. -/
theorem sout1_B_2_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : ¬cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout1_B_2 c i arg2 harg2 arg3 harg3 arg4 harg4 arg5 harg5 arg6 harg6 arg7 harg7 arg8 harg8 arg9 harg9 arg10 harg10 arg11 harg11 hc0 hc1 x0 x1 x2 x3 xs0 xs1 xs2 = k1_pay3 (k1_pay8 x0 x1 x2) (k1_pay9 i) x3 xs2 := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_B
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case C, scratch operand 0: the running maximum after the last column tile. -/
theorem sout1_C_0_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout1_C_0 c i arg2 harg2 arg3 harg3 arg4 harg4 arg5 harg5 arg6 harg6 arg7 harg7 arg8 harg8 arg9 harg9 arg10 harg10 arg11 harg11 hc0 hc1 x0 x1 x2 x3 xs0 xs1 xs2 = k1_pay1 (k1_pay11 i x0 x1 x2 xs0) := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case C, scratch operand 1: the running sum after the last column tile. -/
theorem sout1_C_1_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout1_C_1 c i arg2 harg2 arg3 harg3 arg4 harg4 arg5 harg5 arg6 harg6 arg7 harg7 arg8 harg8 arg9 harg9 arg10 harg10 arg11 harg11 hc0 hc1 x0 x1 x2 x3 xs0 xs1 xs2 = k1_pay2 (k1_pay12 i x0 x1 x2 xs0 xs1) := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case C, scratch operand 2: the picked logit after the last column tile. -/
theorem sout1_C_2_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout1_C_2 c i arg2 harg2 arg3 harg3 arg4 harg4 arg5 harg5 arg6 harg6 arg7 harg7 arg8 harg8 arg9 harg9 arg10 harg10 arg11 harg11 hc0 hc1 x0 x1 x2 x3 xs0 xs1 xs2 = k1_pay3 (k1_pay8 x0 x1 x2) (k1_pay9 i) x3 xs2 := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case C, output 4: the running maximum, read back from the scratch. -/
theorem out1_C_4_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    out1_C_4 c i arg2 harg2 arg3 harg3 arg4 harg4 arg5 harg5 arg6 harg6 arg7 harg7 arg8 harg8 arg9 harg9 arg10 harg10 arg11 harg11 hc0 hc1 x0 x1 x2 x3 xs0 xs1 xs2 = k1_pay1 (k1_pay11 i x0 x1 x2 xs0) := by
  unfold out1_C_4
  rw [View.read_writes_eq_canon _ _ _ (cover1_C_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case C, output 5: the logarithm of the running sum, read back from the scratch. -/
theorem out1_C_5_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    out1_C_5 c i arg2 harg2 arg3 harg3 arg4 harg4 arg5 harg5 arg6 harg6 arg7 harg7 arg8 harg8 arg9 harg9 arg10 harg10 arg11 harg11 hc0 hc1 x0 x1 x2 x3 xs0 xs1 xs2 = k1_pay4 (k1_pay2 (k1_pay12 i x0 x1 x2 xs0 xs1)) := by
  unfold out1_C_5
  rw [View.read_writes_eq_canon _ _ _ (cover1_C_5 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

/-- Case C, output 6: the picked logit, read back from the scratch. -/
theorem out1_C_6_eq (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond1_0 i) (hc1 : cond1_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    out1_C_6 c i arg2 harg2 arg3 harg3 arg4 harg4 arg5 harg5 arg6 harg6 arg7 harg7 arg8 harg8 arg9 harg9 arg10 harg10 arg11 harg11 hc0 hc1 x0 x1 x2 x3 xs0 xs1 xs2 = k1_pay3 (k1_pay8 x0 x1 x2) (k1_pay9 i) x3 xs2 := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_cons_unit_zero (S := S1024x1) shz1]
  simp only [View.readAt_eq_ld, harg2.read_unread, harg3.read_unread, harg4.read_unread, harg5.read_unread, harg9.read_unread, harg10.read_unread, harg11.read_unread, View.readCov_unit_zero (S := S1024x1) _ shz1, View.ld_unit_zero (S := S1024x1024) shz1, View.ld_unit_zero (S := S1x1024) shz1, View.ld_unit_zero (S := S1024x1) shz1]

end Cert.KernelIdeal.Hand

end
-- ==== Proof.KI.Split1Blocks.lean ====
/- Region 1 at the extended reals: the four operand arrays as the region finds them, named at their literal types,
   and each window's block at a grid point read off its array: point t = (row tile) * 4 + (column tile); the hidden
   block holds token rows (t / 16) * 1024 + q, the weight block class rows (t % 16) * 1024 + j, the bias block the
   same columns, the index block the same token rows as the hidden block. -/
import proofs.«427234_j53386443489982_1_alg».proof.Proof.KI.Tile1Shared
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The hidden states as the region finds them: 4096 token rows of 1024 entries. -/
abbrev harr1 (c : Dev nD) : Vec Ideal S4096x1024 .f32 := V c (Pipeline.arrRef spec1 0)
/-- The split's weight rows as the region finds them, padded to 16384 rows. -/
abbrev warr1 (c : Dev nD) : Vec Ideal S16384x1024 .f32 := V c (Pipeline.arrRef spec1 1)
/-- The split's biases as the region finds them, padded to 16384 columns. -/
abbrev barr1 (c : Dev nD) : Vec Ideal S1x16384 .f32 := V c (Pipeline.arrRef spec1 2)
/-- The tokens' target columns in this split, as 32-bit words. -/
abbrev iarr1 (c : Dev nD) : Vec Ideal S4096x1 .i32 := V c (Pipeline.arrRef spec1 3)

/-- The blocks of a grid point at their literal types. -/
abbrev hblk1 (c : Dev nD) (t : Fin cfg1.N) : Vec Ideal S1024x1024 .f32 := iblk1 V c 0 t
abbrev wblk1 (c : Dev nD) (t : Fin cfg1.N) : Vec Ideal S1024x1024 .f32 := iblk1 V c 1 t
abbrev bblk1 (c : Dev nD) (t : Fin cfg1.N) : Vec Ideal S1x1024 .f32 := iblk1 V c 2 t
abbrev iblkw1 (c : Dev nD) (t : Fin cfg1.N) : Vec Ideal S1024x1 .i32 := iblk1 V c 3 t

/-! ## The index maps, decided over the grid -/

theorem idx1_0 : ∀ t : Fin cfg1.N, win1_0.index t 0 = t.val / 16 ∧ win1_0.index t 1 = 0 :=
  (by decide +kernel : ∀ t : Fin grid1.N, win1_0.index t 0 = t.val / 16 ∧ win1_0.index t 1 = 0)
theorem idx1_1 : ∀ t : Fin cfg1.N, win1_1.index t 0 = t.val % 16 ∧ win1_1.index t 1 = 0 :=
  (by decide +kernel : ∀ t : Fin grid1.N, win1_1.index t 0 = t.val % 16 ∧ win1_1.index t 1 = 0)
theorem idx1_2 : ∀ t : Fin cfg1.N, win1_2.index t 0 = 0 ∧ win1_2.index t 1 = t.val % 16 :=
  (by decide +kernel : ∀ t : Fin grid1.N, win1_2.index t 0 = 0 ∧ win1_2.index t 1 = t.val % 16)
theorem idx1_3 : ∀ t : Fin cfg1.N, win1_3.index t 0 = t.val / 16 ∧ win1_3.index t 1 = 0 :=
  (by decide +kernel : ∀ t : Fin grid1.N, win1_3.index t 0 = t.val / 16 ∧ win1_3.index t 1 = 0)
theorem idx1_4 : ∀ t : Fin cfg1.N, win1_4.index t 0 = t.val / 16 ∧ win1_4.index t 1 = 0 :=
  (by decide +kernel : ∀ t : Fin grid1.N, win1_4.index t 0 = t.val / 16 ∧ win1_4.index t 1 = 0)
theorem idx1_5 : ∀ t : Fin cfg1.N, win1_5.index t 0 = t.val / 16 ∧ win1_5.index t 1 = 0 :=
  (by decide +kernel : ∀ t : Fin grid1.N, win1_5.index t 0 = t.val / 16 ∧ win1_5.index t 1 = 0)
theorem idx1_6 : ∀ t : Fin cfg1.N, win1_6.index t 0 = t.val / 16 ∧ win1_6.index t 1 = 0 :=
  (by decide +kernel : ∀ t : Fin grid1.N, win1_6.index t 0 = t.val / 16 ∧ win1_6.index t 1 = 0)

/-! ## The blocks read off the arrays -/

/-- The hidden block of point `t` holds token rows `(t / 16) * 1024 + q`. -/
theorem hblk1_read (c : Dev nD) (t : Fin cfg1.N) (q k : Fin 1024) (r : Fin 4096) (hr : r.val = t.val / 16 * 1024 + q.val) :
    hblk1 V c t (ix2 q k) = harr1 V c (ix2 r k) := by
  unfold hblk1 iblk1
  rw [View.read_apply]
  show V c (Pipeline.arrRef spec1 0) _ = V c (Pipeline.arrRef spec1 0) _
  congr 1
  funext a
  apply Fin.ext
  match a with
  | ⟨0, _⟩ => show win1_0.index t 0 * 1024 + 1 * q.val = r.val; rw [(idx1_0 t).1, hr]; omega
  | ⟨1, _⟩ => show win1_0.index t 1 * 1024 + 1 * k.val = k.val; rw [(idx1_0 t).2]; omega

/-- The weight block of point `t` holds class rows `(t % 16) * 1024 + j`. -/
theorem wblk1_read (c : Dev nD) (t : Fin cfg1.N) (j k : Fin 1024) (J : Fin 16384) (hJ : J.val = t.val % 16 * 1024 + j.val) :
    wblk1 V c t (ix2 j k) = warr1 V c (ix2 J k) := by
  unfold wblk1 iblk1
  rw [View.read_apply]
  show V c (Pipeline.arrRef spec1 1) _ = V c (Pipeline.arrRef spec1 1) _
  congr 1
  funext a
  apply Fin.ext
  match a with
  | ⟨0, _⟩ => show win1_1.index t 0 * 1024 + 1 * j.val = J.val; rw [(idx1_1 t).1, hJ]; omega
  | ⟨1, _⟩ => show win1_1.index t 1 * 1024 + 1 * k.val = k.val; rw [(idx1_1 t).2]; omega

/-- The bias block of point `t` holds columns `(t % 16) * 1024 + j`. -/
theorem bblk1_read (c : Dev nD) (t : Fin cfg1.N) (j : Fin 1024) (J : Fin 16384) (hJ : J.val = t.val % 16 * 1024 + j.val) :
    bblk1 V c t (ix2 (0 : Fin 1) j) = barr1 V c (ix2 (0 : Fin 1) J) := by
  unfold bblk1 iblk1
  rw [View.read_apply]
  show V c (Pipeline.arrRef spec1 2) _ = V c (Pipeline.arrRef spec1 2) _
  congr 1
  funext a
  apply Fin.ext
  match a with
  | ⟨0, _⟩ => show win1_2.index t 0 * 1 + 1 * 0 = 0; rw [(idx1_2 t).1]
  | ⟨1, _⟩ => show win1_2.index t 1 * 1024 + 1 * j.val = J.val; rw [(idx1_2 t).2, hJ]; omega

/-- The index block of point `t` holds token rows `(t / 16) * 1024 + q`. -/
theorem iblkw1_read (c : Dev nD) (t : Fin cfg1.N) (q : Fin 1024) (r : Fin 4096) (hr : r.val = t.val / 16 * 1024 + q.val) :
    iblkw1 V c t (ix2 q (0 : Fin 1)) = iarr1 V c (ix2 r (0 : Fin 1)) := by
  unfold iblkw1 iblk1
  rw [View.read_apply]
  show V c (Pipeline.arrRef spec1 3) _ = V c (Pipeline.arrRef spec1 3) _
  congr 1
  funext a
  apply Fin.ext
  match a with
  | ⟨0, _⟩ => show win1_3.index t 0 * 1024 + 1 * q.val = r.val; rw [(idx1_3 t).1, hr]; omega
  | ⟨1, _⟩ => show win1_3.index t 1 * 1 + 1 * 0 = 0; rw [(idx1_3 t).2]

end Cert.KernelIdeal.Hand

end
-- ==== Proof.KI.Split1Row.lean ====
/- Region 1, one token row: the three carried numbers after each column tile, from the tile's arithmetic on blocks.
   When the blocks of a grid point hold the token's hidden row, the tile's class rows and biases and the token's index
   word, the tile's masked logits are the tile of the token's unpadded logits extended by `⊥`, so the running maximum
   and sum follow the online softmax; the tile's one-hot sum is the target's logit if the tile holds the target column
   and zero otherwise. After the last tile: the row's maximum, its shifted exponential sum, the target's logit. -/
import proofs.«427234_j53386443489982_1_alg».proof.Proof.KI.TileStepDefs
import proofs.«427234_j53386443489982_1_alg».proof.Proof.SplitMath

noncomputable section

namespace Cert.KernelIdeal.Hand
open Cert.KernelIdeal Cert.KernelIdeal.Gen Idealize.ShloMosaic Idealize.ShloMosaic.ValueIdx
open scoped BigOperators

/-- Token `r`'s unpadded logits in this split: its hidden row against the first 16000 of the padded weight rows, plus their biases. -/
abbrev xrow1 (H : Fin 4096 → Fin 1024 → EReal) (Wp : Fin 16384 → Fin 1024 → EReal) (Bp : Fin 16384 → EReal) (r : Fin 4096) :
    Fin 16000 → EReal :=
  Cert.Spec.logit H (fun j => Wp ⟨j.val, by omega⟩) (fun j => Bp ⟨j.val, by omega⟩) r

variable (H : Fin 4096 → Fin 1024 → EReal) (Wp : Fin 16384 → Fin 1024 → EReal) (Bp : Fin 16384 → EReal)
  (ix : Fin 4096 → BitVec 32) (hix : ∀ r, (ix r).toNat < 16000)

/-- The carried numbers of token `r` after `cc` column tiles: the online softmax's pair over the first `cc` tiles of the
    token's logits, and the target's logit once its tile has passed. -/
def RowState1 (r : Fin 4096) (cc : ℕ) (m l g : EReal) : Prop :=
  m = (Cert.Online.run (Cert.Online.padded 16000 1024 (xrow1 H Wp Bp r)) cc).1
  ∧ l = (Cert.Online.run (Cert.Online.padded 16000 1024 (xrow1 H Wp Bp r)) cc).2
  ∧ g = if (ix r).toNat < cc * 1024 then xrow1 H Wp Bp r ⟨(ix r).toNat, hix r⟩ else 0

/-- The blocks of column tile `cc` hold, at block row `q`, token `r`'s data. -/
structure BlocksAt1 (hb wb : Vec Ideal S1024x1024 .f32) (bb : Vec Ideal S1x1024 .f32) (ib : Vec Ideal S1024x1 .i32)
    (cc : ℕ) (q : Fin 1024) (r : Fin 4096) : Prop where
  hH : ∀ k, hb (ix2 q k) = H r k
  hW : ∀ (j : Fin 1024) (J : Fin 16384), J.val = cc * 1024 + j.val → ∀ k, wb (ix2 j k) = Wp J k
  hB : ∀ (j : Fin 1024) (J : Fin 16384), J.val = cc * 1024 + j.val → bb (ix2 (0 : Fin 1) j) = Bp J
  hI : ib (ix2 q (0 : Fin 1)) = ix r

variable {H Wp Bp ix}

/-- A logit of the tile at a real column is the token's logit at that column. -/
theorem tileLogit_eq1 {hb wb : Vec Ideal S1024x1024 .f32} {bb : Vec Ideal S1x1024 .f32} {ib : Vec Ideal S1024x1 .i32}
    {cc : ℕ} {q : Fin 1024} {r : Fin 4096} (hblk : BlocksAt1 H Wp Bp ix hb wb bb ib cc q r) (j : Fin 1024)
    (h : cc * 1024 + j.val < 16000) : tileLogit hb wb bb q j = xrow1 H Wp Bp r ⟨cc * 1024 + j.val, h⟩ := by
  unfold tileLogit
  show _ = (∑ k : Fin 1024, H r k * Wp ⟨cc * 1024 + j.val, by omega⟩ k) + Bp ⟨cc * 1024 + j.val, by omega⟩
  rw [hblk.hB j ⟨cc * 1024 + j.val, by omega⟩ rfl]
  congr 1
  exact Finset.sum_congr rfl fun k _ => by rw [hblk.hH k, hblk.hW j ⟨cc * 1024 + j.val, by omega⟩ rfl k]

/-- The tile's masked logits are the tile of the token's unpadded logits extended by `⊥`. -/
theorem tileMasked_eq1 {hb wb : Vec Ideal S1024x1024 .f32} {bb : Vec Ideal S1x1024 .f32} {ib : Vec Ideal S1024x1 .i32}
    {cc : ℕ} {q : Fin 1024} {r : Fin 4096} (hblk : BlocksAt1 H Wp Bp ix hb wb bb ib cc q r) :
    tileMasked 16000 cc hb wb bb q = Cert.Online.padded 16000 1024 (xrow1 H Wp Bp r) cc :=
  Cert.SplitMath.masked_eq_padded (xrow1 H Wp Bp r) cc (tileLogit hb wb bb q) (tileLogit_eq1 hblk)

/-- Before the first tile: `⊥`, `0`, `0`. -/
theorem rowState1_init (r : Fin 4096) : RowState1 H Wp Bp ix hix r 0 ⊥ 0 0 :=
  ⟨rfl, rfl, by rw [Nat.zero_mul, if_neg (Nat.not_lt_zero _)]⟩

/-- One column tile's update of the carried numbers. -/
theorem rowState1_step {hb wb : Vec Ideal S1024x1024 .f32} {bb : Vec Ideal S1x1024 .f32} {ib : Vec Ideal S1024x1 .i32}
    {cc : ℕ} (hcc : cc < 16) {q : Fin 1024} {r : Fin 4096} (hblk : BlocksAt1 H Wp Bp ix hb wb bb ib cc q r) {m l g : EReal}
    (hs : RowState1 H Wp Bp ix hix r cc m l g) :
    RowState1 H Wp Bp ix hix r (cc + 1) (Cert.Online.stepM m (tileMasked 16000 cc hb wb bb q))
      (Cert.Online.stepL m l (tileMasked 16000 cc hb wb bb q))
      (g + tileGather cc hb wb bb (ib (ix2 q (0 : Fin 1))) q) := by
  obtain ⟨hm, hl, hg⟩ := hs
  have hstep := Cert.SplitMath.run_step (Cert.Online.padded 16000 1024 (xrow1 H Wp Bp r)) cc m l
    (tileMasked 16000 cc hb wb bb q) hm hl (tileMasked_eq1 hblk)
  refine ⟨hstep.1, hstep.2, ?_⟩
  have ht := hix r
  refine Cert.SplitMath.pick_step 1024 cc (ix r).toNat _ g _ hg (fun h1 h2 => ?_) (fun h => ?_)
  · rw [hblk.hI]
    have hj : (ix r).toNat - cc * 1024 < 1024 := by omega
    have hw : (ix r).toNat = cc * 1024 + (⟨(ix r).toNat - cc * 1024, hj⟩ : Fin 1024).val := by
      show (ix r).toNat = cc * 1024 + ((ix r).toNat - cc * 1024); omega
    rw [tileGather_hit hb wb bb q cc (by omega) (ix r) ⟨(ix r).toNat - cc * 1024, hj⟩ hw,
      tileLogit_eq1 hblk ⟨(ix r).toNat - cc * 1024, hj⟩ (by show cc * 1024 + ((ix r).toNat - cc * 1024) < 16000; omega)]
    exact congrArg (xrow1 H Wp Bp r) (Fin.ext (by show cc * 1024 + ((ix r).toNat - cc * 1024) = (ix r).toNat; omega))
  · rw [hblk.hI]
    exact tileGather_miss hb wb bb q cc (by omega) (ix r) (by omega)

/-- After the last tile: the row's maximum, its shifted exponential sum, the target's logit. -/
theorem rowState1_final {r : Fin 4096} (hx : ∀ j, ∃ v : ℝ, xrow1 H Wp Bp r j = (v : EReal)) {m l g : EReal}
    (hs : RowState1 H Wp Bp ix hix r 16 m l g) :
    m = Cert.Spec.rowMax (xrow1 H Wp Bp r) ∧ l = Cert.Spec.rowSum (xrow1 H Wp Bp r)
      ∧ g = xrow1 H Wp Bp r ⟨(ix r).toNat, hix r⟩ := by
  obtain ⟨hm, hl, hg⟩ := hs
  have ht := hix r
  refine ⟨hm.trans (Cert.Online.run_padded_max _ hx 16 (by norm_num)), hl.trans (Cert.Online.run_padded_sum _ hx 16 (by norm_num)), ?_⟩
  rw [hg, if_pos (by omega)]

end Cert.KernelIdeal.Hand

end
-- ==== Proof.KI.TileStep1.lean ====
/-
  Region 1's body (tail split 1's call, 16000 real columns in 16 column tiles), its arithmetic at an index.

  Each named value of the body, read at a token row `r` (and a lane `j`), as a function of the blocks it loads: the logits
  are the hidden block times the transposed weight block plus the bias row; the column numbers are the tile's first
  column plus the lane; the masked logits are `⊥` beyond the real columns; the new running maximum and the new running
  sum of exponentials are one step of the online softmax recurrence on the masked row; the new gathered logit adds the
  target column's logit when the target is in this tile. The stores' casts are identities, the last tile's output is the
  logarithm of the running sum, and the first tile starts from `⊥`, `0`, `0`.
-/
import proofs.«427234_j53386443489982_1_alg».proof.Proof.KI.TileStepDefs
import proofs.«427234_j53386443489982_1_alg».proof.Proof.Online

noncomputable section

namespace Cert.KernelIdeal.Hand
open Cert.KernelIdeal Cert.KernelIdeal.Gen Idealize.ShloMosaic Idealize.ShloMosaic.ValueIdx
open scoped BigOperators

/-! ## The matmul of region 1's body at an index -/

theorem k1_lhs_dot_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem k1_lhs_dot_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem k1_rhs_dot_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem k1_rhs_dot_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matmul of two blocks into the zero accumulator, contracting the second axis of both: entry `(r, j)` is row `r`
    of the first against row `j` of the second. -/
theorem k1_matmul_apply (x y : FVec Ideal S1024x1024 .bf16) (r j : Fin 1024) :
    FloatOps.matmul (F := Ideal) dot_S1024x1024_S1024x1024_S1024x1024_1_1_0_0_n_n none x y (constant (F := Ideal) S1024x1024 .f32 0x00000000#32) (ix2 r j)
      = ∑ k : Fin 1024, x (ix2 r k) * y (ix2 j k) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r j) ((ValueIdx.contrEquiv1 dot_S1024x1024_S1024x1024_S1024x1024_1_1_0_0_n_n 1024 rfl rfl).symm k) = ix2 r k := funext fun a => Fin.ext (by
    match a with
    | ⟨0, _⟩ => exact k1_lhs_dot_0 _ _
    | ⟨1, _⟩ => exact (k1_lhs_dot_1 _ _).trans hk)
  have er : dot_S1024x1024_S1024x1024_S1024x1024_1_1_0_0_n_n.rhsIdx (ix2 r j) ((ValueIdx.contrEquiv1 dot_S1024x1024_S1024x1024_S1024x1024_1_1_0_0_n_n 1024 rfl rfl).symm k) = ix2 j k := funext fun a => Fin.ext (by
    match a with
    | ⟨0, _⟩ => exact k1_rhs_dot_0 _ _
    | ⟨1, _⟩ => exact (k1_rhs_dot_1 _ _).trans hk)
  rw [el, er]

/-! ## The payloads of region 1's body at an index -/

variable (hb wb : Vec Ideal S1024x1024 .f32) (bb : Vec Ideal S1x1024 .f32) (ib : Vec Ideal S1024x1 .i32)
  (m0 l0 g0 : Vec Ideal S1024x1 .f32) (i : grid1.Coords) (r j : Fin 1024)

/-- The logits: the two blocks' product plus the bias row. -/
theorem k1_pay8_apply : k1_pay8 (F := Ideal) hb wb bb (ix2 r j) = tileLogit hb wb bb r j := by
  unfold k1_pay8 tileLogit
  show (FloatOps.matmul (F := Ideal) dot_S1024x1024_S1024x1024_S1024x1024_1_1_0_0_n_n none _ _ (constant (F := Ideal) S1024x1024 .f32 0x00000000#32) (ix2 r j) : EReal)
      + (broadcastTo S1024x1024 (shapeCast S1x1024 bb shapeCasts_S1x1024_S1x1024) broadcasts_S1x1024_S1024x1024 (ix2 r j) : EReal) = _
  refine congrArg₂ (· + ·) ((k1_matmul_apply _ _ r j).trans ?_) ((broadcastTo_1b_ab_apply _ _ r j).trans ?_)
  · rw [shapeCast_self hb, shapeCast_self wb]
    rfl
  · rw [shapeCast_self bb]

/-- The column numbers: the tile's first column plus the lane. -/
theorem k1_pay9_apply : k1_pay9 i (ix2 r j) = BitVec.ofNat 32 ((i 1).val * 1024 + j.val) := by
  unfold k1_pay9
  show BitVec.ofNat 32 (i 1).val * 1024#32 + iota .tc S1024x1024 32 [1] iota_S1024x1024_d1_w32 (ix2 r j) = _
  rw [iota_single_apply]
  show BitVec.ofNat 32 (i 1).val * BitVec.ofNat 32 1024 + BitVec.ofNat 32 j.val = _
  rw [← BitVec.ofNat_mul, ← BitVec.ofNat_add]

/-- The masked logits: `⊥` beyond the split's 16000 real columns. -/
theorem k1_pay10_apply : k1_pay10 (F := Ideal) i hb wb bb (ix2 r j) = tileMasked 16000 (i 1).val hb wb bb r j := by
  unfold k1_pay10 tileMasked
  show Scalar.select (IntOp.cmpi .slt (k1_pay9 i (ix2 r j)) 16000#32) (k1_pay8 (F := Ideal) hb wb bb (ix2 r j))
      (Named.named (F := Ideal) κ "neg_big" (φ := .f32) 0xF149F2CA#32) = _
  rw [k1_pay9_apply, k1_pay8_apply, IdealRules.named_const.ideal_named_scalar κ "neg_big" _ (⊥ : EReal) rfl]
  have hi := (i 1).isLt
  have hj := j.isLt
  exact select_cmpi_slt_ofNat (p := (i 1).val * 1024 + j.val) (q := 16000) (by
    have : (i 1).val < 16 := hi
    omega) (by norm_num) _ _

/-- The running maximum after this tile. -/
theorem k1_pay11_apply : k1_pay11 (F := Ideal) i hb wb bb m0 (ix2 r (0 : Fin 1))
    = Cert.Online.stepM (m0 (ix2 r (0 : Fin 1))) (tileMasked 16000 (i 1).val hb wb bb r) := by
  unfold k1_pay11 Cert.Online.stepM
  refine (maximumf_apply _ _ _).trans (congrArg (max (m0 (ix2 r (0 : Fin 1)) : EReal)) ?_)
  refine (shapeCast_a_a1_apply _ _ r 0).trans ((multiReduction_max_cols_apply _ _ _ _ r).trans ?_)
  exact congrArg (Finset.univ.sup) (funext fun c => k1_pay10_apply hb wb bb i r c)

/-- The running sum of exponentials after this tile. -/
theorem k1_pay12_apply : k1_pay12 (F := Ideal) i hb wb bb m0 l0 (ix2 r (0 : Fin 1))
    = Cert.Online.stepL (m0 (ix2 r (0 : Fin 1))) (l0 (ix2 r (0 : Fin 1))) (tileMasked 16000 (i 1).val hb wb bb r) := by
  unfold k1_pay12 Cert.Online.stepL
  refine (addf_apply _ _ _).trans (congrArg₂ (· + ·) ?_ ?_)
  · refine (mulf_apply _ _ _).trans (congrArg ((l0 (ix2 r (0 : Fin 1)) : EReal) * ·) ?_)
    refine (exp_idx _ _).trans (congrArg Ideal.exp ?_)
    refine (subf_apply _ _ _).trans (congrArg ((m0 (ix2 r (0 : Fin 1)) : EReal) - ·) ?_)
    exact k1_pay11_apply hb wb bb m0 i r
  · refine (shapeCast_a_a1_apply _ _ r 0).trans ((multiReduction_add_cols_apply _ _ _ _ r).trans (Finset.sum_congr rfl fun c _ => ?_))
    refine (exp_idx _ _).trans (congrArg Ideal.exp ?_)
    refine (subf_apply _ _ _).trans (congrArg₂ (· - ·) (k1_pay10_apply hb wb bb i r c) ?_)
    exact (broadcastTo_a1_ab_apply _ _ r c).trans (k1_pay11_apply hb wb bb m0 i r)

/-- The gathered logit, over any logits `v13` and column numbers `v17`. -/
theorem k1_pay3_apply_of (v13 : FVec Ideal S1024x1024 .f32) (v17 : IVec S1024x1024 32) :
    k1_pay3 (F := Ideal) v13 v17 ib g0 (ix2 r (0 : Fin 1))
      = g0 (ix2 r (0 : Fin 1)) + ∑ c : Fin 1024, if v17 (ix2 r c) = ib (ix2 r (0 : Fin 1)) then v13 (ix2 r c) else 0 := by
  unfold k1_pay3
  refine (congrFun (shapeCast_self _ _) _).trans ?_
  refine (addf_apply _ _ _).trans (congrArg ((g0 (ix2 r (0 : Fin 1)) : EReal) + ·) ?_)
  refine (shapeCast_a_a1_apply _ _ r 0).trans ((multiReduction_add_cols_apply _ _ _ _ r).trans (Finset.sum_congr rfl fun c _ => ?_))
  refine (select_cmpi_eq_apply _ _ _ _ _).trans ?_
  have hz : broadcast S1024x1024 (Scalar.ofBits (F := Ideal) .f32 0x00000000#32) (ix2 r c) = (0 : EReal) := Ideal.ofBits_zero_f32
  rw [hz, broadcastTo_a1_ab_apply, shapeCast_self ib]

/-- The gathered logit after this tile. -/
theorem k1_pay3_apply : k1_pay3 (F := Ideal) (k1_pay8 (F := Ideal) hb wb bb) (k1_pay9 i) ib g0 (ix2 r (0 : Fin 1))
    = g0 (ix2 r (0 : Fin 1)) + tileGather (i 1).val hb wb bb (ib (ix2 r (0 : Fin 1))) r := by
  rw [k1_pay3_apply_of]
  unfold tileGather
  refine congrArg ((g0 (ix2 r (0 : Fin 1)) : EReal) + ·) (Finset.sum_congr rfl fun c _ => ?_)
  rw [k1_pay9_apply, k1_pay8_apply]

/-! ## The stores' casts, the last tile's logarithm, and the first tile's initial values -/

theorem k1_pay1_apply (v : FVec Ideal S1024x1 .f32) : k1_pay1 (F := Ideal) v = v := by
  unfold k1_pay1
  exact shapeCast_self _ _
theorem k1_pay2_apply (v : FVec Ideal S1024x1 .f32) : k1_pay2 (F := Ideal) v = v := by
  unfold k1_pay2
  exact shapeCast_self _ _
theorem k1_pay4_apply (v : Vec Ideal S1024x1 .f32) (r : Fin 1024) :
    k1_pay4 (F := Ideal) v (ix2 r (0 : Fin 1)) = Ideal.log (v (ix2 r (0 : Fin 1))) := by
  unfold k1_pay4
  rfl
theorem k1_pay5_apply (r : Fin 1024) : k1_pay5 (F := Ideal) (ix2 r (0 : Fin 1)) = (⊥ : EReal) := by
  unfold k1_pay5
  refine (congrFun (shapeCast_self _ _) _).trans ((broadcast_apply _ _).trans ?_)
  exact ofBits_neg_inf_f32
theorem k1_pay6_apply (r : Fin 1024) : k1_pay6 (F := Ideal) (ix2 r (0 : Fin 1)) = (0 : EReal) := by
  unfold k1_pay6
  refine (congrFun (shapeCast_self _ _) _).trans ((broadcast_apply _ _).trans ?_)
  exact Ideal.ofBits_zero_f32
theorem k1_pay7_apply (r : Fin 1024) : k1_pay7 (F := Ideal) (ix2 r (0 : Fin 1)) = (0 : EReal) := by
  unfold k1_pay7
  refine (congrFun (shapeCast_self _ _) _).trans ((broadcast_apply _ _).trans ?_)
  exact Ideal.ofBits_zero_f32

end Cert.KernelIdeal.Hand
-- ==== Proof.KI.Split1Inv.lean ====
/- Region 1 at the extended reals: what the three scratch operands hold after every grid point, token row by token
   row, by induction on the point. Point t is column tile t % 16 of row tile t / 16; block row q of the point is token
   (t / 16) * 1024 + q. After the point the scratch holds the online softmax's pair over the first t % 16 + 1 tiles of the
   token's logits and the target's logit if its tile has passed; at the last column tile the outputs receive the row's
   maximum, the logarithm of its shifted exponential sum, and the target's logit. -/
import proofs.«427234_j53386443489982_1_alg».proof.Proof.KI.Split1Pieces
import proofs.«427234_j53386443489982_1_alg».proof.Proof.KI.Split1Blocks
import proofs.«427234_j53386443489982_1_alg».proof.Proof.KI.Split1Row
import proofs.«427234_j53386443489982_1_alg».proof.Proof.KI.TileStep1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- What is assumed of the region-entry contents: the four operand arrays as functions, real entries where they are
    read (every hidden entry; the weight rows and biases of the 16000 real columns), and every index word a real column. -/
structure SplitIn1 (c : Dev nD) (H : Fin 4096 → Fin 1024 → EReal) (Wp : Fin 16384 → Fin 1024 → EReal) (Bp : Fin 16384 → EReal)
    (ix : Fin 4096 → BitVec 32) : Prop where
  hH : ∀ r k, harr1 V c (ix2 r k) = H r k
  hW : ∀ j k, warr1 V c (ix2 j k) = Wp j k
  hB : ∀ j, barr1 V c (ix2 (0 : Fin 1) j) = Bp j
  hI : ∀ r, iarr1 V c (ix2 r (0 : Fin 1)) = ix r
  hHr : ∀ r k, ∃ v : ℝ, H r k = (v : EReal)
  hWr : ∀ j k, j.val < 16000 → ∃ v : ℝ, Wp j k = (v : EReal)
  hBr : ∀ j, j.val < 16000 → ∃ v : ℝ, Bp j = (v : EReal)
  hix : ∀ r, (ix r).toNat < 16000

/-- The column tile of a grid point. -/
theorem coord1_1 : ∀ t : Fin cfg1.N, ((grid1.coords t) 1).val = t.val % 16 :=
  (by decide +kernel : ∀ t : Fin grid1.N, ((grid1.coords t) 1).val = t.val % 16)

variable {V}

/-- Every logit of a token is real. -/
theorem xrow1_real {c : Dev nD} {H : Fin 4096 → Fin 1024 → EReal} {Wp : Fin 16384 → Fin 1024 → EReal} {Bp : Fin 16384 → EReal} {ix : Fin 4096 → BitVec 32} (h : SplitIn1 V c H Wp Bp ix) (r : Fin 4096) (j : Fin 16000) :
    ∃ v : ℝ, xrow1 H Wp Bp r j = (v : EReal) :=
  Cert.SplitMath.logit_real H (fun j : Fin 16000 => Wp ⟨j.val, by omega⟩) (fun j : Fin 16000 => Bp ⟨j.val, by omega⟩) h.hHr
    (fun j k => h.hWr ⟨j.val, by omega⟩ k j.isLt) (fun j => h.hBr ⟨j.val, by omega⟩ j.isLt) r j

/-- The blocks of point `t` hold, at block row `q`, the data of token `(t / 16) * 1024 + q` and of column tile `t % 16`. -/
theorem blocksAt1 {c : Dev nD} {H : Fin 4096 → Fin 1024 → EReal} {Wp : Fin 16384 → Fin 1024 → EReal} {Bp : Fin 16384 → EReal} {ix : Fin 4096 → BitVec 32} (h : SplitIn1 V c H Wp Bp ix) (t : Fin cfg1.N) (q : Fin 1024) (r : Fin 4096)
    (hr : r.val = t.val / 16 * 1024 + q.val) :
    BlocksAt1 H Wp Bp ix (hblk1 V c t) (wblk1 V c t) (bblk1 V c t) (iblkw1 V c t) (t.val % 16) q r :=
  ⟨fun k => (hblk1_read V c t q k r hr).trans (h.hH r k),
   fun j J hJ k => (wblk1_read V c t j k J hJ).trans (h.hW J k),
   fun j J hJ => (bblk1_read V c t j J hJ).trans (h.hB J),
   (iblkw1_read V c t q r hr).trans (h.hI r)⟩

/-- One column tile, through the body's arithmetic: from the carried numbers after `cc` tiles to those after `cc + 1`. -/
theorem payStep1 {H : Fin 4096 → Fin 1024 → EReal} {Wp : Fin 16384 → Fin 1024 → EReal} {Bp : Fin 16384 → EReal} {ix : Fin 4096 → BitVec 32} (hix : ∀ r, (ix r).toNat < 16000)
    (hb wb : Vec Ideal S1024x1024 .f32) (bb : Vec Ideal S1x1024 .f32) (ib : Vec Ideal S1024x1 .i32)
    (m0 l0 g0 : Vec Ideal S1024x1 .f32) (i : grid1.Coords) (cc : ℕ) (hi : (i 1).val = cc) (hcc : cc < 16)
    (q : Fin 1024) (r : Fin 4096) (hblk : BlocksAt1 H Wp Bp ix hb wb bb ib cc q r)
    (hs : RowState1 H Wp Bp ix hix r cc (m0 (ix2 q (0 : Fin 1))) (l0 (ix2 q (0 : Fin 1))) (g0 (ix2 q (0 : Fin 1)))) :
    RowState1 H Wp Bp ix hix r (cc + 1)
      (k1_pay1 (F := Ideal) (k1_pay11 (F := Ideal) i hb wb bb m0) (ix2 q (0 : Fin 1)))
      (k1_pay2 (F := Ideal) (k1_pay12 (F := Ideal) i hb wb bb m0 l0) (ix2 q (0 : Fin 1)))
      (k1_pay3 (F := Ideal) (k1_pay8 (F := Ideal) hb wb bb) (k1_pay9 i) ib g0 (ix2 q (0 : Fin 1))) := by
  subst hi
  rw [k1_pay1_apply, k1_pay2_apply, k1_pay11_apply hb wb bb m0 i q, k1_pay12_apply hb wb bb m0 l0 i q,
    k1_pay3_apply hb wb bb ib g0 i q]
  exact rowState1_step hix hcc hblk hs

variable (V)

/-- The scratch after point `n`, token row by token row. -/
def ScrInv1 (c : Dev nD) (H : Fin 4096 → Fin 1024 → EReal) (Wp : Fin 16384 → Fin 1024 → EReal) (Bp : Fin 16384 → EReal)
    (ix : Fin 4096 → BitVec 32) (hix : ∀ r, (ix r).toNat < 16000) (n : ℕ) (hn : n < cfg1.N) : Prop :=
  ∀ (q : Fin 1024) (r : Fin 4096), r.val = n / 16 * 1024 + q.val →
    RowState1 H Wp Bp ix hix r (n % 16 + 1) ((outsAt1 V c n hn).2.1 (ix2 q (0 : Fin 1)))
      ((outsAt1 V c n hn).2.2.1 (ix2 q (0 : Fin 1))) ((outsAt1 V c n hn).2.2.2 (ix2 q (0 : Fin 1)))

variable {V}

/-- A first column tile: the reset values, then the tile. -/
theorem scr1_A {c : Dev nD} {H : Fin 4096 → Fin 1024 → EReal} {Wp : Fin 16384 → Fin 1024 → EReal} {Bp : Fin 16384 → EReal} {ix : Fin 4096 → BitVec 32} (h : SplitIn1 V c H Wp Bp ix) (t : Fin cfg1.N) (h0 : t.val % 16 = 0) :
    ScrInv1 V c H Wp Bp ix h.hix t.val t.isLt := by
  intro q r hr
  have h1 : ¬t.val % 16 = 15 := by omega
  rw [outsAt1_A V c t h0 h1]
  dsimp only
  rw [sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (hblk1 V c t) (wblk1 V c t) (bblk1 V c t) (iblkw1 V c t),
    sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (hblk1 V c t) (wblk1 V c t) (bblk1 V c t) (iblkw1 V c t),
    sout1_A_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (hblk1 V c t) (wblk1 V c t) (bblk1 V c t) (iblkw1 V c t)]
  refine payStep1 h.hix (hblk1 V c t) (wblk1 V c t) (bblk1 V c t) (iblkw1 V c t) (k1_pay5 (F := Ideal)) (k1_pay6 (F := Ideal))
    (k1_pay7 (F := Ideal)) (grid1.coords t) (t.val % 16) (coord1_1 t) (Nat.mod_lt _ (by norm_num)) q r (blocksAt1 h t q r hr) ?_
  rw [k1_pay5_apply, k1_pay6_apply, k1_pay7_apply, h0]
  exact rowState1_init h.hix r

/-- A middle column tile: the tile on what the tile before left. -/
theorem scr1_B {c : Dev nD} {H : Fin 4096 → Fin 1024 → EReal} {Wp : Fin 16384 → Fin 1024 → EReal} {Bp : Fin 16384 → EReal} {ix : Fin 4096 → BitVec 32} (h : SplitIn1 V c H Wp Bp ix) (t : Fin cfg1.N) (h0 : ¬t.val % 16 = 0) (h1 : ¬t.val % 16 = 15)
    (ih : ScrInv1 V c H Wp Bp ix h.hix (t.val - 1) (Nat.lt_of_le_of_lt (Nat.sub_le _ _) t.isLt)) :
    ScrInv1 V c H Wp Bp ix h.hix t.val t.isLt := by
  intro q r hr
  rw [outsAt1_B V c t h0 h1]
  dsimp only
  rw [sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (hblk1 V c t) (wblk1 V c t) (bblk1 V c t) (iblkw1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (hblk1 V c t) (wblk1 V c t) (bblk1 V c t) (iblkw1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_B_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (hblk1 V c t) (wblk1 V c t) (bblk1 V c t) (iblkw1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  have hprev := ih q r (by omega)
  rw [show (t.val - 1) % 16 + 1 = t.val % 16 from by omega] at hprev
  exact payStep1 h.hix (hblk1 V c t) (wblk1 V c t) (bblk1 V c t) (iblkw1 V c t) _ _ _ (grid1.coords t) (t.val % 16) (coord1_1 t)
    (Nat.mod_lt _ (by norm_num)) q r (blocksAt1 h t q r hr) hprev

/-- A last column tile: the same for the scratch. -/
theorem scr1_C {c : Dev nD} {H : Fin 4096 → Fin 1024 → EReal} {Wp : Fin 16384 → Fin 1024 → EReal} {Bp : Fin 16384 → EReal} {ix : Fin 4096 → BitVec 32} (h : SplitIn1 V c H Wp Bp ix) (t : Fin cfg1.N) (h0 : ¬t.val % 16 = 0) (h1 : t.val % 16 = 15)
    (ih : ScrInv1 V c H Wp Bp ix h.hix (t.val - 1) (Nat.lt_of_le_of_lt (Nat.sub_le _ _) t.isLt)) :
    ScrInv1 V c H Wp Bp ix h.hix t.val t.isLt := by
  intro q r hr
  rw [outsAt1_C V c t h0 h1]
  dsimp only
  rw [sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (hblk1 V c t) (wblk1 V c t) (bblk1 V c t) (iblkw1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (hblk1 V c t) (wblk1 V c t) (bblk1 V c t) (iblkw1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (hblk1 V c t) (wblk1 V c t) (bblk1 V c t) (iblkw1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  have hprev := ih q r (by omega)
  rw [show (t.val - 1) % 16 + 1 = t.val % 16 from by omega] at hprev
  exact payStep1 h.hix (hblk1 V c t) (wblk1 V c t) (bblk1 V c t) (iblkw1 V c t) _ _ _ (grid1.coords t) (t.val % 16) (coord1_1 t)
    (Nat.mod_lt _ (by norm_num)) q r (blocksAt1 h t q r hr) hprev

/-- THE INVARIANT: after every point the scratch holds, for every token row of the point's row tile, the carried numbers
    after the point's column tile. -/
theorem scr1_inv {c : Dev nD} {H : Fin 4096 → Fin 1024 → EReal} {Wp : Fin 16384 → Fin 1024 → EReal} {Bp : Fin 16384 → EReal} {ix : Fin 4096 → BitVec 32} (h : SplitIn1 V c H Wp Bp ix) :
    ∀ (n : ℕ) (hn : n < cfg1.N), ScrInv1 V c H Wp Bp ix h.hix n hn
  | 0, hn => scr1_A h ⟨0, hn⟩ (Nat.zero_mod 16)
  | n + 1, hn => by
    by_cases h0 : (n + 1) % 16 = 0
    · exact scr1_A h ⟨n + 1, hn⟩ h0
    · have ih := scr1_inv h n (Nat.lt_of_succ_lt hn)
      by_cases h1 : (n + 1) % 16 = 15
      · exact scr1_C h ⟨n + 1, hn⟩ h0 h1 ih
      · exact scr1_B h ⟨n + 1, hn⟩ h0 h1 ih

/-- What a last column tile leaves in the three outputs, token row by token row. -/
theorem outs1_C {c : Dev nD} {H : Fin 4096 → Fin 1024 → EReal} {Wp : Fin 16384 → Fin 1024 → EReal} {Bp : Fin 16384 → EReal} {ix : Fin 4096 → BitVec 32} (h : SplitIn1 V c H Wp Bp ix) (t : Fin cfg1.N) (h1 : t.val % 16 = 15) (q : Fin 1024)
    (r : Fin 4096) (hr : r.val = t.val / 16 * 1024 + q.val) :
    (outsAt1 V c t.val t.isLt).1.1 (ix2 q (0 : Fin 1)) = Cert.Spec.rowMax (xrow1 H Wp Bp r)
      ∧ (outsAt1 V c t.val t.isLt).1.2.1 (ix2 q (0 : Fin 1)) = Ideal.log (Cert.Spec.rowSum (xrow1 H Wp Bp r))
      ∧ (outsAt1 V c t.val t.isLt).1.2.2 (ix2 q (0 : Fin 1)) = xrow1 H Wp Bp r ⟨(ix r).toNat, h.hix r⟩ := by
  have h0 : ¬t.val % 16 = 0 := by omega
  have hprev := scr1_inv h (t.val - 1) (Nat.lt_of_le_of_lt (Nat.sub_le _ _) t.isLt) q r (by omega)
  rw [show (t.val - 1) % 16 + 1 = t.val % 16 from by omega] at hprev
  have hs := payStep1 h.hix (hblk1 V c t) (wblk1 V c t) (bblk1 V c t) (iblkw1 V c t) _ _ _ (grid1.coords t) (t.val % 16) (coord1_1 t)
    (Nat.mod_lt _ (by norm_num)) q r (blocksAt1 h t q r hr) hprev
  rw [h1] at hs
  have hf := rowState1_final h.hix (xrow1_real h r) hs
  rw [outsAt1_C V c t h0 h1]
  dsimp only
  rw [out1_C_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (hblk1 V c t) (wblk1 V c t) (bblk1 V c t) (iblkw1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (hblk1 V c t) (wblk1 V c t) (bblk1 V c t) (iblkw1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    out1_C_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (hblk1 V c t) (wblk1 V c t) (bblk1 V c t) (iblkw1 V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  rw [k1_pay4_apply]
  exact ⟨hf.1, congrArg Ideal.log hf.2.1, hf.2.2⟩

end Cert.KernelIdeal.Hand

end
-- ==== Proof.KI.Split1Value.lean ====
/- Region 1 at the extended reals: its three output arrays after the region, in closed form. Token row r of each
   output is written back once, at the last column tile of row tile r / 1024, and holds there the maximum of the
   token's logits, the logarithm of their shifted exponential sum, and the logit of the token's target column. -/
import proofs.«427234_j53386443489982_1_alg».proof.Proof.KI.Split1Inv
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable {V : (c : Dev nD) → (b : Ref sig .tc) → Buf (Elt Ideal) ((c : Thread nD τ).loc b)}

/-- The closed forms: per token row, the maximum of its logits, the logarithm of their shifted exponential sum, the target's logit. -/
def gmax1 (H : Fin 4096 → Fin 1024 → EReal) (Wp : Fin 16384 → Fin 1024 → EReal) (Bp : Fin 16384 → EReal) : Vec Ideal S4096x1 .f32 :=
  fun i => Cert.Spec.rowMax (xrow1 H Wp Bp (i 0))
def glog1 (H : Fin 4096 → Fin 1024 → EReal) (Wp : Fin 16384 → Fin 1024 → EReal) (Bp : Fin 16384 → EReal) : Vec Ideal S4096x1 .f32 :=
  fun i => Ideal.log (Cert.Spec.rowSum (xrow1 H Wp Bp (i 0)))
def gpick1 (H : Fin 4096 → Fin 1024 → EReal) (Wp : Fin 16384 → Fin 1024 → EReal) (Bp : Fin 16384 → EReal) (ix : Fin 4096 → BitVec 32)
    (hix : ∀ r, (ix r).toNat < 16000) : Vec Ideal S4096x1 .f32 :=
  fun i => xrow1 H Wp Bp (i 0) ⟨(ix (i 0)).toNat, hix (i 0)⟩

/-- The closed forms at token row `r`. -/
theorem gmax1_apply (H : Fin 4096 → Fin 1024 → EReal) (Wp : Fin 16384 → Fin 1024 → EReal) (Bp : Fin 16384 → EReal) (r : Fin 4096) :
    gmax1 H Wp Bp (ix2 r (0 : Fin 1)) = Cert.Spec.rowMax (xrow1 H Wp Bp r) := rfl
theorem glog1_apply (H : Fin 4096 → Fin 1024 → EReal) (Wp : Fin 16384 → Fin 1024 → EReal) (Bp : Fin 16384 → EReal) (r : Fin 4096) :
    glog1 H Wp Bp (ix2 r (0 : Fin 1)) = Ideal.log (Cert.Spec.rowSum (xrow1 H Wp Bp r)) := rfl
theorem gpick1_apply (H : Fin 4096 → Fin 1024 → EReal) (Wp : Fin 16384 → Fin 1024 → EReal) (Bp : Fin 16384 → EReal) (ix : Fin 4096 → BitVec 32)
    (hix : ∀ r, (ix r).toNat < 16000) (r : Fin 4096) :
    gpick1 H Wp Bp ix hix (ix2 r (0 : Fin 1)) = xrow1 H Wp Bp r ⟨(ix r).toNat, hix r⟩ := rfl

/-- The token of block row `q` at point `t`. -/
def tok1 (t : Fin cfg1.N) (q : Fin 1024) : Fin 4096 :=
  ⟨t.val / 16 * 1024 + q.val, by have := t.isLt; have hN : cfg1.N = 64 := N_1; omega⟩

/-- A one-column block is determined by its rows. -/
theorem colAt1 (X : Vec Ideal S1024x1 .f32) (G : Fin 1024 → EReal) (hX : ∀ q : Fin 1024, X (ix2 q (0 : Fin 1)) = G q)
    (y : S1024x1.Idx) : X y = G (y 0) :=
  (congrArg X ((eq_ix2 y).trans (congrArg (ix2 (y 0)) (Fin.eq_zero (y 1 : Fin 1))))).trans (hX (y 0))

/-- An index of a one-column array is its row and column zero. -/
theorem tokIdx1 (i : S4096x1.Idx) : ix2 (i 0) (0 : Fin 1) = i :=
  ((eq_ix2 i).trans (congrArg (ix2 (i 0)) (Fin.eq_zero (i 1 : Fin 1)))).symm

/-- A block of output 4's array read off any contents: the contents at the block's positions. -/
theorem read_blk1_4 (t : Fin cfg1.N) (G : Vec Ideal S4096x1 .f32) (y : ((cfg1.win 4).xblock (grid1.coords t)).Idx) :
    ((cfg1.win 4).blk t).view.read (Elt Ideal) G y = G (((cfg1.win 4).blk t).view.emb y) := rfl

/-- What a point of the last column tile writes back of output 4 is its block of the closed form. -/
theorem flushed1_4 {c : Dev nD} {H : Fin 4096 → Fin 1024 → EReal} {Wp : Fin 16384 → Fin 1024 → EReal} {Bp : Fin 16384 → EReal} {ix : Fin 4096 → BitVec 32} (h : SplitIn1 V c H Wp Bp ix) (t : Fin cfg1.N) (hf : (cfg1.win 4).flush t = true) :
    (dat1 V c).flushed 4 t = ((cfg1.win 4).blk t).view.read (Elt Ideal) (gmax1 H Wp Bp) := by
  have h3 : t.val % 16 = 15 := (flush1_4 t).mp hf
  show (cfg1.win 4).cut (grid1.coords t) ((dat1 V c).after 4 t) = _
  rw [after1_4]
  funext y
  refine Eq.trans ?_ (read_blk1_4 t (gmax1 H Wp Bp) y).symm
  show (outsAt1 V c t.val t.isLt).1.1 y = _
  have hr : ((((cfg1.win 4).blk t).view.emb y) 0).val = (tok1 t (y 0)).val := by
    show win1_4.index t 0 * 1024 + 1 * (y 0).val = t.val / 16 * 1024 + (y 0).val; rw [(idx1_4 t).1]; omega
  have e : ((cfg1.win 4).blk t).view.emb y = ix2 (tok1 t (y 0)) (0 : Fin 1) :=
    (tokIdx1 _).symm.trans (congrArg (fun r : Fin 4096 => ix2 r (0 : Fin 1)) (Fin.ext hr))
  refine (colAt1 ((outsAt1 V c t.val t.isLt).1.1) _ (fun q => (outs1_C h t h3 q (tok1 t q) rfl).1) y).trans ?_
  rw [e]
  exact (gmax1_apply H Wp Bp (tok1 t (y 0))).symm

/-- An index of output 4's array is in point `t`'s block iff each coordinate is in the block's range on its axis. -/
theorem mem_blk1_4 (t : Fin cfg1.N) (i : S4096x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v37_0).slice (win1_4.rect t)).set ↔ _
  rw [View.set_slice_whole, Rect.mem_set_unit]
  exact Iff.rfl

/-- Every entry of output 4's array is written back: token row `r` at the last column tile of row tile `r / 1024`. -/
theorem cover1_4 (i : S4096x1.Idx) : ∃ t : Fin cfg1.N, (cfg1.win 4).flush t = true ∧ i ∈ ((cfg1.win 4).blk t).view.set := by
  have hi0 : (i 0).val < 4096 := (i 0).isLt
  have hi1 : (i 1).val < 1 := (i 1).isLt
  have hN : cfg1.N = 64 := N_1
  have htl : (i 0).val / 1024 * 16 + 15 < cfg1.N := by omega
  refine ⟨⟨(i 0).val / 1024 * 16 + 15, htl⟩, (flush1_4 _).mpr (by show ((i 0).val / 1024 * 16 + 15) % 16 = 15; omega), ?_⟩
  rw [mem_blk1_4]
  intro a
  match a with
  | ⟨0, _⟩ =>
    show win1_4.index ⟨(i 0).val / 1024 * 16 + 15, htl⟩ 0 * 1024 ≤ (i 0).val ∧ (i 0).val < win1_4.index ⟨(i 0).val / 1024 * 16 + 15, htl⟩ 0 * 1024 + 1024
    rw [(idx1_4 ⟨(i 0).val / 1024 * 16 + 15, htl⟩).1]
    show ((i 0).val / 1024 * 16 + 15) / 16 * 1024 ≤ (i 0).val ∧ (i 0).val < ((i 0).val / 1024 * 16 + 15) / 16 * 1024 + 1024
    omega
  | ⟨1, _⟩ =>
    show win1_4.index ⟨(i 0).val / 1024 * 16 + 15, htl⟩ 1 * 1 ≤ (i 1).val ∧ (i 1).val < win1_4.index ⟨(i 0).val / 1024 * 16 + 15, htl⟩ 1 * 1 + 1
    rw [(idx1_4 ⟨(i 0).val / 1024 * 16 + 15, htl⟩).2]
    omega

/-- Output 4's array after the region. -/
theorem final1_4 {c : Dev nD} {H : Fin 4096 → Fin 1024 → EReal} {Wp : Fin 16384 → Fin 1024 → EReal} {Bp : Fin 16384 → EReal} {ix : Fin 4096 → BitVec 32} (h : SplitIn1 V c H Wp Bp ix) : (dat1 V c).arrAt 4 cfg1.N = gmax1 H Wp Bp :=
  (dat1 V c).arrAt_eq_of_cover 4 (gmax1 H Wp Bp) (fun t hf => flushed1_4 h t hf) cover1_4

/-- A block of output 5's array read off any contents: the contents at the block's positions. -/
theorem read_blk1_5 (t : Fin cfg1.N) (G : Vec Ideal S4096x1 .f32) (y : ((cfg1.win 5).xblock (grid1.coords t)).Idx) :
    ((cfg1.win 5).blk t).view.read (Elt Ideal) G y = G (((cfg1.win 5).blk t).view.emb y) := rfl

/-- What a point of the last column tile writes back of output 5 is its block of the closed form. -/
theorem flushed1_5 {c : Dev nD} {H : Fin 4096 → Fin 1024 → EReal} {Wp : Fin 16384 → Fin 1024 → EReal} {Bp : Fin 16384 → EReal} {ix : Fin 4096 → BitVec 32} (h : SplitIn1 V c H Wp Bp ix) (t : Fin cfg1.N) (hf : (cfg1.win 5).flush t = true) :
    (dat1 V c).flushed 5 t = ((cfg1.win 5).blk t).view.read (Elt Ideal) (glog1 H Wp Bp) := by
  have h3 : t.val % 16 = 15 := (flush1_5 t).mp hf
  show (cfg1.win 5).cut (grid1.coords t) ((dat1 V c).after 5 t) = _
  rw [after1_5]
  funext y
  refine Eq.trans ?_ (read_blk1_5 t (glog1 H Wp Bp) y).symm
  show (outsAt1 V c t.val t.isLt).1.2.1 y = _
  have hr : ((((cfg1.win 5).blk t).view.emb y) 0).val = (tok1 t (y 0)).val := by
    show win1_5.index t 0 * 1024 + 1 * (y 0).val = t.val / 16 * 1024 + (y 0).val; rw [(idx1_5 t).1]; omega
  have e : ((cfg1.win 5).blk t).view.emb y = ix2 (tok1 t (y 0)) (0 : Fin 1) :=
    (tokIdx1 _).symm.trans (congrArg (fun r : Fin 4096 => ix2 r (0 : Fin 1)) (Fin.ext hr))
  refine (colAt1 ((outsAt1 V c t.val t.isLt).1.2.1) _ (fun q => (outs1_C h t h3 q (tok1 t q) rfl).2.1) y).trans ?_
  rw [e]
  exact (glog1_apply H Wp Bp (tok1 t (y 0))).symm

/-- An index of output 5's array is in point `t`'s block iff each coordinate is in the block's range on its axis. -/
theorem mem_blk1_5 (t : Fin cfg1.N) (i : S4096x1.Idx) :
    i ∈ ((cfg1.win 5).blk t).view.set ↔ ∀ a : Fin 2, win1_5.index t a * S1024x1.size a ≤ (i a).val ∧ (i a).val < win1_5.index t a * S1024x1.size a + S1024x1.size a := by
  show i ∈ ((View.whole main_v37_1).slice (win1_5.rect t)).set ↔ _
  rw [View.set_slice_whole, Rect.mem_set_unit]
  exact Iff.rfl

/-- Every entry of output 5's array is written back: token row `r` at the last column tile of row tile `r / 1024`. -/
theorem cover1_5 (i : S4096x1.Idx) : ∃ t : Fin cfg1.N, (cfg1.win 5).flush t = true ∧ i ∈ ((cfg1.win 5).blk t).view.set := by
  have hi0 : (i 0).val < 4096 := (i 0).isLt
  have hi1 : (i 1).val < 1 := (i 1).isLt
  have hN : cfg1.N = 64 := N_1
  have htl : (i 0).val / 1024 * 16 + 15 < cfg1.N := by omega
  refine ⟨⟨(i 0).val / 1024 * 16 + 15, htl⟩, (flush1_5 _).mpr (by show ((i 0).val / 1024 * 16 + 15) % 16 = 15; omega), ?_⟩
  rw [mem_blk1_5]
  intro a
  match a with
  | ⟨0, _⟩ =>
    show win1_5.index ⟨(i 0).val / 1024 * 16 + 15, htl⟩ 0 * 1024 ≤ (i 0).val ∧ (i 0).val < win1_5.index ⟨(i 0).val / 1024 * 16 + 15, htl⟩ 0 * 1024 + 1024
    rw [(idx1_5 ⟨(i 0).val / 1024 * 16 + 15, htl⟩).1]
    show ((i 0).val / 1024 * 16 + 15) / 16 * 1024 ≤ (i 0).val ∧ (i 0).val < ((i 0).val / 1024 * 16 + 15) / 16 * 1024 + 1024
    omega
  | ⟨1, _⟩ =>
    show win1_5.index ⟨(i 0).val / 1024 * 16 + 15, htl⟩ 1 * 1 ≤ (i 1).val ∧ (i 1).val < win1_5.index ⟨(i 0).val / 1024 * 16 + 15, htl⟩ 1 * 1 + 1
    rw [(idx1_5 ⟨(i 0).val / 1024 * 16 + 15, htl⟩).2]
    omega

/-- Output 5's array after the region. -/
theorem final1_5 {c : Dev nD} {H : Fin 4096 → Fin 1024 → EReal} {Wp : Fin 16384 → Fin 1024 → EReal} {Bp : Fin 16384 → EReal} {ix : Fin 4096 → BitVec 32} (h : SplitIn1 V c H Wp Bp ix) : (dat1 V c).arrAt 5 cfg1.N = glog1 H Wp Bp :=
  (dat1 V c).arrAt_eq_of_cover 5 (glog1 H Wp Bp) (fun t hf => flushed1_5 h t hf) cover1_5

/-- A block of output 6's array read off any contents: the contents at the block's positions. -/
theorem read_blk1_6 (t : Fin cfg1.N) (G : Vec Ideal S4096x1 .f32) (y : ((cfg1.win 6).xblock (grid1.coords t)).Idx) :
    ((cfg1.win 6).blk t).view.read (Elt Ideal) G y = G (((cfg1.win 6).blk t).view.emb y) := rfl

/-- What a point of the last column tile writes back of output 6 is its block of the closed form. -/
theorem flushed1_6 {c : Dev nD} {H : Fin 4096 → Fin 1024 → EReal} {Wp : Fin 16384 → Fin 1024 → EReal} {Bp : Fin 16384 → EReal} {ix : Fin 4096 → BitVec 32} (h : SplitIn1 V c H Wp Bp ix) (t : Fin cfg1.N) (hf : (cfg1.win 6).flush t = true) :
    (dat1 V c).flushed 6 t = ((cfg1.win 6).blk t).view.read (Elt Ideal) (gpick1 H Wp Bp ix h.hix) := by
  have h3 : t.val % 16 = 15 := (flush1_6 t).mp hf
  show (cfg1.win 6).cut (grid1.coords t) ((dat1 V c).after 6 t) = _
  rw [after1_6]
  funext y
  refine Eq.trans ?_ (read_blk1_6 t (gpick1 H Wp Bp ix h.hix) y).symm
  show (outsAt1 V c t.val t.isLt).1.2.2 y = _
  have hr : ((((cfg1.win 6).blk t).view.emb y) 0).val = (tok1 t (y 0)).val := by
    show win1_6.index t 0 * 1024 + 1 * (y 0).val = t.val / 16 * 1024 + (y 0).val; rw [(idx1_6 t).1]; omega
  have e : ((cfg1.win 6).blk t).view.emb y = ix2 (tok1 t (y 0)) (0 : Fin 1) :=
    (tokIdx1 _).symm.trans (congrArg (fun r : Fin 4096 => ix2 r (0 : Fin 1)) (Fin.ext hr))
  refine (colAt1 ((outsAt1 V c t.val t.isLt).1.2.2) _ (fun q => (outs1_C h t h3 q (tok1 t q) rfl).2.2) y).trans ?_
  rw [e]
  exact (gpick1_apply H Wp Bp ix h.hix (tok1 t (y 0))).symm

/-- An index of output 6's array is in point `t`'s block iff each coordinate is in the block's range on its axis. -/
theorem mem_blk1_6 (t : Fin cfg1.N) (i : S4096x1.Idx) :
    i ∈ ((cfg1.win 6).blk t).view.set ↔ ∀ a : Fin 2, win1_6.index t a * S1024x1.size a ≤ (i a).val ∧ (i a).val < win1_6.index t a * S1024x1.size a + S1024x1.size a := by
  show i ∈ ((View.whole main_v37_2).slice (win1_6.rect t)).set ↔ _
  rw [View.set_slice_whole, Rect.mem_set_unit]
  exact Iff.rfl

/-- Every entry of output 6's array is written back: token row `r` at the last column tile of row tile `r / 1024`. -/
theorem cover1_6 (i : S4096x1.Idx) : ∃ t : Fin cfg1.N, (cfg1.win 6).flush t = true ∧ i ∈ ((cfg1.win 6).blk t).view.set := by
  have hi0 : (i 0).val < 4096 := (i 0).isLt
  have hi1 : (i 1).val < 1 := (i 1).isLt
  have hN : cfg1.N = 64 := N_1
  have htl : (i 0).val / 1024 * 16 + 15 < cfg1.N := by omega
  refine ⟨⟨(i 0).val / 1024 * 16 + 15, htl⟩, (flush1_6 _).mpr (by show ((i 0).val / 1024 * 16 + 15) % 16 = 15; omega), ?_⟩
  rw [mem_blk1_6]
  intro a
  match a with
  | ⟨0, _⟩ =>
    show win1_6.index ⟨(i 0).val / 1024 * 16 + 15, htl⟩ 0 * 1024 ≤ (i 0).val ∧ (i 0).val < win1_6.index ⟨(i 0).val / 1024 * 16 + 15, htl⟩ 0 * 1024 + 1024
    rw [(idx1_6 ⟨(i 0).val / 1024 * 16 + 15, htl⟩).1]
    show ((i 0).val / 1024 * 16 + 15) / 16 * 1024 ≤ (i 0).val ∧ (i 0).val < ((i 0).val / 1024 * 16 + 15) / 16 * 1024 + 1024
    omega
  | ⟨1, _⟩ =>
    show win1_6.index ⟨(i 0).val / 1024 * 16 + 15, htl⟩ 1 * 1 ≤ (i 1).val ∧ (i 1).val < win1_6.index ⟨(i 0).val / 1024 * 16 + 15, htl⟩ 1 * 1 + 1
    rw [(idx1_6 ⟨(i 0).val / 1024 * 16 + 15, htl⟩).2]
    omega

/-- Output 6's array after the region. -/
theorem final1_6 {c : Dev nD} {H : Fin 4096 → Fin 1024 → EReal} {Wp : Fin 16384 → Fin 1024 → EReal} {Bp : Fin 16384 → EReal} {ix : Fin 4096 → BitVec 32} (h : SplitIn1 V c H Wp Bp ix) : (dat1 V c).arrAt 6 cfg1.N = gpick1 H Wp Bp ix h.hix :=
  (dat1 V c).arrAt_eq_of_cover 6 (gpick1 H Wp Bp ix h.hix) (fun t hf => flushed1_6 h t hf) cover1_6

/-! ## The three outputs, entry by entry -/

/-- Output 4: the maximum of the token's logits. -/
theorem split1_max (c : Dev nD) (H : Fin 4096 → Fin 1024 → EReal) (Wp : Fin 16384 → Fin 1024 → EReal) (Bp : Fin 16384 → EReal)
    (ix : Fin 4096 → BitVec 32) (h : SplitIn1 V c H Wp Bp ix) (r : Fin 4096) :
    (dat1 V c).arrAt 4 cfg1.N (ix2 r (0 : Fin 1)) = Cert.Spec.rowMax (xrow1 H Wp Bp r) :=
  (congrFun (final1_4 h) (ix2 r (0 : Fin 1))).trans (gmax1_apply H Wp Bp r)

/-- Output 5: the logarithm of the shifted exponential sum of the token's logits. -/
theorem split1_logsum (c : Dev nD) (H : Fin 4096 → Fin 1024 → EReal) (Wp : Fin 16384 → Fin 1024 → EReal) (Bp : Fin 16384 → EReal)
    (ix : Fin 4096 → BitVec 32) (h : SplitIn1 V c H Wp Bp ix) (r : Fin 4096) :
    (dat1 V c).arrAt 5 cfg1.N (ix2 r (0 : Fin 1)) = Ideal.log (Cert.Spec.rowSum (xrow1 H Wp Bp r)) :=
  (congrFun (final1_5 h) (ix2 r (0 : Fin 1))).trans (glog1_apply H Wp Bp r)

/-- Output 6: the logit of the token's target column. -/
theorem split1_pick (c : Dev nD) (H : Fin 4096 → Fin 1024 → EReal) (Wp : Fin 16384 → Fin 1024 → EReal) (Bp : Fin 16384 → EReal)
    (ix : Fin 4096 → BitVec 32) (h : SplitIn1 V c H Wp Bp ix) (r : Fin 4096) :
    (dat1 V c).arrAt 6 cfg1.N (ix2 r (0 : Fin 1)) = xrow1 H Wp Bp r ⟨(ix r).toNat, h.hix r⟩ :=
  (congrFun (final1_6 h) (ix2 r (0 : Fin 1))).trans (gpick1_apply H Wp Bp ix h.hix r)

end Cert.KernelIdeal.Hand

end
-- ==== Proof.KI.Result1.lean ====
/-
  Region 1 of the kernel (the first tail): the operand arrays the host prepared meet what the split's value
  theorem asks of them (the hidden rows, the split's weight rows and biases padded with zeros, the index words; real
  entries; indices in range), so the region's three output arrays hold, per token, the maximum, the logarithm of the
  shifted exponential sum, and the picked entry of the specification's row of logits.
-/
import proofs.«427234_j53386443489982_1_alg».proof.Proof.KI.ResultIn
import proofs.«427234_j53386443489982_1_alg».proof.Proof.KI.HostPrep1
import proofs.«427234_j53386443489982_1_alg».proof.Proof.KI.Split1Value

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-! ## Region 1: its operands meet the split's requirements, and its outputs are the specification's row quantities -/

variable (m : (ℓ : Loc nD τ sig) → Buf (Elt Ideal) ℓ) (outs : Outs (F := Ideal)) (c : Dev nD) (hpre : Cert.Pre_KernelIdeal m)

include hpre in
theorem splitIn1 : SplitIn1 (fun c b => V15 m outs c b) c (sH m c) (Wp1 m c) (Bp1 m c) (fun r => idx1W (tW m c r)) := by
  refine ⟨?_, ?_, ?_, ?_, sH_real m c hpre, ?_, ?_, idx1_lt m c hpre⟩
  · exact fun r k => V15_v0 m outs c r k
  · intro j k
    exact (V15_v28 m outs c j k).trans (by unfold Wp1; rfl)
  · intro j
    exact (V15_v30 m outs c j).trans (by unfold Bp1; rfl)
  · exact fun r => V15_v36 m outs c r
  · exact fun j k hj => by unfold Wp1; rw [dif_pos hj]; exact tail1W_real m c hpre _ k
  · exact fun j hj => by unfold Bp1; rw [dif_pos hj]; exact tail1B_real m c hpre _

include hpre in
/-- Region 1's three outputs at token r. -/
theorem region1_rows
    (ho : outs 16 main_v37_0 c = (dat1 (fun c b => V15 m outs c b) c).arrAt 4 cfg1.N
      ∧ outs 16 main_v37_1 c = (dat1 (fun c b => V15 m outs c b) c).arrAt 5 cfg1.N
      ∧ outs 16 main_v37_2 c = (dat1 (fun c b => V15 m outs c b) c).arrAt 6 cfg1.N) (r : Fin 4096) :
      (outs 16 main_v37_0 c : S4096x1.Idx → EReal) (ix2 r 0) = Cert.Spec.rowMax (row1 m c r)
    ∧ (outs 16 main_v37_1 c : S4096x1.Idx → EReal) (ix2 r 0) = Ideal.log (Cert.Spec.rowSum (row1 m c r))
    ∧ (outs 16 main_v37_2 c : S4096x1.Idx → EReal) (ix2 r 0) = row1 m c r ⟨(idx1W (tW m c r)).toNat, idx1_lt m c hpre r⟩ := by
  obtain ⟨e0, e1, e2⟩ := ho
  have hs := splitIn1 m outs c hpre
  refine ⟨?_, ?_, ?_⟩
  · rw [e0]
    exact (split1_max c _ _ _ _ hs r).trans (congrArg Cert.Spec.rowMax (logit_pad1 m c r))
  · rw [e1]
    exact (split1_logsum c _ _ _ _ hs r).trans (congrArg (fun x => Ideal.log (Cert.Spec.rowSum x)) (logit_pad1 m c r))
  · rw [e2]
    exact (split1_pick c _ _ _ _ hs r).trans (congrFun (logit_pad1 m c r) _)

end Cert.KernelIdeal.Hand

end
-- ==== Proof.KI.HostPrep2.lean ====
/- The second tail split's operands at the entry of its kernel region, from the argument arrays: the weight rows of classes 20000 … 49999 over zero rows, their biases likewise, and per token the split's index word of its target. -/
import proofs.«427234_j53386443489982_1_alg».proof.Proof.Gen.KernelIdeal.Regions
import proofs.«427234_j53386443489982_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«427234_j53386443489982_1_alg».proof.Proof.KI.HostBase
set_option maxRecDepth 1164

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (outs : Outs (F := Ideal)) (c : Dev nD)

/-! ## What each host operation of the stretch writes, from any contents before it -/

theorem hostOps2_v40 (W : Valuation τ sig (Elt Ideal)) :
    (StableHlo.after hostOps2 W (Proc.devRef .tc main_v40) : S30000x1024.Idx → EReal)
      = extractStridedSlice S30000x1024 ![20000, 0] (W (Proc.devRef .tc main_arg0) : S50000x1024.Idx → EReal) slices_S50000x1024_S30000x1024_20000_0 := by
  after_results
  first | done | rfl

theorem hostOps2_v41 (W : Valuation τ sig (Elt Ideal)) :
    (StableHlo.after hostOps2 W (Proc.devRef .tc main_v41) : S30000.Idx → EReal)
      = extractStridedSlice S30000 ![20000] (W (Proc.devRef .tc main_arg1) : S50000.Idx → EReal) slices_S50000_S30000_20000 := by
  after_results
  first | done | rfl

theorem hostOps2_c_11 (W : Valuation τ sig (Elt Ideal)) :
    (StableHlo.after hostOps2 W (Proc.devRef .tc main_c_11) : S_.Idx → BitVec 32) = constantI S_ 32 0#32 := by
  after_results
  first | done | rfl

theorem hostOps2_1_v42 (W : Valuation τ sig (Elt Ideal)) :
    (StableHlo.after hostOps2_1 W (Proc.devRef .tc main_v42) : S30720x1024.Idx → EReal)
      = pad S30720x1024 ![0, 0] ![720, 0] ![0, 0] (W (Proc.devRef .tc main_v40) : S30000x1024.Idx → EReal)
          (sitofp .f32 (W (Proc.devRef .tc main_c_11) : S_.Idx → BitVec 32) : FVec Ideal S_ .f32) pads_S30000x1024_S30720x1024_07200_000 h_S_ := by
  after_results
  first | done | rfl

theorem hostOps2_2_c_12 (W : Valuation τ sig (Elt Ideal)) :
    (StableHlo.after hostOps2_2 W (Proc.devRef .tc main_c_12) : S_.Idx → BitVec 32) = constantI S_ 32 0#32 := by
  after_results
  first | done | rfl

theorem hostOps2_3_v43 (W : Valuation τ sig (Elt Ideal)) :
    (StableHlo.after hostOps2_3 W (Proc.devRef .tc main_v43) : S30720.Idx → EReal)
      = pad S30720 ![0] ![720] ![0] (W (Proc.devRef .tc main_v41) : S30000.Idx → EReal)
          (sitofp .f32 (W (Proc.devRef .tc main_c_12) : S_.Idx → BitVec 32) : FVec Ideal S_ .f32) pads_S30000_S30720_07200 h_S_ := by
  after_results
  first | done | rfl

theorem hostOps2_4_v44 (W : Valuation τ sig (Elt Ideal)) :
    (StableHlo.after hostOps2_4 W (Proc.devRef .tc main_v44) : S1x30720.Idx → EReal)
      = shapeCast S1x30720 (W (Proc.devRef .tc main_v43) : S30720.Idx → EReal) shapeCasts_S30720_S1x30720 := by
  after_results
  first | done | rfl

theorem hostOps2_4_v46 (W : Valuation τ sig (Elt Ideal)) :
    (StableHlo.after hostOps2_4 W (Proc.devRef .tc main_v46) : S4096.Idx → BitVec 1)
      = fun i => IntOp.cmpi .eq ((W (Proc.devRef .tc main_v9) : S4096.Idx → BitVec 32) i) 2#32 := by
  after_results
  first | done | rfl

theorem hostOps2_4_v48 (W : Valuation τ sig (Elt Ideal)) :
    (StableHlo.after hostOps2_4 W (Proc.devRef .tc main_v48) : S4096.Idx → BitVec 32)
      = fun i => IntOp.subi ((W (Proc.devRef .tc main_arg3) : S4096.Idx → BitVec 32) i) 20000#32 := by
  after_results
  first | done | rfl

theorem hostOps2_4_c_15 (W : Valuation τ sig (Elt Ideal)) :
    (StableHlo.after hostOps2_4 W (Proc.devRef .tc main_c_15) : S_.Idx → BitVec 32) = constantI S_ 32 0#32 := by
  after_results
  first | done | rfl

theorem hostOps2_5_v49 (W : Valuation τ sig (Elt Ideal)) :
    (StableHlo.after hostOps2_5 W (Proc.devRef .tc main_v49) : S4096.Idx → BitVec 32)
      = select (W (Proc.devRef .tc main_v46) : S4096.Idx → BitVec 1) (W (Proc.devRef .tc main_v48) : S4096.Idx → BitVec 32)
          (broadcastInDim S4096 ![] bcast_S_S4096 (W (Proc.devRef .tc main_c_15) : S_.Idx → BitVec 32)) := by
  after_results
  first | done | rfl

theorem hostOps2_6_v50 (W : Valuation τ sig (Elt Ideal)) :
    (StableHlo.after hostOps2_6 W (Proc.devRef .tc main_v50) : S4096x1.Idx → BitVec 32)
      = shapeCast S4096x1 (W (Proc.devRef .tc main_v49) : S4096.Idx → BitVec 32) shapeCasts_S4096_S4096x1 := by
  after_results
  first | done | rfl

/-! ## The region's operands at its entry -/

theorem V23_v42_eq : V23 m outs c main_v42 = V18 m outs c main_v42 := (V23_of m outs c main_v42 (by decide)).trans <| (V22_of m outs c main_v42 (by decide)).trans <| (V21_of m outs c main_v42 (by decide)).trans <| (V20_of m outs c main_v42 (by decide)).trans <| (V19_of m outs c main_v42 (by decide))

/-- The split's weight operand: its 30000 classes' rows over 720 rows of zeros. -/
theorem V23_v42 (j : Fin 30720) (k : Fin 1024) :
    (V23 m outs c main_v42 : S30720x1024.Idx → EReal) (ix2 j k)
      = if h : j.val < 30000 then Cert.Spec.tail2W (Cert.Spec.mat (aW m c)) ⟨j.val, h⟩ k else 0 := by
  rw [V23_v42_eq]
  refine (congrFun (hostOps2_1_v42 (V17 m outs c)) (ix2 j k)).trans ?_
  refine (pad_rows_apply _ _ _ _ j k).trans ?_
  by_cases h : j.val < 30000
  · rw [dif_pos h, dif_pos h, show V17 m outs c main_v40 = _ from hostOps2_v40 (V16 m outs c), V16_arg0_eq]
    exact (slice_rows_apply 20000 (aW m c) _ ⟨j.val, h⟩ k (by show 20000 + j.val < 50000; omega)).trans
      (congrArg (fun i : Fin 50000 => aW m c (ix2 i k)) (Fin.ext (by show 20000 + j.val = j.val + 20000; omega)))
  · rw [dif_neg h, dif_neg h, show V17 m outs c main_c_11 = _ from hostOps2_c_11 (V16 m outs c)]; exact padval_zero _

theorem V23_v44_eq : V23 m outs c main_v44 = V21 m outs c main_v44 := (V23_of m outs c main_v44 (by decide)).trans <| (V22_of m outs c main_v44 (by decide))
theorem V19_v41_eq : V19 m outs c main_v41 = V17 m outs c main_v41 := (V19_of m outs c main_v41 (by decide)).trans <| (V18_of m outs c main_v41 (by decide))

/-- The split's bias operand: its 30000 classes' biases, then zeros. -/
theorem V23_v44 (j : Fin 30720) :
    (V23 m outs c main_v44 : S1x30720.Idx → EReal) (ix2 0 j)
      = if h : j.val < 30000 then Cert.Spec.tail2B (Cert.Spec.vec (aB m c)) ⟨j.val, h⟩ else 0 := by
  rw [V23_v44_eq]
  refine (congrFun (hostOps2_4_v44 (V20 m outs c)) (ix2 0 j)).trans ?_
  refine (reshape_row_apply _ _ j).trans ?_
  refine (congrFun (hostOps2_3_v43 (V19 m outs c)) (ix1 j)).trans ?_
  refine (pad_vec_apply _ _ _ _ j).trans ?_
  by_cases h : j.val < 30000
  · rw [dif_pos h, dif_pos h, V19_v41_eq, show V17 m outs c main_v41 = _ from hostOps2_v41 (V16 m outs c), V16_arg1_eq]
    exact (slice_vec_apply 20000 (aB m c) _ ⟨j.val, h⟩ (by show 20000 + j.val < 50000; omega)).trans
      (congrArg (fun i : Fin 50000 => aB m c (ix1 i)) (Fin.ext (by show 20000 + j.val = j.val + 20000; omega)))
  · rw [dif_neg h, dif_neg h]
    refine (congrArg (fun z : S_.Idx → BitVec 32 => (sitofp .f32 z : FVec Ideal S_ .f32) _) (hostOps2_2_c_12 (V18 m outs c))).trans ?_
    exact padval_zero _

/-- The split's index operand: per token the split's index word of its target. -/
theorem V23_v50 (r : Fin 4096) :
    (V23 m outs c main_v50 : S4096x1.Idx → BitVec 32) (ix2 r 0) = idx2W (aT m c (ix1 r)) := by
  refine (congrFun (hostOps2_6_v50 (V22 m outs c)) (ix2 r 0)).trans ?_
  refine (reshape_col_apply _ _ r).trans ?_
  refine (congrFun (hostOps2_5_v49 (V21 m outs c)) (ix1 r)).trans ?_
  show Scalar.select ((V21 m outs c main_v46 : S4096.Idx → BitVec 1) (ix1 r)) ((V21 m outs c main_v48 : S4096.Idx → BitVec 32) (ix1 r))
      (broadcastInDim S4096 ![] bcast_S_S4096 (V21 m outs c main_c_15 : S_.Idx → BitVec 32) (ix1 r)) = _
  rw [show V21 m outs c main_v46 = _ from hostOps2_4_v46 (V20 m outs c),
    show V21 m outs c main_v48 = _ from hostOps2_4_v48 (V20 m outs c),
    show V21 m outs c main_c_15 = _ from hostOps2_4_c_15 (V20 m outs c), V20_v9_eq, V1_v9, V20_arg3_eq]
  rfl

end Cert.KernelIdeal.Hand
end
-- ==== Proof.KI.Split2Pieces.lean ====
/- Region 2: what each case of the body leaves in the three scratch operands and, in the last case, in the three
   outputs, as the body's arithmetic applied to the point's blocks and to what the scratch held before. The first
   case resets the scratch and then updates it, so its update reads the reset values; the last case copies the
   updated scratch (the logarithm of the running sum for the second output) into the outputs. -/
import proofs.«427234_j53386443489982_1_alg».proof.Proof.KI.Tile2Data
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem shz2 : (![0, 0] : Fin 2 → Nat) = fun _ => 0 := funext fun a => by fin_cases a <;> rfl

/-- Case A, scratch operand 0: the running maximum after the first column tile: the tile's update of the reset value. -/
theorem sout2_A_0_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) :
    sout2_A_0 c i arg2 harg2 arg3 harg3 arg4 harg4 arg5 harg5 arg6 harg6 arg7 harg7 arg8 harg8 arg9 harg9 arg10 harg10 arg11 harg11 hc0 hc1 x0 x1 x2 x3 = k2_pay1 (k2_pay11 i x0 x1 x2 k2_pay5) := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 hc0 hc1 x0 x1 x2 x3)]
  unfold kernelRun2_A
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case A, scratch operand 1: the running sum after the first column tile: the tile's update of the reset values. -/
theorem sout2_A_1_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) :
    sout2_A_1 c i arg2 harg2 arg3 harg3 arg4 harg4 arg5 harg5 arg6 harg6 arg7 harg7 arg8 harg8 arg9 harg9 arg10 harg10 arg11 harg11 hc0 hc1 x0 x1 x2 x3 = k2_pay2 (k2_pay12 i x0 x1 x2 k2_pay5 k2_pay6) := by
  unfold sout2_A_1
  rw [View.read_writes_eq_canon _ _ _ (scover2_A_1 c i arg2 harg2 arg3 harg3 arg4 harg4 arg5 harg5 arg6 harg6 arg7 harg7 arg8 harg8 arg9 harg9 arg10 harg10 arg11 harg11 hc0 hc1 x0 x1 x2 x3)]
  unfold kernelRun2_A
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case A, scratch operand 2: the picked logit after the first column tile: the tile's selection added to the reset value. -/
theorem sout2_A_2_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond2_0 i) (hc1 : ¬cond2_1 i)
    (x0 : Vec F S1024x1024 .f32) (x1 : Vec F S1024x1024 .f32) (x2 : Vec F S1x1024 .f32) (x3 : Vec F S1024x1 .i32) :
    sout2_A_2 c i arg2 harg2 arg3 harg3 arg4 harg4 arg5 harg5 arg6 harg6 arg7 harg7 arg8 harg8 arg9 harg9 arg10 harg10 arg11 harg11 hc0 hc1 x0 x1 x2 x3 = k2_pay3 (k2_pay8 x0 x1 x2) (k2_pay9 i) x3 k2_pay7 := by
  unfold sout2_A_2
  rw [View.read_writes_eq_canon _ _ _ (scover2_A_2 c i arg2 harg2 arg3 harg3 arg4 harg4 arg5 harg5 arg6 harg6 arg7 harg7 arg8 harg8 arg9 harg9 arg10 harg10 arg11 harg11 hc0 hc1 x0 x1 x2 x3)]
  unfold kernelRun2_A
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case B, scratch operand 0: the running maximum after a middle column tile: the tile's update of what the tile before left. -/
theorem sout2_B_0_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout2_B_0 c i arg2 harg2 arg3 harg3 arg4 harg4 arg5 harg5 arg6 harg6 arg7 harg7 arg8 harg8 arg9 harg9 arg10 harg10 arg11 harg11 hc0 hc1 x0 x1 x2 x3 xs0 xs1 xs2 = k2_pay1 (k2_pay11 i x0 x1 x2 xs0) := by
  unfold sout2_B_0
  rw [View.read_writes_eq_canon _ _ _ (scover2_B_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun2_B
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case B, scratch operand 1: the running sum after a middle column tile. -/
theorem sout2_B_1_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout2_B_1 c i arg2 harg2 arg3 harg3 arg4 harg4 arg5 harg5 arg6 harg6 arg7 harg7 arg8 harg8 arg9 harg9 arg10 harg10 arg11 harg11 hc0 hc1 x0 x1 x2 x3 xs0 xs1 xs2 = k2_pay2 (k2_pay12 i x0 x1 x2 xs0 xs1) := by
  unfold sout2_B_1
  rw [View.read_writes_eq_canon _ _ _ (scover2_B_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun2_B
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case B, scratch operand 2: the picked logit after a middle column tile. -/
theorem sout2_B_2_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : ¬cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout2_B_2 c i arg2 harg2 arg3 harg3 arg4 harg4 arg5 harg5 arg6 harg6 arg7 harg7 arg8 harg8 arg9 harg9 arg10 harg10 arg11 harg11 hc0 hc1 x0 x1 x2 x3 xs0 xs1 xs2 = k2_pay3 (k2_pay8 x0 x1 x2) (k2_pay9 i) x3 xs2 := by
  unfold sout2_B_2
  rw [View.read_writes_eq_canon _ _ _ (scover2_B_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun2_B
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case C, scratch operand 0: the running maximum after the last column tile. -/
theorem sout2_C_0_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout2_C_0 c i arg2 harg2 arg3 harg3 arg4 harg4 arg5 harg5 arg6 harg6 arg7 harg7 arg8 harg8 arg9 harg9 arg10 harg10 arg11 harg11 hc0 hc1 x0 x1 x2 x3 xs0 xs1 xs2 = k2_pay1 (k2_pay11 i x0 x1 x2 xs0) := by
  unfold sout2_C_0
  rw [View.read_writes_eq_canon _ _ _ (scover2_C_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun2_C
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case C, scratch operand 1: the running sum after the last column tile. -/
theorem sout2_C_1_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout2_C_1 c i arg2 harg2 arg3 harg3 arg4 harg4 arg5 harg5 arg6 harg6 arg7 harg7 arg8 harg8 arg9 harg9 arg10 harg10 arg11 harg11 hc0 hc1 x0 x1 x2 x3 xs0 xs1 xs2 = k2_pay2 (k2_pay12 i x0 x1 x2 xs0 xs1) := by
  unfold sout2_C_1
  rw [View.read_writes_eq_canon _ _ _ (scover2_C_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun2_C
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case C, scratch operand 2: the picked logit after the last column tile. -/
theorem sout2_C_2_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    sout2_C_2 c i arg2 harg2 arg3 harg3 arg4 harg4 arg5 harg5 arg6 harg6 arg7 harg7 arg8 harg8 arg9 harg9 arg10 harg10 arg11 harg11 hc0 hc1 x0 x1 x2 x3 xs0 xs1 xs2 = k2_pay3 (k2_pay8 x0 x1 x2) (k2_pay9 i) x3 xs2 := by
  unfold sout2_C_2
  rw [View.read_writes_eq_canon _ _ _ (scover2_C_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun2_C
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case C, output 4: the running maximum, read back from the scratch. -/
theorem out2_C_4_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    out2_C_4 c i arg2 harg2 arg3 harg3 arg4 harg4 arg5 harg5 arg6 harg6 arg7 harg7 arg8 harg8 arg9 harg9 arg10 harg10 arg11 harg11 hc0 hc1 x0 x1 x2 x3 xs0 xs1 xs2 = k2_pay1 (k2_pay11 i x0 x1 x2 xs0) := by
  unfold out2_C_4
  rw [View.read_writes_eq_canon _ _ _ (cover2_C_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun2_C
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case C, output 5: the logarithm of the running sum, read back from the scratch. -/
theorem out2_C_5_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    out2_C_5 c i arg2 harg2 arg3 harg3 arg4 harg4 arg5 harg5 arg6 harg6 arg7 harg7 arg8 harg8 arg9 harg9 arg10 harg10 arg11 harg11 hc0 hc1 x0 x1 x2 x3 xs0 xs1 xs2 = k2_pay4 (k2_pay2 (k2_pay12 i x0 x1 x2 xs0 xs1)) := by
  unfold out2_C_5
  rw [View.read_writes_eq_canon _ _ _ (cover2_C_5 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun2_C
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

/-- Case C, output 6: the picked logit, read back from the scratch. -/
theorem out2_C_6_eq (c : Dev nD) (i : grid2.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond2_0 i) (hc1 : cond2_1 i)
    (x0 : Vec F S1024x1024 .f32) (x1 : Vec F S1024x1024 .f32) (x2 : Vec F S1x1024 .f32) (x3 : Vec F S1024x1 .i32) (xs0 : Vec F S1024x1 .f32) (xs1 : Vec F S1024x1 .f32) (xs2 : Vec F S1024x1 .f32) :
    out2_C_6 c i arg2 harg2 arg3 harg3 arg4 harg4 arg5 harg5 arg6 harg6 arg7 harg7 arg8 harg8 arg9 harg9 arg10 harg10 arg11 harg11 hc0 hc1 x0 x1 x2 x3 xs0 xs1 xs2 = k2_pay3 (k2_pay8 x0 x1 x2) (k2_pay9 i) x3 xs2 := by
  unfold out2_C_6
  rw [View.read_writes_eq_canon _ _ _ (cover2_C_6 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun2_C
  dsimp only
  sl_unfold_words
  rw [View.canon_cons_unit_zero (S := S1024x1) shz2]
  simp only [View.readAt_eq_ld, harg2.read_unread, harg3.read_unread, harg4.read_unread, harg5.read_unread, harg9.read_unread, harg10.read_unread, harg11.read_unread, View.readCov_unit_zero (S := S1024x1) _ shz2, View.ld_unit_zero (S := S1024x1024) shz2, View.ld_unit_zero (S := S1x1024) shz2, View.ld_unit_zero (S := S1024x1) shz2]

end Cert.KernelIdeal.Hand

end
-- ==== Proof.KI.Split2Blocks.lean ====
/- Region 2 at the extended reals: the four operand arrays as the region finds them, named at their literal types,
   and each window's block at a grid point read off its array: point t = (row tile) * 4 + (column tile); the hidden
   block holds token rows (t / 30) * 1024 + q, the weight block class rows (t % 30) * 1024 + j, the bias block the
   same columns, the index block the same token rows as the hidden block. -/
import proofs.«427234_j53386443489982_1_alg».proof.Proof.KI.Tile2Shared
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The hidden states as the region finds them: 4096 token rows of 1024 entries. -/
abbrev harr2 (c : Dev nD) : Vec Ideal S4096x1024 .f32 := V c (Pipeline.arrRef spec2 0)
/-- The split's weight rows as the region finds them, padded to 30720 rows. -/
abbrev warr2 (c : Dev nD) : Vec Ideal S30720x1024 .f32 := V c (Pipeline.arrRef spec2 1)
/-- The split's biases as the region finds them, padded to 30720 columns. -/
abbrev barr2 (c : Dev nD) : Vec Ideal S1x30720 .f32 := V c (Pipeline.arrRef spec2 2)
/-- The tokens' target columns in this split, as 32-bit words. -/
abbrev iarr2 (c : Dev nD) : Vec Ideal S4096x1 .i32 := V c (Pipeline.arrRef spec2 3)

/-- The blocks of a grid point at their literal types. -/
abbrev hblk2 (c : Dev nD) (t : Fin cfg2.N) : Vec Ideal S1024x1024 .f32 := iblk2 V c 0 t
abbrev wblk2 (c : Dev nD) (t : Fin cfg2.N) : Vec Ideal S1024x1024 .f32 := iblk2 V c 1 t
abbrev bblk2 (c : Dev nD) (t : Fin cfg2.N) : Vec Ideal S1x1024 .f32 := iblk2 V c 2 t
abbrev iblkw2 (c : Dev nD) (t : Fin cfg2.N) : Vec Ideal S1024x1 .i32 := iblk2 V c 3 t

/-! ## The index maps, decided over the grid -/

theorem idx2_0 : ∀ t : Fin cfg2.N, win2_0.index t 0 = t.val / 30 ∧ win2_0.index t 1 = 0 :=
  (by decide +kernel : ∀ t : Fin grid2.N, win2_0.index t 0 = t.val / 30 ∧ win2_0.index t 1 = 0)
theorem idx2_1 : ∀ t : Fin cfg2.N, win2_1.index t 0 = t.val % 30 ∧ win2_1.index t 1 = 0 :=
  (by decide +kernel : ∀ t : Fin grid2.N, win2_1.index t 0 = t.val % 30 ∧ win2_1.index t 1 = 0)
theorem idx2_2 : ∀ t : Fin cfg2.N, win2_2.index t 0 = 0 ∧ win2_2.index t 1 = t.val % 30 :=
  (by decide +kernel : ∀ t : Fin grid2.N, win2_2.index t 0 = 0 ∧ win2_2.index t 1 = t.val % 30)
theorem idx2_3 : ∀ t : Fin cfg2.N, win2_3.index t 0 = t.val / 30 ∧ win2_3.index t 1 = 0 :=
  (by decide +kernel : ∀ t : Fin grid2.N, win2_3.index t 0 = t.val / 30 ∧ win2_3.index t 1 = 0)
theorem idx2_4 : ∀ t : Fin cfg2.N, win2_4.index t 0 = t.val / 30 ∧ win2_4.index t 1 = 0 :=
  (by decide +kernel : ∀ t : Fin grid2.N, win2_4.index t 0 = t.val / 30 ∧ win2_4.index t 1 = 0)
theorem idx2_5 : ∀ t : Fin cfg2.N, win2_5.index t 0 = t.val / 30 ∧ win2_5.index t 1 = 0 :=
  (by decide +kernel : ∀ t : Fin grid2.N, win2_5.index t 0 = t.val / 30 ∧ win2_5.index t 1 = 0)
theorem idx2_6 : ∀ t : Fin cfg2.N, win2_6.index t 0 = t.val / 30 ∧ win2_6.index t 1 = 0 :=
  (by decide +kernel : ∀ t : Fin grid2.N, win2_6.index t 0 = t.val / 30 ∧ win2_6.index t 1 = 0)

/-! ## The blocks read off the arrays -/

/-- The hidden block of point `t` holds token rows `(t / 30) * 1024 + q`. -/
theorem hblk2_read (c : Dev nD) (t : Fin cfg2.N) (q k : Fin 1024) (r : Fin 4096) (hr : r.val = t.val / 30 * 1024 + q.val) :
    hblk2 V c t (ix2 q k) = harr2 V c (ix2 r k) := by
  unfold hblk2 iblk2
  rw [View.read_apply]
  show V c (Pipeline.arrRef spec2 0) _ = V c (Pipeline.arrRef spec2 0) _
  congr 1
  funext a
  apply Fin.ext
  match a with
  | ⟨0, _⟩ => show win2_0.index t 0 * 1024 + 1 * q.val = r.val; rw [(idx2_0 t).1, hr]; omega
  | ⟨1, _⟩ => show win2_0.index t 1 * 1024 + 1 * k.val = k.val; rw [(idx2_0 t).2]; omega

/-- The weight block of point `t` holds class rows `(t % 30) * 1024 + j`. -/
theorem wblk2_read (c : Dev nD) (t : Fin cfg2.N) (j k : Fin 1024) (J : Fin 30720) (hJ : J.val = t.val % 30 * 1024 + j.val) :
    wblk2 V c t (ix2 j k) = warr2 V c (ix2 J k) := by
  unfold wblk2 iblk2
  rw [View.read_apply]
  show V c (Pipeline.arrRef spec2 1) _ = V c (Pipeline.arrRef spec2 1) _
  congr 1
  funext a
  apply Fin.ext
  match a with
  | ⟨0, _⟩ => show win2_1.index t 0 * 1024 + 1 * j.val = J.val; rw [(idx2_1 t).1, hJ]; omega
  | ⟨1, _⟩ => show win2_1.index t 1 * 1024 + 1 * k.val = k.val; rw [(idx2_1 t).2]; omega

/-- The bias block of point `t` holds columns `(t % 30) * 1024 + j`. -/
theorem bblk2_read (c : Dev nD) (t : Fin cfg2.N) (j : Fin 1024) (J : Fin 30720) (hJ : J.val = t.val % 30 * 1024 + j.val) :
    bblk2 V c t (ix2 (0 : Fin 1) j) = barr2 V c (ix2 (0 : Fin 1) J) := by
  unfold bblk2 iblk2
  rw [View.read_apply]
  show V c (Pipeline.arrRef spec2 2) _ = V c (Pipeline.arrRef spec2 2) _
  congr 1
  funext a
  apply Fin.ext
  match a with
  | ⟨0, _⟩ => show win2_2.index t 0 * 1 + 1 * 0 = 0; rw [(idx2_2 t).1]
  | ⟨1, _⟩ => show win2_2.index t 1 * 1024 + 1 * j.val = J.val; rw [(idx2_2 t).2, hJ]; omega

/-- The index block of point `t` holds token rows `(t / 30) * 1024 + q`. -/
theorem iblkw2_read (c : Dev nD) (t : Fin cfg2.N) (q : Fin 1024) (r : Fin 4096) (hr : r.val = t.val / 30 * 1024 + q.val) :
    iblkw2 V c t (ix2 q (0 : Fin 1)) = iarr2 V c (ix2 r (0 : Fin 1)) := by
  unfold iblkw2 iblk2
  rw [View.read_apply]
  show V c (Pipeline.arrRef spec2 3) _ = V c (Pipeline.arrRef spec2 3) _
  congr 1
  funext a
  apply Fin.ext
  match a with
  | ⟨0, _⟩ => show win2_3.index t 0 * 1024 + 1 * q.val = r.val; rw [(idx2_3 t).1, hr]; omega
  | ⟨1, _⟩ => show win2_3.index t 1 * 1 + 1 * 0 = 0; rw [(idx2_3 t).2]

end Cert.KernelIdeal.Hand

end
-- ==== Proof.KI.Split2Row.lean ====
/- Region 2, one token row: the three carried numbers after each column tile, from the tile's arithmetic on blocks.
   When the blocks of a grid point hold the token's hidden row, the tile's class rows and biases and the token's index
   word, the tile's masked logits are the tile of the token's unpadded logits extended by `⊥`, so the running maximum
   and sum follow the online softmax; the tile's one-hot sum is the target's logit if the tile holds the target column
   and zero otherwise. After the last tile: the row's maximum, its shifted exponential sum, the target's logit. -/
import proofs.«427234_j53386443489982_1_alg».proof.Proof.KI.TileStepDefs
import proofs.«427234_j53386443489982_1_alg».proof.Proof.SplitMath

noncomputable section

namespace Cert.KernelIdeal.Hand
open Cert.KernelIdeal Cert.KernelIdeal.Gen Idealize.ShloMosaic Idealize.ShloMosaic.ValueIdx
open scoped BigOperators

/-- Token `r`'s unpadded logits in this split: its hidden row against the first 30000 of the padded weight rows, plus their biases. -/
abbrev xrow2 (H : Fin 4096 → Fin 1024 → EReal) (Wp : Fin 30720 → Fin 1024 → EReal) (Bp : Fin 30720 → EReal) (r : Fin 4096) :
    Fin 30000 → EReal :=
  Cert.Spec.logit H (fun j => Wp ⟨j.val, by omega⟩) (fun j => Bp ⟨j.val, by omega⟩) r

variable (H : Fin 4096 → Fin 1024 → EReal) (Wp : Fin 30720 → Fin 1024 → EReal) (Bp : Fin 30720 → EReal)
  (ix : Fin 4096 → BitVec 32) (hix : ∀ r, (ix r).toNat < 30000)

/-- The carried numbers of token `r` after `cc` column tiles: the online softmax's pair over the first `cc` tiles of the
    token's logits, and the target's logit once its tile has passed. -/
def RowState2 (r : Fin 4096) (cc : ℕ) (m l g : EReal) : Prop :=
  m = (Cert.Online.run (Cert.Online.padded 30000 1024 (xrow2 H Wp Bp r)) cc).1
  ∧ l = (Cert.Online.run (Cert.Online.padded 30000 1024 (xrow2 H Wp Bp r)) cc).2
  ∧ g = if (ix r).toNat < cc * 1024 then xrow2 H Wp Bp r ⟨(ix r).toNat, hix r⟩ else 0

/-- The blocks of column tile `cc` hold, at block row `q`, token `r`'s data. -/
structure BlocksAt2 (hb wb : Vec Ideal S1024x1024 .f32) (bb : Vec Ideal S1x1024 .f32) (ib : Vec Ideal S1024x1 .i32)
    (cc : ℕ) (q : Fin 1024) (r : Fin 4096) : Prop where
  hH : ∀ k, hb (ix2 q k) = H r k
  hW : ∀ (j : Fin 1024) (J : Fin 30720), J.val = cc * 1024 + j.val → ∀ k, wb (ix2 j k) = Wp J k
  hB : ∀ (j : Fin 1024) (J : Fin 30720), J.val = cc * 1024 + j.val → bb (ix2 (0 : Fin 1) j) = Bp J
  hI : ib (ix2 q (0 : Fin 1)) = ix r

variable {H Wp Bp ix}

/-- A logit of the tile at a real column is the token's logit at that column. -/
theorem tileLogit_eq2 {hb wb : Vec Ideal S1024x1024 .f32} {bb : Vec Ideal S1x1024 .f32} {ib : Vec Ideal S1024x1 .i32}
    {cc : ℕ} {q : Fin 1024} {r : Fin 4096} (hblk : BlocksAt2 H Wp Bp ix hb wb bb ib cc q r) (j : Fin 1024)
    (h : cc * 1024 + j.val < 30000) : tileLogit hb wb bb q j = xrow2 H Wp Bp r ⟨cc * 1024 + j.val, h⟩ := by
  unfold tileLogit
  show _ = (∑ k : Fin 1024, H r k * Wp ⟨cc * 1024 + j.val, by omega⟩ k) + Bp ⟨cc * 1024 + j.val, by omega⟩
  rw [hblk.hB j ⟨cc * 1024 + j.val, by omega⟩ rfl]
  congr 1
  exact Finset.sum_congr rfl fun k _ => by rw [hblk.hH k, hblk.hW j ⟨cc * 1024 + j.val, by omega⟩ rfl k]

/-- The tile's masked logits are the tile of the token's unpadded logits extended by `⊥`. -/
theorem tileMasked_eq2 {hb wb : Vec Ideal S1024x1024 .f32} {bb : Vec Ideal S1x1024 .f32} {ib : Vec Ideal S1024x1 .i32}
    {cc : ℕ} {q : Fin 1024} {r : Fin 4096} (hblk : BlocksAt2 H Wp Bp ix hb wb bb ib cc q r) :
    tileMasked 30000 cc hb wb bb q = Cert.Online.padded 30000 1024 (xrow2 H Wp Bp r) cc :=
  Cert.SplitMath.masked_eq_padded (xrow2 H Wp Bp r) cc (tileLogit hb wb bb q) (tileLogit_eq2 hblk)

/-- Before the first tile: `⊥`, `0`, `0`. -/
theorem rowState2_init (r : Fin 4096) : RowState2 H Wp Bp ix hix r 0 ⊥ 0 0 :=
  ⟨rfl, rfl, by rw [Nat.zero_mul, if_neg (Nat.not_lt_zero _)]⟩

/-- One column tile's update of the carried numbers. -/
theorem rowState2_step {hb wb : Vec Ideal S1024x1024 .f32} {bb : Vec Ideal S1x1024 .f32} {ib : Vec Ideal S1024x1 .i32}
    {cc : ℕ} (hcc : cc < 30) {q : Fin 1024} {r : Fin 4096} (hblk : BlocksAt2 H Wp Bp ix hb wb bb ib cc q r) {m l g : EReal}
    (hs : RowState2 H Wp Bp ix hix r cc m l g) :
    RowState2 H Wp Bp ix hix r (cc + 1) (Cert.Online.stepM m (tileMasked 30000 cc hb wb bb q))
      (Cert.Online.stepL m l (tileMasked 30000 cc hb wb bb q))
      (g + tileGather cc hb wb bb (ib (ix2 q (0 : Fin 1))) q) := by
  obtain ⟨hm, hl, hg⟩ := hs
  have hstep := Cert.SplitMath.run_step (Cert.Online.padded 30000 1024 (xrow2 H Wp Bp r)) cc m l
    (tileMasked 30000 cc hb wb bb q) hm hl (tileMasked_eq2 hblk)
  refine ⟨hstep.1, hstep.2, ?_⟩
  have ht := hix r
  refine Cert.SplitMath.pick_step 1024 cc (ix r).toNat _ g _ hg (fun h1 h2 => ?_) (fun h => ?_)
  · rw [hblk.hI]
    have hj : (ix r).toNat - cc * 1024 < 1024 := by omega
    have hw : (ix r).toNat = cc * 1024 + (⟨(ix r).toNat - cc * 1024, hj⟩ : Fin 1024).val := by
      show (ix r).toNat = cc * 1024 + ((ix r).toNat - cc * 1024); omega
    rw [tileGather_hit hb wb bb q cc (by omega) (ix r) ⟨(ix r).toNat - cc * 1024, hj⟩ hw,
      tileLogit_eq2 hblk ⟨(ix r).toNat - cc * 1024, hj⟩ (by show cc * 1024 + ((ix r).toNat - cc * 1024) < 30000; omega)]
    exact congrArg (xrow2 H Wp Bp r) (Fin.ext (by show cc * 1024 + ((ix r).toNat - cc * 1024) = (ix r).toNat; omega))
  · rw [hblk.hI]
    exact tileGather_miss hb wb bb q cc (by omega) (ix r) (by omega)

/-- After the last tile: the row's maximum, its shifted exponential sum, the target's logit. -/
theorem rowState2_final {r : Fin 4096} (hx : ∀ j, ∃ v : ℝ, xrow2 H Wp Bp r j = (v : EReal)) {m l g : EReal}
    (hs : RowState2 H Wp Bp ix hix r 30 m l g) :
    m = Cert.Spec.rowMax (xrow2 H Wp Bp r) ∧ l = Cert.Spec.rowSum (xrow2 H Wp Bp r)
      ∧ g = xrow2 H Wp Bp r ⟨(ix r).toNat, hix r⟩ := by
  obtain ⟨hm, hl, hg⟩ := hs
  have ht := hix r
  refine ⟨hm.trans (Cert.Online.run_padded_max _ hx 30 (by norm_num)), hl.trans (Cert.Online.run_padded_sum _ hx 30 (by norm_num)), ?_⟩
  rw [hg, if_pos (by omega)]

end Cert.KernelIdeal.Hand

end
-- ==== Proof.KI.TileStep2.lean ====
/-
  Region 2's body (tail split 2's call, 30000 real columns in 30 column tiles), its arithmetic at an index.

  Each named value of the body, read at a token row `r` (and a lane `j`), as a function of the blocks it loads: the logits
  are the hidden block times the transposed weight block plus the bias row; the column numbers are the tile's first
  column plus the lane; the masked logits are `⊥` beyond the real columns; the new running maximum and the new running
  sum of exponentials are one step of the online softmax recurrence on the masked row; the new gathered logit adds the
  target column's logit when the target is in this tile. The stores' casts are identities, the last tile's output is the
  logarithm of the running sum, and the first tile starts from `⊥`, `0`, `0`.
-/
import proofs.«427234_j53386443489982_1_alg».proof.Proof.KI.TileStepDefs
import proofs.«427234_j53386443489982_1_alg».proof.Proof.Online

noncomputable section

namespace Cert.KernelIdeal.Hand
open Cert.KernelIdeal Cert.KernelIdeal.Gen Idealize.ShloMosaic Idealize.ShloMosaic.ValueIdx
open scoped BigOperators

/-! ## The matmul of region 2's body at an index -/

theorem k2_lhs_dot_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem k2_lhs_dot_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem k2_rhs_dot_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem k2_rhs_dot_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matmul of two blocks into the zero accumulator, contracting the second axis of both: entry `(r, j)` is row `r`
    of the first against row `j` of the second. -/
theorem k2_matmul_apply (x y : FVec Ideal S1024x1024 .bf16) (r j : Fin 1024) :
    FloatOps.matmul (F := Ideal) dot_S1024x1024_S1024x1024_S1024x1024_1_1_0_0_n_n none x y (constant (F := Ideal) S1024x1024 .f32 0x00000000#32) (ix2 r j)
      = ∑ k : Fin 1024, x (ix2 r k) * y (ix2 j k) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r j) ((ValueIdx.contrEquiv1 dot_S1024x1024_S1024x1024_S1024x1024_1_1_0_0_n_n 1024 rfl rfl).symm k) = ix2 r k := funext fun a => Fin.ext (by
    match a with
    | ⟨0, _⟩ => exact k2_lhs_dot_0 _ _
    | ⟨1, _⟩ => exact (k2_lhs_dot_1 _ _).trans hk)
  have er : dot_S1024x1024_S1024x1024_S1024x1024_1_1_0_0_n_n.rhsIdx (ix2 r j) ((ValueIdx.contrEquiv1 dot_S1024x1024_S1024x1024_S1024x1024_1_1_0_0_n_n 1024 rfl rfl).symm k) = ix2 j k := funext fun a => Fin.ext (by
    match a with
    | ⟨0, _⟩ => exact k2_rhs_dot_0 _ _
    | ⟨1, _⟩ => exact (k2_rhs_dot_1 _ _).trans hk)
  rw [el, er]

/-! ## The payloads of region 2's body at an index -/

variable (hb wb : Vec Ideal S1024x1024 .f32) (bb : Vec Ideal S1x1024 .f32) (ib : Vec Ideal S1024x1 .i32)
  (m0 l0 g0 : Vec Ideal S1024x1 .f32) (i : grid2.Coords) (r j : Fin 1024)

/-- The logits: the two blocks' product plus the bias row. -/
theorem k2_pay8_apply : k2_pay8 (F := Ideal) hb wb bb (ix2 r j) = tileLogit hb wb bb r j := by
  unfold k2_pay8 tileLogit
  show (FloatOps.matmul (F := Ideal) dot_S1024x1024_S1024x1024_S1024x1024_1_1_0_0_n_n none _ _ (constant (F := Ideal) S1024x1024 .f32 0x00000000#32) (ix2 r j) : EReal)
      + (broadcastTo S1024x1024 (shapeCast S1x1024 bb shapeCasts_S1x1024_S1x1024) broadcasts_S1x1024_S1024x1024 (ix2 r j) : EReal) = _
  refine congrArg₂ (· + ·) ((k2_matmul_apply _ _ r j).trans ?_) ((broadcastTo_1b_ab_apply _ _ r j).trans ?_)
  · rw [shapeCast_self hb, shapeCast_self wb]
    rfl
  · rw [shapeCast_self bb]

/-- The column numbers: the tile's first column plus the lane. -/
theorem k2_pay9_apply : k2_pay9 i (ix2 r j) = BitVec.ofNat 32 ((i 1).val * 1024 + j.val) := by
  unfold k2_pay9
  show BitVec.ofNat 32 (i 1).val * 1024#32 + iota .tc S1024x1024 32 [1] iota_S1024x1024_d1_w32 (ix2 r j) = _
  rw [iota_single_apply]
  show BitVec.ofNat 32 (i 1).val * BitVec.ofNat 32 1024 + BitVec.ofNat 32 j.val = _
  rw [← BitVec.ofNat_mul, ← BitVec.ofNat_add]

/-- The masked logits: `⊥` beyond the split's 30000 real columns. -/
theorem k2_pay10_apply : k2_pay10 (F := Ideal) i hb wb bb (ix2 r j) = tileMasked 30000 (i 1).val hb wb bb r j := by
  unfold k2_pay10 tileMasked
  show Scalar.select (IntOp.cmpi .slt (k2_pay9 i (ix2 r j)) 30000#32) (k2_pay8 (F := Ideal) hb wb bb (ix2 r j))
      (Named.named (F := Ideal) κ "neg_big" (φ := .f32) 0xF149F2CA#32) = _
  rw [k2_pay9_apply, k2_pay8_apply, IdealRules.named_const.ideal_named_scalar κ "neg_big" _ (⊥ : EReal) rfl]
  have hi := (i 1).isLt
  have hj := j.isLt
  exact select_cmpi_slt_ofNat (p := (i 1).val * 1024 + j.val) (q := 30000) (by
    have : (i 1).val < 30 := hi
    omega) (by norm_num) _ _

/-- The running maximum after this tile. -/
theorem k2_pay11_apply : k2_pay11 (F := Ideal) i hb wb bb m0 (ix2 r (0 : Fin 1))
    = Cert.Online.stepM (m0 (ix2 r (0 : Fin 1))) (tileMasked 30000 (i 1).val hb wb bb r) := by
  unfold k2_pay11 Cert.Online.stepM
  refine (maximumf_apply _ _ _).trans (congrArg (max (m0 (ix2 r (0 : Fin 1)) : EReal)) ?_)
  refine (shapeCast_a_a1_apply _ _ r 0).trans ((multiReduction_max_cols_apply _ _ _ _ r).trans ?_)
  exact congrArg (Finset.univ.sup) (funext fun c => k2_pay10_apply hb wb bb i r c)

/-- The running sum of exponentials after this tile. -/
theorem k2_pay12_apply : k2_pay12 (F := Ideal) i hb wb bb m0 l0 (ix2 r (0 : Fin 1))
    = Cert.Online.stepL (m0 (ix2 r (0 : Fin 1))) (l0 (ix2 r (0 : Fin 1))) (tileMasked 30000 (i 1).val hb wb bb r) := by
  unfold k2_pay12 Cert.Online.stepL
  refine (addf_apply _ _ _).trans (congrArg₂ (· + ·) ?_ ?_)
  · refine (mulf_apply _ _ _).trans (congrArg ((l0 (ix2 r (0 : Fin 1)) : EReal) * ·) ?_)
    refine (exp_idx _ _).trans (congrArg Ideal.exp ?_)
    refine (subf_apply _ _ _).trans (congrArg ((m0 (ix2 r (0 : Fin 1)) : EReal) - ·) ?_)
    exact k2_pay11_apply hb wb bb m0 i r
  · refine (shapeCast_a_a1_apply _ _ r 0).trans ((multiReduction_add_cols_apply _ _ _ _ r).trans (Finset.sum_congr rfl fun c _ => ?_))
    refine (exp_idx _ _).trans (congrArg Ideal.exp ?_)
    refine (subf_apply _ _ _).trans (congrArg₂ (· - ·) (k2_pay10_apply hb wb bb i r c) ?_)
    exact (broadcastTo_a1_ab_apply _ _ r c).trans (k2_pay11_apply hb wb bb m0 i r)

/-- The gathered logit, over any logits `v13` and column numbers `v17`. -/
theorem k2_pay3_apply_of (v13 : FVec Ideal S1024x1024 .f32) (v17 : IVec S1024x1024 32) :
    k2_pay3 (F := Ideal) v13 v17 ib g0 (ix2 r (0 : Fin 1))
      = g0 (ix2 r (0 : Fin 1)) + ∑ c : Fin 1024, if v17 (ix2 r c) = ib (ix2 r (0 : Fin 1)) then v13 (ix2 r c) else 0 := by
  unfold k2_pay3
  refine (congrFun (shapeCast_self _ _) _).trans ?_
  refine (addf_apply _ _ _).trans (congrArg ((g0 (ix2 r (0 : Fin 1)) : EReal) + ·) ?_)
  refine (shapeCast_a_a1_apply _ _ r 0).trans ((multiReduction_add_cols_apply _ _ _ _ r).trans (Finset.sum_congr rfl fun c _ => ?_))
  refine (select_cmpi_eq_apply _ _ _ _ _).trans ?_
  have hz : broadcast S1024x1024 (Scalar.ofBits (F := Ideal) .f32 0x00000000#32) (ix2 r c) = (0 : EReal) := Ideal.ofBits_zero_f32
  rw [hz, broadcastTo_a1_ab_apply, shapeCast_self ib]

/-- The gathered logit after this tile. -/
theorem k2_pay3_apply : k2_pay3 (F := Ideal) (k2_pay8 (F := Ideal) hb wb bb) (k2_pay9 i) ib g0 (ix2 r (0 : Fin 1))
    = g0 (ix2 r (0 : Fin 1)) + tileGather (i 1).val hb wb bb (ib (ix2 r (0 : Fin 1))) r := by
  rw [k2_pay3_apply_of]
  unfold tileGather
  refine congrArg ((g0 (ix2 r (0 : Fin 1)) : EReal) + ·) (Finset.sum_congr rfl fun c _ => ?_)
  rw [k2_pay9_apply, k2_pay8_apply]

/-! ## The stores' casts, the last tile's logarithm, and the first tile's initial values -/

theorem k2_pay1_apply (v : FVec Ideal S1024x1 .f32) : k2_pay1 (F := Ideal) v = v := by
  unfold k2_pay1
  exact shapeCast_self _ _
theorem k2_pay2_apply (v : FVec Ideal S1024x1 .f32) : k2_pay2 (F := Ideal) v = v := by
  unfold k2_pay2
  exact shapeCast_self _ _
theorem k2_pay4_apply (v : Vec Ideal S1024x1 .f32) (r : Fin 1024) :
    k2_pay4 (F := Ideal) v (ix2 r (0 : Fin 1)) = Ideal.log (v (ix2 r (0 : Fin 1))) := by
  unfold k2_pay4
  rfl
theorem k2_pay5_apply (r : Fin 1024) : k2_pay5 (F := Ideal) (ix2 r (0 : Fin 1)) = (⊥ : EReal) := by
  unfold k2_pay5
  refine (congrFun (shapeCast_self _ _) _).trans ((broadcast_apply _ _).trans ?_)
  exact ofBits_neg_inf_f32
theorem k2_pay6_apply (r : Fin 1024) : k2_pay6 (F := Ideal) (ix2 r (0 : Fin 1)) = (0 : EReal) := by
  unfold k2_pay6
  refine (congrFun (shapeCast_self _ _) _).trans ((broadcast_apply _ _).trans ?_)
  exact Ideal.ofBits_zero_f32
theorem k2_pay7_apply (r : Fin 1024) : k2_pay7 (F := Ideal) (ix2 r (0 : Fin 1)) = (0 : EReal) := by
  unfold k2_pay7
  refine (congrFun (shapeCast_self _ _) _).trans ((broadcast_apply _ _).trans ?_)
  exact Ideal.ofBits_zero_f32

end Cert.KernelIdeal.Hand
-- ==== Proof.KI.Split2Inv.lean ====
/- Region 2 at the extended reals: what the three scratch operands hold after every grid point, token row by token
   row, by induction on the point. Point t is column tile t % 30 of row tile t / 30; block row q of the point is token
   (t / 30) * 1024 + q. After the point the scratch holds the online softmax's pair over the first t % 30 + 1 tiles of the
   token's logits and the target's logit if its tile has passed; at the last column tile the outputs receive the row's
   maximum, the logarithm of its shifted exponential sum, and the target's logit. -/
import proofs.«427234_j53386443489982_1_alg».proof.Proof.KI.Split2Pieces
import proofs.«427234_j53386443489982_1_alg».proof.Proof.KI.Split2Blocks
import proofs.«427234_j53386443489982_1_alg».proof.Proof.KI.Split2Row
import proofs.«427234_j53386443489982_1_alg».proof.Proof.KI.TileStep2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- What is assumed of the region-entry contents: the four operand arrays as functions, real entries where they are
    read (every hidden entry; the weight rows and biases of the 30000 real columns), and every index word a real column. -/
structure SplitIn2 (c : Dev nD) (H : Fin 4096 → Fin 1024 → EReal) (Wp : Fin 30720 → Fin 1024 → EReal) (Bp : Fin 30720 → EReal)
    (ix : Fin 4096 → BitVec 32) : Prop where
  hH : ∀ r k, harr2 V c (ix2 r k) = H r k
  hW : ∀ j k, warr2 V c (ix2 j k) = Wp j k
  hB : ∀ j, barr2 V c (ix2 (0 : Fin 1) j) = Bp j
  hI : ∀ r, iarr2 V c (ix2 r (0 : Fin 1)) = ix r
  hHr : ∀ r k, ∃ v : ℝ, H r k = (v : EReal)
  hWr : ∀ j k, j.val < 30000 → ∃ v : ℝ, Wp j k = (v : EReal)
  hBr : ∀ j, j.val < 30000 → ∃ v : ℝ, Bp j = (v : EReal)
  hix : ∀ r, (ix r).toNat < 30000

/-- The column tile of a grid point. -/
theorem coord2_1 : ∀ t : Fin cfg2.N, ((grid2.coords t) 1).val = t.val % 30 :=
  (by decide +kernel : ∀ t : Fin grid2.N, ((grid2.coords t) 1).val = t.val % 30)

variable {V}

/-- Every logit of a token is real. -/
theorem xrow2_real {c : Dev nD} {H : Fin 4096 → Fin 1024 → EReal} {Wp : Fin 30720 → Fin 1024 → EReal} {Bp : Fin 30720 → EReal} {ix : Fin 4096 → BitVec 32} (h : SplitIn2 V c H Wp Bp ix) (r : Fin 4096) (j : Fin 30000) :
    ∃ v : ℝ, xrow2 H Wp Bp r j = (v : EReal) :=
  Cert.SplitMath.logit_real H (fun j : Fin 30000 => Wp ⟨j.val, by omega⟩) (fun j : Fin 30000 => Bp ⟨j.val, by omega⟩) h.hHr
    (fun j k => h.hWr ⟨j.val, by omega⟩ k j.isLt) (fun j => h.hBr ⟨j.val, by omega⟩ j.isLt) r j

/-- The blocks of point `t` hold, at block row `q`, the data of token `(t / 30) * 1024 + q` and of column tile `t % 30`. -/
theorem blocksAt2 {c : Dev nD} {H : Fin 4096 → Fin 1024 → EReal} {Wp : Fin 30720 → Fin 1024 → EReal} {Bp : Fin 30720 → EReal} {ix : Fin 4096 → BitVec 32} (h : SplitIn2 V c H Wp Bp ix) (t : Fin cfg2.N) (q : Fin 1024) (r : Fin 4096)
    (hr : r.val = t.val / 30 * 1024 + q.val) :
    BlocksAt2 H Wp Bp ix (hblk2 V c t) (wblk2 V c t) (bblk2 V c t) (iblkw2 V c t) (t.val % 30) q r :=
  ⟨fun k => (hblk2_read V c t q k r hr).trans (h.hH r k),
   fun j J hJ k => (wblk2_read V c t j k J hJ).trans (h.hW J k),
   fun j J hJ => (bblk2_read V c t j J hJ).trans (h.hB J),
   (iblkw2_read V c t q r hr).trans (h.hI r)⟩

/-- One column tile, through the body's arithmetic: from the carried numbers after `cc` tiles to those after `cc + 1`. -/
theorem payStep2 {H : Fin 4096 → Fin 1024 → EReal} {Wp : Fin 30720 → Fin 1024 → EReal} {Bp : Fin 30720 → EReal} {ix : Fin 4096 → BitVec 32} (hix : ∀ r, (ix r).toNat < 30000)
    (hb wb : Vec Ideal S1024x1024 .f32) (bb : Vec Ideal S1x1024 .f32) (ib : Vec Ideal S1024x1 .i32)
    (m0 l0 g0 : Vec Ideal S1024x1 .f32) (i : grid2.Coords) (cc : ℕ) (hi : (i 1).val = cc) (hcc : cc < 30)
    (q : Fin 1024) (r : Fin 4096) (hblk : BlocksAt2 H Wp Bp ix hb wb bb ib cc q r)
    (hs : RowState2 H Wp Bp ix hix r cc (m0 (ix2 q (0 : Fin 1))) (l0 (ix2 q (0 : Fin 1))) (g0 (ix2 q (0 : Fin 1)))) :
    RowState2 H Wp Bp ix hix r (cc + 1)
      (k2_pay1 (F := Ideal) (k2_pay11 (F := Ideal) i hb wb bb m0) (ix2 q (0 : Fin 1)))
      (k2_pay2 (F := Ideal) (k2_pay12 (F := Ideal) i hb wb bb m0 l0) (ix2 q (0 : Fin 1)))
      (k2_pay3 (F := Ideal) (k2_pay8 (F := Ideal) hb wb bb) (k2_pay9 i) ib g0 (ix2 q (0 : Fin 1))) := by
  subst hi
  rw [k2_pay1_apply, k2_pay2_apply, k2_pay11_apply hb wb bb m0 i q, k2_pay12_apply hb wb bb m0 l0 i q,
    k2_pay3_apply hb wb bb ib g0 i q]
  exact rowState2_step hix hcc hblk hs

variable (V)

/-- The scratch after point `n`, token row by token row. -/
def ScrInv2 (c : Dev nD) (H : Fin 4096 → Fin 1024 → EReal) (Wp : Fin 30720 → Fin 1024 → EReal) (Bp : Fin 30720 → EReal)
    (ix : Fin 4096 → BitVec 32) (hix : ∀ r, (ix r).toNat < 30000) (n : ℕ) (hn : n < cfg2.N) : Prop :=
  ∀ (q : Fin 1024) (r : Fin 4096), r.val = n / 30 * 1024 + q.val →
    RowState2 H Wp Bp ix hix r (n % 30 + 1) ((outsAt2 V c n hn).2.1 (ix2 q (0 : Fin 1)))
      ((outsAt2 V c n hn).2.2.1 (ix2 q (0 : Fin 1))) ((outsAt2 V c n hn).2.2.2 (ix2 q (0 : Fin 1)))

variable {V}

/-- A first column tile: the reset values, then the tile. -/
theorem scr2_A {c : Dev nD} {H : Fin 4096 → Fin 1024 → EReal} {Wp : Fin 30720 → Fin 1024 → EReal} {Bp : Fin 30720 → EReal} {ix : Fin 4096 → BitVec 32} (h : SplitIn2 V c H Wp Bp ix) (t : Fin cfg2.N) (h0 : t.val % 30 = 0) :
    ScrInv2 V c H Wp Bp ix h.hix t.val t.isLt := by
  intro q r hr
  have h1 : ¬t.val % 30 = 29 := by omega
  rw [outsAt2_A V c t h0 h1]
  dsimp only
  rw [sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (hblk2 V c t) (wblk2 V c t) (bblk2 V c t) (iblkw2 V c t),
    sout2_A_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (hblk2 V c t) (wblk2 V c t) (bblk2 V c t) (iblkw2 V c t),
    sout2_A_2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (hblk2 V c t) (wblk2 V c t) (bblk2 V c t) (iblkw2 V c t)]
  refine payStep2 h.hix (hblk2 V c t) (wblk2 V c t) (bblk2 V c t) (iblkw2 V c t) (k2_pay5 (F := Ideal)) (k2_pay6 (F := Ideal))
    (k2_pay7 (F := Ideal)) (grid2.coords t) (t.val % 30) (coord2_1 t) (Nat.mod_lt _ (by norm_num)) q r (blocksAt2 h t q r hr) ?_
  rw [k2_pay5_apply, k2_pay6_apply, k2_pay7_apply, h0]
  exact rowState2_init h.hix r

/-- A middle column tile: the tile on what the tile before left. -/
theorem scr2_B {c : Dev nD} {H : Fin 4096 → Fin 1024 → EReal} {Wp : Fin 30720 → Fin 1024 → EReal} {Bp : Fin 30720 → EReal} {ix : Fin 4096 → BitVec 32} (h : SplitIn2 V c H Wp Bp ix) (t : Fin cfg2.N) (h0 : ¬t.val % 30 = 0) (h1 : ¬t.val % 30 = 29)
    (ih : ScrInv2 V c H Wp Bp ix h.hix (t.val - 1) (Nat.lt_of_le_of_lt (Nat.sub_le _ _) t.isLt)) :
    ScrInv2 V c H Wp Bp ix h.hix t.val t.isLt := by
  intro q r hr
  rw [outsAt2_B V c t h0 h1]
  dsimp only
  rw [sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (hblk2 V c t) (wblk2 V c t) (bblk2 V c t) (iblkw2 V c t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    sout2_B_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (hblk2 V c t) (wblk2 V c t) (bblk2 V c t) (iblkw2 V c t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    sout2_B_2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (hblk2 V c t) (wblk2 V c t) (bblk2 V c t) (iblkw2 V c t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2]
  have hprev := ih q r (by omega)
  rw [show (t.val - 1) % 30 + 1 = t.val % 30 from by omega] at hprev
  exact payStep2 h.hix (hblk2 V c t) (wblk2 V c t) (bblk2 V c t) (iblkw2 V c t) _ _ _ (grid2.coords t) (t.val % 30) (coord2_1 t)
    (Nat.mod_lt _ (by norm_num)) q r (blocksAt2 h t q r hr) hprev

/-- A last column tile: the same for the scratch. -/
theorem scr2_C {c : Dev nD} {H : Fin 4096 → Fin 1024 → EReal} {Wp : Fin 30720 → Fin 1024 → EReal} {Bp : Fin 30720 → EReal} {ix : Fin 4096 → BitVec 32} (h : SplitIn2 V c H Wp Bp ix) (t : Fin cfg2.N) (h0 : ¬t.val % 30 = 0) (h1 : t.val % 30 = 29)
    (ih : ScrInv2 V c H Wp Bp ix h.hix (t.val - 1) (Nat.lt_of_le_of_lt (Nat.sub_le _ _) t.isLt)) :
    ScrInv2 V c H Wp Bp ix h.hix t.val t.isLt := by
  intro q r hr
  rw [outsAt2_C V c t h0 h1]
  dsimp only
  rw [sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (hblk2 V c t) (wblk2 V c t) (bblk2 V c t) (iblkw2 V c t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (hblk2 V c t) (wblk2 V c t) (bblk2 V c t) (iblkw2 V c t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    sout2_C_2_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (hblk2 V c t) (wblk2 V c t) (bblk2 V c t) (iblkw2 V c t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2]
  have hprev := ih q r (by omega)
  rw [show (t.val - 1) % 30 + 1 = t.val % 30 from by omega] at hprev
  exact payStep2 h.hix (hblk2 V c t) (wblk2 V c t) (bblk2 V c t) (iblkw2 V c t) _ _ _ (grid2.coords t) (t.val % 30) (coord2_1 t)
    (Nat.mod_lt _ (by norm_num)) q r (blocksAt2 h t q r hr) hprev

/-- THE INVARIANT: after every point the scratch holds, for every token row of the point's row tile, the carried numbers
    after the point's column tile. -/
theorem scr2_inv {c : Dev nD} {H : Fin 4096 → Fin 1024 → EReal} {Wp : Fin 30720 → Fin 1024 → EReal} {Bp : Fin 30720 → EReal} {ix : Fin 4096 → BitVec 32} (h : SplitIn2 V c H Wp Bp ix) :
    ∀ (n : ℕ) (hn : n < cfg2.N), ScrInv2 V c H Wp Bp ix h.hix n hn
  | 0, hn => scr2_A h ⟨0, hn⟩ (Nat.zero_mod 30)
  | n + 1, hn => by
    by_cases h0 : (n + 1) % 30 = 0
    · exact scr2_A h ⟨n + 1, hn⟩ h0
    · have ih := scr2_inv h n (Nat.lt_of_succ_lt hn)
      by_cases h1 : (n + 1) % 30 = 29
      · exact scr2_C h ⟨n + 1, hn⟩ h0 h1 ih
      · exact scr2_B h ⟨n + 1, hn⟩ h0 h1 ih

/-- What a last column tile leaves in the three outputs, token row by token row. -/
theorem outs2_C {c : Dev nD} {H : Fin 4096 → Fin 1024 → EReal} {Wp : Fin 30720 → Fin 1024 → EReal} {Bp : Fin 30720 → EReal} {ix : Fin 4096 → BitVec 32} (h : SplitIn2 V c H Wp Bp ix) (t : Fin cfg2.N) (h1 : t.val % 30 = 29) (q : Fin 1024)
    (r : Fin 4096) (hr : r.val = t.val / 30 * 1024 + q.val) :
    (outsAt2 V c t.val t.isLt).1.1 (ix2 q (0 : Fin 1)) = Cert.Spec.rowMax (xrow2 H Wp Bp r)
      ∧ (outsAt2 V c t.val t.isLt).1.2.1 (ix2 q (0 : Fin 1)) = Ideal.log (Cert.Spec.rowSum (xrow2 H Wp Bp r))
      ∧ (outsAt2 V c t.val t.isLt).1.2.2 (ix2 q (0 : Fin 1)) = xrow2 H Wp Bp r ⟨(ix r).toNat, h.hix r⟩ := by
  have h0 : ¬t.val % 30 = 0 := by omega
  have hprev := scr2_inv h (t.val - 1) (Nat.lt_of_le_of_lt (Nat.sub_le _ _) t.isLt) q r (by omega)
  rw [show (t.val - 1) % 30 + 1 = t.val % 30 from by omega] at hprev
  have hs := payStep2 h.hix (hblk2 V c t) (wblk2 V c t) (bblk2 V c t) (iblkw2 V c t) _ _ _ (grid2.coords t) (t.val % 30) (coord2_1 t)
    (Nat.mod_lt _ (by norm_num)) q r (blocksAt2 h t q r hr) hprev
  rw [h1] at hs
  have hf := rowState2_final h.hix (xrow2_real h r) hs
  rw [outsAt2_C V c t h0 h1]
  dsimp only
  rw [out2_C_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (hblk2 V c t) (wblk2 V c t) (bblk2 V c t) (iblkw2 V c t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    out2_C_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (hblk2 V c t) (wblk2 V c t) (bblk2 V c t) (iblkw2 V c t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2,
    out2_C_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (hblk2 V c t) (wblk2 V c t) (bblk2 V c t) (iblkw2 V c t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2]
  rw [k2_pay4_apply]
  exact ⟨hf.1, congrArg Ideal.log hf.2.1, hf.2.2⟩

end Cert.KernelIdeal.Hand

end
-- ==== Proof.KI.Split2Value.lean ====
/- Region 2 at the extended reals: its three output arrays after the region, in closed form. Token row r of each
   output is written back once, at the last column tile of row tile r / 1024, and holds there the maximum of the
   token's logits, the logarithm of their shifted exponential sum, and the logit of the token's target column. -/
import proofs.«427234_j53386443489982_1_alg».proof.Proof.KI.Split2Inv
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable {V : (c : Dev nD) → (b : Ref sig .tc) → Buf (Elt Ideal) ((c : Thread nD τ).loc b)}

/-- The closed forms: per token row, the maximum of its logits, the logarithm of their shifted exponential sum, the target's logit. -/
def gmax2 (H : Fin 4096 → Fin 1024 → EReal) (Wp : Fin 30720 → Fin 1024 → EReal) (Bp : Fin 30720 → EReal) : Vec Ideal S4096x1 .f32 :=
  fun i => Cert.Spec.rowMax (xrow2 H Wp Bp (i 0))
def glog2 (H : Fin 4096 → Fin 1024 → EReal) (Wp : Fin 30720 → Fin 1024 → EReal) (Bp : Fin 30720 → EReal) : Vec Ideal S4096x1 .f32 :=
  fun i => Ideal.log (Cert.Spec.rowSum (xrow2 H Wp Bp (i 0)))
def gpick2 (H : Fin 4096 → Fin 1024 → EReal) (Wp : Fin 30720 → Fin 1024 → EReal) (Bp : Fin 30720 → EReal) (ix : Fin 4096 → BitVec 32)
    (hix : ∀ r, (ix r).toNat < 30000) : Vec Ideal S4096x1 .f32 :=
  fun i => xrow2 H Wp Bp (i 0) ⟨(ix (i 0)).toNat, hix (i 0)⟩

/-- The closed forms at token row `r`. -/
theorem gmax2_apply (H : Fin 4096 → Fin 1024 → EReal) (Wp : Fin 30720 → Fin 1024 → EReal) (Bp : Fin 30720 → EReal) (r : Fin 4096) :
    gmax2 H Wp Bp (ix2 r (0 : Fin 1)) = Cert.Spec.rowMax (xrow2 H Wp Bp r) := rfl
theorem glog2_apply (H : Fin 4096 → Fin 1024 → EReal) (Wp : Fin 30720 → Fin 1024 → EReal) (Bp : Fin 30720 → EReal) (r : Fin 4096) :
    glog2 H Wp Bp (ix2 r (0 : Fin 1)) = Ideal.log (Cert.Spec.rowSum (xrow2 H Wp Bp r)) := rfl
theorem gpick2_apply (H : Fin 4096 → Fin 1024 → EReal) (Wp : Fin 30720 → Fin 1024 → EReal) (Bp : Fin 30720 → EReal) (ix : Fin 4096 → BitVec 32)
    (hix : ∀ r, (ix r).toNat < 30000) (r : Fin 4096) :
    gpick2 H Wp Bp ix hix (ix2 r (0 : Fin 1)) = xrow2 H Wp Bp r ⟨(ix r).toNat, hix r⟩ := rfl

/-- The token of block row `q` at point `t`. -/
def tok2 (t : Fin cfg2.N) (q : Fin 1024) : Fin 4096 :=
  ⟨t.val / 30 * 1024 + q.val, by have := t.isLt; have hN : cfg2.N = 120 := N_2; omega⟩

/-- A one-column block is determined by its rows. -/
theorem colAt2 (X : Vec Ideal S1024x1 .f32) (G : Fin 1024 → EReal) (hX : ∀ q : Fin 1024, X (ix2 q (0 : Fin 1)) = G q)
    (y : S1024x1.Idx) : X y = G (y 0) :=
  (congrArg X ((eq_ix2 y).trans (congrArg (ix2 (y 0)) (Fin.eq_zero (y 1 : Fin 1))))).trans (hX (y 0))

/-- An index of a one-column array is its row and column zero. -/
theorem tokIdx2 (i : S4096x1.Idx) : ix2 (i 0) (0 : Fin 1) = i :=
  ((eq_ix2 i).trans (congrArg (ix2 (i 0)) (Fin.eq_zero (i 1 : Fin 1)))).symm

/-- A block of output 4's array read off any contents: the contents at the block's positions. -/
theorem read_blk2_4 (t : Fin cfg2.N) (G : Vec Ideal S4096x1 .f32) (y : ((cfg2.win 4).xblock (grid2.coords t)).Idx) :
    ((cfg2.win 4).blk t).view.read (Elt Ideal) G y = G (((cfg2.win 4).blk t).view.emb y) := rfl

/-- What a point of the last column tile writes back of output 4 is its block of the closed form. -/
theorem flushed2_4 {c : Dev nD} {H : Fin 4096 → Fin 1024 → EReal} {Wp : Fin 30720 → Fin 1024 → EReal} {Bp : Fin 30720 → EReal} {ix : Fin 4096 → BitVec 32} (h : SplitIn2 V c H Wp Bp ix) (t : Fin cfg2.N) (hf : (cfg2.win 4).flush t = true) :
    (dat2 V c).flushed 4 t = ((cfg2.win 4).blk t).view.read (Elt Ideal) (gmax2 H Wp Bp) := by
  have h3 : t.val % 30 = 29 := (flush2_4 t).mp hf
  show (cfg2.win 4).cut (grid2.coords t) ((dat2 V c).after 4 t) = _
  rw [after2_4]
  funext y
  refine Eq.trans ?_ (read_blk2_4 t (gmax2 H Wp Bp) y).symm
  show (outsAt2 V c t.val t.isLt).1.1 y = _
  have hr : ((((cfg2.win 4).blk t).view.emb y) 0).val = (tok2 t (y 0)).val := by
    show win2_4.index t 0 * 1024 + 1 * (y 0).val = t.val / 30 * 1024 + (y 0).val; rw [(idx2_4 t).1]; omega
  have e : ((cfg2.win 4).blk t).view.emb y = ix2 (tok2 t (y 0)) (0 : Fin 1) :=
    (tokIdx2 _).symm.trans (congrArg (fun r : Fin 4096 => ix2 r (0 : Fin 1)) (Fin.ext hr))
  refine (colAt2 ((outsAt2 V c t.val t.isLt).1.1) _ (fun q => (outs2_C h t h3 q (tok2 t q) rfl).1) y).trans ?_
  rw [e]
  exact (gmax2_apply H Wp Bp (tok2 t (y 0))).symm

/-- An index of output 4's array is in point `t`'s block iff each coordinate is in the block's range on its axis. -/
theorem mem_blk2_4 (t : Fin cfg2.N) (i : S4096x1.Idx) :
    i ∈ ((cfg2.win 4).blk t).view.set ↔ ∀ a : Fin 2, win2_4.index t a * S1024x1.size a ≤ (i a).val ∧ (i a).val < win2_4.index t a * S1024x1.size a + S1024x1.size a := by
  show i ∈ ((View.whole main_v51_0).slice (win2_4.rect t)).set ↔ _
  rw [View.set_slice_whole, Rect.mem_set_unit]
  exact Iff.rfl

/-- Every entry of output 4's array is written back: token row `r` at the last column tile of row tile `r / 1024`. -/
theorem cover2_4 (i : S4096x1.Idx) : ∃ t : Fin cfg2.N, (cfg2.win 4).flush t = true ∧ i ∈ ((cfg2.win 4).blk t).view.set := by
  have hi0 : (i 0).val < 4096 := (i 0).isLt
  have hi1 : (i 1).val < 1 := (i 1).isLt
  have hN : cfg2.N = 120 := N_2
  have htl : (i 0).val / 1024 * 30 + 29 < cfg2.N := by omega
  refine ⟨⟨(i 0).val / 1024 * 30 + 29, htl⟩, (flush2_4 _).mpr (by show ((i 0).val / 1024 * 30 + 29) % 30 = 29; omega), ?_⟩
  rw [mem_blk2_4]
  intro a
  match a with
  | ⟨0, _⟩ =>
    show win2_4.index ⟨(i 0).val / 1024 * 30 + 29, htl⟩ 0 * 1024 ≤ (i 0).val ∧ (i 0).val < win2_4.index ⟨(i 0).val / 1024 * 30 + 29, htl⟩ 0 * 1024 + 1024
    rw [(idx2_4 ⟨(i 0).val / 1024 * 30 + 29, htl⟩).1]
    show ((i 0).val / 1024 * 30 + 29) / 30 * 1024 ≤ (i 0).val ∧ (i 0).val < ((i 0).val / 1024 * 30 + 29) / 30 * 1024 + 1024
    omega
  | ⟨1, _⟩ =>
    show win2_4.index ⟨(i 0).val / 1024 * 30 + 29, htl⟩ 1 * 1 ≤ (i 1).val ∧ (i 1).val < win2_4.index ⟨(i 0).val / 1024 * 30 + 29, htl⟩ 1 * 1 + 1
    rw [(idx2_4 ⟨(i 0).val / 1024 * 30 + 29, htl⟩).2]
    omega

/-- Output 4's array after the region. -/
theorem final2_4 {c : Dev nD} {H : Fin 4096 → Fin 1024 → EReal} {Wp : Fin 30720 → Fin 1024 → EReal} {Bp : Fin 30720 → EReal} {ix : Fin 4096 → BitVec 32} (h : SplitIn2 V c H Wp Bp ix) : (dat2 V c).arrAt 4 cfg2.N = gmax2 H Wp Bp :=
  (dat2 V c).arrAt_eq_of_cover 4 (gmax2 H Wp Bp) (fun t hf => flushed2_4 h t hf) cover2_4

/-- A block of output 5's array read off any contents: the contents at the block's positions. -/
theorem read_blk2_5 (t : Fin cfg2.N) (G : Vec Ideal S4096x1 .f32) (y : ((cfg2.win 5).xblock (grid2.coords t)).Idx) :
    ((cfg2.win 5).blk t).view.read (Elt Ideal) G y = G (((cfg2.win 5).blk t).view.emb y) := rfl

/-- What a point of the last column tile writes back of output 5 is its block of the closed form. -/
theorem flushed2_5 {c : Dev nD} {H : Fin 4096 → Fin 1024 → EReal} {Wp : Fin 30720 → Fin 1024 → EReal} {Bp : Fin 30720 → EReal} {ix : Fin 4096 → BitVec 32} (h : SplitIn2 V c H Wp Bp ix) (t : Fin cfg2.N) (hf : (cfg2.win 5).flush t = true) :
    (dat2 V c).flushed 5 t = ((cfg2.win 5).blk t).view.read (Elt Ideal) (glog2 H Wp Bp) := by
  have h3 : t.val % 30 = 29 := (flush2_5 t).mp hf
  show (cfg2.win 5).cut (grid2.coords t) ((dat2 V c).after 5 t) = _
  rw [after2_5]
  funext y
  refine Eq.trans ?_ (read_blk2_5 t (glog2 H Wp Bp) y).symm
  show (outsAt2 V c t.val t.isLt).1.2.1 y = _
  have hr : ((((cfg2.win 5).blk t).view.emb y) 0).val = (tok2 t (y 0)).val := by
    show win2_5.index t 0 * 1024 + 1 * (y 0).val = t.val / 30 * 1024 + (y 0).val; rw [(idx2_5 t).1]; omega
  have e : ((cfg2.win 5).blk t).view.emb y = ix2 (tok2 t (y 0)) (0 : Fin 1) :=
    (tokIdx2 _).symm.trans (congrArg (fun r : Fin 4096 => ix2 r (0 : Fin 1)) (Fin.ext hr))
  refine (colAt2 ((outsAt2 V c t.val t.isLt).1.2.1) _ (fun q => (outs2_C h t h3 q (tok2 t q) rfl).2.1) y).trans ?_
  rw [e]
  exact (glog2_apply H Wp Bp (tok2 t (y 0))).symm

/-- An index of output 5's array is in point `t`'s block iff each coordinate is in the block's range on its axis. -/
theorem mem_blk2_5 (t : Fin cfg2.N) (i : S4096x1.Idx) :
    i ∈ ((cfg2.win 5).blk t).view.set ↔ ∀ a : Fin 2, win2_5.index t a * S1024x1.size a ≤ (i a).val ∧ (i a).val < win2_5.index t a * S1024x1.size a + S1024x1.size a := by
  show i ∈ ((View.whole main_v51_1).slice (win2_5.rect t)).set ↔ _
  rw [View.set_slice_whole, Rect.mem_set_unit]
  exact Iff.rfl

/-- Every entry of output 5's array is written back: token row `r` at the last column tile of row tile `r / 1024`. -/
theorem cover2_5 (i : S4096x1.Idx) : ∃ t : Fin cfg2.N, (cfg2.win 5).flush t = true ∧ i ∈ ((cfg2.win 5).blk t).view.set := by
  have hi0 : (i 0).val < 4096 := (i 0).isLt
  have hi1 : (i 1).val < 1 := (i 1).isLt
  have hN : cfg2.N = 120 := N_2
  have htl : (i 0).val / 1024 * 30 + 29 < cfg2.N := by omega
  refine ⟨⟨(i 0).val / 1024 * 30 + 29, htl⟩, (flush2_5 _).mpr (by show ((i 0).val / 1024 * 30 + 29) % 30 = 29; omega), ?_⟩
  rw [mem_blk2_5]
  intro a
  match a with
  | ⟨0, _⟩ =>
    show win2_5.index ⟨(i 0).val / 1024 * 30 + 29, htl⟩ 0 * 1024 ≤ (i 0).val ∧ (i 0).val < win2_5.index ⟨(i 0).val / 1024 * 30 + 29, htl⟩ 0 * 1024 + 1024
    rw [(idx2_5 ⟨(i 0).val / 1024 * 30 + 29, htl⟩).1]
    show ((i 0).val / 1024 * 30 + 29) / 30 * 1024 ≤ (i 0).val ∧ (i 0).val < ((i 0).val / 1024 * 30 + 29) / 30 * 1024 + 1024
    omega
  | ⟨1, _⟩ =>
    show win2_5.index ⟨(i 0).val / 1024 * 30 + 29, htl⟩ 1 * 1 ≤ (i 1).val ∧ (i 1).val < win2_5.index ⟨(i 0).val / 1024 * 30 + 29, htl⟩ 1 * 1 + 1
    rw [(idx2_5 ⟨(i 0).val / 1024 * 30 + 29, htl⟩).2]
    omega

/-- Output 5's array after the region. -/
theorem final2_5 {c : Dev nD} {H : Fin 4096 → Fin 1024 → EReal} {Wp : Fin 30720 → Fin 1024 → EReal} {Bp : Fin 30720 → EReal} {ix : Fin 4096 → BitVec 32} (h : SplitIn2 V c H Wp Bp ix) : (dat2 V c).arrAt 5 cfg2.N = glog2 H Wp Bp :=
  (dat2 V c).arrAt_eq_of_cover 5 (glog2 H Wp Bp) (fun t hf => flushed2_5 h t hf) cover2_5

/-- A block of output 6's array read off any contents: the contents at the block's positions. -/
theorem read_blk2_6 (t : Fin cfg2.N) (G : Vec Ideal S4096x1 .f32) (y : ((cfg2.win 6).xblock (grid2.coords t)).Idx) :
    ((cfg2.win 6).blk t).view.read (Elt Ideal) G y = G (((cfg2.win 6).blk t).view.emb y) := rfl

/-- What a point of the last column tile writes back of output 6 is its block of the closed form. -/
theorem flushed2_6 {c : Dev nD} {H : Fin 4096 → Fin 1024 → EReal} {Wp : Fin 30720 → Fin 1024 → EReal} {Bp : Fin 30720 → EReal} {ix : Fin 4096 → BitVec 32} (h : SplitIn2 V c H Wp Bp ix) (t : Fin cfg2.N) (hf : (cfg2.win 6).flush t = true) :
    (dat2 V c).flushed 6 t = ((cfg2.win 6).blk t).view.read (Elt Ideal) (gpick2 H Wp Bp ix h.hix) := by
  have h3 : t.val % 30 = 29 := (flush2_6 t).mp hf
  show (cfg2.win 6).cut (grid2.coords t) ((dat2 V c).after 6 t) = _
  rw [after2_6]
  funext y
  refine Eq.trans ?_ (read_blk2_6 t (gpick2 H Wp Bp ix h.hix) y).symm
  show (outsAt2 V c t.val t.isLt).1.2.2 y = _
  have hr : ((((cfg2.win 6).blk t).view.emb y) 0).val = (tok2 t (y 0)).val := by
    show win2_6.index t 0 * 1024 + 1 * (y 0).val = t.val / 30 * 1024 + (y 0).val; rw [(idx2_6 t).1]; omega
  have e : ((cfg2.win 6).blk t).view.emb y = ix2 (tok2 t (y 0)) (0 : Fin 1) :=
    (tokIdx2 _).symm.trans (congrArg (fun r : Fin 4096 => ix2 r (0 : Fin 1)) (Fin.ext hr))
  refine (colAt2 ((outsAt2 V c t.val t.isLt).1.2.2) _ (fun q => (outs2_C h t h3 q (tok2 t q) rfl).2.2) y).trans ?_
  rw [e]
  exact (gpick2_apply H Wp Bp ix h.hix (tok2 t (y 0))).symm

/-- An index of output 6's array is in point `t`'s block iff each coordinate is in the block's range on its axis. -/
theorem mem_blk2_6 (t : Fin cfg2.N) (i : S4096x1.Idx) :
    i ∈ ((cfg2.win 6).blk t).view.set ↔ ∀ a : Fin 2, win2_6.index t a * S1024x1.size a ≤ (i a).val ∧ (i a).val < win2_6.index t a * S1024x1.size a + S1024x1.size a := by
  show i ∈ ((View.whole main_v51_2).slice (win2_6.rect t)).set ↔ _
  rw [View.set_slice_whole, Rect.mem_set_unit]
  exact Iff.rfl

/-- Every entry of output 6's array is written back: token row `r` at the last column tile of row tile `r / 1024`. -/
theorem cover2_6 (i : S4096x1.Idx) : ∃ t : Fin cfg2.N, (cfg2.win 6).flush t = true ∧ i ∈ ((cfg2.win 6).blk t).view.set := by
  have hi0 : (i 0).val < 4096 := (i 0).isLt
  have hi1 : (i 1).val < 1 := (i 1).isLt
  have hN : cfg2.N = 120 := N_2
  have htl : (i 0).val / 1024 * 30 + 29 < cfg2.N := by omega
  refine ⟨⟨(i 0).val / 1024 * 30 + 29, htl⟩, (flush2_6 _).mpr (by show ((i 0).val / 1024 * 30 + 29) % 30 = 29; omega), ?_⟩
  rw [mem_blk2_6]
  intro a
  match a with
  | ⟨0, _⟩ =>
    show win2_6.index ⟨(i 0).val / 1024 * 30 + 29, htl⟩ 0 * 1024 ≤ (i 0).val ∧ (i 0).val < win2_6.index ⟨(i 0).val / 1024 * 30 + 29, htl⟩ 0 * 1024 + 1024
    rw [(idx2_6 ⟨(i 0).val / 1024 * 30 + 29, htl⟩).1]
    show ((i 0).val / 1024 * 30 + 29) / 30 * 1024 ≤ (i 0).val ∧ (i 0).val < ((i 0).val / 1024 * 30 + 29) / 30 * 1024 + 1024
    omega
  | ⟨1, _⟩ =>
    show win2_6.index ⟨(i 0).val / 1024 * 30 + 29, htl⟩ 1 * 1 ≤ (i 1).val ∧ (i 1).val < win2_6.index ⟨(i 0).val / 1024 * 30 + 29, htl⟩ 1 * 1 + 1
    rw [(idx2_6 ⟨(i 0).val / 1024 * 30 + 29, htl⟩).2]
    omega

/-- Output 6's array after the region. -/
theorem final2_6 {c : Dev nD} {H : Fin 4096 → Fin 1024 → EReal} {Wp : Fin 30720 → Fin 1024 → EReal} {Bp : Fin 30720 → EReal} {ix : Fin 4096 → BitVec 32} (h : SplitIn2 V c H Wp Bp ix) : (dat2 V c).arrAt 6 cfg2.N = gpick2 H Wp Bp ix h.hix :=
  (dat2 V c).arrAt_eq_of_cover 6 (gpick2 H Wp Bp ix h.hix) (fun t hf => flushed2_6 h t hf) cover2_6

/-! ## The three outputs, entry by entry -/

/-- Output 4: the maximum of the token's logits. -/
theorem split2_max (c : Dev nD) (H : Fin 4096 → Fin 1024 → EReal) (Wp : Fin 30720 → Fin 1024 → EReal) (Bp : Fin 30720 → EReal)
    (ix : Fin 4096 → BitVec 32) (h : SplitIn2 V c H Wp Bp ix) (r : Fin 4096) :
    (dat2 V c).arrAt 4 cfg2.N (ix2 r (0 : Fin 1)) = Cert.Spec.rowMax (xrow2 H Wp Bp r) :=
  (congrFun (final2_4 h) (ix2 r (0 : Fin 1))).trans (gmax2_apply H Wp Bp r)

/-- Output 5: the logarithm of the shifted exponential sum of the token's logits. -/
theorem split2_logsum (c : Dev nD) (H : Fin 4096 → Fin 1024 → EReal) (Wp : Fin 30720 → Fin 1024 → EReal) (Bp : Fin 30720 → EReal)
    (ix : Fin 4096 → BitVec 32) (h : SplitIn2 V c H Wp Bp ix) (r : Fin 4096) :
    (dat2 V c).arrAt 5 cfg2.N (ix2 r (0 : Fin 1)) = Ideal.log (Cert.Spec.rowSum (xrow2 H Wp Bp r)) :=
  (congrFun (final2_5 h) (ix2 r (0 : Fin 1))).trans (glog2_apply H Wp Bp r)

/-- Output 6: the logit of the token's target column. -/
theorem split2_pick (c : Dev nD) (H : Fin 4096 → Fin 1024 → EReal) (Wp : Fin 30720 → Fin 1024 → EReal) (Bp : Fin 30720 → EReal)
    (ix : Fin 4096 → BitVec 32) (h : SplitIn2 V c H Wp Bp ix) (r : Fin 4096) :
    (dat2 V c).arrAt 6 cfg2.N (ix2 r (0 : Fin 1)) = xrow2 H Wp Bp r ⟨(ix r).toNat, h.hix r⟩ :=
  (congrFun (final2_6 h) (ix2 r (0 : Fin 1))).trans (gpick2_apply H Wp Bp ix h.hix r)

end Cert.KernelIdeal.Hand

end
-- ==== Proof.KI.Result2.lean ====
/-
  Region 2 of the kernel (the second tail): the operand arrays the host prepared meet what the split's value
  theorem asks of them (the hidden rows, the split's weight rows and biases padded with zeros, the index words; real
  entries; indices in range), so the region's three output arrays hold, per token, the maximum, the logarithm of the
  shifted exponential sum, and the picked entry of the specification's row of logits.
-/
import proofs.«427234_j53386443489982_1_alg».proof.Proof.KI.ResultIn
import proofs.«427234_j53386443489982_1_alg».proof.Proof.KI.HostPrep2
import proofs.«427234_j53386443489982_1_alg».proof.Proof.KI.Split2Value

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-! ## Region 2: its operands meet the split's requirements, and its outputs are the specification's row quantities -/

variable (m : (ℓ : Loc nD τ sig) → Buf (Elt Ideal) ℓ) (outs : Outs (F := Ideal)) (c : Dev nD) (hpre : Cert.Pre_KernelIdeal m)

include hpre in
theorem splitIn2 : SplitIn2 (fun c b => V23 m outs c b) c (sH m c) (Wp2 m c) (Bp2 m c) (fun r => idx2W (tW m c r)) := by
  refine ⟨?_, ?_, ?_, ?_, sH_real m c hpre, ?_, ?_, idx2_lt m c hpre⟩
  · exact fun r k => V23_v0 m outs c r k
  · intro j k
    exact (V23_v42 m outs c j k).trans (by unfold Wp2; rfl)
  · intro j
    exact (V23_v44 m outs c j).trans (by unfold Bp2; rfl)
  · exact fun r => V23_v50 m outs c r
  · exact fun j k hj => by unfold Wp2; rw [dif_pos hj]; exact tail2W_real m c hpre _ k
  · exact fun j hj => by unfold Bp2; rw [dif_pos hj]; exact tail2B_real m c hpre _

include hpre in
/-- Region 2's three outputs at token r. -/
theorem region2_rows
    (ho : outs 24 main_v51_0 c = (dat2 (fun c b => V23 m outs c b) c).arrAt 4 cfg2.N
      ∧ outs 24 main_v51_1 c = (dat2 (fun c b => V23 m outs c b) c).arrAt 5 cfg2.N
      ∧ outs 24 main_v51_2 c = (dat2 (fun c b => V23 m outs c b) c).arrAt 6 cfg2.N) (r : Fin 4096) :
      (outs 24 main_v51_0 c : S4096x1.Idx → EReal) (ix2 r 0) = Cert.Spec.rowMax (row2 m c r)
    ∧ (outs 24 main_v51_1 c : S4096x1.Idx → EReal) (ix2 r 0) = Ideal.log (Cert.Spec.rowSum (row2 m c r))
    ∧ (outs 24 main_v51_2 c : S4096x1.Idx → EReal) (ix2 r 0) = row2 m c r ⟨(idx2W (tW m c r)).toNat, idx2_lt m c hpre r⟩ := by
  obtain ⟨e0, e1, e2⟩ := ho
  have hs := splitIn2 m outs c hpre
  refine ⟨?_, ?_, ?_⟩
  · rw [e0]
    exact (split2_max c _ _ _ _ hs r).trans (congrArg Cert.Spec.rowMax (logit_pad2 m c r))
  · rw [e1]
    exact (split2_logsum c _ _ _ _ hs r).trans (congrArg (fun x => Ideal.log (Cert.Spec.rowSum x)) (logit_pad2 m c r))
  · rw [e2]
    exact (split2_pick c _ _ _ _ hs r).trans (congrFun (logit_pad2 m c r) _)

end Cert.KernelIdeal.Hand

end
-- ==== Proof.KI.HostTail.lean ====
/- The result of the idealized program from what the three kernel regions left: per split the contribution (gathered logit − row maximum) − log of the row sum, the two tails' under the masks of their buckets, summed, negated, totalled over the tokens and divided by the word of 4096. -/
import proofs.«427234_j53386443489982_1_alg».proof.Proof.Gen.KernelIdeal.Regions
import proofs.«427234_j53386443489982_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«427234_j53386443489982_1_alg».proof.Proof.KI.HostBase
set_option maxRecDepth 1164

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (outs : Outs (F := Ideal)) (c : Dev nD)

/-- A per-token column read at a token. -/
abbrev colAt (x : S4096x1.Idx → EReal) (r : Fin 4096) : EReal := x (ix2 r 0)

/-! ## What the regions left -/

theorem V8_v23_0 : V8 m outs c main_v23_0 = outs 8 main_v23_0 c := by
  simp only [V8, Function.update_of_ne (StableHlo.devRef_ne_of_ne (by decide) : (Proc.devRef .tc main_v23_0 : DevRef τ sig) ≠ Proc.devRef .tc main_v23_2), Function.update_of_ne (StableHlo.devRef_ne_of_ne (by decide) : (Proc.devRef .tc main_v23_0 : DevRef τ sig) ≠ Proc.devRef .tc main_v23_1), Function.update_self]
theorem V8_v23_1 : V8 m outs c main_v23_1 = outs 8 main_v23_1 c := by
  simp only [V8, Function.update_of_ne (StableHlo.devRef_ne_of_ne (by decide) : (Proc.devRef .tc main_v23_1 : DevRef τ sig) ≠ Proc.devRef .tc main_v23_2), Function.update_self]
theorem V8_v23_2 : V8 m outs c main_v23_2 = outs 8 main_v23_2 c := by
  simp only [V8, Function.update_self]
theorem V16_v37_0 : V16 m outs c main_v37_0 = outs 16 main_v37_0 c := by
  simp only [V16, Function.update_of_ne (StableHlo.devRef_ne_of_ne (by decide) : (Proc.devRef .tc main_v37_0 : DevRef τ sig) ≠ Proc.devRef .tc main_v37_2), Function.update_of_ne (StableHlo.devRef_ne_of_ne (by decide) : (Proc.devRef .tc main_v37_0 : DevRef τ sig) ≠ Proc.devRef .tc main_v37_1), Function.update_self]
theorem V16_v37_1 : V16 m outs c main_v37_1 = outs 16 main_v37_1 c := by
  simp only [V16, Function.update_of_ne (StableHlo.devRef_ne_of_ne (by decide) : (Proc.devRef .tc main_v37_1 : DevRef τ sig) ≠ Proc.devRef .tc main_v37_2), Function.update_self]
theorem V16_v37_2 : V16 m outs c main_v37_2 = outs 16 main_v37_2 c := by
  simp only [V16, Function.update_self]
theorem V24_v51_0 : V24 m outs c main_v51_0 = outs 24 main_v51_0 c := by
  simp only [V24, Function.update_of_ne (StableHlo.devRef_ne_of_ne (by decide) : (Proc.devRef .tc main_v51_0 : DevRef τ sig) ≠ Proc.devRef .tc main_v51_2), Function.update_of_ne (StableHlo.devRef_ne_of_ne (by decide) : (Proc.devRef .tc main_v51_0 : DevRef τ sig) ≠ Proc.devRef .tc main_v51_1), Function.update_self]
theorem V24_v51_1 : V24 m outs c main_v51_1 = outs 24 main_v51_1 c := by
  simp only [V24, Function.update_of_ne (StableHlo.devRef_ne_of_ne (by decide) : (Proc.devRef .tc main_v51_1 : DevRef τ sig) ≠ Proc.devRef .tc main_v51_2), Function.update_self]
theorem V24_v51_2 : V24 m outs c main_v51_2 = outs 24 main_v51_2 c := by
  simp only [V24, Function.update_self]

/-! ## The per-split contributions and the final sum, from any contents before the stretch -/

theorem ops1_v25 (W : Valuation τ sig (Elt Ideal)) :
    Eq (α := FVec Ideal S4096x1 .f32) (StableHlo.after hostOps1 W (Proc.devRef .tc main_v25))
      (subf (subf (W (Proc.devRef .tc main_v23_2) : FVec Ideal S4096x1 .f32) (W (Proc.devRef .tc main_v23_0) : FVec Ideal S4096x1 .f32)) (W (Proc.devRef .tc main_v23_1) : FVec Ideal S4096x1 .f32)) := by
  after_results
  first | done | rfl

theorem ops2_v39 (W : Valuation τ sig (Elt Ideal)) :
    Eq (α := FVec Ideal S4096x1 .f32) (StableHlo.after hostOps2 W (Proc.devRef .tc main_v39))
      (subf (subf (W (Proc.devRef .tc main_v37_2) : FVec Ideal S4096x1 .f32) (W (Proc.devRef .tc main_v37_0) : FVec Ideal S4096x1 .f32)) (W (Proc.devRef .tc main_v37_1) : FVec Ideal S4096x1 .f32)) := by
  after_results
  first | done | rfl

/-- The compare "bucket word = K" as an extended real. -/
def maskOf (K : BitVec 32) (b : BitVec 32) : EReal := (((IntOp.cmpi .eq b K).toNat : ℝ) : EReal)

theorem ops3_v66 (W : Valuation τ sig (Elt Ideal)) :
    (StableHlo.after hostOps3 W (Proc.devRef .tc main_v66) : FVec Ideal S4096x1 .f32)
      = Host.negf (addf (addf (W (Proc.devRef .tc main_v25) : FVec Ideal S4096x1 .f32)
          (mulf (shapeCast S4096x1 (fun i => maskOf 1#32 ((W (Proc.devRef .tc main_v9) : S4096.Idx → BitVec 32) i) : S4096.Idx → EReal) shapeCasts_S4096_S4096x1 : FVec Ideal S4096x1 .f32)
            (W (Proc.devRef .tc main_v39) : FVec Ideal S4096x1 .f32)))
          (mulf (shapeCast S4096x1 (fun i => maskOf 2#32 ((W (Proc.devRef .tc main_v9) : S4096.Idx → BitVec 32) i) : S4096.Idx → EReal) shapeCasts_S4096_S4096x1 : FVec Ideal S4096x1 .f32)
            (subf (subf (W (Proc.devRef .tc main_v51_2) : FVec Ideal S4096x1 .f32) (W (Proc.devRef .tc main_v51_0) : FVec Ideal S4096x1 .f32)) (W (Proc.devRef .tc main_v51_1) : FVec Ideal S4096x1 .f32)))) := by
  after_results
  first | done | rfl

theorem ops3_v68 (W : Valuation τ sig (Elt Ideal)) :
    (StableHlo.after hostOps3 W (Proc.devRef .tc main_v68) : FVec Ideal S_ .f32)
      = Host.divf (Host.reduceAdd (StableHlo.after hostOps3 W (Proc.devRef .tc main_v66) : FVec Ideal S4096x1 .f32)
          (constant (F := Ideal) S_ .f32 0x00000000#32) reducesTo_S4096x1_S_d0_1 h_S_) (constant (F := Ideal) S_ .f32 0x45800000#32) := by
  after_results
  first | done | rfl

theorem V24_v25_eq : V24 m outs c main_v25 = V9 m outs c main_v25 := (V24_of m outs c main_v25 (by decide)).trans <| (V23_of m outs c main_v25 (by decide)).trans <| (V22_of m outs c main_v25 (by decide)).trans <| (V21_of m outs c main_v25 (by decide)).trans <| (V20_of m outs c main_v25 (by decide)).trans <| (V19_of m outs c main_v25 (by decide)).trans <| (V18_of m outs c main_v25 (by decide)).trans <| (V17_of m outs c main_v25 (by decide)).trans <| (V16_of m outs c main_v25 (by decide)).trans <| (V15_of m outs c main_v25 (by decide)).trans <| (V14_of m outs c main_v25 (by decide)).trans <| (V13_of m outs c main_v25 (by decide)).trans <| (V12_of m outs c main_v25 (by decide)).trans <| (V11_of m outs c main_v25 (by decide)).trans <| (V10_of m outs c main_v25 (by decide))
theorem V24_v39_eq : V24 m outs c main_v39 = V17 m outs c main_v39 := (V24_of m outs c main_v39 (by decide)).trans <| (V23_of m outs c main_v39 (by decide)).trans <| (V22_of m outs c main_v39 (by decide)).trans <| (V21_of m outs c main_v39 (by decide)).trans <| (V20_of m outs c main_v39 (by decide)).trans <| (V19_of m outs c main_v39 (by decide)).trans <| (V18_of m outs c main_v39 (by decide))

/-- The final sum's term of one token, from the contents before the last stretch. -/
theorem ops3_v66_apply (W : Valuation τ sig (Elt Ideal)) (r : Fin 4096) :
    colAt (StableHlo.after hostOps3 W (Proc.devRef .tc main_v66)) r
      = -((colAt (W (Proc.devRef .tc main_v25)) r
            + maskOf 1#32 ((W (Proc.devRef .tc main_v9) : S4096.Idx → BitVec 32) (ix1 r)) * colAt (W (Proc.devRef .tc main_v39)) r)
          + maskOf 2#32 ((W (Proc.devRef .tc main_v9) : S4096.Idx → BitVec 32) (ix1 r))
            * ((colAt (W (Proc.devRef .tc main_v51_2)) r - colAt (W (Proc.devRef .tc main_v51_0)) r) - colAt (W (Proc.devRef .tc main_v51_1)) r)) := by
  refine (congrFun (ops3_v66 W) (ix2 r 0)).trans ?_
  show -((colAt (W (Proc.devRef .tc main_v25)) r
      + shapeCast S4096x1 (fun i => maskOf 1#32 ((W (Proc.devRef .tc main_v9) : S4096.Idx → BitVec 32) i) : S4096.Idx → EReal) shapeCasts_S4096_S4096x1 (ix2 r 0)
        * colAt (W (Proc.devRef .tc main_v39)) r)
      + shapeCast S4096x1 (fun i => maskOf 2#32 ((W (Proc.devRef .tc main_v9) : S4096.Idx → BitVec 32) i) : S4096.Idx → EReal) shapeCasts_S4096_S4096x1 (ix2 r 0)
        * ((colAt (W (Proc.devRef .tc main_v51_2)) r - colAt (W (Proc.devRef .tc main_v51_0)) r) - colAt (W (Proc.devRef .tc main_v51_1)) r)) = _
  rw [reshape_col_apply, reshape_col_apply]

/-- The result from the contents before the last stretch: the sum over the tokens, divided by the word of 4096. -/
theorem ops3_v68_apply (W : Valuation τ sig (Elt Ideal)) :
    (StableHlo.after hostOps3 W (Proc.devRef .tc main_v68) : FVec Ideal S_ .f32) ix0
      = Ideal.div (∑ r : Fin 4096, colAt (StableHlo.after hostOps3 W (Proc.devRef .tc main_v66)) r) (Ideal.ofBits .f32 0x45800000#32) := by
  refine (congrFun (ops3_v68 W) ix0).trans ?_
  rw [hostDivf_apply, hostReduceAdd_apply, Ideal.hostReduceAdd_total _ (fun b => b.elim0), constant_apply, constant_apply,
    Ideal.ofBits_zero_f32, zero_add, sum_idx2]
  refine congrArg (fun s : EReal => Ideal.div s (Ideal.ofBits .f32 0x45800000#32)) ?_
  refine Finset.sum_congr rfl fun r _ => ?_
  rw [Fin.sum_univ_one]

/-- The result: the mean over the tokens of the negated sum of the splits' contributions, each tail's under its mask. -/
theorem V25_v68 :
    (V25 m outs c main_v68 : FVec Ideal S_ .f32) ix0
      = Ideal.div (∑ r : Fin 4096,
          -( ((colAt (outs 8 main_v23_2 c) r - colAt (outs 8 main_v23_0 c) r) - colAt (outs 8 main_v23_1 c) r)
            + mask1 (aT m c (ix1 r)) * ((colAt (outs 16 main_v37_2 c) r - colAt (outs 16 main_v37_0 c) r) - colAt (outs 16 main_v37_1 c) r)
            + mask2 (aT m c (ix1 r)) * ((colAt (outs 24 main_v51_2 c) r - colAt (outs 24 main_v51_0 c) r) - colAt (outs 24 main_v51_1 c) r) ))
          (Ideal.ofBits .f32 0x45800000#32) := by
  refine (ops3_v68_apply (V24 m outs c)).trans ?_
  refine congrArg (fun s : EReal => Ideal.div s (Ideal.ofBits .f32 0x45800000#32)) ?_
  refine Finset.sum_congr rfl fun r _ => ?_
  rw [ops3_v66_apply (V24 m outs c) r, V24_v9_eq, V1_v9, V24_v25_eq, show V9 m outs c main_v25 = _ from ops1_v25 (V8 m outs c),
    V24_v39_eq, show V17 m outs c main_v39 = _ from ops2_v39 (V16 m outs c),
    V8_v23_0, V8_v23_1, V8_v23_2, V16_v37_0, V16_v37_1, V16_v37_2, V24_v51_0, V24_v51_1, V24_v51_2]
  rfl

end Cert.KernelIdeal.Hand
end
-- ==== Proof.KI.ResultCore.lean ====
/-
  From the regions' rows to the result: the host's final sum over the 4096 tokens of the three splits' combined
  log-probabilities, divided by 4096, is the specification's loss when each region's outputs are the maximum, the
  log-sum and the picked logit of the specification's rows.
-/
import proofs.«427234_j53386443489982_1_alg».proof.Proof.KI.ResultIn
import proofs.«427234_j53386443489982_1_alg».proof.Proof.KI.HostTail
import proofs.«427234_j53386443489982_1_alg».proof.Proof.LossRow

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (outs : Outs (F := Ideal)) (c : Dev nD) (hpre : Cert.Pre_KernelIdeal m)

/-! ## From the regions' rows to the result -/

include hpre in
/-- The nine per-row values of the three regions' outputs give the specification's loss. -/
theorem result_of_rows
    (h0 : ∀ r : Fin 4096,
        (outs 8 main_v23_0 c : S4096x1.Idx → EReal) (ix2 r 0) = Cert.Spec.rowMax (row0 m c r)
      ∧ (outs 8 main_v23_1 c : S4096x1.Idx → EReal) (ix2 r 0) = Ideal.log (Cert.Spec.rowSum (row0 m c r))
      ∧ (outs 8 main_v23_2 c : S4096x1.Idx → EReal) (ix2 r 0) = row0 m c r ⟨(idx0W (tW m c r)).toNat, idx0_lt m c hpre r⟩)
    (h1 : ∀ r : Fin 4096,
        (outs 16 main_v37_0 c : S4096x1.Idx → EReal) (ix2 r 0) = Cert.Spec.rowMax (row1 m c r)
      ∧ (outs 16 main_v37_1 c : S4096x1.Idx → EReal) (ix2 r 0) = Ideal.log (Cert.Spec.rowSum (row1 m c r))
      ∧ (outs 16 main_v37_2 c : S4096x1.Idx → EReal) (ix2 r 0) = row1 m c r ⟨(idx1W (tW m c r)).toNat, idx1_lt m c hpre r⟩)
    (h2 : ∀ r : Fin 4096,
        (outs 24 main_v51_0 c : S4096x1.Idx → EReal) (ix2 r 0) = Cert.Spec.rowMax (row2 m c r)
      ∧ (outs 24 main_v51_1 c : S4096x1.Idx → EReal) (ix2 r 0) = Ideal.log (Cert.Spec.rowSum (row2 m c r))
      ∧ (outs 24 main_v51_2 c : S4096x1.Idx → EReal) (ix2 r 0) = row2 m c r ⟨(idx2W (tW m c r)).toNat, idx2_lt m c hpre r⟩) :
    (V25 m outs c main_v68 : S_.Idx → EReal)
      = fun _ => Cert.Spec.lossOf (aW m c) (aB m c) (aH m c) (aT m c) (aTV m c) (aTB m c) := by
  funext j
  rw [eq_ix0 j, V25_v68]
  refine Cert.LossRow.loss_of_rows (sW m c) (sB m c) (sTV m c) (sTB m c) (sH m c) (sT m c) _ (fun r => ?_)
  have ht := tW_range m c hpre r
  -- the nine values named, so that only their equations are used
  have key : ∀ (M0 L0 G0 M1 L1 G1 M2 L2 G2 : EReal),
      M0 = Cert.Spec.rowMax (row0 m c r) → L0 = Ideal.log (Cert.Spec.rowSum (row0 m c r))
      → G0 = row0 m c r ⟨(idx0W (tW m c r)).toNat, idx0_lt m c hpre r⟩
      → M1 = Cert.Spec.rowMax (row1 m c r) → L1 = Ideal.log (Cert.Spec.rowSum (row1 m c r))
      → G1 = row1 m c r ⟨(idx1W (tW m c r)).toNat, idx1_lt m c hpre r⟩
      → M2 = Cert.Spec.rowMax (row2 m c r) → L2 = Ideal.log (Cert.Spec.rowSum (row2 m c r))
      → G2 = row2 m c r ⟨(idx2W (tW m c r)).toNat, idx2_lt m c hpre r⟩
      → -(((G0 - M0) - L0) + mask1 (tW m c r) * ((G1 - M1) - L1) + mask2 (tW m c r) * ((G2 - M2) - L2))
          = Cert.Spec.lossRow (sW m c) (sB m c) (sTV m c) (sTB m c) (sH m c) (sT m c) r := by
    intro M0 L0 G0 M1 L1 G1 M2 L2 G2 eM0 eL0 eG0 eM1 eL1 eG1 eM2 eL2 eG2
    rw [eM0, eL0, eM1, eL1, eM2, eL2]
    exact Cert.LossRow.kernel_row_vals (sW m c) (sB m c) (sTV m c) (sTB m c) (sH m c) (sT m c) r
      (mask1 (tW m c r)) (mask2 (tW m c r)) G0 G1 G2 (idx0W (tW m c r)).toNat (idx1W (tW m c r)).toNat (idx2W (tW m c r)).toNat
      (idx0_lt m c hpre r) (idx1_lt m c hpre r) (idx2_lt m c hpre r)
      (idx0W_toNat _ ht.1 ht.2) (idx1W_toNat _ ht.1 ht.2) (idx2W_toNat _ ht.1 ht.2)
      (mask1_eq _ ht.1 ht.2) (mask2_eq _ ht.1 ht.2) eG0 eG1 eG2
  exact key _ _ _ _ _ _ _ _ _ (h0 r).1 (h0 r).2.1 (h0 r).2.2 (h1 r).1 (h1 r).2.1 (h1 r).2.2 (h2 r).1 (h2 r).2.1 (h2 r).2.2

end Cert.KernelIdeal.Hand

end
-- ==== Proof.KI.Result.lean ====
/-
  The value of the kernel program at the exact-real instance: under the precondition, with the three regions' outputs
  the arrays their pipelines end with, the result buffer holds the specification's loss of the six argument arrays.
-/
import proofs.«427234_j53386443489982_1_alg».proof.Proof.KI.Result0
import proofs.«427234_j53386443489982_1_alg».proof.Proof.KI.Result1
import proofs.«427234_j53386443489982_1_alg».proof.Proof.KI.Result2
import proofs.«427234_j53386443489982_1_alg».proof.Proof.KI.ResultCore

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (hpre : Cert.Pre_KernelIdeal m) (c : Dev nD) (outs : Outs (F := Ideal))

include hpre in
theorem result_value
    (ho8 : outs 8 main_v23_0 c = (dat0 (fun c b => V7 m c b) c).arrAt 4 cfg0.N
      ∧ outs 8 main_v23_1 c = (dat0 (fun c b => V7 m c b) c).arrAt 5 cfg0.N
      ∧ outs 8 main_v23_2 c = (dat0 (fun c b => V7 m c b) c).arrAt 6 cfg0.N)
    (ho16 : outs 16 main_v37_0 c = (dat1 (fun c b => V15 m outs c b) c).arrAt 4 cfg1.N
      ∧ outs 16 main_v37_1 c = (dat1 (fun c b => V15 m outs c b) c).arrAt 5 cfg1.N
      ∧ outs 16 main_v37_2 c = (dat1 (fun c b => V15 m outs c b) c).arrAt 6 cfg1.N)
    (ho24 : outs 24 main_v51_0 c = (dat2 (fun c b => V23 m outs c b) c).arrAt 4 cfg2.N
      ∧ outs 24 main_v51_1 c = (dat2 (fun c b => V23 m outs c b) c).arrAt 5 cfg2.N
      ∧ outs 24 main_v51_2 c = (dat2 (fun c b => V23 m outs c b) c).arrAt 6 cfg2.N) :
    (V25 m outs c main_v68 : S_.Idx → EReal)
      = fun _ => Cert.Spec.lossOf (aW m c) (aB m c) (aH m c) (aT m c) (aTV m c) (aTB m c) :=
  result_of_rows m outs c hpre (region0_rows m outs c hpre ho8) (region1_rows m outs c hpre ho16) (region2_rows m outs c hpre ho24)

end Cert.KernelIdeal.Hand

end
-- ==== Proof.Ref.RunA1.lean ====
/-
  Operations 1 … 14 of the reference's @main, from any buffer contents: the buffers they leave alone keep their
  contents, and each result that a later operation reads holds its stage (the reading module's function of the six
  arguments), provided the buffers read from before hold theirs.
-/
import proofs.«427234_j53386443489982_1_alg».proof.Proof.Ref.RunOps
import proofs.«427234_j53386443489982_1_alg».proof.Proof.Ref.ReadP

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffers these operations write. -/
abbrev opsA1_W : List (Ref sig .tc) := [main_v0, main_c, main_v1, main_c_0, main_v2, main_v3, main_v4, main_v5, main_c_1, main_v6, main_v7, main_v8, main_v9, main_v10]

set_option maxRecDepth 16384 in
theorem opsA1_writes : (opsA1 : List (HloOp τ sig (Elt F))).Forall fun op =>
    op.writes ⊆ (opsA1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepA1 (V : Valuation τ sig (Elt F)) (r : Ref sig .tc) (h : r ∉ opsA1_W) :
    after opsA1 V (Proc.devRef .tc r) = V (Proc.devRef .tc r) := by
  exact after_of_writes_sub opsA1 _ opsA1_writes h

set_option maxRecDepth 16384 in
set_option maxHeartbeats 1400000 in
theorem cA1_v0 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_arg2 : V (Proc.devRef .tc main_arg2) = x2)
    (h_arg3 : V (Proc.devRef .tc main_arg3) = x3)
    (h_arg0 : V (Proc.devRef .tc main_arg0) = x0) :
    after opsA1 V (Proc.devRef .tc main_v0) = val_main_v0 (F := F) x2 := by
  simp only [opsA1]
  after_results_simp
  all_goals (try simp only [h_arg2, h_arg3, h_arg0])
  all_goals (repeat (first | rw [h_arg2] | rw [h_arg3] | rw [h_arg0]))
  all_goals rfl

set_option maxRecDepth 16384 in
set_option maxHeartbeats 1400000 in
theorem cA1_v9 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_arg2 : V (Proc.devRef .tc main_arg2) = x2)
    (h_arg3 : V (Proc.devRef .tc main_arg3) = x3)
    (h_arg0 : V (Proc.devRef .tc main_arg0) = x0) :
    after opsA1 V (Proc.devRef .tc main_v9) = val_main_v9 (F := F) x3 := by
  simp only [opsA1]
  after_results_simp
  all_goals (try simp only [h_arg2, h_arg3, h_arg0])
  all_goals (repeat (first | rw [h_arg2] | rw [h_arg3] | rw [h_arg0]))
  all_goals rfl

set_option maxRecDepth 16384 in
set_option maxHeartbeats 1400000 in
theorem cA1_v10 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_arg2 : V (Proc.devRef .tc main_arg2) = x2)
    (h_arg3 : V (Proc.devRef .tc main_arg3) = x3)
    (h_arg0 : V (Proc.devRef .tc main_arg0) = x0) :
    after opsA1 V (Proc.devRef .tc main_v10) = val_main_v10 (F := F) x0 := by
  simp only [opsA1]
  after_results_simp
  all_goals (try simp only [h_arg2, h_arg3, h_arg0])
  all_goals (repeat (first | rw [h_arg2] | rw [h_arg3] | rw [h_arg0]))
  all_goals rfl

end Cert.ReferenceIdeal.RunP

end
-- ==== Proof.Ref.RunA2.lean ====
/-
  Operations 15 … 16 of the reference's @main, from any buffer contents: the buffers they leave alone keep their
  contents, and each result that a later operation reads holds its stage (the reading module's function of the six
  arguments), provided the buffers read from before hold theirs.
-/
import proofs.«427234_j53386443489982_1_alg».proof.Proof.Ref.RunOps
import proofs.«427234_j53386443489982_1_alg».proof.Proof.Ref.ReadP

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffers these operations write. -/
abbrev opsA2_W : List (Ref sig .tc) := [main_v11, main_v12]

set_option maxRecDepth 16384 in
theorem opsA2_writes : (opsA2 : List (HloOp τ sig (Elt F))).Forall fun op =>
    op.writes ⊆ (opsA2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepA2 (V : Valuation τ sig (Elt F)) (r : Ref sig .tc) (h : r ∉ opsA2_W) :
    after opsA2 V (Proc.devRef .tc r) = V (Proc.devRef .tc r) := by
  exact after_of_writes_sub opsA2 _ opsA2_writes h

set_option maxRecDepth 16384 in
set_option maxHeartbeats 400000 in
theorem cA2_v11 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_v10 : V (Proc.devRef .tc main_v10) = val_main_v10 (F := F) x0)
    (h_arg4 : V (Proc.devRef .tc main_arg4) = x4)
    (h_arg1 : V (Proc.devRef .tc main_arg1) = x1) :
    after opsA2 V (Proc.devRef .tc main_v11) = val_main_v11 (F := F) x0 x4 := by
  simp only [opsA2]
  after_results_simp
  all_goals (try simp only [h_v10, h_arg4, h_arg1])
  all_goals (repeat (first | rw [h_v10] | rw [h_arg4] | rw [h_arg1]))
  all_goals rfl

set_option maxRecDepth 16384 in
set_option maxHeartbeats 400000 in
theorem cA2_v12 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_v10 : V (Proc.devRef .tc main_v10) = val_main_v10 (F := F) x0)
    (h_arg4 : V (Proc.devRef .tc main_arg4) = x4)
    (h_arg1 : V (Proc.devRef .tc main_arg1) = x1) :
    after opsA2 V (Proc.devRef .tc main_v12) = val_main_v12 (F := F) x1 := by
  simp only [opsA2]
  after_results_simp
  all_goals (try simp only [h_v10, h_arg4, h_arg1])
  all_goals (repeat (first | rw [h_v10] | rw [h_arg4] | rw [h_arg1]))
  all_goals rfl

end Cert.ReferenceIdeal.RunP

end
-- ==== Proof.Ref.RunT.lean ====
/-
  The operations of an inlined function, written over typed references whose types are the buffers' own, are the plain
  operations over the buffers: the transports along the type equations are the identity. Stated for an arbitrary
  function, so that nothing of the function is unfolded.
-/
import Idealize.ShloMosaic.Lib.StableHlo.Run

namespace Cert.ReferenceIdeal.RunP

open Idealize.ShloMosaic Idealize.ShloMosaic.StableHlo

variable {τ : Topo} {sig : RefSig} {Val : EltTy → Type}

theorem cons_congr {α : Type} {a a' : α} {l l' : List α} (h : a = a') (hl : l = l') : a :: l = a' :: l' := by
  rw [h, hl]

theorem tnullary_eq (y : Ref sig .tc) (dy : y.space ≠ .host) (uy : y.isScoped = false) (v : y.ty.Contents Val) :
    (TRef.nullary (TRef.of (T := y.ty) y rfl dy uy) v : HloOp τ sig Val)
      = StableHlo.nullary y v (TRef.dev (TRef.of (T := y.ty) y rfl dy uy)) := rfl

theorem tunary_eq (x y : Ref sig .tc) (dx : x.space ≠ .host) (ux : x.isScoped = false) (dy : y.space ≠ .host)
    (uy : y.isScoped = false) (f : x.ty.Contents Val → y.ty.Contents Val) :
    (TRef.unary (TRef.of (T := x.ty) x rfl dx ux) (TRef.of (T := y.ty) y rfl dy uy) f : HloOp τ sig Val)
      = StableHlo.unary x y f (TRef.dev (TRef.of (T := x.ty) x rfl dx ux)) (TRef.dev (TRef.of (T := y.ty) y rfl dy uy)) := rfl

theorem tbinary_eq (a b y : Ref sig .tc) (da : a.space ≠ .host) (ua : a.isScoped = false) (db : b.space ≠ .host)
    (ub : b.isScoped = false) (dy : y.space ≠ .host) (uy : y.isScoped = false)
    (f : a.ty.Contents Val → b.ty.Contents Val → y.ty.Contents Val) :
    (TRef.binary (TRef.of (T := a.ty) a rfl da ua) (TRef.of (T := b.ty) b rfl db ub) (TRef.of (T := y.ty) y rfl dy uy) f
        : HloOp τ sig Val)
      = StableHlo.binary a b y f (TRef.dev (TRef.of (T := a.ty) a rfl da ua)) (TRef.dev (TRef.of (T := b.ty) b rfl db ub))
          (TRef.dev (TRef.of (T := y.ty) y rfl dy uy)) := rfl

theorem tternary_eq (c a b y : Ref sig .tc) (dc : c.space ≠ .host) (uc : c.isScoped = false) (da : a.space ≠ .host)
    (ua : a.isScoped = false) (db : b.space ≠ .host) (ub : b.isScoped = false) (dy : y.space ≠ .host)
    (uy : y.isScoped = false) (f : c.ty.Contents Val → a.ty.Contents Val → b.ty.Contents Val → y.ty.Contents Val) :
    (TRef.ternary (TRef.of (T := c.ty) c rfl dc uc) (TRef.of (T := a.ty) a rfl da ua) (TRef.of (T := b.ty) b rfl db ub)
        (TRef.of (T := y.ty) y rfl dy uy) f : HloOp τ sig Val)
      = StableHlo.ternary c a b y f (TRef.dev (TRef.of (T := c.ty) c rfl dc uc)) (TRef.dev (TRef.of (T := a.ty) a rfl da ua))
          (TRef.dev (TRef.of (T := b.ty) b rfl db ub)) (TRef.dev (TRef.of (T := y.ty) y rfl dy uy)) := rfl

end Cert.ReferenceIdeal.RunP
-- ==== Proof.Ref.RunA3.lean ====
/-
  Operations 17 … 37 of the reference's @main, from any buffer contents: the buffers they leave alone keep their
  contents, and each result that a later operation reads holds its stage (the reading module's function of the six
  arguments), provided the buffers read from before hold theirs.
  The operations of the inlined functions are first restated over plain buffers: their typed references' transports are
  the identity, so the two lists are one list.
-/
import proofs.«427234_j53386443489982_1_alg».proof.Proof.Ref.RunOps
import proofs.«427234_j53386443489982_1_alg».proof.Proof.Ref.ReadP
import proofs.«427234_j53386443489982_1_alg».proof.Proof.Ref.RunT

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The same operations over plain buffers. -/
abbrev opsA3' : List (HloOp τ sig (Elt F)) :=
  [ binary main_v12 main_arg5 main_v13 ((fun a b => concatenate S4002 0 [⟨S4000, a⟩, ⟨S2, b⟩] concatenates_S4000_S2_S4002_d0) : (⟨S4000, .f32⟩ : BufTy).Contents (Elt F) → (⟨S2, .f32⟩ : BufTy).Contents (Elt F) → (⟨S4002, .f32⟩ : BufTy).Contents (Elt F)),
    unary main_v11 main_v14 ((transpose S1024x4002 [1, 0] · transposes_S4002x1024_S1024x4002_1_0) : (⟨S4002x1024, .f32⟩ : BufTy).Contents (Elt F) → (⟨S1024x4002, .f32⟩ : BufTy).Contents (Elt F)),
    binary main_v0 main_v14 main_v15 ((fun l r => Host.dotGeneral dot_S4096x1024_S1024x4002_S4096x4002_1_0_0_1_n_n none l r) : (⟨S4096x1024, .f32⟩ : BufTy).Contents (Elt F) → (⟨S1024x4002, .f32⟩ : BufTy).Contents (Elt F) → (⟨S4096x4002, .f32⟩ : BufTy).Contents (Elt F)),
    unary main_v13 main_v16 (broadcastInDim S1x4002 ![1] bcast_S4002_S1x4002_1 : (⟨S4002, .f32⟩ : BufTy).Contents (Elt F) → (⟨S1x4002, .f32⟩ : BufTy).Contents (Elt F)),
    unary main_v16 main_v17 (broadcastInDim S4096x4002 ![0, 1] bcast_S1x4002_S4096x4002_0_1 : (⟨S1x4002, .f32⟩ : BufTy).Contents (Elt F) → (⟨S4096x4002, .f32⟩ : BufTy).Contents (Elt F)),
    binary main_v15 main_v17 main_v18 (addf : (⟨S4096x4002, .f32⟩ : BufTy).Contents (Elt F) → (⟨S4096x4002, .f32⟩ : BufTy).Contents (Elt F) → (⟨S4096x4002, .f32⟩ : BufTy).Contents (Elt F)),
    nullary main_call0_cst ((constant S_ .f32 0xFF800000#32) : (⟨S_, .f32⟩ : BufTy).Contents (Elt F)),
    binary main_v18 main_call0_cst main_call0_v0 ((fun x v => Host.reduce FloatOps.maximumf x v reducesTo_S4096x4002_S4096_d1 h_S_) : (⟨S4096x4002, .f32⟩ : BufTy).Contents (Elt F) → (⟨S_, .f32⟩ : BufTy).Contents (Elt F) → (⟨S4096, .f32⟩ : BufTy).Contents (Elt F)),
    nullary main_call0_cst_0 ((constant S_ .f32 0xFF800000#32) : (⟨S_, .f32⟩ : BufTy).Contents (Elt F)),
    unary main_call0_cst_0 main_call0_v1 ((broadcastInDim S4096 ![] bcast_S_S4096) : (⟨S_, .f32⟩ : BufTy).Contents (Elt F) → (⟨S4096, .f32⟩ : BufTy).Contents (Elt F)),
    binary main_call0_v1 main_call0_v0 main_call0_v2 (maximumf : (⟨S4096, .f32⟩ : BufTy).Contents (Elt F) → (⟨S4096, .f32⟩ : BufTy).Contents (Elt F) → (⟨S4096, .f32⟩ : BufTy).Contents (Elt F)),
    unary main_call0_v2 main_call0_v3 ((broadcastInDim S4096x1 ![0] bcast_S4096_S4096x1_0) : (⟨S4096, .f32⟩ : BufTy).Contents (Elt F) → (⟨S4096x1, .f32⟩ : BufTy).Contents (Elt F)),
    unary main_call0_v3 main_call0_v4 ((broadcastInDim S4096x4002 ![0, 1] bcast_S4096x1_S4096x4002_0_1) : (⟨S4096x1, .f32⟩ : BufTy).Contents (Elt F) → (⟨S4096x4002, .f32⟩ : BufTy).Contents (Elt F)),
    binary main_v18 main_call0_v4 main_call0_v5 (subf : (⟨S4096x4002, .f32⟩ : BufTy).Contents (Elt F) → (⟨S4096x4002, .f32⟩ : BufTy).Contents (Elt F) → (⟨S4096x4002, .f32⟩ : BufTy).Contents (Elt F)),
    unary main_call0_v5 main_call0_v6 (Host.exp : (⟨S4096x4002, .f32⟩ : BufTy).Contents (Elt F) → (⟨S4096x4002, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S4096x4002_S4096_d1 h_S_) : (⟨S4096x4002, .f32⟩ : BufTy).Contents (Elt F) → (⟨S_, .f32⟩ : BufTy).Contents (Elt F) → (⟨S4096, .f32⟩ : BufTy).Contents (Elt F)),
    unary main_call0_v7 main_call0_v8 ((broadcastInDim S4096x1 ![0] bcast_S4096_S4096x1_0) : (⟨S4096, .f32⟩ : BufTy).Contents (Elt F) → (⟨S4096x1, .f32⟩ : BufTy).Contents (Elt F)),
    unary main_call0_v8 main_call0_v9 (Host.log : (⟨S4096x1, .f32⟩ : BufTy).Contents (Elt F) → (⟨S4096x1, .f32⟩ : BufTy).Contents (Elt F)),
    unary main_call0_v9 main_call0_v10 ((broadcastInDim S4096x4002 ![0, 1] bcast_S4096x1_S4096x4002_0_1) : (⟨S4096x1, .f32⟩ : BufTy).Contents (Elt F) → (⟨S4096x4002, .f32⟩ : BufTy).Contents (Elt F)),
    binary main_call0_v5 main_call0_v10 main_v19 (subf : (⟨S4096x4002, .f32⟩ : BufTy).Contents (Elt F) → (⟨S4096x4002, .f32⟩ : BufTy).Contents (Elt F) → (⟨S4096x4002, .f32⟩ : BufTy).Contents (Elt F)) ]

set_option maxRecDepth 16384 in
set_option maxHeartbeats 1000000 in
theorem opsA3_eq : (opsA3 : List (HloOp τ sig (Elt F))) = opsA3' :=
  cons_congr rfl
    (cons_congr rfl
    (cons_congr rfl
    (cons_congr rfl
    (cons_congr rfl
    (cons_congr rfl
    (cons_congr (tnullary_eq main_call0_cst _ _ _)
    (cons_congr (tbinary_eq main_v18 main_call0_cst main_call0_v0 _ _ _ _ _ _ _)
    (cons_congr (tnullary_eq main_call0_cst_0 _ _ _)
    (cons_congr (tunary_eq main_call0_cst_0 main_call0_v1 _ _ _ _ _)
    (cons_congr (tbinary_eq main_call0_v1 main_call0_v0 main_call0_v2 _ _ _ _ _ _ _)
    (cons_congr (tunary_eq main_call0_v2 main_call0_v3 _ _ _ _ _)
    (cons_congr (tunary_eq main_call0_v3 main_call0_v4 _ _ _ _ _)
    (cons_congr (tbinary_eq main_v18 main_call0_v4 main_call0_v5 _ _ _ _ _ _ _)
    (cons_congr (tunary_eq main_call0_v5 main_call0_v6 _ _ _ _ _)
    (cons_congr (tnullary_eq main_call0_cst_1 _ _ _)
    (cons_congr (tbinary_eq main_call0_v6 main_call0_cst_1 main_call0_v7 _ _ _ _ _ _ _)
    (cons_congr (tunary_eq main_call0_v7 main_call0_v8 _ _ _ _ _)
    (cons_congr (tunary_eq main_call0_v8 main_call0_v9 _ _ _ _ _)
    (cons_congr (tunary_eq main_call0_v9 main_call0_v10 _ _ _ _ _)
    (cons_congr (tbinary_eq main_call0_v5 main_call0_v10 main_v19 _ _ _ _ _ _ _)
    (rfl)))))))))))))))))))))

/-- The buffers these operations write. -/
abbrev opsA3_W : List (Ref sig .tc) := [main_v13, main_v14, main_v15, main_v16, main_v17, main_v18, main_call0_cst, main_call0_v0, main_call0_cst_0, main_call0_v1, main_call0_v2, main_call0_v3, main_call0_v4, main_call0_v5, main_call0_v6, main_call0_cst_1, main_call0_v7, main_call0_v8, main_call0_v9, main_call0_v10, main_v19]

set_option maxRecDepth 16384 in
theorem opsA3_writes : (opsA3' : List (HloOp τ sig (Elt F))).Forall fun op =>
    op.writes ⊆ (opsA3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepA3 (V : Valuation τ sig (Elt F)) (r : Ref sig .tc) (h : r ∉ opsA3_W) :
    after opsA3 V (Proc.devRef .tc r) = V (Proc.devRef .tc r) := by
  rw [opsA3_eq]
  exact after_of_writes_sub opsA3' _ opsA3_writes h

set_option maxRecDepth 16384 in
set_option maxHeartbeats 2100000 in
theorem cA3_v19 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_v12 : V (Proc.devRef .tc main_v12) = val_main_v12 (F := F) x1)
    (h_arg5 : V (Proc.devRef .tc main_arg5) = x5)
    (h_v11 : V (Proc.devRef .tc main_v11) = val_main_v11 (F := F) x0 x4)
    (h_v0 : V (Proc.devRef .tc main_v0) = val_main_v0 (F := F) x2) :
    after opsA3 V (Proc.devRef .tc main_v19) = val_main_v19 (F := F) x0 x1 x2 x4 x5 := by
  rw [opsA3_eq]
  simp only [opsA3']
  after_results_simp
  all_goals (try simp only [h_v12, h_arg5, h_v11, h_v0])
  all_goals (repeat (first | rw [h_v12] | rw [h_arg5] | rw [h_v11] | rw [h_v0]))
  all_goals rfl

end Cert.ReferenceIdeal.RunP

end
-- ==== Proof.Ref.RunB.lean ====
/-
  Operations 38 … 76 of the reference's @main, from any buffer contents: the buffers they leave alone keep their
  contents, and each result that a later operation reads holds its stage (the reading module's function of the six
  arguments), provided the buffers read from before hold theirs.
  The operations of the inlined functions are first restated over plain buffers: their typed references' transports are
  the identity, so the two lists are one list.
-/
import proofs.«427234_j53386443489982_1_alg».proof.Proof.Ref.RunOps
import proofs.«427234_j53386443489982_1_alg».proof.Proof.Ref.ReadP
import proofs.«427234_j53386443489982_1_alg».proof.Proof.Ref.RunT

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The same operations over plain buffers. -/
abbrev opsB' : List (HloOp τ sig (Elt F)) :=
  [ nullary main_c_2 (constantI S_ 32 0#32),
    unary main_c_2 main_v20 (broadcastInDim S4096 ![] bcast_S_S4096 : (⟨S_, .i32⟩ : BufTy).Contents (Elt F) → (⟨S4096, .i32⟩ : BufTy).Contents (Elt F)),
    binary main_v9 main_v20 main_v21 (cmpi .eq : (⟨S4096, .i32⟩ : BufTy).Contents (Elt F) → (⟨S4096, .i32⟩ : BufTy).Contents (Elt F) → (⟨S4096, .i1⟩ : BufTy).Contents (Elt F)),
    nullary main_c_3 (constantI S_ 32 0#32),
    unary main_c_3 main_call1_v0 (id : (⟨S_, .i32⟩ : BufTy).Contents (Elt F) → (⟨S_, .i32⟩ : BufTy).Contents (Elt F)),
    unary main_call1_v0 main_call1_v1 ((broadcastInDim S4096 ![] bcast_S_S4096) : (⟨S_, .i32⟩ : BufTy).Contents (Elt F) → (⟨S4096, .i32⟩ : BufTy).Contents (Elt F)),
    ternary main_v21 main_arg3 main_call1_v1 main_v22 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v22 main_v23 (broadcastInDim S4096x1 ![0] bcast_S4096_S4096x1_0 : (⟨S4096, .i32⟩ : BufTy).Contents (Elt F) → (⟨S4096x1, .i32⟩ : BufTy).Contents (Elt F)),
    nullary main_call2_c ((constantI S_ 32 0#32) : (⟨S_, .i32⟩ : BufTy).Contents (Elt F)),
    unary main_call2_c main_call2_v0 ((broadcastInDim S4096x1 ![] bcast_S_S4096x1) : (⟨S_, .i32⟩ : BufTy).Contents (Elt F) → (⟨S4096x1, .i32⟩ : BufTy).Contents (Elt F)),
    binary main_v23 main_call2_v0 main_call2_v1 ((cmpi .slt) : (⟨S4096x1, .i32⟩ : BufTy).Contents (Elt F) → (⟨S4096x1, .i32⟩ : BufTy).Contents (Elt F) → (⟨S4096x1, .i1⟩ : BufTy).Contents (Elt F)),
    nullary main_call2_c_0 ((constantI S_ 32 4002#32) : (⟨S_, .i32⟩ : BufTy).Contents (Elt F)),
    unary main_call2_c_0 main_call2_v2 ((broadcastInDim S4096x1 ![] bcast_S_S4096x1) : (⟨S_, .i32⟩ : BufTy).Contents (Elt F) → (⟨S4096x1, .i32⟩ : BufTy).Contents (Elt F)),
    binary main_v23 main_call2_v2 main_call2_v3 (addi : (⟨S4096x1, .i32⟩ : BufTy).Contents (Elt F) → (⟨S4096x1, .i32⟩ : BufTy).Contents (Elt F) → (⟨S4096x1, .i32⟩ : BufTy).Contents (Elt F)),
    ternary main_call2_v1 main_call2_v3 main_v23 main_call2_v4 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    reshape main_call2_v4 main_call2_v5 rfl shapeCasts_S4096x1_S4096x1x1,
    nullary main_call2_c_1 ((constantI S1 32 4001#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S4096x1x1 ![] bcast_S_S4096x1x1) : (⟨S_, .i32⟩ : BufTy).Contents (Elt F) → (⟨S4096x1x1, .i32⟩ : BufTy).Contents (Elt F)),
    binary main_call2_v5 main_call2_v6 main_call2_v7 ((cmpi .sge) : (⟨S4096x1x1, .i32⟩ : BufTy).Contents (Elt F) → (⟨S4096x1x1, .i32⟩ : BufTy).Contents (Elt F) → (⟨S4096x1x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S4096x1x1 ![0, 1, 2] bcast_S1x1x1_S4096x1x1_0_1_2) : (⟨S1x1x1, .i32⟩ : BufTy).Contents (Elt F) → (⟨S4096x1x1, .i32⟩ : BufTy).Contents (Elt F)),
    binary main_call2_v5 main_call2_v9 main_call2_v10 ((cmpi .sle) : (⟨S4096x1x1, .i32⟩ : BufTy).Contents (Elt F) → (⟨S4096x1x1, .i32⟩ : BufTy).Contents (Elt F) → (⟨S4096x1x1, .i1⟩ : BufTy).Contents (Elt F)),
    binary main_call2_v7 main_call2_v10 main_call2_v11 (andi : (⟨S4096x1x1, .i1⟩ : BufTy).Contents (Elt F) → (⟨S4096x1x1, .i1⟩ : BufTy).Contents (Elt F) → (⟨S4096x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S4096x1x1_S4096x1_d2 h_S_) : (⟨S4096x1x1, .i1⟩ : BufTy).Contents (Elt F) → (⟨S_, .i1⟩ : BufTy).Contents (Elt F) → (⟨S4096x1, .i1⟩ : BufTy).Contents (Elt F)),
    binary main_v19 main_call2_v5 main_call2_v13 ((fun x i => Host.gather gather_S4096x4002_S4096x1x1_S4096x1_n_1_0_0_1_2_11 x i) : (⟨S4096x4002, .f32⟩ : BufTy).Contents (Elt F) → (⟨S4096x1x1, .i32⟩ : BufTy).Contents (Elt F) → (⟨S4096x1, .f32⟩ : BufTy).Contents (Elt F)),
    nullary main_call2_cst ((constant S_ .f32 0x7FC00000#32) : (⟨S_, .f32⟩ : BufTy).Contents (Elt F)),
    unary main_call2_cst main_call2_v14 ((broadcastInDim S4096x1 ![] bcast_S_S4096x1) : (⟨S_, .f32⟩ : BufTy).Contents (Elt F) → (⟨S4096x1, .f32⟩ : BufTy).Contents (Elt F)),
    ternary main_call2_v12 main_call2_v13 main_call2_v14 main_v24 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    reshape main_v24 main_v25 rfl shapeCasts_S4096x1_S4096,
    nullary main_c_4 (constantI S_ 32 0#32),
    unary main_c_4 main_v26 (broadcastInDim S4096 ![] bcast_S_S4096 : (⟨S_, .i32⟩ : BufTy).Contents (Elt F) → (⟨S4096, .i32⟩ : BufTy).Contents (Elt F)),
    binary main_v9 main_v26 main_v27 (cmpi .eq : (⟨S4096, .i32⟩ : BufTy).Contents (Elt F) → (⟨S4096, .i32⟩ : BufTy).Contents (Elt F) → (⟨S4096, .i1⟩ : BufTy).Contents (Elt F)),
    unary main_v25 main_v28 (Host.negf : (⟨S4096, .f32⟩ : BufTy).Contents (Elt F) → (⟨S4096, .f32⟩ : BufTy).Contents (Elt F)),
    nullary main_cst (constant S_ .f32 0x00000000#32),
    unary main_cst main_call3_v0 (id : (⟨S_, .f32⟩ : BufTy).Contents (Elt F) → (⟨S_, .f32⟩ : BufTy).Contents (Elt F)),
    unary main_call3_v0 main_call3_v1 ((broadcastInDim S4096 ![] bcast_S_S4096) : (⟨S_, .f32⟩ : BufTy).Contents (Elt F) → (⟨S4096, .f32⟩ : BufTy).Contents (Elt F)),
    ternary main_v27 main_v28 main_call3_v1 main_v29 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) ]

set_option maxRecDepth 16384 in
set_option maxHeartbeats 1000000 in
theorem opsB_eq : (opsB : List (HloOp τ sig (Elt F))) = opsB' :=
  cons_congr rfl
    (cons_congr rfl
    (cons_congr rfl
    (cons_congr rfl
    (cons_congr (tunary_eq main_c_3 main_call1_v0 _ _ _ _ _)
    (cons_congr (tunary_eq main_call1_v0 main_call1_v1 _ _ _ _ _)
    (cons_congr (tternary_eq main_v21 main_arg3 main_call1_v1 main_v22 _ _ _ _ _ _ _ _ _)
    (cons_congr rfl
    (cons_congr (tnullary_eq main_call2_c _ _ _)
    (cons_congr (tunary_eq main_call2_c main_call2_v0 _ _ _ _ _)
    (cons_congr (tbinary_eq main_v23 main_call2_v0 main_call2_v1 _ _ _ _ _ _ _)
    (cons_congr (tnullary_eq main_call2_c_0 _ _ _)
    (cons_congr (tunary_eq main_call2_c_0 main_call2_v2 _ _ _ _ _)
    (cons_congr (tbinary_eq main_v23 main_call2_v2 main_call2_v3 _ _ _ _ _ _ _)
    (cons_congr (tternary_eq main_call2_v1 main_call2_v3 main_v23 main_call2_v4 _ _ _ _ _ _ _ _ _)
    (cons_congr rfl
    (cons_congr (tnullary_eq main_call2_c_1 _ _ _)
    (cons_congr (tnullary_eq main_call2_c_2 _ _ _)
    (cons_congr (tunary_eq main_call2_c_2 main_call2_v6 _ _ _ _ _)
    (cons_congr (tbinary_eq main_call2_v5 main_call2_v6 main_call2_v7 _ _ _ _ _ _ _)
    (cons_congr (tunary_eq main_call2_c_1 main_call2_v8 _ _ _ _ _)
    (cons_congr (tunary_eq main_call2_v8 main_call2_v9 _ _ _ _ _)
    (cons_congr (tbinary_eq main_call2_v5 main_call2_v9 main_call2_v10 _ _ _ _ _ _ _)
    (cons_congr (tbinary_eq main_call2_v7 main_call2_v10 main_call2_v11 _ _ _ _ _ _ _)
    (cons_congr (tnullary_eq main_call2_c_3 _ _ _)
    (cons_congr (tbinary_eq main_call2_v11 main_call2_c_3 main_call2_v12 _ _ _ _ _ _ _)
    (cons_congr (tbinary_eq main_v19 main_call2_v5 main_call2_v13 _ _ _ _ _ _ _)
    (cons_congr (tnullary_eq main_call2_cst _ _ _)
    (cons_congr (tunary_eq main_call2_cst main_call2_v14 _ _ _ _ _)
    (cons_congr (tternary_eq main_call2_v12 main_call2_v13 main_call2_v14 main_v24 _ _ _ _ _ _ _ _ _)
    (cons_congr rfl
    (cons_congr rfl
    (cons_congr rfl
    (cons_congr rfl
    (cons_congr rfl
    (cons_congr rfl
    (cons_congr (tunary_eq main_cst main_call3_v0 _ _ _ _ _)
    (cons_congr (tunary_eq main_call3_v0 main_call3_v1 _ _ _ _ _)
    (cons_congr (tternary_eq main_v27 main_v28 main_call3_v1 main_v29 _ _ _ _ _ _ _ _ _)
    (rfl)))))))))))))))))))))))))))))))))))))))

/-- The buffers these operations write. -/
abbrev opsB_W : List (Ref sig .tc) := [main_c_2, main_v20, main_v21, main_c_3, main_call1_v0, main_call1_v1, main_v22, main_v23, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v24, main_v25, main_c_4, main_v26, main_v27, main_v28, main_cst, main_call3_v0, main_call3_v1, main_v29]

set_option maxRecDepth 16384 in
theorem opsB_writes : (opsB' : List (HloOp τ sig (Elt F))).Forall fun op =>
    op.writes ⊆ (opsB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepB (V : Valuation τ sig (Elt F)) (r : Ref sig .tc) (h : r ∉ opsB_W) :
    after opsB V (Proc.devRef .tc r) = V (Proc.devRef .tc r) := by
  rw [opsB_eq]
  exact after_of_writes_sub opsB' _ opsB_writes h

set_option maxRecDepth 16384 in
set_option maxHeartbeats 3900000 in
theorem cB_v29 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_v9 : V (Proc.devRef .tc main_v9) = val_main_v9 (F := F) x3)
    (h_arg3 : V (Proc.devRef .tc main_arg3) = x3)
    (h_v19 : V (Proc.devRef .tc main_v19) = val_main_v19 (F := F) x0 x1 x2 x4 x5) :
    after opsB V (Proc.devRef .tc main_v29) = val_main_v29 (F := F) x0 x1 x2 x3 x4 x5 := by
  rw [opsB_eq]
  simp only [opsB']
  after_results_simp
  all_goals (try simp only [h_v9, h_arg3, h_v19])
  all_goals (repeat (first | rw [h_v9] | rw [h_arg3] | rw [h_v19]))
  all_goals rfl

end Cert.ReferenceIdeal.RunP

end
-- ==== Proof.Ref.RunC.lean ====
/-
  Operations 77 … 98 of the reference's @main, from any buffer contents: the buffers they leave alone keep their
  contents, and each result that a later operation reads holds its stage (the reading module's function of the six
  arguments), provided the buffers read from before hold theirs.
  The operations of the inlined functions are first restated over plain buffers: their typed references' transports are
  the identity, so the two lists are one list.
-/
import proofs.«427234_j53386443489982_1_alg».proof.Proof.Ref.RunOps
import proofs.«427234_j53386443489982_1_alg».proof.Proof.Ref.ReadP
import proofs.«427234_j53386443489982_1_alg».proof.Proof.Ref.RunT

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The same operations over plain buffers. -/
abbrev opsC' : List (HloOp τ sig (Elt F)) :=
  [ unary main_arg0 main_v30 ((extractStridedSlice S16000x1024 ![4000, 0] · slices_S50000x1024_S16000x1024_4000_0) : (⟨S50000x1024, .f32⟩ : BufTy).Contents (Elt F) → (⟨S16000x1024, .f32⟩ : BufTy).Contents (Elt F)),
    unary main_v30 main_v31 ((transpose S1024x16000 [1, 0] · transposes_S16000x1024_S1024x16000_1_0) : (⟨S16000x1024, .f32⟩ : BufTy).Contents (Elt F) → (⟨S1024x16000, .f32⟩ : BufTy).Contents (Elt F)),
    binary main_v0 main_v31 main_v32 ((fun l r => Host.dotGeneral dot_S4096x1024_S1024x16000_S4096x16000_1_0_0_1_n_n none l r) : (⟨S4096x1024, .f32⟩ : BufTy).Contents (Elt F) → (⟨S1024x16000, .f32⟩ : BufTy).Contents (Elt F) → (⟨S4096x16000, .f32⟩ : BufTy).Contents (Elt F)),
    unary main_arg1 main_v33 ((extractStridedSlice S16000 ![4000] · slices_S50000_S16000_4000) : (⟨S50000, .f32⟩ : BufTy).Contents (Elt F) → (⟨S16000, .f32⟩ : BufTy).Contents (Elt F)),
    unary main_v33 main_v34 (broadcastInDim S1x16000 ![1] bcast_S16000_S1x16000_1 : (⟨S16000, .f32⟩ : BufTy).Contents (Elt F) → (⟨S1x16000, .f32⟩ : BufTy).Contents (Elt F)),
    unary main_v34 main_v35 (broadcastInDim S4096x16000 ![0, 1] bcast_S1x16000_S4096x16000_0_1 : (⟨S1x16000, .f32⟩ : BufTy).Contents (Elt F) → (⟨S4096x16000, .f32⟩ : BufTy).Contents (Elt F)),
    binary main_v32 main_v35 main_v36 (addf : (⟨S4096x16000, .f32⟩ : BufTy).Contents (Elt F) → (⟨S4096x16000, .f32⟩ : BufTy).Contents (Elt F) → (⟨S4096x16000, .f32⟩ : BufTy).Contents (Elt F)),
    nullary main_call4_cst ((constant S_ .f32 0xFF800000#32) : (⟨S_, .f32⟩ : BufTy).Contents (Elt F)),
    binary main_v36 main_call4_cst main_call4_v0 ((fun x v => Host.reduce FloatOps.maximumf x v reducesTo_S4096x16000_S4096_d1 h_S_) : (⟨S4096x16000, .f32⟩ : BufTy).Contents (Elt F) → (⟨S_, .f32⟩ : BufTy).Contents (Elt F) → (⟨S4096, .f32⟩ : BufTy).Contents (Elt F)),
    nullary main_call4_cst_0 ((constant S_ .f32 0xFF800000#32) : (⟨S_, .f32⟩ : BufTy).Contents (Elt F)),
    unary main_call4_cst_0 main_call4_v1 ((broadcastInDim S4096 ![] bcast_S_S4096) : (⟨S_, .f32⟩ : BufTy).Contents (Elt F) → (⟨S4096, .f32⟩ : BufTy).Contents (Elt F)),
    binary main_call4_v1 main_call4_v0 main_call4_v2 (maximumf : (⟨S4096, .f32⟩ : BufTy).Contents (Elt F) → (⟨S4096, .f32⟩ : BufTy).Contents (Elt F) → (⟨S4096, .f32⟩ : BufTy).Contents (Elt F)),
    unary main_call4_v2 main_call4_v3 ((broadcastInDim S4096x1 ![0] bcast_S4096_S4096x1_0) : (⟨S4096, .f32⟩ : BufTy).Contents (Elt F) → (⟨S4096x1, .f32⟩ : BufTy).Contents (Elt F)),
    unary main_call4_v3 main_call4_v4 ((broadcastInDim S4096x16000 ![0, 1] bcast_S4096x1_S4096x16000_0_1) : (⟨S4096x1, .f32⟩ : BufTy).Contents (Elt F) → (⟨S4096x16000, .f32⟩ : BufTy).Contents (Elt F)),
    binary main_v36 main_call4_v4 main_call4_v5 (subf : (⟨S4096x16000, .f32⟩ : BufTy).Contents (Elt F) → (⟨S4096x16000, .f32⟩ : BufTy).Contents (Elt F) → (⟨S4096x16000, .f32⟩ : BufTy).Contents (Elt F)),
    unary main_call4_v5 main_call4_v6 (Host.exp : (⟨S4096x16000, .f32⟩ : BufTy).Contents (Elt F) → (⟨S4096x16000, .f32⟩ : BufTy).Contents (Elt F)),
    nullary main_call4_cst_1 ((constant S_ .f32 0x00000000#32) : (⟨S_, .f32⟩ : BufTy).Contents (Elt F)),
    binary main_call4_v6 main_call4_cst_1 main_call4_v7 ((fun x v => Host.reduceAdd x v reducesTo_S4096x16000_S4096_d1 h_S_) : (⟨S4096x16000, .f32⟩ : BufTy).Contents (Elt F) → (⟨S_, .f32⟩ : BufTy).Contents (Elt F) → (⟨S4096, .f32⟩ : BufTy).Contents (Elt F)),
    unary main_call4_v7 main_call4_v8 ((broadcastInDim S4096x1 ![0] bcast_S4096_S4096x1_0) : (⟨S4096, .f32⟩ : BufTy).Contents (Elt F) → (⟨S4096x1, .f32⟩ : BufTy).Contents (Elt F)),
    unary main_call4_v8 main_call4_v9 (Host.log : (⟨S4096x1, .f32⟩ : BufTy).Contents (Elt F) → (⟨S4096x1, .f32⟩ : BufTy).Contents (Elt F)),
    unary main_call4_v9 main_call4_v10 ((broadcastInDim S4096x16000 ![0, 1] bcast_S4096x1_S4096x16000_0_1) : (⟨S4096x1, .f32⟩ : BufTy).Contents (Elt F) → (⟨S4096x16000, .f32⟩ : BufTy).Contents (Elt F)),
    binary main_call4_v5 main_call4_v10 main_v37 (subf : (⟨S4096x16000, .f32⟩ : BufTy).Contents (Elt F) → (⟨S4096x16000, .f32⟩ : BufTy).Contents (Elt F) → (⟨S4096x16000, .f32⟩ : BufTy).Contents (Elt F)) ]

set_option maxRecDepth 16384 in
set_option maxHeartbeats 1000000 in
theorem opsC_eq : (opsC : List (HloOp τ sig (Elt F))) = opsC' :=
  cons_congr rfl
    (cons_congr rfl
    (cons_congr rfl
    (cons_congr rfl
    (cons_congr rfl
    (cons_congr rfl
    (cons_congr rfl
    (cons_congr (tnullary_eq main_call4_cst _ _ _)
    (cons_congr (tbinary_eq main_v36 main_call4_cst main_call4_v0 _ _ _ _ _ _ _)
    (cons_congr (tnullary_eq main_call4_cst_0 _ _ _)
    (cons_congr (tunary_eq main_call4_cst_0 main_call4_v1 _ _ _ _ _)
    (cons_congr (tbinary_eq main_call4_v1 main_call4_v0 main_call4_v2 _ _ _ _ _ _ _)
    (cons_congr (tunary_eq main_call4_v2 main_call4_v3 _ _ _ _ _)
    (cons_congr (tunary_eq main_call4_v3 main_call4_v4 _ _ _ _ _)
    (cons_congr (tbinary_eq main_v36 main_call4_v4 main_call4_v5 _ _ _ _ _ _ _)
    (cons_congr (tunary_eq main_call4_v5 main_call4_v6 _ _ _ _ _)
    (cons_congr (tnullary_eq main_call4_cst_1 _ _ _)
    (cons_congr (tbinary_eq main_call4_v6 main_call4_cst_1 main_call4_v7 _ _ _ _ _ _ _)
    (cons_congr (tunary_eq main_call4_v7 main_call4_v8 _ _ _ _ _)
    (cons_congr (tunary_eq main_call4_v8 main_call4_v9 _ _ _ _ _)
    (cons_congr (tunary_eq main_call4_v9 main_call4_v10 _ _ _ _ _)
    (cons_congr (tbinary_eq main_call4_v5 main_call4_v10 main_v37 _ _ _ _ _ _ _)
    (rfl))))))))))))))))))))))

/-- The buffers these operations write. -/
abbrev opsC_W : List (Ref sig .tc) := [main_v30, main_v31, main_v32, main_v33, main_v34, main_v35, main_v36, main_call4_cst, main_call4_v0, main_call4_cst_0, main_call4_v1, main_call4_v2, main_call4_v3, main_call4_v4, main_call4_v5, main_call4_v6, main_call4_cst_1, main_call4_v7, main_call4_v8, main_call4_v9, main_call4_v10, main_v37]

set_option maxRecDepth 16384 in
theorem opsC_writes : (opsC' : List (HloOp τ sig (Elt F))).Forall fun op =>
    op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepC (V : Valuation τ sig (Elt F)) (r : Ref sig .tc) (h : r ∉ opsC_W) :
    after opsC V (Proc.devRef .tc r) = V (Proc.devRef .tc r) := by
  rw [opsC_eq]
  exact after_of_writes_sub opsC' _ opsC_writes h

set_option maxRecDepth 16384 in
set_option maxHeartbeats 2200000 in
theorem cC_v37 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_arg0 : V (Proc.devRef .tc main_arg0) = x0)
    (h_v0 : V (Proc.devRef .tc main_v0) = val_main_v0 (F := F) x2)
    (h_arg1 : V (Proc.devRef .tc main_arg1) = x1) :
    after opsC V (Proc.devRef .tc main_v37) = val_main_v37 (F := F) x0 x1 x2 := by
  rw [opsC_eq]
  simp only [opsC']
  after_results_simp
  all_goals (try simp only [h_arg0, h_v0, h_arg1])
  all_goals (repeat (first | rw [h_arg0] | rw [h_v0] | rw [h_arg1]))
  all_goals rfl

end Cert.ReferenceIdeal.RunP

end
-- ==== Proof.Ref.RunD.lean ====
/-
  Operations 99 … 144 of the reference's @main, from any buffer contents: the buffers they leave alone keep their
  contents, and each result that a later operation reads holds its stage (the reading module's function of the six
  arguments), provided the buffers read from before hold theirs.
  The operations of the inlined functions are first restated over plain buffers: their typed references' transports are
  the identity, so the two lists are one list.
-/
import proofs.«427234_j53386443489982_1_alg».proof.Proof.Ref.RunOps
import proofs.«427234_j53386443489982_1_alg».proof.Proof.Ref.ReadP
import proofs.«427234_j53386443489982_1_alg».proof.Proof.Ref.RunT

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The same operations over plain buffers. -/
abbrev opsD' : List (HloOp τ sig (Elt F)) :=
  [ nullary main_c_5 (constantI S_ 32 1#32),
    unary main_c_5 main_v38 (broadcastInDim S4096 ![] bcast_S_S4096 : (⟨S_, .i32⟩ : BufTy).Contents (Elt F) → (⟨S4096, .i32⟩ : BufTy).Contents (Elt F)),
    binary main_v9 main_v38 main_v39 (cmpi .eq : (⟨S4096, .i32⟩ : BufTy).Contents (Elt F) → (⟨S4096, .i32⟩ : BufTy).Contents (Elt F) → (⟨S4096, .i1⟩ : BufTy).Contents (Elt F)),
    nullary main_c_6 (constantI S_ 32 4000#32),
    unary main_c_6 main_v40 (broadcastInDim S4096 ![] bcast_S_S4096 : (⟨S_, .i32⟩ : BufTy).Contents (Elt F) → (⟨S4096, .i32⟩ : BufTy).Contents (Elt F)),
    binary main_arg3 main_v40 main_v41 (subi : (⟨S4096, .i32⟩ : BufTy).Contents (Elt F) → (⟨S4096, .i32⟩ : BufTy).Contents (Elt F) → (⟨S4096, .i32⟩ : BufTy).Contents (Elt F)),
    nullary main_c_7 (constantI S_ 32 0#32),
    unary main_c_7 main_call5_v0 (id : (⟨S_, .i32⟩ : BufTy).Contents (Elt F) → (⟨S_, .i32⟩ : BufTy).Contents (Elt F)),
    unary main_call5_v0 main_call5_v1 ((broadcastInDim S4096 ![] bcast_S_S4096) : (⟨S_, .i32⟩ : BufTy).Contents (Elt F) → (⟨S4096, .i32⟩ : BufTy).Contents (Elt F)),
    ternary main_v39 main_v41 main_call5_v1 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v42 main_v43 (broadcastInDim S4096x1 ![0] bcast_S4096_S4096x1_0 : (⟨S4096, .i32⟩ : BufTy).Contents (Elt F) → (⟨S4096x1, .i32⟩ : BufTy).Contents (Elt F)),
    nullary main_call6_c ((constantI S_ 32 0#32) : (⟨S_, .i32⟩ : BufTy).Contents (Elt F)),
    unary main_call6_c main_call6_v0 ((broadcastInDim S4096x1 ![] bcast_S_S4096x1) : (⟨S_, .i32⟩ : BufTy).Contents (Elt F) → (⟨S4096x1, .i32⟩ : BufTy).Contents (Elt F)),
    binary main_v43 main_call6_v0 main_call6_v1 ((cmpi .slt) : (⟨S4096x1, .i32⟩ : BufTy).Contents (Elt F) → (⟨S4096x1, .i32⟩ : BufTy).Contents (Elt F) → (⟨S4096x1, .i1⟩ : BufTy).Contents (Elt F)),
    nullary main_call6_c_0 ((constantI S_ 32 16000#32) : (⟨S_, .i32⟩ : BufTy).Contents (Elt F)),
    unary main_call6_c_0 main_call6_v2 ((broadcastInDim S4096x1 ![] bcast_S_S4096x1) : (⟨S_, .i32⟩ : BufTy).Contents (Elt F) → (⟨S4096x1, .i32⟩ : BufTy).Contents (Elt F)),
    binary main_v43 main_call6_v2 main_call6_v3 (addi : (⟨S4096x1, .i32⟩ : BufTy).Contents (Elt F) → (⟨S4096x1, .i32⟩ : BufTy).Contents (Elt F) → (⟨S4096x1, .i32⟩ : BufTy).Contents (Elt F)),
    ternary main_call6_v1 main_call6_v3 main_v43 main_call6_v4 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    reshape main_call6_v4 main_call6_v5 rfl shapeCasts_S4096x1_S4096x1x1,
    nullary main_call6_c_1 ((constantI S1 32 15999#32) : (⟨S1, .i32⟩ : BufTy).Contents (Elt F)),
    nullary main_call6_c_2 ((constantI S_ 32 0#32) : (⟨S_, .i32⟩ : BufTy).Contents (Elt F)),
    unary main_call6_c_2 main_call6_v6 ((broadcastInDim S4096x1x1 ![] bcast_S_S4096x1x1) : (⟨S_, .i32⟩ : BufTy).Contents (Elt F) → (⟨S4096x1x1, .i32⟩ : BufTy).Contents (Elt F)),
    binary main_call6_v5 main_call6_v6 main_call6_v7 ((cmpi .sge) : (⟨S4096x1x1, .i32⟩ : BufTy).Contents (Elt F) → (⟨S4096x1x1, .i32⟩ : BufTy).Contents (Elt F) → (⟨S4096x1x1, .i1⟩ : BufTy).Contents (Elt F)),
    unary main_call6_c_1 main_call6_v8 ((broadcastInDim S1x1x1 ![2] bcast_S1_S1x1x1_2) : (⟨S1, .i32⟩ : BufTy).Contents (Elt F) → (⟨S1x1x1, .i32⟩ : BufTy).Contents (Elt F)),
    unary main_call6_v8 main_call6_v9 ((broadcastInDim S4096x1x1 ![0, 1, 2] bcast_S1x1x1_S4096x1x1_0_1_2) : (⟨S1x1x1, .i32⟩ : BufTy).Contents (Elt F) → (⟨S4096x1x1, .i32⟩ : BufTy).Contents (Elt F)),
    binary main_call6_v5 main_call6_v9 main_call6_v10 ((cmpi .sle) : (⟨S4096x1x1, .i32⟩ : BufTy).Contents (Elt F) → (⟨S4096x1x1, .i32⟩ : BufTy).Contents (Elt F) → (⟨S4096x1x1, .i1⟩ : BufTy).Contents (Elt F)),
    binary main_call6_v7 main_call6_v10 main_call6_v11 (andi : (⟨S4096x1x1, .i1⟩ : BufTy).Contents (Elt F) → (⟨S4096x1x1, .i1⟩ : BufTy).Contents (Elt F) → (⟨S4096x1x1, .i1⟩ : BufTy).Contents (Elt F)),
    nullary main_call6_c_3 ((constantI S_ 1 1#1) : (⟨S_, .i1⟩ : BufTy).Contents (Elt F)),
    binary main_call6_v11 main_call6_c_3 main_call6_v12 ((fun x v => Host.reduce IntOp.andi x v reducesTo_S4096x1x1_S4096x1_d2 h_S_) : (⟨S4096x1x1, .i1⟩ : BufTy).Contents (Elt F) → (⟨S_, .i1⟩ : BufTy).Contents (Elt F) → (⟨S4096x1, .i1⟩ : BufTy).Contents (Elt F)),
    binary main_v37 main_call6_v5 main_call6_v13 ((fun x i => Host.gather gather_S4096x16000_S4096x1x1_S4096x1_n_1_0_0_1_2_11 x i) : (⟨S4096x16000, .f32⟩ : BufTy).Contents (Elt F) → (⟨S4096x1x1, .i32⟩ : BufTy).Contents (Elt F) → (⟨S4096x1, .f32⟩ : BufTy).Contents (Elt F)),
    nullary main_call6_cst ((constant S_ .f32 0x7FC00000#32) : (⟨S_, .f32⟩ : BufTy).Contents (Elt F)),
    unary main_call6_cst main_call6_v14 ((broadcastInDim S4096x1 ![] bcast_S_S4096x1) : (⟨S_, .f32⟩ : BufTy).Contents (Elt F) → (⟨S4096x1, .f32⟩ : BufTy).Contents (Elt F)),
    ternary main_call6_v12 main_call6_v13 main_call6_v14 main_v44 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    reshape main_v44 main_v45 rfl shapeCasts_S4096x1_S4096,
    unary main_v19 main_v46 ((extractStridedSlice S4096x1 ![0, 4001] · slices_S4096x4002_S4096x1_0_4001) : (⟨S4096x4002, .f32⟩ : BufTy).Contents (Elt F) → (⟨S4096x1, .f32⟩ : BufTy).Contents (Elt F)),
    reshape main_v46 main_v47 rfl shapeCasts_S4096x1_S4096,
    nullary main_c_8 (constantI S_ 32 1#32),
    unary main_c_8 main_v48 (broadcastInDim S4096 ![] bcast_S_S4096 : (⟨S_, .i32⟩ : BufTy).Contents (Elt F) → (⟨S4096, .i32⟩ : BufTy).Contents (Elt F)),
    binary main_v9 main_v48 main_v49 (cmpi .eq : (⟨S4096, .i32⟩ : BufTy).Contents (Elt F) → (⟨S4096, .i32⟩ : BufTy).Contents (Elt F) → (⟨S4096, .i1⟩ : BufTy).Contents (Elt F)),
    binary main_v47 main_v45 main_v50 (addf : (⟨S4096, .f32⟩ : BufTy).Contents (Elt F) → (⟨S4096, .f32⟩ : BufTy).Contents (Elt F) → (⟨S4096, .f32⟩ : BufTy).Contents (Elt F)),
    unary main_v50 main_v51 (Host.negf : (⟨S4096, .f32⟩ : BufTy).Contents (Elt F) → (⟨S4096, .f32⟩ : BufTy).Contents (Elt F)),
    nullary main_cst_9 (constant S_ .f32 0x00000000#32),
    unary main_cst_9 main_call7_v0 (id : (⟨S_, .f32⟩ : BufTy).Contents (Elt F) → (⟨S_, .f32⟩ : BufTy).Contents (Elt F)),
    unary main_call7_v0 main_call7_v1 ((broadcastInDim S4096 ![] bcast_S_S4096) : (⟨S_, .f32⟩ : BufTy).Contents (Elt F) → (⟨S4096, .f32⟩ : BufTy).Contents (Elt F)),
    ternary main_v49 main_v51 main_call7_v1 main_v52 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    binary main_v29 main_v52 main_v53 (addf : (⟨S4096, .f32⟩ : BufTy).Contents (Elt F) → (⟨S4096, .f32⟩ : BufTy).Contents (Elt F) → (⟨S4096, .f32⟩ : BufTy).Contents (Elt F)) ]

set_option maxRecDepth 16384 in
set_option maxHeartbeats 1000000 in
theorem opsD_eq : (opsD : List (HloOp τ sig (Elt F))) = opsD' :=
  cons_congr rfl
    (cons_congr rfl
    (cons_congr rfl
    (cons_congr rfl
    (cons_congr rfl
    (cons_congr rfl
    (cons_congr rfl
    (cons_congr (tunary_eq main_c_7 main_call5_v0 _ _ _ _ _)
    (cons_congr (tunary_eq main_call5_v0 main_call5_v1 _ _ _ _ _)
    (cons_congr (tternary_eq main_v39 main_v41 main_call5_v1 main_v42 _ _ _ _ _ _ _ _ _)
    (cons_congr rfl
    (cons_congr (tnullary_eq main_call6_c _ _ _)
    (cons_congr (tunary_eq main_call6_c main_call6_v0 _ _ _ _ _)
    (cons_congr (tbinary_eq main_v43 main_call6_v0 main_call6_v1 _ _ _ _ _ _ _)
    (cons_congr (tnullary_eq main_call6_c_0 _ _ _)
    (cons_congr (tunary_eq main_call6_c_0 main_call6_v2 _ _ _ _ _)
    (cons_congr (tbinary_eq main_v43 main_call6_v2 main_call6_v3 _ _ _ _ _ _ _)
    (cons_congr (tternary_eq main_call6_v1 main_call6_v3 main_v43 main_call6_v4 _ _ _ _ _ _ _ _ _)
    (cons_congr rfl
    (cons_congr (tnullary_eq main_call6_c_1 _ _ _)
    (cons_congr (tnullary_eq main_call6_c_2 _ _ _)
    (cons_congr (tunary_eq main_call6_c_2 main_call6_v6 _ _ _ _ _)
    (cons_congr (tbinary_eq main_call6_v5 main_call6_v6 main_call6_v7 _ _ _ _ _ _ _)
    (cons_congr (tunary_eq main_call6_c_1 main_call6_v8 _ _ _ _ _)
    (cons_congr (tunary_eq main_call6_v8 main_call6_v9 _ _ _ _ _)
    (cons_congr (tbinary_eq main_call6_v5 main_call6_v9 main_call6_v10 _ _ _ _ _ _ _)
    (cons_congr (tbinary_eq main_call6_v7 main_call6_v10 main_call6_v11 _ _ _ _ _ _ _)
    (cons_congr (tnullary_eq main_call6_c_3 _ _ _)
    (cons_congr (tbinary_eq main_call6_v11 main_call6_c_3 main_call6_v12 _ _ _ _ _ _ _)
    (cons_congr (tbinary_eq main_v37 main_call6_v5 main_call6_v13 _ _ _ _ _ _ _)
    (cons_congr (tnullary_eq main_call6_cst _ _ _)
    (cons_congr (tunary_eq main_call6_cst main_call6_v14 _ _ _ _ _)
    (cons_congr (tternary_eq main_call6_v12 main_call6_v13 main_call6_v14 main_v44 _ _ _ _ _ _ _ _ _)
    (cons_congr rfl
    (cons_congr rfl
    (cons_congr rfl
    (cons_congr rfl
    (cons_congr rfl
    (cons_congr rfl
    (cons_congr rfl
    (cons_congr rfl
    (cons_congr rfl
    (cons_congr (tunary_eq main_cst_9 main_call7_v0 _ _ _ _ _)
    (cons_congr (tunary_eq main_call7_v0 main_call7_v1 _ _ _ _ _)
    (cons_congr (tternary_eq main_v49 main_v51 main_call7_v1 main_v52 _ _ _ _ _ _ _ _ _)
    (cons_congr rfl
    (rfl))))))))))))))))))))))))))))))))))))))))))))))

/-- The buffers these operations write. -/
abbrev opsD_W : List (Ref sig .tc) := [main_c_5, main_v38, main_v39, main_c_6, main_v40, main_v41, main_c_7, main_call5_v0, main_call5_v1, main_v42, main_v43, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v44, main_v45, main_v46, main_v47, main_c_8, main_v48, main_v49, main_v50, main_v51, main_cst_9, main_call7_v0, main_call7_v1, main_v52, main_v53]

set_option maxRecDepth 16384 in
theorem opsD_writes : (opsD' : List (HloOp τ sig (Elt F))).Forall fun op =>
    op.writes ⊆ (opsD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepD (V : Valuation τ sig (Elt F)) (r : Ref sig .tc) (h : r ∉ opsD_W) :
    after opsD V (Proc.devRef .tc r) = V (Proc.devRef .tc r) := by
  rw [opsD_eq]
  exact after_of_writes_sub opsD' _ opsD_writes h

set_option maxRecDepth 16384 in
set_option maxHeartbeats 4000000 in
theorem cD_v53 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_v9 : V (Proc.devRef .tc main_v9) = val_main_v9 (F := F) x3)
    (h_arg3 : V (Proc.devRef .tc main_arg3) = x3)
    (h_v37 : V (Proc.devRef .tc main_v37) = val_main_v37 (F := F) x0 x1 x2)
    (h_v19 : V (Proc.devRef .tc main_v19) = val_main_v19 (F := F) x0 x1 x2 x4 x5)
    (h_v29 : V (Proc.devRef .tc main_v29) = val_main_v29 (F := F) x0 x1 x2 x3 x4 x5) :
    after opsD V (Proc.devRef .tc main_v53) = val_main_v53 (F := F) x0 x1 x2 x3 x4 x5 := by
  rw [opsD_eq]
  simp only [opsD']
  after_results_simp
  all_goals (try simp only [h_v9, h_arg3, h_v37, h_v19, h_v29])
  all_goals (repeat (first | rw [h_v9] | rw [h_arg3] | rw [h_v37] | rw [h_v19] | rw [h_v29]))
  all_goals rfl

end Cert.ReferenceIdeal.RunP

end
-- ==== Proof.Ref.RunE.lean ====
/-
  Operations 145 … 166 of the reference's @main, from any buffer contents: the buffers they leave alone keep their
  contents, and each result that a later operation reads holds its stage (the reading module's function of the six
  arguments), provided the buffers read from before hold theirs.
  The operations of the inlined functions are first restated over plain buffers: their typed references' transports are
  the identity, so the two lists are one list.
-/
import proofs.«427234_j53386443489982_1_alg».proof.Proof.Ref.RunOps
import proofs.«427234_j53386443489982_1_alg».proof.Proof.Ref.ReadP
import proofs.«427234_j53386443489982_1_alg».proof.Proof.Ref.RunT

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The same operations over plain buffers. -/
abbrev opsE' : List (HloOp τ sig (Elt F)) :=
  [ unary main_arg0 main_v54 ((extractStridedSlice S30000x1024 ![20000, 0] · slices_S50000x1024_S30000x1024_20000_0) : (⟨S50000x1024, .f32⟩ : BufTy).Contents (Elt F) → (⟨S30000x1024, .f32⟩ : BufTy).Contents (Elt F)),
    unary main_v54 main_v55 ((transpose S1024x30000 [1, 0] · transposes_S30000x1024_S1024x30000_1_0) : (⟨S30000x1024, .f32⟩ : BufTy).Contents (Elt F) → (⟨S1024x30000, .f32⟩ : BufTy).Contents (Elt F)),
    binary main_v0 main_v55 main_v56 ((fun l r => Host.dotGeneral dot_S4096x1024_S1024x30000_S4096x30000_1_0_0_1_n_n none l r) : (⟨S4096x1024, .f32⟩ : BufTy).Contents (Elt F) → (⟨S1024x30000, .f32⟩ : BufTy).Contents (Elt F) → (⟨S4096x30000, .f32⟩ : BufTy).Contents (Elt F)),
    unary main_arg1 main_v57 ((extractStridedSlice S30000 ![20000] · slices_S50000_S30000_20000) : (⟨S50000, .f32⟩ : BufTy).Contents (Elt F) → (⟨S30000, .f32⟩ : BufTy).Contents (Elt F)),
    unary main_v57 main_v58 (broadcastInDim S1x30000 ![1] bcast_S30000_S1x30000_1 : (⟨S30000, .f32⟩ : BufTy).Contents (Elt F) → (⟨S1x30000, .f32⟩ : BufTy).Contents (Elt F)),
    unary main_v58 main_v59 (broadcastInDim S4096x30000 ![0, 1] bcast_S1x30000_S4096x30000_0_1 : (⟨S1x30000, .f32⟩ : BufTy).Contents (Elt F) → (⟨S4096x30000, .f32⟩ : BufTy).Contents (Elt F)),
    binary main_v56 main_v59 main_v60 (addf : (⟨S4096x30000, .f32⟩ : BufTy).Contents (Elt F) → (⟨S4096x30000, .f32⟩ : BufTy).Contents (Elt F) → (⟨S4096x30000, .f32⟩ : BufTy).Contents (Elt F)),
    nullary main_call8_cst ((constant S_ .f32 0xFF800000#32) : (⟨S_, .f32⟩ : BufTy).Contents (Elt F)),
    binary main_v60 main_call8_cst main_call8_v0 ((fun x v => Host.reduce FloatOps.maximumf x v reducesTo_S4096x30000_S4096_d1 h_S_) : (⟨S4096x30000, .f32⟩ : BufTy).Contents (Elt F) → (⟨S_, .f32⟩ : BufTy).Contents (Elt F) → (⟨S4096, .f32⟩ : BufTy).Contents (Elt F)),
    nullary main_call8_cst_0 ((constant S_ .f32 0xFF800000#32) : (⟨S_, .f32⟩ : BufTy).Contents (Elt F)),
    unary main_call8_cst_0 main_call8_v1 ((broadcastInDim S4096 ![] bcast_S_S4096) : (⟨S_, .f32⟩ : BufTy).Contents (Elt F) → (⟨S4096, .f32⟩ : BufTy).Contents (Elt F)),
    binary main_call8_v1 main_call8_v0 main_call8_v2 (maximumf : (⟨S4096, .f32⟩ : BufTy).Contents (Elt F) → (⟨S4096, .f32⟩ : BufTy).Contents (Elt F) → (⟨S4096, .f32⟩ : BufTy).Contents (Elt F)),
    unary main_call8_v2 main_call8_v3 ((broadcastInDim S4096x1 ![0] bcast_S4096_S4096x1_0) : (⟨S4096, .f32⟩ : BufTy).Contents (Elt F) → (⟨S4096x1, .f32⟩ : BufTy).Contents (Elt F)),
    unary main_call8_v3 main_call8_v4 ((broadcastInDim S4096x30000 ![0, 1] bcast_S4096x1_S4096x30000_0_1) : (⟨S4096x1, .f32⟩ : BufTy).Contents (Elt F) → (⟨S4096x30000, .f32⟩ : BufTy).Contents (Elt F)),
    binary main_v60 main_call8_v4 main_call8_v5 (subf : (⟨S4096x30000, .f32⟩ : BufTy).Contents (Elt F) → (⟨S4096x30000, .f32⟩ : BufTy).Contents (Elt F) → (⟨S4096x30000, .f32⟩ : BufTy).Contents (Elt F)),
    unary main_call8_v5 main_call8_v6 (Host.exp : (⟨S4096x30000, .f32⟩ : BufTy).Contents (Elt F) → (⟨S4096x30000, .f32⟩ : BufTy).Contents (Elt F)),
    nullary main_call8_cst_1 ((constant S_ .f32 0x00000000#32) : (⟨S_, .f32⟩ : BufTy).Contents (Elt F)),
    binary main_call8_v6 main_call8_cst_1 main_call8_v7 ((fun x v => Host.reduceAdd x v reducesTo_S4096x30000_S4096_d1 h_S_) : (⟨S4096x30000, .f32⟩ : BufTy).Contents (Elt F) → (⟨S_, .f32⟩ : BufTy).Contents (Elt F) → (⟨S4096, .f32⟩ : BufTy).Contents (Elt F)),
    unary main_call8_v7 main_call8_v8 ((broadcastInDim S4096x1 ![0] bcast_S4096_S4096x1_0) : (⟨S4096, .f32⟩ : BufTy).Contents (Elt F) → (⟨S4096x1, .f32⟩ : BufTy).Contents (Elt F)),
    unary main_call8_v8 main_call8_v9 (Host.log : (⟨S4096x1, .f32⟩ : BufTy).Contents (Elt F) → (⟨S4096x1, .f32⟩ : BufTy).Contents (Elt F)),
    unary main_call8_v9 main_call8_v10 ((broadcastInDim S4096x30000 ![0, 1] bcast_S4096x1_S4096x30000_0_1) : (⟨S4096x1, .f32⟩ : BufTy).Contents (Elt F) → (⟨S4096x30000, .f32⟩ : BufTy).Contents (Elt F)),
    binary main_call8_v5 main_call8_v10 main_v61 (subf : (⟨S4096x30000, .f32⟩ : BufTy).Contents (Elt F) → (⟨S4096x30000, .f32⟩ : BufTy).Contents (Elt F) → (⟨S4096x30000, .f32⟩ : BufTy).Contents (Elt F)) ]

set_option maxRecDepth 16384 in
set_option maxHeartbeats 1000000 in
theorem opsE_eq : (opsE : List (HloOp τ sig (Elt F))) = opsE' :=
  cons_congr rfl
    (cons_congr rfl
    (cons_congr rfl
    (cons_congr rfl
    (cons_congr rfl
    (cons_congr rfl
    (cons_congr rfl
    (cons_congr (tnullary_eq main_call8_cst _ _ _)
    (cons_congr (tbinary_eq main_v60 main_call8_cst main_call8_v0 _ _ _ _ _ _ _)
    (cons_congr (tnullary_eq main_call8_cst_0 _ _ _)
    (cons_congr (tunary_eq main_call8_cst_0 main_call8_v1 _ _ _ _ _)
    (cons_congr (tbinary_eq main_call8_v1 main_call8_v0 main_call8_v2 _ _ _ _ _ _ _)
    (cons_congr (tunary_eq main_call8_v2 main_call8_v3 _ _ _ _ _)
    (cons_congr (tunary_eq main_call8_v3 main_call8_v4 _ _ _ _ _)
    (cons_congr (tbinary_eq main_v60 main_call8_v4 main_call8_v5 _ _ _ _ _ _ _)
    (cons_congr (tunary_eq main_call8_v5 main_call8_v6 _ _ _ _ _)
    (cons_congr (tnullary_eq main_call8_cst_1 _ _ _)
    (cons_congr (tbinary_eq main_call8_v6 main_call8_cst_1 main_call8_v7 _ _ _ _ _ _ _)
    (cons_congr (tunary_eq main_call8_v7 main_call8_v8 _ _ _ _ _)
    (cons_congr (tunary_eq main_call8_v8 main_call8_v9 _ _ _ _ _)
    (cons_congr (tunary_eq main_call8_v9 main_call8_v10 _ _ _ _ _)
    (cons_congr (tbinary_eq main_call8_v5 main_call8_v10 main_v61 _ _ _ _ _ _ _)
    (rfl))))))))))))))))))))))

/-- The buffers these operations write. -/
abbrev opsE_W : List (Ref sig .tc) := [main_v54, main_v55, main_v56, main_v57, main_v58, main_v59, main_v60, main_call8_cst, main_call8_v0, main_call8_cst_0, main_call8_v1, main_call8_v2, main_call8_v3, main_call8_v4, main_call8_v5, main_call8_v6, main_call8_cst_1, main_call8_v7, main_call8_v8, main_call8_v9, main_call8_v10, main_v61]

set_option maxRecDepth 16384 in
theorem opsE_writes : (opsE' : List (HloOp τ sig (Elt F))).Forall fun op =>
    op.writes ⊆ (opsE_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepE (V : Valuation τ sig (Elt F)) (r : Ref sig .tc) (h : r ∉ opsE_W) :
    after opsE V (Proc.devRef .tc r) = V (Proc.devRef .tc r) := by
  rw [opsE_eq]
  exact after_of_writes_sub opsE' _ opsE_writes h

set_option maxRecDepth 16384 in
set_option maxHeartbeats 2200000 in
theorem cE_v61 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_arg0 : V (Proc.devRef .tc main_arg0) = x0)
    (h_v0 : V (Proc.devRef .tc main_v0) = val_main_v0 (F := F) x2)
    (h_arg1 : V (Proc.devRef .tc main_arg1) = x1) :
    after opsE V (Proc.devRef .tc main_v61) = val_main_v61 (F := F) x0 x1 x2 := by
  rw [opsE_eq]
  simp only [opsE']
  after_results_simp
  all_goals (try simp only [h_arg0, h_v0, h_arg1])
  all_goals (repeat (first | rw [h_arg0] | rw [h_v0] | rw [h_arg1]))
  all_goals rfl

end Cert.ReferenceIdeal.RunP

end
-- ==== Proof.Ref.RunG.lean ====
/-
  Operations 167 … 216 of the reference's @main, from any buffer contents: the buffers they leave alone keep their
  contents, and each result that a later operation reads holds its stage (the reading module's function of the six
  arguments), provided the buffers read from before hold theirs.
  The operations of the inlined functions are first restated over plain buffers: their typed references' transports are
  the identity, so the two lists are one list.
-/
import proofs.«427234_j53386443489982_1_alg».proof.Proof.Ref.RunOps
import proofs.«427234_j53386443489982_1_alg».proof.Proof.Ref.ReadP
import proofs.«427234_j53386443489982_1_alg».proof.Proof.Ref.RunT

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The same operations over plain buffers. -/
abbrev opsG' : List (HloOp τ sig (Elt F)) :=
  [ nullary main_c_10 (constantI S_ 32 2#32),
    unary main_c_10 main_v62 (broadcastInDim S4096 ![] bcast_S_S4096 : (⟨S_, .i32⟩ : BufTy).Contents (Elt F) → (⟨S4096, .i32⟩ : BufTy).Contents (Elt F)),
    binary main_v9 main_v62 main_v63 (cmpi .eq : (⟨S4096, .i32⟩ : BufTy).Contents (Elt F) → (⟨S4096, .i32⟩ : BufTy).Contents (Elt F) → (⟨S4096, .i1⟩ : BufTy).Contents (Elt F)),
    nullary main_c_11 (constantI S_ 32 20000#32),
    unary main_c_11 main_v64 (broadcastInDim S4096 ![] bcast_S_S4096 : (⟨S_, .i32⟩ : BufTy).Contents (Elt F) → (⟨S4096, .i32⟩ : BufTy).Contents (Elt F)),
    binary main_arg3 main_v64 main_v65 (subi : (⟨S4096, .i32⟩ : BufTy).Contents (Elt F) → (⟨S4096, .i32⟩ : BufTy).Contents (Elt F) → (⟨S4096, .i32⟩ : BufTy).Contents (Elt F)),
    nullary main_c_12 (constantI S_ 32 0#32),
    unary main_c_12 main_call9_v0 (id : (⟨S_, .i32⟩ : BufTy).Contents (Elt F) → (⟨S_, .i32⟩ : BufTy).Contents (Elt F)),
    unary main_call9_v0 main_call9_v1 ((broadcastInDim S4096 ![] bcast_S_S4096) : (⟨S_, .i32⟩ : BufTy).Contents (Elt F) → (⟨S4096, .i32⟩ : BufTy).Contents (Elt F)),
    ternary main_v63 main_v65 main_call9_v1 main_v66 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v66 main_v67 (broadcastInDim S4096x1 ![0] bcast_S4096_S4096x1_0 : (⟨S4096, .i32⟩ : BufTy).Contents (Elt F) → (⟨S4096x1, .i32⟩ : BufTy).Contents (Elt F)),
    nullary main_call10_c ((constantI S_ 32 0#32) : (⟨S_, .i32⟩ : BufTy).Contents (Elt F)),
    unary main_call10_c main_call10_v0 ((broadcastInDim S4096x1 ![] bcast_S_S4096x1) : (⟨S_, .i32⟩ : BufTy).Contents (Elt F) → (⟨S4096x1, .i32⟩ : BufTy).Contents (Elt F)),
    binary main_v67 main_call10_v0 main_call10_v1 ((cmpi .slt) : (⟨S4096x1, .i32⟩ : BufTy).Contents (Elt F) → (⟨S4096x1, .i32⟩ : BufTy).Contents (Elt F) → (⟨S4096x1, .i1⟩ : BufTy).Contents (Elt F)),
    nullary main_call10_c_0 ((constantI S_ 32 30000#32) : (⟨S_, .i32⟩ : BufTy).Contents (Elt F)),
    unary main_call10_c_0 main_call10_v2 ((broadcastInDim S4096x1 ![] bcast_S_S4096x1) : (⟨S_, .i32⟩ : BufTy).Contents (Elt F) → (⟨S4096x1, .i32⟩ : BufTy).Contents (Elt F)),
    binary main_v67 main_call10_v2 main_call10_v3 (addi : (⟨S4096x1, .i32⟩ : BufTy).Contents (Elt F) → (⟨S4096x1, .i32⟩ : BufTy).Contents (Elt F) → (⟨S4096x1, .i32⟩ : BufTy).Contents (Elt F)),
    ternary main_call10_v1 main_call10_v3 main_v67 main_call10_v4 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    reshape main_call10_v4 main_call10_v5 rfl shapeCasts_S4096x1_S4096x1x1,
    nullary main_call10_c_1 ((constantI S1 32 29999#32) : (⟨S1, .i32⟩ : BufTy).Contents (Elt F)),
    nullary main_call10_c_2 ((constantI S_ 32 0#32) : (⟨S_, .i32⟩ : BufTy).Contents (Elt F)),
    unary main_call10_c_2 main_call10_v6 ((broadcastInDim S4096x1x1 ![] bcast_S_S4096x1x1) : (⟨S_, .i32⟩ : BufTy).Contents (Elt F) → (⟨S4096x1x1, .i32⟩ : BufTy).Contents (Elt F)),
    binary main_call10_v5 main_call10_v6 main_call10_v7 ((cmpi .sge) : (⟨S4096x1x1, .i32⟩ : BufTy).Contents (Elt F) → (⟨S4096x1x1, .i32⟩ : BufTy).Contents (Elt F) → (⟨S4096x1x1, .i1⟩ : BufTy).Contents (Elt F)),
    unary main_call10_c_1 main_call10_v8 ((broadcastInDim S1x1x1 ![2] bcast_S1_S1x1x1_2) : (⟨S1, .i32⟩ : BufTy).Contents (Elt F) → (⟨S1x1x1, .i32⟩ : BufTy).Contents (Elt F)),
    unary main_call10_v8 main_call10_v9 ((broadcastInDim S4096x1x1 ![0, 1, 2] bcast_S1x1x1_S4096x1x1_0_1_2) : (⟨S1x1x1, .i32⟩ : BufTy).Contents (Elt F) → (⟨S4096x1x1, .i32⟩ : BufTy).Contents (Elt F)),
    binary main_call10_v5 main_call10_v9 main_call10_v10 ((cmpi .sle) : (⟨S4096x1x1, .i32⟩ : BufTy).Contents (Elt F) → (⟨S4096x1x1, .i32⟩ : BufTy).Contents (Elt F) → (⟨S4096x1x1, .i1⟩ : BufTy).Contents (Elt F)),
    binary main_call10_v7 main_call10_v10 main_call10_v11 (andi : (⟨S4096x1x1, .i1⟩ : BufTy).Contents (Elt F) → (⟨S4096x1x1, .i1⟩ : BufTy).Contents (Elt F) → (⟨S4096x1x1, .i1⟩ : BufTy).Contents (Elt F)),
    nullary main_call10_c_3 ((constantI S_ 1 1#1) : (⟨S_, .i1⟩ : BufTy).Contents (Elt F)),
    binary main_call10_v11 main_call10_c_3 main_call10_v12 ((fun x v => Host.reduce IntOp.andi x v reducesTo_S4096x1x1_S4096x1_d2 h_S_) : (⟨S4096x1x1, .i1⟩ : BufTy).Contents (Elt F) → (⟨S_, .i1⟩ : BufTy).Contents (Elt F) → (⟨S4096x1, .i1⟩ : BufTy).Contents (Elt F)),
    binary main_v61 main_call10_v5 main_call10_v13 ((fun x i => Host.gather gather_S4096x30000_S4096x1x1_S4096x1_n_1_0_0_1_2_11 x i) : (⟨S4096x30000, .f32⟩ : BufTy).Contents (Elt F) → (⟨S4096x1x1, .i32⟩ : BufTy).Contents (Elt F) → (⟨S4096x1, .f32⟩ : BufTy).Contents (Elt F)),
    nullary main_call10_cst ((constant S_ .f32 0x7FC00000#32) : (⟨S_, .f32⟩ : BufTy).Contents (Elt F)),
    unary main_call10_cst main_call10_v14 ((broadcastInDim S4096x1 ![] bcast_S_S4096x1) : (⟨S_, .f32⟩ : BufTy).Contents (Elt F) → (⟨S4096x1, .f32⟩ : BufTy).Contents (Elt F)),
    ternary main_call10_v12 main_call10_v13 main_call10_v14 main_v68 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    reshape main_v68 main_v69 rfl shapeCasts_S4096x1_S4096,
    unary main_v19 main_v70 ((extractStridedSlice S4096x1 ![0, 4000] · slices_S4096x4002_S4096x1_0_4000) : (⟨S4096x4002, .f32⟩ : BufTy).Contents (Elt F) → (⟨S4096x1, .f32⟩ : BufTy).Contents (Elt F)),
    reshape main_v70 main_v71 rfl shapeCasts_S4096x1_S4096,
    nullary main_c_13 (constantI S_ 32 2#32),
    unary main_c_13 main_v72 (broadcastInDim S4096 ![] bcast_S_S4096 : (⟨S_, .i32⟩ : BufTy).Contents (Elt F) → (⟨S4096, .i32⟩ : BufTy).Contents (Elt F)),
    binary main_v9 main_v72 main_v73 (cmpi .eq : (⟨S4096, .i32⟩ : BufTy).Contents (Elt F) → (⟨S4096, .i32⟩ : BufTy).Contents (Elt F) → (⟨S4096, .i1⟩ : BufTy).Contents (Elt F)),
    binary main_v71 main_v69 main_v74 (addf : (⟨S4096, .f32⟩ : BufTy).Contents (Elt F) → (⟨S4096, .f32⟩ : BufTy).Contents (Elt F) → (⟨S4096, .f32⟩ : BufTy).Contents (Elt F)),
    unary main_v74 main_v75 (Host.negf : (⟨S4096, .f32⟩ : BufTy).Contents (Elt F) → (⟨S4096, .f32⟩ : BufTy).Contents (Elt F)),
    nullary main_cst_14 (constant S_ .f32 0x00000000#32),
    unary main_cst_14 main_call11_v0 (id : (⟨S_, .f32⟩ : BufTy).Contents (Elt F) → (⟨S_, .f32⟩ : BufTy).Contents (Elt F)),
    unary main_call11_v0 main_call11_v1 ((broadcastInDim S4096 ![] bcast_S_S4096) : (⟨S_, .f32⟩ : BufTy).Contents (Elt F) → (⟨S4096, .f32⟩ : BufTy).Contents (Elt F)),
    ternary main_v73 main_v75 main_call11_v1 main_v76 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    binary main_v53 main_v76 main_v77 (addf : (⟨S4096, .f32⟩ : BufTy).Contents (Elt F) → (⟨S4096, .f32⟩ : BufTy).Contents (Elt F) → (⟨S4096, .f32⟩ : BufTy).Contents (Elt F)),
    nullary main_cst_15 (constant S_ .f32 0x00000000#32),
    binary main_v77 main_cst_15 main_v78 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_16 (constant S_ .f32 0x45800000#32),
    binary main_v78 main_cst_16 main_v79 (Host.divf : (⟨S_, .f32⟩ : BufTy).Contents (Elt F) → (⟨S_, .f32⟩ : BufTy).Contents (Elt F) → (⟨S_, .f32⟩ : BufTy).Contents (Elt F)) ]

set_option maxRecDepth 16384 in
set_option maxHeartbeats 1000000 in
theorem opsG_eq : (opsG : List (HloOp τ sig (Elt F))) = opsG' :=
  cons_congr rfl
    (cons_congr rfl
    (cons_congr rfl
    (cons_congr rfl
    (cons_congr rfl
    (cons_congr rfl
    (cons_congr rfl
    (cons_congr (tunary_eq main_c_12 main_call9_v0 _ _ _ _ _)
    (cons_congr (tunary_eq main_call9_v0 main_call9_v1 _ _ _ _ _)
    (cons_congr (tternary_eq main_v63 main_v65 main_call9_v1 main_v66 _ _ _ _ _ _ _ _ _)
    (cons_congr rfl
    (cons_congr (tnullary_eq main_call10_c _ _ _)
    (cons_congr (tunary_eq main_call10_c main_call10_v0 _ _ _ _ _)
    (cons_congr (tbinary_eq main_v67 main_call10_v0 main_call10_v1 _ _ _ _ _ _ _)
    (cons_congr (tnullary_eq main_call10_c_0 _ _ _)
    (cons_congr (tunary_eq main_call10_c_0 main_call10_v2 _ _ _ _ _)
    (cons_congr (tbinary_eq main_v67 main_call10_v2 main_call10_v3 _ _ _ _ _ _ _)
    (cons_congr (tternary_eq main_call10_v1 main_call10_v3 main_v67 main_call10_v4 _ _ _ _ _ _ _ _ _)
    (cons_congr rfl
    (cons_congr (tnullary_eq main_call10_c_1 _ _ _)
    (cons_congr (tnullary_eq main_call10_c_2 _ _ _)
    (cons_congr (tunary_eq main_call10_c_2 main_call10_v6 _ _ _ _ _)
    (cons_congr (tbinary_eq main_call10_v5 main_call10_v6 main_call10_v7 _ _ _ _ _ _ _)
    (cons_congr (tunary_eq main_call10_c_1 main_call10_v8 _ _ _ _ _)
    (cons_congr (tunary_eq main_call10_v8 main_call10_v9 _ _ _ _ _)
    (cons_congr (tbinary_eq main_call10_v5 main_call10_v9 main_call10_v10 _ _ _ _ _ _ _)
    (cons_congr (tbinary_eq main_call10_v7 main_call10_v10 main_call10_v11 _ _ _ _ _ _ _)
    (cons_congr (tnullary_eq main_call10_c_3 _ _ _)
    (cons_congr (tbinary_eq main_call10_v11 main_call10_c_3 main_call10_v12 _ _ _ _ _ _ _)
    (cons_congr (tbinary_eq main_v61 main_call10_v5 main_call10_v13 _ _ _ _ _ _ _)
    (cons_congr (tnullary_eq main_call10_cst _ _ _)
    (cons_congr (tunary_eq main_call10_cst main_call10_v14 _ _ _ _ _)
    (cons_congr (tternary_eq main_call10_v12 main_call10_v13 main_call10_v14 main_v68 _ _ _ _ _ _ _ _ _)
    (cons_congr rfl
    (cons_congr rfl
    (cons_congr rfl
    (cons_congr rfl
    (cons_congr rfl
    (cons_congr rfl
    (cons_congr rfl
    (cons_congr rfl
    (cons_congr rfl
    (cons_congr (tunary_eq main_cst_14 main_call11_v0 _ _ _ _ _)
    (cons_congr (tunary_eq main_call11_v0 main_call11_v1 _ _ _ _ _)
    (cons_congr (tternary_eq main_v73 main_v75 main_call11_v1 main_v76 _ _ _ _ _ _ _ _ _)
    (cons_congr rfl
    (cons_congr rfl
    (cons_congr rfl
    (cons_congr rfl
    (cons_congr rfl
    (rfl))))))))))))))))))))))))))))))))))))))))))))))))))

/-- The buffers these operations write. -/
abbrev opsG_W : List (Ref sig .tc) := [main_c_10, main_v62, main_v63, main_c_11, main_v64, main_v65, main_c_12, main_call9_v0, main_call9_v1, main_v66, main_v67, main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v68, main_v69, main_v70, main_v71, main_c_13, main_v72, main_v73, main_v74, main_v75, main_cst_14, main_call11_v0, main_call11_v1, main_v76, main_v77, main_cst_15, main_v78, main_cst_16, main_v79]

set_option maxRecDepth 16384 in
theorem opsG_writes : (opsG' : List (HloOp τ sig (Elt F))).Forall fun op =>
    op.writes ⊆ (opsG_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keepG (V : Valuation τ sig (Elt F)) (r : Ref sig .tc) (h : r ∉ opsG_W) :
    after opsG V (Proc.devRef .tc r) = V (Proc.devRef .tc r) := by
  rw [opsG_eq]
  exact after_of_writes_sub opsG' _ opsG_writes h

set_option maxRecDepth 16384 in
set_option maxHeartbeats 4000000 in
theorem cG_v79 (V : Valuation τ sig (Elt F)) (x0 : (⟨S50000x1024, .f32⟩ : BufTy).Contents (Elt F)) (x1 : (⟨S50000, .f32⟩ : BufTy).Contents (Elt F)) (x2 : (⟨S8x512x1024, .f32⟩ : BufTy).Contents (Elt F)) (x3 : (⟨S4096, .i32⟩ : BufTy).Contents (Elt F)) (x4 : (⟨S2x1024, .f32⟩ : BufTy).Contents (Elt F)) (x5 : (⟨S2, .f32⟩ : BufTy).Contents (Elt F))
    (h_v9 : V (Proc.devRef .tc main_v9) = val_main_v9 (F := F) x3)
    (h_arg3 : V (Proc.devRef .tc main_arg3) = x3)
    (h_v61 : V (Proc.devRef .tc main_v61) = val_main_v61 (F := F) x0 x1 x2)
    (h_v19 : V (Proc.devRef .tc main_v19) = val_main_v19 (F := F) x0 x1 x2 x4 x5)
    (h_v53 : V (Proc.devRef .tc main_v53) = val_main_v53 (F := F) x0 x1 x2 x3 x4 x5) :
    after opsG V (Proc.devRef .tc main_v79) = val_main_v79 (F := F) x0 x1 x2 x3 x4 x5 := by
  rw [opsG_eq]
  simp only [opsG']
  after_results_simp
  all_goals (try simp only [h_v9, h_arg3, h_v61, h_v19, h_v53])
  all_goals (repeat (first | rw [h_v9] | rw [h_arg3] | rw [h_v61] | rw [h_v19] | rw [h_v53]))
  all_goals rfl

end Cert.ReferenceIdeal.RunP

end
-- ==== Proof.Ref.Run.lean ====
/-
  The reference program's run, joined from its eight chunks: every weakly fair execution of @main terminates with the
  result buffer at the last stage of the reading module (a function of the six arguments' launch contents) and the six
  arguments unchanged.
-/
import proofs.«427234_j53386443489982_1_alg».proof.Proof.Ref.RunOps
import proofs.«427234_j53386443489982_1_alg».proof.Proof.Ref.ReadP
import proofs.«427234_j53386443489982_1_alg».proof.Proof.Ref.RunA1
import proofs.«427234_j53386443489982_1_alg».proof.Proof.Ref.RunA2
import proofs.«427234_j53386443489982_1_alg».proof.Proof.Ref.RunA3
import proofs.«427234_j53386443489982_1_alg».proof.Proof.Ref.RunB
import proofs.«427234_j53386443489982_1_alg».proof.Proof.Ref.RunC
import proofs.«427234_j53386443489982_1_alg».proof.Proof.Ref.RunD
import proofs.«427234_j53386443489982_1_alg».proof.Proof.Ref.RunE
import proofs.«427234_j53386443489982_1_alg».proof.Proof.Ref.RunG

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Two lines of operations one after the other act as their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- After all 216 operations, from any contents: the result buffer holds the last stage of the six arguments, and the
    six arguments are as before. -/
theorem after_ops (V0 : Valuation τ sig (Elt F)) :
    after ops V0 (Proc.devRef .tc main_v79) = val_main_v79 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
    ∧ after ops V0 (Proc.devRef .tc main_arg0) = V0 (Proc.devRef .tc main_arg0)
    ∧ after ops V0 (Proc.devRef .tc main_arg1) = V0 (Proc.devRef .tc main_arg1)
    ∧ after ops V0 (Proc.devRef .tc main_arg2) = V0 (Proc.devRef .tc main_arg2)
    ∧ after ops V0 (Proc.devRef .tc main_arg3) = V0 (Proc.devRef .tc main_arg3)
    ∧ after ops V0 (Proc.devRef .tc main_arg4) = V0 (Proc.devRef .tc main_arg4)
    ∧ after ops V0 (Proc.devRef .tc main_arg5) = V0 (Proc.devRef .tc main_arg5) := by
  rw [ops_cut]
  simp only [after_app]
  -- operations 1 … 14
  have f1_v0 := cA1_v0 V0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (rfl : V0 (Proc.devRef .tc main_arg2) = (V0 (Proc.devRef .tc main_arg2))) (rfl : V0 (Proc.devRef .tc main_arg3) = (V0 (Proc.devRef .tc main_arg3))) (rfl : V0 (Proc.devRef .tc main_arg0) = (V0 (Proc.devRef .tc main_arg0)))
  have f1_v9 := cA1_v9 V0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (rfl : V0 (Proc.devRef .tc main_arg2) = (V0 (Proc.devRef .tc main_arg2))) (rfl : V0 (Proc.devRef .tc main_arg3) = (V0 (Proc.devRef .tc main_arg3))) (rfl : V0 (Proc.devRef .tc main_arg0) = (V0 (Proc.devRef .tc main_arg0)))
  have f1_v10 := cA1_v10 V0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (rfl : V0 (Proc.devRef .tc main_arg2) = (V0 (Proc.devRef .tc main_arg2))) (rfl : V0 (Proc.devRef .tc main_arg3) = (V0 (Proc.devRef .tc main_arg3))) (rfl : V0 (Proc.devRef .tc main_arg0) = (V0 (Proc.devRef .tc main_arg0)))
  have f1_arg0 := (keepA1 V0 main_arg0 (by decide)).trans (rfl : V0 (Proc.devRef .tc main_arg0) = (V0 (Proc.devRef .tc main_arg0)))
  have f1_arg1 := (keepA1 V0 main_arg1 (by decide)).trans (rfl : V0 (Proc.devRef .tc main_arg1) = (V0 (Proc.devRef .tc main_arg1)))
  have f1_arg2 := (keepA1 V0 main_arg2 (by decide)).trans (rfl : V0 (Proc.devRef .tc main_arg2) = (V0 (Proc.devRef .tc main_arg2)))
  have f1_arg3 := (keepA1 V0 main_arg3 (by decide)).trans (rfl : V0 (Proc.devRef .tc main_arg3) = (V0 (Proc.devRef .tc main_arg3)))
  have f1_arg4 := (keepA1 V0 main_arg4 (by decide)).trans (rfl : V0 (Proc.devRef .tc main_arg4) = (V0 (Proc.devRef .tc main_arg4)))
  have f1_arg5 := (keepA1 V0 main_arg5 (by decide)).trans (rfl : V0 (Proc.devRef .tc main_arg5) = (V0 (Proc.devRef .tc main_arg5)))
  -- operations 15 … 16
  have f2_v11 := cA2_v11 (after opsA1 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) f1_v10 f1_arg4 f1_arg1
  have f2_v12 := cA2_v12 (after opsA1 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) f1_v10 f1_arg4 f1_arg1
  have f2_v0 := (keepA2 (after opsA1 V0) main_v0 (by decide)).trans f1_v0
  have f2_v9 := (keepA2 (after opsA1 V0) main_v9 (by decide)).trans f1_v9
  have f2_arg0 := (keepA2 (after opsA1 V0) main_arg0 (by decide)).trans f1_arg0
  have f2_arg1 := (keepA2 (after opsA1 V0) main_arg1 (by decide)).trans f1_arg1
  have f2_arg2 := (keepA2 (after opsA1 V0) main_arg2 (by decide)).trans f1_arg2
  have f2_arg3 := (keepA2 (after opsA1 V0) main_arg3 (by decide)).trans f1_arg3
  have f2_arg4 := (keepA2 (after opsA1 V0) main_arg4 (by decide)).trans f1_arg4
  have f2_arg5 := (keepA2 (after opsA1 V0) main_arg5 (by decide)).trans f1_arg5
  -- operations 17 … 37
  have f3_v19 := cA3_v19 (after opsA2 (after opsA1 V0)) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) f2_v12 f2_arg5 f2_v11 f2_v0
  have f3_v0 := (keepA3 (after opsA2 (after opsA1 V0)) main_v0 (by decide)).trans f2_v0
  have f3_v9 := (keepA3 (after opsA2 (after opsA1 V0)) main_v9 (by decide)).trans f2_v9
  have f3_arg0 := (keepA3 (after opsA2 (after opsA1 V0)) main_arg0 (by decide)).trans f2_arg0
  have f3_arg1 := (keepA3 (after opsA2 (after opsA1 V0)) main_arg1 (by decide)).trans f2_arg1
  have f3_arg2 := (keepA3 (after opsA2 (after opsA1 V0)) main_arg2 (by decide)).trans f2_arg2
  have f3_arg3 := (keepA3 (after opsA2 (after opsA1 V0)) main_arg3 (by decide)).trans f2_arg3
  have f3_arg4 := (keepA3 (after opsA2 (after opsA1 V0)) main_arg4 (by decide)).trans f2_arg4
  have f3_arg5 := (keepA3 (after opsA2 (after opsA1 V0)) main_arg5 (by decide)).trans f2_arg5
  -- operations 38 … 76
  have f4_v29 := cB_v29 (after opsA3 (after opsA2 (after opsA1 V0))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) f3_v9 f3_arg3 f3_v19
  have f4_v19 := (keepB (after opsA3 (after opsA2 (after opsA1 V0))) main_v19 (by decide)).trans f3_v19
  have f4_v0 := (keepB (after opsA3 (after opsA2 (after opsA1 V0))) main_v0 (by decide)).trans f3_v0
  have f4_v9 := (keepB (after opsA3 (after opsA2 (after opsA1 V0))) main_v9 (by decide)).trans f3_v9
  have f4_arg0 := (keepB (after opsA3 (after opsA2 (after opsA1 V0))) main_arg0 (by decide)).trans f3_arg0
  have f4_arg1 := (keepB (after opsA3 (after opsA2 (after opsA1 V0))) main_arg1 (by decide)).trans f3_arg1
  have f4_arg2 := (keepB (after opsA3 (after opsA2 (after opsA1 V0))) main_arg2 (by decide)).trans f3_arg2
  have f4_arg3 := (keepB (after opsA3 (after opsA2 (after opsA1 V0))) main_arg3 (by decide)).trans f3_arg3
  have f4_arg4 := (keepB (after opsA3 (after opsA2 (after opsA1 V0))) main_arg4 (by decide)).trans f3_arg4
  have f4_arg5 := (keepB (after opsA3 (after opsA2 (after opsA1 V0))) main_arg5 (by decide)).trans f3_arg5
  -- operations 77 … 98
  have f5_v37 := cC_v37 (after opsB (after opsA3 (after opsA2 (after opsA1 V0)))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) f4_arg0 f4_v0 f4_arg1
  have f5_v29 := (keepC (after opsB (after opsA3 (after opsA2 (after opsA1 V0)))) main_v29 (by decide)).trans f4_v29
  have f5_v19 := (keepC (after opsB (after opsA3 (after opsA2 (after opsA1 V0)))) main_v19 (by decide)).trans f4_v19
  have f5_v0 := (keepC (after opsB (after opsA3 (after opsA2 (after opsA1 V0)))) main_v0 (by decide)).trans f4_v0
  have f5_v9 := (keepC (after opsB (after opsA3 (after opsA2 (after opsA1 V0)))) main_v9 (by decide)).trans f4_v9
  have f5_arg0 := (keepC (after opsB (after opsA3 (after opsA2 (after opsA1 V0)))) main_arg0 (by decide)).trans f4_arg0
  have f5_arg1 := (keepC (after opsB (after opsA3 (after opsA2 (after opsA1 V0)))) main_arg1 (by decide)).trans f4_arg1
  have f5_arg2 := (keepC (after opsB (after opsA3 (after opsA2 (after opsA1 V0)))) main_arg2 (by decide)).trans f4_arg2
  have f5_arg3 := (keepC (after opsB (after opsA3 (after opsA2 (after opsA1 V0)))) main_arg3 (by decide)).trans f4_arg3
  have f5_arg4 := (keepC (after opsB (after opsA3 (after opsA2 (after opsA1 V0)))) main_arg4 (by decide)).trans f4_arg4
  have f5_arg5 := (keepC (after opsB (after opsA3 (after opsA2 (after opsA1 V0)))) main_arg5 (by decide)).trans f4_arg5
  -- operations 99 … 144
  have f6_v53 := cD_v53 (after opsC (after opsB (after opsA3 (after opsA2 (after opsA1 V0))))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) f5_v9 f5_arg3 f5_v37 f5_v19 f5_v29
  have f6_v19 := (keepD (after opsC (after opsB (after opsA3 (after opsA2 (after opsA1 V0))))) main_v19 (by decide)).trans f5_v19
  have f6_v0 := (keepD (after opsC (after opsB (after opsA3 (after opsA2 (after opsA1 V0))))) main_v0 (by decide)).trans f5_v0
  have f6_v9 := (keepD (after opsC (after opsB (after opsA3 (after opsA2 (after opsA1 V0))))) main_v9 (by decide)).trans f5_v9
  have f6_arg0 := (keepD (after opsC (after opsB (after opsA3 (after opsA2 (after opsA1 V0))))) main_arg0 (by decide)).trans f5_arg0
  have f6_arg1 := (keepD (after opsC (after opsB (after opsA3 (after opsA2 (after opsA1 V0))))) main_arg1 (by decide)).trans f5_arg1
  have f6_arg2 := (keepD (after opsC (after opsB (after opsA3 (after opsA2 (after opsA1 V0))))) main_arg2 (by decide)).trans f5_arg2
  have f6_arg3 := (keepD (after opsC (after opsB (after opsA3 (after opsA2 (after opsA1 V0))))) main_arg3 (by decide)).trans f5_arg3
  have f6_arg4 := (keepD (after opsC (after opsB (after opsA3 (after opsA2 (after opsA1 V0))))) main_arg4 (by decide)).trans f5_arg4
  have f6_arg5 := (keepD (after opsC (after opsB (after opsA3 (after opsA2 (after opsA1 V0))))) main_arg5 (by decide)).trans f5_arg5
  -- operations 145 … 166
  have f7_v61 := cE_v61 (after opsD (after opsC (after opsB (after opsA3 (after opsA2 (after opsA1 V0)))))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) f6_arg0 f6_v0 f6_arg1
  have f7_v53 := (keepE (after opsD (after opsC (after opsB (after opsA3 (after opsA2 (after opsA1 V0)))))) main_v53 (by decide)).trans f6_v53
  have f7_v19 := (keepE (after opsD (after opsC (after opsB (after opsA3 (after opsA2 (after opsA1 V0)))))) main_v19 (by decide)).trans f6_v19
  have f7_v9 := (keepE (after opsD (after opsC (after opsB (after opsA3 (after opsA2 (after opsA1 V0)))))) main_v9 (by decide)).trans f6_v9
  have f7_arg0 := (keepE (after opsD (after opsC (after opsB (after opsA3 (after opsA2 (after opsA1 V0)))))) main_arg0 (by decide)).trans f6_arg0
  have f7_arg1 := (keepE (after opsD (after opsC (after opsB (after opsA3 (after opsA2 (after opsA1 V0)))))) main_arg1 (by decide)).trans f6_arg1
  have f7_arg2 := (keepE (after opsD (after opsC (after opsB (after opsA3 (after opsA2 (after opsA1 V0)))))) main_arg2 (by decide)).trans f6_arg2
  have f7_arg3 := (keepE (after opsD (after opsC (after opsB (after opsA3 (after opsA2 (after opsA1 V0)))))) main_arg3 (by decide)).trans f6_arg3
  have f7_arg4 := (keepE (after opsD (after opsC (after opsB (after opsA3 (after opsA2 (after opsA1 V0)))))) main_arg4 (by decide)).trans f6_arg4
  have f7_arg5 := (keepE (after opsD (after opsC (after opsB (after opsA3 (after opsA2 (after opsA1 V0)))))) main_arg5 (by decide)).trans f6_arg5
  -- operations 167 … 216
  have f8_v79 := cG_v79 (after opsE (after opsD (after opsC (after opsB (after opsA3 (after opsA2 (after opsA1 V0))))))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) f7_v9 f7_arg3 f7_v61 f7_v19 f7_v53
  have f8_arg0 := (keepG (after opsE (after opsD (after opsC (after opsB (after opsA3 (after opsA2 (after opsA1 V0))))))) main_arg0 (by decide)).trans f7_arg0
  have f8_arg1 := (keepG (after opsE (after opsD (after opsC (after opsB (after opsA3 (after opsA2 (after opsA1 V0))))))) main_arg1 (by decide)).trans f7_arg1
  have f8_arg2 := (keepG (after opsE (after opsD (after opsC (after opsB (after opsA3 (after opsA2 (after opsA1 V0))))))) main_arg2 (by decide)).trans f7_arg2
  have f8_arg3 := (keepG (after opsE (after opsD (after opsC (after opsB (after opsA3 (after opsA2 (after opsA1 V0))))))) main_arg3 (by decide)).trans f7_arg3
  have f8_arg4 := (keepG (after opsE (after opsD (after opsC (after opsB (after opsA3 (after opsA2 (after opsA1 V0))))))) main_arg4 (by decide)).trans f7_arg4
  have f8_arg5 := (keepG (after opsE (after opsD (after opsC (after opsB (after opsA3 (after opsA2 (after opsA1 V0))))))) main_arg5 (by decide)).trans f7_arg5
  exact ⟨f8_v79, f8_arg0, f8_arg1, f8_arg2, f8_arg3, f8_arg4, f8_arg5⟩

/-- On every device, for any float values, from any memory with zero counters: every weakly fair execution of @main
    terminates with the result buffer at the last stage of the six arguments' launch contents, and the arguments unchanged. -/
theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v79).trans (after_ops (launchContents m c)).1,
      (h c main_arg0).trans (after_ops (launchContents m c)).2.1,
      (h c main_arg1).trans (after_ops (launchContents m c)).2.2.1,
      (h c main_arg2).trans (after_ops (launchContents m c)).2.2.2.1,
      (h c main_arg3).trans (after_ops (launchContents m c)).2.2.2.2.1,
      (h c main_arg4).trans (after_ops (launchContents m c)).2.2.2.2.2.1,
      (h c main_arg5).trans (after_ops (launchContents m c)).2.2.2.2.2.2⟩)
    (run_seq scopedRefs_eq scopedSems_eq defs main (fun _ => ops) main_eq (fun _ => ops_sub) m ρ (fun _ => ops_fresh))

end Cert.ReferenceIdeal.RunP

end
-- ==== Proof.Ref.Lemmas.lean ====
/-
  Reading lemmas for the reference program's stages that have no index-by-index reading of their own:
  a row maximum from the bottom element, a one-element conjunction, and the gather of one column per row.
-/
import proofs.«427234_j53386443489982_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.ValueIdx
open scoped BigOperators

/-! ## A row maximum -/

/-- The fold of `max` from the bottom element over a row is the row's supremum. -/
theorem fold_max_bot {n : ℕ} (x : Fin n → EReal) :
    (Finset.univ : Finset (Fin n)).fold max (⊥ : EReal) x = Cert.Spec.rowMax x := by
  unfold Cert.Spec.rowMax Finset.sup
  congr 1

/-- The word of minus infinity is the bottom element. -/
theorem ofBits_neg_inf : Ideal.ofBits .f32 0xFF800000#32 = (⊥ : EReal) := by
  simp [Ideal.ofBits, Ideal.ieee]

/-- The reduced index `r` with column `k` put back is (r, k). -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- From minus infinity the reduce with a maximum body along a row is the row's supremum. -/
theorem reduceMax_row {m n : ℕ} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = Cert.Spec.rowMax (fun k : Fin n => x (ix2 r k)) := by
  rw [Host.reduce_eq_fold_single FloatOps.maximumf x _ h' h hu, ← fold_max_bot]
  have hf : (x ∘ h.lift (ix1 r)) = fun k : Fin n => x (ix2 r k) := funext fun k => congrArg x (lift_row h r k)
  rw [hf]
  show Finset.fold max (Ideal.ofBits .f32 0xFF800000#32) _ _ = _
  rw [ofBits_neg_inf]
  rfl

/-! ## A conjunction over one element -/

/-- The reduced index (r, 0) with the one coordinate of the last axis put back is (r, 0, 0). -/
theorem lift_last {m : ℕ} (h : (⟨3, ![m, 1, 1]⟩ : Shape).Reduces [2] (⟨2, ![m, 1]⟩ : Shape)) (r : Fin m)
    (k : Fin ((⟨3, ![m, 1, 1]⟩ : Shape).size 2)) :
    h.lift (ix2 r (0 : Fin 1)) k = ix3 r (0 : Fin 1) (0 : Fin 1) := by
  funext c; apply Fin.ext
  have hk : k.val = 0 := by have := k.isLt; change k.val < 1 at this; omega
  fin_cases c
  · rfl
  · rfl
  · exact hk

/-- From `true` the reduce with an `and` body over an axis of one element is that element. -/
theorem reduceAnd_one {m : ℕ} (x : IVec ⟨3, ![m, 1, 1]⟩ 1)
    (h' : (⟨3, ![m, 1, 1]⟩ : Shape).ReducesTo [2] (⟨2, ![m, 1]⟩ : Shape))
    (h : (⟨3, ![m, 1, 1]⟩ : Shape).Reduces [2] (⟨2, ![m, 1]⟩ : Shape)) (hu : 0 < (⟨0, ![]⟩ : Shape).numel) (r : Fin m) :
    Host.reduce IntOp.andi x (constantI (⟨0, ![]⟩ : Shape) 1 1#1) h' hu (ix2 r (0 : Fin 1))
      = x (ix3 r (0 : Fin 1) (0 : Fin 1)) := by
  rw [Host.reduce_eq_fold_single IntOp.andi x _ h' h hu]
  have hf : (x ∘ h.lift (ix2 r (0 : Fin 1))) = fun _ => x (ix3 r (0 : Fin 1) (0 : Fin 1)) :=
    funext fun k => congrArg x (lift_last h r k)
  rw [hf]
  show Finset.fold IntOp.andi 1#1 (fun _ => x (ix3 r (0 : Fin 1) (0 : Fin 1))) (Finset.univ : Finset (Fin 1)) = _
  rw [Finset.univ_unique, Finset.fold_singleton]
  generalize x (ix3 r (0 : Fin 1) (0 : Fin 1)) = a
  rcases BitVec.eq_zero_or_eq_one a with h0 | h1
  · rw [h0]; rfl
  · rw [h1]; rfl

/-! ## One column per row: the gather -/

section Gather
variable {α : Type}

/-- The dimension numbers of `take_along_axis` along the columns: operand [R, N], start indices [R, 1, 1], result [R, 1];
    the rows are a batching axis, the column is the one indexed axis. -/
abbrev rowDims (R N : ℕ)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gather read at (r, 0): the operand's row `r` at the column the start index names, read signed and clamped
    into the row. -/
theorem gather_row_apply {R N w : ℕ} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (rowDims R N wf) x idx (ix2 r (0 : Fin 1))
      = x (ix2 r (⟨min (idx (ix3 r (0 : Fin 1) (0 : Fin 1))).toInt.toNat (N - 1), by omega⟩ : Fin N)) := by
  unfold Host.gather
  congr 1
  funext a
  refine Fin.ext ?_
  show (rowDims R N wf).start (ix2 r (0 : Fin 1)) idx a + (rowDims R N wf).batchCoord (ix2 r (0 : Fin 1)) a
      + (rowDims R N wf).offCoord (ix2 r (0 : Fin 1)) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    rw [GatherDims.batchCoord_eq_zero _ _ _ (fun hm => Nat.one_ne_zero (congrArg Fin.val (List.mem_singleton.mp hm))),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (rowDims R N wf).startIndexMap from List.mem_singleton.mpr rfl)]
    have hsi : (rowDims R N wf).siIdx (ix2 r (0 : Fin 1)) ⟨List.idxOf (⟨1, by decide⟩ : Fin 2) (rowDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Gather

end Cert.ReferenceIdeal.RefValue

end
-- ==== Proof.Ref.Words.lean ====
/-
  The 32-bit words of the reference program's index arithmetic, for a target class below 50000:
  the bucket word, the three gather indices, and the gather's wrap, bounds test and clamp on an index in range.
-/
import Idealize.ShloMosaic.PureOps.Ideal
import Idealize.ShloMosaic.Lib.ValueIdx

namespace Cert.ReferenceIdeal.RefValue

open Idealize.ShloMosaic Idealize.ShloMosaic.ValueIdx

theorem toInt_small (x : BitVec 32) (h : x.toNat < 2147483648) : x.toInt = (x.toNat : Int) :=
  BitVec.toInt_eq_toNat_of_lt (by omega)

/-- A signed "greater or equal" of two small words compares their values. -/
theorem cmpi_sge_small (t c : BitVec 32) (ht : t.toNat < 2147483648) (hc : c.toNat < 2147483648) :
    IntOp.cmpi .sge t c = if c.toNat ≤ t.toNat then 1#1 else 0#1 := by
  unfold IntOp.cmpi
  simp only [BitVec.sle, toInt_small t ht, toInt_small c hc]
  by_cases h : c.toNat ≤ t.toNat
  · rw [if_pos h]; simp [h]
  · rw [if_neg h]; simp [h]

theorem cmpi_sle_small (t c : BitVec 32) (ht : t.toNat < 2147483648) (hc : c.toNat < 2147483648) :
    IntOp.cmpi .sle t c = if t.toNat ≤ c.toNat then 1#1 else 0#1 := by
  unfold IntOp.cmpi
  simp only [BitVec.sle, toInt_small t ht, toInt_small c hc]
  by_cases h : t.toNat ≤ c.toNat
  · rw [if_pos h]; simp [h]
  · rw [if_neg h]; simp [h]

theorem cmpi_slt_small (t c : BitVec 32) (ht : t.toNat < 2147483648) (hc : c.toNat < 2147483648) :
    IntOp.cmpi .slt t c = if t.toNat < c.toNat then 1#1 else 0#1 := by
  unfold IntOp.cmpi
  simp only [BitVec.slt, toInt_small t ht, toInt_small c hc]
  by_cases h : t.toNat < c.toNat
  · rw [if_pos h]; simp [h]
  · rw [if_neg h]; simp [h]

theorem cmpi_eq_iff (x y : BitVec 32) : IntOp.cmpi .eq x y = if x = y then 1#1 else 0#1 := by
  unfold IntOp.cmpi
  by_cases h : x = y
  · rw [if_pos h]; simp [h]
  · rw [if_neg h]
    show BitVec.ofBool (x == y) = 0#1
    rw [beq_eq_false_iff_ne.mpr h]; rfl

/-- The bucket word of a target class: how many of the two split starts it has reached. -/
def bucketW (t : BitVec 32) : BitVec 32 :=
  IntOp.addi (IntOp.addi 0#32 ((IntOp.cmpi .sge t 4000#32).setWidth 32)) ((IntOp.cmpi .sge t 20000#32).setWidth 32)

theorem bucketW_eq (t : BitVec 32) (ht : t.toNat < 50000) :
    bucketW t = if t.toNat < 4000 then 0#32 else if t.toNat < 20000 then 1#32 else 2#32 := by
  unfold bucketW
  rw [cmpi_sge_small t 4000#32 (by omega) (by decide), cmpi_sge_small t 20000#32 (by omega) (by decide)]
  have e1 : (4000#32).toNat = 4000 := by decide
  have e2 : (20000#32).toNat = 20000 := by decide
  rw [e1, e2]
  by_cases h1 : t.toNat < 4000
  · rw [if_pos h1, if_neg (by omega), if_neg (by omega)]; decide
  · rw [if_neg h1, if_pos (by omega)]
    by_cases h2 : t.toNat < 20000
    · rw [if_pos h2, if_neg (by omega)]; decide
    · rw [if_neg h2, if_pos (by omega)]; decide

/-- The three gather index words. -/
def idxW0 (t : BitVec 32) : BitVec 32 := Scalar.select (IntOp.cmpi .eq (bucketW t) 0#32) t 0#32
def idxW1 (t : BitVec 32) : BitVec 32 := Scalar.select (IntOp.cmpi .eq (bucketW t) 1#32) (IntOp.subi t 4000#32) 0#32
def idxW2 (t : BitVec 32) : BitVec 32 := Scalar.select (IntOp.cmpi .eq (bucketW t) 2#32) (IntOp.subi t 20000#32) 0#32

theorem idxW0_toNat (t : BitVec 32) (ht : t.toNat < 50000) :
    (idxW0 t).toNat = if t.toNat < 4000 then t.toNat else 0 := by
  unfold idxW0
  rw [bucketW_eq t ht, cmpi_eq_iff]
  by_cases h1 : t.toNat < 4000
  · rw [if_pos h1, if_pos h1, if_pos rfl, select_one]
  · rw [if_neg h1, if_neg h1]
    by_cases h2 : t.toNat < 20000
    · rw [if_pos h2, if_neg (by decide), select_zero]; rfl
    · rw [if_neg h2, if_neg (by decide), select_zero]; rfl

theorem sub_toNat (t c : BitVec 32) (h : c.toNat ≤ t.toNat) : (IntOp.subi t c).toNat = t.toNat - c.toNat := by
  unfold IntOp.subi
  rw [BitVec.toNat_sub_of_le (BitVec.le_def.mpr h)]

theorem idxW1_toNat (t : BitVec 32) (ht : t.toNat < 50000) :
    (idxW1 t).toNat = if 4000 ≤ t.toNat ∧ t.toNat < 20000 then t.toNat - 4000 else 0 := by
  unfold idxW1
  rw [bucketW_eq t ht, cmpi_eq_iff]
  by_cases h1 : t.toNat < 4000
  · rw [if_pos h1, if_neg (by decide), select_zero, if_neg (by omega)]; rfl
  · rw [if_neg h1]
    by_cases h2 : t.toNat < 20000
    · rw [if_pos h2, if_pos rfl, select_one, if_pos ⟨by omega, h2⟩, sub_toNat t _ (by show 4000 ≤ t.toNat; omega)]; rfl
    · rw [if_neg h2, if_neg (by decide), select_zero, if_neg (by omega)]; rfl

theorem idxW2_toNat (t : BitVec 32) (ht : t.toNat < 50000) :
    (idxW2 t).toNat = if 20000 ≤ t.toNat then t.toNat - 20000 else 0 := by
  unfold idxW2
  rw [bucketW_eq t ht, cmpi_eq_iff]
  by_cases h1 : t.toNat < 4000
  · rw [if_pos h1, if_neg (by decide), select_zero, if_neg (by omega)]; rfl
  · rw [if_neg h1]
    by_cases h2 : t.toNat < 20000
    · rw [if_pos h2, if_neg (by decide), select_zero, if_neg (by omega)]; rfl
    · rw [if_neg h2, if_pos rfl, select_one, if_pos (by omega), sub_toNat t _ (by show 20000 ≤ t.toNat; omega)]; rfl

theorem idxW0_lt (t : BitVec 32) (ht : t.toNat < 50000) : (idxW0 t).toNat < 4002 := by
  rw [idxW0_toNat t ht]; split <;> omega
theorem idxW1_lt (t : BitVec 32) (ht : t.toNat < 50000) : (idxW1 t).toNat < 16000 := by
  rw [idxW1_toNat t ht]; split <;> omega
theorem idxW2_lt (t : BitVec 32) (ht : t.toNat < 50000) : (idxW2 t).toNat < 30000 := by
  rw [idxW2_toNat t ht]; split <;> omega

/-- A nonnegative index is not wrapped around. -/
theorem wrap_id (i c : BitVec 32) (hi : i.toNat < 2147483648) :
    Scalar.select (IntOp.cmpi .slt i 0#32) (IntOp.addi i c) i = i := by
  rw [cmpi_slt_small i 0#32 hi (by decide), if_neg (by simp), select_zero]

/-- An index between 0 and the last column passes the bounds test. -/
theorem inBounds (i c : BitVec 32) (hi : i.toNat ≤ c.toNat) (hc : c.toNat < 2147483648) :
    IntOp.andi (IntOp.cmpi .sge i 0#32) (IntOp.cmpi .sle i c) = 1#1 := by
  rw [cmpi_sge_small i 0#32 (by omega) (by decide), cmpi_sle_small i c (by omega) hc, if_pos (by simp), if_pos hi]
  decide

/-- An index in range is its own clamp. -/
theorem clamp_id (i : BitVec 32) (n : ℕ) (hi : i.toNat ≤ n) (h31 : i.toNat < 2147483648) :
    min i.toInt.toNat n = i.toNat := by
  rw [toInt_small i h31, Int.toNat_natCast]; omega

end Cert.ReferenceIdeal.RefValue
-- ==== Proof.Ref.Split0.lean ====
/-
  Split 0 of the reference (the head: the first 4000 classes and the two cluster columns): its logits are the
  specification's head rows, and its log-softmax the log-probabilities of those rows.
-/
import proofs.«427234_j53386443489982_1_alg».proof.Proof.Ref.ReadP
import proofs.«427234_j53386443489982_1_alg».proof.Proof.Spec
import proofs.«427234_j53386443489982_1_alg».proof.Proof.Ref.Lemmas
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx
open Cert.Spec (mat vec hid)
open scoped BigOperators

variable (w : FVec Ideal S50000x1024 .f32) (b : FVec Ideal S50000 .f32) (h : FVec Ideal S8x512x1024 .f32)
  (tv : FVec Ideal S2x1024 .f32) (tb : FVec Ideal S2 .f32)

/-- The flattened hidden states at (r, k). -/
theorem v0_at (r : Fin 4096) (k : Fin 1024) : val_main_v0 (F := Ideal) h (ix2 r k) = hid h r k := by
  rw [val_main_v0_apply]
  unfold Cert.Spec.hid
  refine congrArg h (funext fun a => Fin.ext ?_)
  have hr := r.isLt; have hk := k.isLt
  match a with
  | ⟨0, _⟩ => show (r.val * 1024 + k.val) / 524288 = r.val / 512; omega
  | ⟨1, _⟩ => show (r.val * 1024 + k.val) / 1024 % 512 = r.val % 512; omega
  | ⟨2, _⟩ => show (r.val * 1024 + k.val) % 1024 = k.val; omega

/-- The head's weight rows: the first 4000 classes' rows, then the two cluster rows. -/
theorem v11_at (j : Fin 4002) (k : Fin 1024) :
    val_main_v11 (F := Ideal) w tv (ix2 j k) = Cert.Spec.headW (mat w) (mat tv) j k := by
  unfold val_main_v11 Cert.Spec.headW
  by_cases hj : j.val < 4000
  · rw [dif_pos hj]
    refine (concatenate_pair_apply_left (0 : Fin 2) (val_main_v10 (F := Ideal) w) tv
      concatenates_S4000x1024_S2x1024_S4002x1024_d0 (ix2 j k) rfl (ix2 (⟨j.val, hj⟩ : Fin 4000) k)
      (fun c => match c with | ⟨0, _⟩ => rfl | ⟨1, _⟩ => rfl)).trans ?_
    rw [val_main_v10_apply]
    unfold Cert.Spec.mat
    exact congrArg w (funext fun a => Fin.ext (match a with | ⟨0, _⟩ => rfl | ⟨1, _⟩ => rfl))
  · rw [dif_neg hj]
    have hj2 := j.isLt
    refine (concatenate_pair_apply_right (0 : Fin 2) (val_main_v10 (F := Ideal) w) tv
      concatenates_S4000x1024_S2x1024_S4002x1024_d0 (ix2 j k) rfl rfl (ix2 (⟨j.val - 4000, by omega⟩ : Fin 2) k)
      (fun c hc => match c, hc with
        | ⟨0, _⟩, hc => absurd rfl hc
        | ⟨1, _⟩, _ => rfl)
      (by show (j.val - 4000) + 4000 = j.val; omega)).trans ?_
    all_goals rfl

/-- The head's biases. -/
theorem v13_at (j : Fin 4002) :
    val_main_v13 (F := Ideal) b tb (ix1 j) = Cert.Spec.headB (vec b) (vec tb) j := by
  unfold val_main_v13 Cert.Spec.headB
  by_cases hj : j.val < 4000
  · rw [dif_pos hj]
    refine (concatenate_pair_apply_left (0 : Fin 1) (val_main_v12 (F := Ideal) b) tb
      concatenates_S4000_S2_S4002_d0 (ix1 j) rfl (ix1 (⟨j.val, hj⟩ : Fin 4000))
      (fun c => match c with | ⟨0, _⟩ => rfl)).trans ?_
    rw [val_main_v12_apply]
    unfold Cert.Spec.vec
    exact congrArg b (funext fun a => Fin.ext (match a with | ⟨0, _⟩ => rfl))
  · rw [dif_neg hj]
    have hj2 := j.isLt
    refine (concatenate_pair_apply_right (0 : Fin 1) (val_main_v12 (F := Ideal) b) tb
      concatenates_S4000_S2_S4002_d0 (ix1 j) rfl rfl (ix1 (⟨j.val - 4000, by omega⟩ : Fin 2))
      (fun c hc => match c, hc with
        | ⟨0, _⟩, hc => absurd rfl hc)
      (by show (j.val - 4000) + 4000 = j.val; omega)).trans ?_
    all_goals rfl

/-- The head's logits at (r, j). -/
theorem logits0_at (r : Fin 4096) (j : Fin 4002) :
    val_main_v18 (F := Ideal) w b h tv tb (ix2 r j) = Cert.Spec.headRow (mat w) (vec b) (mat tv) (vec tb) (hid h) r j := by
  rw [val_main_v18_apply, val_main_v15_apply, val_main_v17_apply, val_main_v16_apply]
  unfold Cert.Spec.headRow Cert.Spec.logit
  show _ + _ = _
  refine congrArg₂ (· + ·) ?_ ?_
  · refine Finset.sum_congr rfl fun k _ => ?_
    have e1 : lidx_main_v15 (ix2 r j) k = ix2 r k := by
      funext a; match a with | ⟨0, _⟩ => rfl | ⟨1, _⟩ => rfl
    have e2 : idx_main_v14 (ridx_main_v15 (ix2 r j) k) = ix2 j k := by
      funext a; match a with | ⟨0, _⟩ => rfl | ⟨1, _⟩ => rfl
    rw [val_main_v14_apply, e1, e2, v0_at, v11_at]
  · have e : idx_main_v16 (idx_main_v17 (ix2 r j)) = ix1 j := by
      funext a; match a with | ⟨0, _⟩ => rfl
    rw [e, v13_at]

/-- The zero word is zero. -/
theorem ofBits_zero0 : Ideal.ofBits .f32 0x00000000#32 = (0 : EReal) := by
  simp [Ideal.ofBits, Ideal.ieee]

/-- The log-softmax of split 0 at (r, j) is the log-probability of column j of row r's logits. -/
theorem lsm0_at (r : Fin 4096) (j : Fin 4002) :
    val_main_v19 (F := Ideal) w b h tv tb (ix2 r j) = Cert.Spec.logProb (Cert.Spec.headRow (mat w) (vec b) (mat tv) (vec tb) (hid h) r) j := by
  have hx : ∀ k : Fin 4002, val_main_v18 (F := Ideal) w b h tv tb (ix2 r k) = Cert.Spec.headRow (mat w) (vec b) (mat tv) (vec tb) (hid h) r k := fun k => logits0_at w b h tv tb r k
  -- the row maximum
  have hv0 : val_main_call0_v0 (F := Ideal) w b h tv tb (ix1 r) = Cert.Spec.rowMax (Cert.Spec.headRow (mat w) (vec b) (mat tv) (vec tb) (hid h) r) := by
    unfold val_main_call0_v0 val_main_call0_cst
    refine (reduceMax_row (val_main_v18 (F := Ideal) w b h tv tb) reducesTo_S4096x4002_S4096_d1 (by decide) h_S_ r).trans ?_
    exact congrArg Cert.Spec.rowMax (funext hx)
  have hv2 : val_main_call0_v2 (F := Ideal) w b h tv tb (ix1 r) = Cert.Spec.rowMax (Cert.Spec.headRow (mat w) (vec b) (mat tv) (vec tb) (hid h) r) := by
    rw [val_main_call0_v2_apply, hv0, val_main_call0_v1_apply, val_main_call0_cst_0_apply]
    show max (Ideal.ofBits .f32 0xFF800000#32) _ = _
    rw [ofBits_neg_inf]; exact max_bot_left _
  -- the shifted logits
  have hv5 : ∀ k : Fin 4002, val_main_call0_v5 (F := Ideal) w b h tv tb (ix2 r k)
      = Cert.Spec.headRow (mat w) (vec b) (mat tv) (vec tb) (hid h) r k - Cert.Spec.rowMax (Cert.Spec.headRow (mat w) (vec b) (mat tv) (vec tb) (hid h) r) := by
    intro k
    have e : idx_main_call0_v3 (idx_main_call0_v4 (ix2 r k)) = ix1 r := by
      funext a; match a with | ⟨0, _⟩ => rfl
    rw [val_main_call0_v5_apply, hx, val_main_call0_v4_apply, val_main_call0_v3_apply, e, hv2]
    all_goals rfl
  -- the sum of the exponentials
  have hv7 : val_main_call0_v7 (F := Ideal) w b h tv tb (ix1 r) = Cert.Spec.rowSum (Cert.Spec.headRow (mat w) (vec b) (mat tv) (vec tb) (hid h) r) := by
    rw [val_main_call0_v7_apply, val_main_call0_cst_1_apply]
    show Ideal.ofBits .f32 0x00000000#32 + _ = _
    rw [ofBits_zero0, zero_add]
    unfold Cert.Spec.rowSum
    refine Finset.sum_congr rfl fun k _ => ?_
    have e : idx_main_call0_v7 (ix1 r) k = ix2 r k := by
      funext a; match a with | ⟨0, _⟩ => rfl | ⟨1, _⟩ => rfl
    rw [e, val_main_call0_v6_apply, hv5]
    exact Ideal.hostUnary_exp_def _
  have e2 : idx_main_call0_v8 (idx_main_call0_v10 (ix2 r j)) = ix1 r := by
    funext a; match a with | ⟨0, _⟩ => rfl
  rw [val_main_v19_apply, hv5, val_main_call0_v10_apply, val_main_call0_v9_apply, val_main_call0_v8_apply, e2, hv7, Ideal.hostUnary_log_def]
  unfold Cert.Spec.logProb
  all_goals rfl

end Cert.ReferenceIdeal.RefValue

end
-- ==== Proof.Ref.Split1.lean ====
/-
  Split 1 of the reference (classes 4000 … 19999): its logits are the specification's rows of that tail,
  and its log-softmax the log-probabilities of those rows.
-/
import proofs.«427234_j53386443489982_1_alg».proof.Proof.Ref.ReadP
import proofs.«427234_j53386443489982_1_alg».proof.Proof.Spec
import proofs.«427234_j53386443489982_1_alg».proof.Proof.Ref.Lemmas
import proofs.«427234_j53386443489982_1_alg».proof.Proof.Ref.Split0

noncomputable section

namespace Cert.ReferenceIdeal.RefValue

open Cert.ReferenceIdeal Cert.ReferenceIdeal.Gen Cert.ReferenceIdeal.ReadP Idealize.ShloMosaic Idealize.ShloMosaic.ValueIdx
open Cert.Spec (mat vec hid)
open scoped BigOperators

variable (w : FVec Ideal S50000x1024 .f32) (b : FVec Ideal S50000 .f32) (h : FVec Ideal S8x512x1024 .f32)

/-- The tail's logits at (r, j). -/
theorem logits1_at (r : Fin 4096) (j : Fin 16000) :
    val_main_v36 (F := Ideal) w b h (ix2 r j) = Cert.Spec.tail1Row (mat w) (vec b) (hid h) r j := by
  rw [val_main_v36_apply, val_main_v32_apply, val_main_v35_apply, val_main_v34_apply, val_main_v33_apply]
  unfold Cert.Spec.tail1Row Cert.Spec.logit
  show _ + _ = _
  refine congrArg₂ (· + ·) ?_ ?_
  · refine Finset.sum_congr rfl fun k _ => ?_
    have e1 : lidx_main_v32 (ix2 r j) k = ix2 r k := by
      funext a; match a with | ⟨0, _⟩ => rfl | ⟨1, _⟩ => rfl
    rw [val_main_v31_apply, val_main_v30_apply, e1, v0_at]
    unfold Cert.Spec.tail1W Cert.Spec.mat
    refine congrArg (hid h r k * ·) (congrArg w (funext fun a => Fin.ext ?_))
    match a with
    | ⟨0, _⟩ => show 4000 + j.val = j.val + 4000; omega
    | ⟨1, _⟩ => rfl
  · unfold Cert.Spec.tail1B Cert.Spec.vec
    refine congrArg b (funext fun a => Fin.ext ?_)
    match a with
    | ⟨0, _⟩ => show 4000 + j.val = j.val + 4000; omega

/-- The zero word is zero. -/
theorem ofBits_zero1 : Ideal.ofBits .f32 0x00000000#32 = (0 : EReal) := by
  simp [Ideal.ofBits, Ideal.ieee]

/-- The log-softmax of split 1 at (r, j) is the log-probability of column j of row r's logits. -/
theorem lsm1_at (r : Fin 4096) (j : Fin 16000) :
    val_main_v37 (F := Ideal) w b h (ix2 r j) = Cert.Spec.logProb (Cert.Spec.tail1Row (mat w) (vec b) (hid h) r) j := by
  have hx : ∀ k : Fin 16000, val_main_v36 (F := Ideal) w b h (ix2 r k) = Cert.Spec.tail1Row (mat w) (vec b) (hid h) r k := fun k => logits1_at w b h r k
  -- the row maximum
  have hv0 : val_main_call4_v0 (F := Ideal) w b h (ix1 r) = Cert.Spec.rowMax (Cert.Spec.tail1Row (mat w) (vec b) (hid h) r) := by
    unfold val_main_call4_v0 val_main_call4_cst
    refine (reduceMax_row (val_main_v36 (F := Ideal) w b h) reducesTo_S4096x16000_S4096_d1 (by decide) h_S_ r).trans ?_
    exact congrArg Cert.Spec.rowMax (funext hx)
  have hv2 : val_main_call4_v2 (F := Ideal) w b h (ix1 r) = Cert.Spec.rowMax (Cert.Spec.tail1Row (mat w) (vec b) (hid h) r) := by
    rw [val_main_call4_v2_apply, hv0, val_main_call4_v1_apply, val_main_call4_cst_0_apply]
    show max (Ideal.ofBits .f32 0xFF800000#32) _ = _
    rw [ofBits_neg_inf]; exact max_bot_left _
  -- the shifted logits
  have hv5 : ∀ k : Fin 16000, val_main_call4_v5 (F := Ideal) w b h (ix2 r k)
      = Cert.Spec.tail1Row (mat w) (vec b) (hid h) r k - Cert.Spec.rowMax (Cert.Spec.tail1Row (mat w) (vec b) (hid h) r) := by
    intro k
    have e : idx_main_call4_v3 (idx_main_call4_v4 (ix2 r k)) = ix1 r := by
      funext a; match a with | ⟨0, _⟩ => rfl
    rw [val_main_call4_v5_apply, hx, val_main_call4_v4_apply, val_main_call4_v3_apply, e, hv2]
    all_goals rfl
  -- the sum of the exponentials
  have hv7 : val_main_call4_v7 (F := Ideal) w b h (ix1 r) = Cert.Spec.rowSum (Cert.Spec.tail1Row (mat w) (vec b) (hid h) r) := by
    rw [val_main_call4_v7_apply, val_main_call4_cst_1_apply]
    show Ideal.ofBits .f32 0x00000000#32 + _ = _
    rw [ofBits_zero1, zero_add]
    unfold Cert.Spec.rowSum
    refine Finset.sum_congr rfl fun k _ => ?_
    have e : idx_main_call4_v7 (ix1 r) k = ix2 r k := by
      funext a; match a with | ⟨0, _⟩ => rfl | ⟨1, _⟩ => rfl
    rw [e, val_main_call4_v6_apply, hv5]
    exact Ideal.hostUnary_exp_def _
  have e2 : idx_main_call4_v8 (idx_main_call4_v10 (ix2 r j)) = ix1 r := by
    funext a; match a with | ⟨0, _⟩ => rfl
  rw [val_main_v37_apply, hv5, val_main_call4_v10_apply, val_main_call4_v9_apply, val_main_call4_v8_apply, e2, hv7, Ideal.hostUnary_log_def]
  unfold Cert.Spec.logProb
  all_goals rfl

end Cert.ReferenceIdeal.RefValue

end
-- ==== Proof.Ref.Split2.lean ====
/-
  Split 2 of the reference (classes 20000 … 49999): its logits are the specification's rows of that tail,
  and its log-softmax the log-probabilities of those rows.
-/
import proofs.«427234_j53386443489982_1_alg».proof.Proof.Ref.ReadP
import proofs.«427234_j53386443489982_1_alg».proof.Proof.Spec
import proofs.«427234_j53386443489982_1_alg».proof.Proof.Ref.Lemmas
import proofs.«427234_j53386443489982_1_alg».proof.Proof.Ref.Split0

noncomputable section

namespace Cert.ReferenceIdeal.RefValue

open Cert.ReferenceIdeal Cert.ReferenceIdeal.Gen Cert.ReferenceIdeal.ReadP Idealize.ShloMosaic Idealize.ShloMosaic.ValueIdx
open Cert.Spec (mat vec hid)
open scoped BigOperators

variable (w : FVec Ideal S50000x1024 .f32) (b : FVec Ideal S50000 .f32) (h : FVec Ideal S8x512x1024 .f32)

/-- The tail's logits at (r, j). -/
theorem logits2_at (r : Fin 4096) (j : Fin 30000) :
    val_main_v60 (F := Ideal) w b h (ix2 r j) = Cert.Spec.tail2Row (mat w) (vec b) (hid h) r j := by
  rw [val_main_v60_apply, val_main_v56_apply, val_main_v59_apply, val_main_v58_apply, val_main_v57_apply]
  unfold Cert.Spec.tail2Row Cert.Spec.logit
  show _ + _ = _
  refine congrArg₂ (· + ·) ?_ ?_
  · refine Finset.sum_congr rfl fun k _ => ?_
    have e1 : lidx_main_v56 (ix2 r j) k = ix2 r k := by
      funext a; match a with | ⟨0, _⟩ => rfl | ⟨1, _⟩ => rfl
    rw [val_main_v55_apply, val_main_v54_apply, e1, v0_at]
    unfold Cert.Spec.tail2W Cert.Spec.mat
    refine congrArg (hid h r k * ·) (congrArg w (funext fun a => Fin.ext ?_))
    match a with
    | ⟨0, _⟩ => show 20000 + j.val = j.val + 20000; omega
    | ⟨1, _⟩ => rfl
  · unfold Cert.Spec.tail2B Cert.Spec.vec
    refine congrArg b (funext fun a => Fin.ext ?_)
    match a with
    | ⟨0, _⟩ => show 20000 + j.val = j.val + 20000; omega

/-- The zero word is zero. -/
theorem ofBits_zero2 : Ideal.ofBits .f32 0x00000000#32 = (0 : EReal) := by
  simp [Ideal.ofBits, Ideal.ieee]

/-- The log-softmax of split 2 at (r, j) is the log-probability of column j of row r's logits. -/
theorem lsm2_at (r : Fin 4096) (j : Fin 30000) :
    val_main_v61 (F := Ideal) w b h (ix2 r j) = Cert.Spec.logProb (Cert.Spec.tail2Row (mat w) (vec b) (hid h) r) j := by
  have hx : ∀ k : Fin 30000, val_main_v60 (F := Ideal) w b h (ix2 r k) = Cert.Spec.tail2Row (mat w) (vec b) (hid h) r k := fun k => logits2_at w b h r k
  -- the row maximum
  have hv0 : val_main_call8_v0 (F := Ideal) w b h (ix1 r) = Cert.Spec.rowMax (Cert.Spec.tail2Row (mat w) (vec b) (hid h) r) := by
    unfold val_main_call8_v0 val_main_call8_cst
    refine (reduceMax_row (val_main_v60 (F := Ideal) w b h) reducesTo_S4096x30000_S4096_d1 (by decide) h_S_ r).trans ?_
    exact congrArg Cert.Spec.rowMax (funext hx)
  have hv2 : val_main_call8_v2 (F := Ideal) w b h (ix1 r) = Cert.Spec.rowMax (Cert.Spec.tail2Row (mat w) (vec b) (hid h) r) := by
    rw [val_main_call8_v2_apply, hv0, val_main_call8_v1_apply, val_main_call8_cst_0_apply]
    show max (Ideal.ofBits .f32 0xFF800000#32) _ = _
    rw [ofBits_neg_inf]; exact max_bot_left _
  -- the shifted logits
  have hv5 : ∀ k : Fin 30000, val_main_call8_v5 (F := Ideal) w b h (ix2 r k)
      = Cert.Spec.tail2Row (mat w) (vec b) (hid h) r k - Cert.Spec.rowMax (Cert.Spec.tail2Row (mat w) (vec b) (hid h) r) := by
    intro k
    have e : idx_main_call8_v3 (idx_main_call8_v4 (ix2 r k)) = ix1 r := by
      funext a; match a with | ⟨0, _⟩ => rfl
    rw [val_main_call8_v5_apply, hx, val_main_call8_v4_apply, val_main_call8_v3_apply, e, hv2]
    all_goals rfl
  -- the sum of the exponentials
  have hv7 : val_main_call8_v7 (F := Ideal) w b h (ix1 r) = Cert.Spec.rowSum (Cert.Spec.tail2Row (mat w) (vec b) (hid h) r) := by
    rw [val_main_call8_v7_apply, val_main_call8_cst_1_apply]
    show Ideal.ofBits .f32 0x00000000#32 + _ = _
    rw [ofBits_zero2, zero_add]
    unfold Cert.Spec.rowSum
    refine Finset.sum_congr rfl fun k _ => ?_
    have e : idx_main_call8_v7 (ix1 r) k = ix2 r k := by
      funext a; match a with | ⟨0, _⟩ => rfl | ⟨1, _⟩ => rfl
    rw [e, val_main_call8_v6_apply, hv5]
    exact Ideal.hostUnary_exp_def _
  have e2 : idx_main_call8_v8 (idx_main_call8_v10 (ix2 r j)) = ix1 r := by
    funext a; match a with | ⟨0, _⟩ => rfl
  rw [val_main_v61_apply, hv5, val_main_call8_v10_apply, val_main_call8_v9_apply, val_main_call8_v8_apply, e2, hv7, Ideal.hostUnary_log_def]
  unfold Cert.Spec.logProb
  all_goals rfl

end Cert.ReferenceIdeal.RefValue

end
-- ==== Proof.Ref.Gathers.lean ====
/-
  The reference's three gathers: per split the index word of a row, the gather's start index, its bounds test,
  and the gathered value as the split's log-softmax at the index word's column.
-/
import proofs.«427234_j53386443489982_1_alg».proof.Proof.Ref.ReadP
import proofs.«427234_j53386443489982_1_alg».proof.Proof.Ref.Lemmas
import proofs.«427234_j53386443489982_1_alg».proof.Proof.Ref.Words

noncomputable section

namespace Cert.ReferenceIdeal.RefValue

open Cert.ReferenceIdeal Cert.ReferenceIdeal.Gen Cert.ReferenceIdeal.ReadP Idealize.ShloMosaic Idealize.ShloMosaic.ValueIdx
open Cert.Spec (mat vec hid)
open scoped BigOperators

variable (w : FVec Ideal S50000x1024 .f32) (b : FVec Ideal S50000 .f32) (h : FVec Ideal S8x512x1024 .f32)
  (t : IVec S4096 32) (tv : FVec Ideal S2x1024 .f32) (tb : FVec Ideal S2 .f32)

/-- The bucket word at row r. -/
theorem bucket_at (r : Fin 4096) : val_main_v9 (F := Ideal) t (ix1 r) = bucketW (t (ix1 r)) := by
  rw [val_main_v9_apply, val_main_v5_apply, val_main_v8_apply, val_main_v4_apply, val_main_v1_apply, val_main_c_apply,
    val_main_v7_apply, val_main_v3_apply, val_main_v6_apply, val_main_v2_apply, val_main_c_0_apply, val_main_c_1_apply]
  all_goals rfl

/-! ## Split 0: the gather index and the gathered log-probability -/

/-- The index word of split 0 at row r. -/
theorem idx0_at (r : Fin 4096) : val_main_v22 (F := Ideal) t (ix1 r) = idxW0 (t (ix1 r)) := by
  rw [val_main_v22_apply, val_main_v21_apply, bucket_at, val_main_v20_apply, val_main_c_2_apply,

    val_main_call1_v1_apply, val_main_call1_v0_apply, val_main_c_3_apply]
  all_goals rfl

/-- The gather's start index at row r is the index word: it is not negative, so it is not wrapped. -/
theorem start0_at (r : Fin 4096) (ht : (t (ix1 r)).toNat < 50000) :
    val_main_call2_v5 (F := Ideal) t (ix3 r (0 : Fin 1) (0 : Fin 1)) = idxW0 (t (ix1 r)) := by
  have e5 : idx_main_call2_v5 (ix3 r (0 : Fin 1) (0 : Fin 1)) = ix2 r (0 : Fin 1) := by
    funext a; refine Fin.ext ?_
    match a with
    | ⟨0, _⟩ => show ((r.val * 1 + 0) * 1 + 0) / 1 = r.val; omega
    | ⟨1, _⟩ => rfl
  have e23 : idx_main_v23 (ix2 r (0 : Fin 1)) = ix1 r := by
    funext a; match a with | ⟨0, _⟩ => rfl
  rw [val_main_call2_v5_apply, e5, val_main_call2_v4_apply, val_main_call2_v1_apply, val_main_call2_v3_apply,
    val_main_v23_apply, e23, idx0_at, val_main_call2_v0_apply, val_main_call2_c_apply]
  exact wrap_id _ _ (by have := idxW0_lt _ ht; omega)

/-- The bounds test passes at every row. -/
theorem inb0_at (r : Fin 4096) (ht : (t (ix1 r)).toNat < 50000) :
    val_main_call2_v12 (F := Ideal) t (ix2 r (0 : Fin 1)) = 1#1 := by
  unfold val_main_call2_v12 val_main_call2_c_3
  refine (reduceAnd_one (val_main_call2_v11 (F := Ideal) t) reducesTo_S4096x1x1_S4096x1_d2 (by decide) h_S_ r).trans ?_
  rw [val_main_call2_v11_apply, val_main_call2_v7_apply, val_main_call2_v10_apply, start0_at t r ht,
    val_main_call2_v6_apply, val_main_call2_c_2_apply, val_main_call2_v9_apply, val_main_call2_v8_apply, val_main_call2_c_1_apply]
  have e : (4001#32 : BitVec 32).toNat = 4001 := by decide
  exact inBounds _ _ (by rw [e]; have := idxW0_lt _ ht; omega) (by rw [e]; omega)

/-- The gathered value at row r is the log-softmax at the index word's column. -/
theorem gath0_at (r : Fin 4096) (ht : (t (ix1 r)).toNat < 50000) (c : Fin 4002)
    (hc : c.val = (idxW0 (t (ix1 r))).toNat) :
    val_main_v25 (F := Ideal) w b h t tv tb (ix1 r) = val_main_v19 (F := Ideal) w b h tv tb (ix2 r c) := by
  have e25 : idx_main_v25 (ix1 r) = ix2 r (0 : Fin 1) := by
    funext a; refine Fin.ext ?_
    match a with
    | ⟨0, _⟩ => show r.val / 1 = r.val; omega
    | ⟨1, _⟩ => rfl
  rw [val_main_v25_apply, e25, val_main_v24_apply, inb0_at t r ht, select_one]
  unfold val_main_call2_v13
  refine (gather_row_apply (R := 4096) (N := 4002) (by decide) _ (val_main_v19 (F := Ideal) w b h tv tb) (val_main_call2_v5 (F := Ideal) t) r).trans ?_
  refine congrArg (val_main_v19 (F := Ideal) w b h tv tb) (congrArg (fun c : Fin 4002 => ix2 r c) (Fin.ext ?_))
  show min ((val_main_call2_v5 (F := Ideal) t) (ix3 r (0 : Fin 1) (0 : Fin 1))).toInt.toNat (4002 - 1) = c.val
  rw [start0_at t r ht, hc]
  exact clamp_id _ _ (by have := idxW0_lt _ ht; omega) (by have := idxW0_lt _ ht; omega)

/-! ## Split 1: the gather index and the gathered log-probability -/

/-- The index word of split 1 at row r. -/
theorem idx1_at (r : Fin 4096) : val_main_v42 (F := Ideal) t (ix1 r) = idxW1 (t (ix1 r)) := by
  rw [val_main_v42_apply, val_main_v39_apply, bucket_at, val_main_v38_apply, val_main_c_5_apply,
    val_main_v41_apply, val_main_v40_apply, val_main_c_6_apply,
    val_main_call5_v1_apply, val_main_call5_v0_apply, val_main_c_7_apply]
  all_goals rfl

/-- The gather's start index at row r is the index word: it is not negative, so it is not wrapped. -/
theorem start1_at (r : Fin 4096) (ht : (t (ix1 r)).toNat < 50000) :
    val_main_call6_v5 (F := Ideal) t (ix3 r (0 : Fin 1) (0 : Fin 1)) = idxW1 (t (ix1 r)) := by
  have e5 : idx_main_call6_v5 (ix3 r (0 : Fin 1) (0 : Fin 1)) = ix2 r (0 : Fin 1) := by
    funext a; refine Fin.ext ?_
    match a with
    | ⟨0, _⟩ => show ((r.val * 1 + 0) * 1 + 0) / 1 = r.val; omega
    | ⟨1, _⟩ => rfl
  have e23 : idx_main_v43 (ix2 r (0 : Fin 1)) = ix1 r := by
    funext a; match a with | ⟨0, _⟩ => rfl
  rw [val_main_call6_v5_apply, e5, val_main_call6_v4_apply, val_main_call6_v1_apply, val_main_call6_v3_apply,
    val_main_v43_apply, e23, idx1_at, val_main_call6_v0_apply, val_main_call6_c_apply]
  exact wrap_id _ _ (by have := idxW1_lt _ ht; omega)

/-- The bounds test passes at every row. -/
theorem inb1_at (r : Fin 4096) (ht : (t (ix1 r)).toNat < 50000) :
    val_main_call6_v12 (F := Ideal) t (ix2 r (0 : Fin 1)) = 1#1 := by
  unfold val_main_call6_v12 val_main_call6_c_3
  refine (reduceAnd_one (val_main_call6_v11 (F := Ideal) t) reducesTo_S4096x1x1_S4096x1_d2 (by decide) h_S_ r).trans ?_
  rw [val_main_call6_v11_apply, val_main_call6_v7_apply, val_main_call6_v10_apply, start1_at t r ht,
    val_main_call6_v6_apply, val_main_call6_c_2_apply, val_main_call6_v9_apply, val_main_call6_v8_apply, val_main_call6_c_1_apply]
  have e : (15999#32 : BitVec 32).toNat = 15999 := by decide
  exact inBounds _ _ (by rw [e]; have := idxW1_lt _ ht; omega) (by rw [e]; omega)

/-- The gathered value at row r is the log-softmax at the index word's column. -/
theorem gath1_at (r : Fin 4096) (ht : (t (ix1 r)).toNat < 50000) (c : Fin 16000)
    (hc : c.val = (idxW1 (t (ix1 r))).toNat) :
    val_main_v45 (F := Ideal) w b h t (ix1 r) = val_main_v37 (F := Ideal) w b h (ix2 r c) := by
  have e25 : idx_main_v45 (ix1 r) = ix2 r (0 : Fin 1) := by
    funext a; refine Fin.ext ?_
    match a with
    | ⟨0, _⟩ => show r.val / 1 = r.val; omega
    | ⟨1, _⟩ => rfl
  rw [val_main_v45_apply, e25, val_main_v44_apply, inb1_at t r ht, select_one]
  unfold val_main_call6_v13
  refine (gather_row_apply (R := 4096) (N := 16000) (by decide) _ (val_main_v37 (F := Ideal) w b h) (val_main_call6_v5 (F := Ideal) t) r).trans ?_
  refine congrArg (val_main_v37 (F := Ideal) w b h) (congrArg (fun c : Fin 16000 => ix2 r c) (Fin.ext ?_))
  show min ((val_main_call6_v5 (F := Ideal) t) (ix3 r (0 : Fin 1) (0 : Fin 1))).toInt.toNat (16000 - 1) = c.val
  rw [start1_at t r ht, hc]
  exact clamp_id _ _ (by have := idxW1_lt _ ht; omega) (by have := idxW1_lt _ ht; omega)

/-! ## Split 2: the gather index and the gathered log-probability -/

/-- The index word of split 2 at row r. -/
theorem idx2_at (r : Fin 4096) : val_main_v66 (F := Ideal) t (ix1 r) = idxW2 (t (ix1 r)) := by
  rw [val_main_v66_apply, val_main_v63_apply, bucket_at, val_main_v62_apply, val_main_c_10_apply,
    val_main_v65_apply, val_main_v64_apply, val_main_c_11_apply,
    val_main_call9_v1_apply, val_main_call9_v0_apply, val_main_c_12_apply]
  all_goals rfl

/-- The gather's start index at row r is the index word: it is not negative, so it is not wrapped. -/
theorem start2_at (r : Fin 4096) (ht : (t (ix1 r)).toNat < 50000) :
    val_main_call10_v5 (F := Ideal) t (ix3 r (0 : Fin 1) (0 : Fin 1)) = idxW2 (t (ix1 r)) := by
  have e5 : idx_main_call10_v5 (ix3 r (0 : Fin 1) (0 : Fin 1)) = ix2 r (0 : Fin 1) := by
    funext a; refine Fin.ext ?_
    match a with
    | ⟨0, _⟩ => show ((r.val * 1 + 0) * 1 + 0) / 1 = r.val; omega
    | ⟨1, _⟩ => rfl
  have e23 : idx_main_v67 (ix2 r (0 : Fin 1)) = ix1 r := by
    funext a; match a with | ⟨0, _⟩ => rfl
  rw [val_main_call10_v5_apply, e5, val_main_call10_v4_apply, val_main_call10_v1_apply, val_main_call10_v3_apply,
    val_main_v67_apply, e23, idx2_at, val_main_call10_v0_apply, val_main_call10_c_apply]
  exact wrap_id _ _ (by have := idxW2_lt _ ht; omega)

/-- The bounds test passes at every row. -/
theorem inb2_at (r : Fin 4096) (ht : (t (ix1 r)).toNat < 50000) :
    val_main_call10_v12 (F := Ideal) t (ix2 r (0 : Fin 1)) = 1#1 := by
  unfold val_main_call10_v12 val_main_call10_c_3
  refine (reduceAnd_one (val_main_call10_v11 (F := Ideal) t) reducesTo_S4096x1x1_S4096x1_d2 (by decide) h_S_ r).trans ?_
  rw [val_main_call10_v11_apply, val_main_call10_v7_apply, val_main_call10_v10_apply, start2_at t r ht,
    val_main_call10_v6_apply, val_main_call10_c_2_apply, val_main_call10_v9_apply, val_main_call10_v8_apply, val_main_call10_c_1_apply]
  have e : (29999#32 : BitVec 32).toNat = 29999 := by decide
  exact inBounds _ _ (by rw [e]; have := idxW2_lt _ ht; omega) (by rw [e]; omega)

/-- The gathered value at row r is the log-softmax at the index word's column. -/
theorem gath2_at (r : Fin 4096) (ht : (t (ix1 r)).toNat < 50000) (c : Fin 30000)
    (hc : c.val = (idxW2 (t (ix1 r))).toNat) :
    val_main_v69 (F := Ideal) w b h t (ix1 r) = val_main_v61 (F := Ideal) w b h (ix2 r c) := by
  have e25 : idx_main_v69 (ix1 r) = ix2 r (0 : Fin 1) := by
    funext a; refine Fin.ext ?_
    match a with
    | ⟨0, _⟩ => show r.val / 1 = r.val; omega
    | ⟨1, _⟩ => rfl
  rw [val_main_v69_apply, e25, val_main_v68_apply, inb2_at t r ht, select_one]
  unfold val_main_call10_v13
  refine (gather_row_apply (R := 4096) (N := 30000) (by decide) _ (val_main_v61 (F := Ideal) w b h) (val_main_call10_v5 (F := Ideal) t) r).trans ?_
  refine congrArg (val_main_v61 (F := Ideal) w b h) (congrArg (fun c : Fin 30000 => ix2 r c) (Fin.ext ?_))
  show min ((val_main_call10_v5 (F := Ideal) t) (ix3 r (0 : Fin 1) (0 : Fin 1))).toInt.toNat (30000 - 1) = c.val
  rw [start2_at t r ht, hc]
  exact clamp_id _ _ (by have := idxW2_lt _ ht; omega) (by have := idxW2_lt _ ht; omega)

end Cert.ReferenceIdeal.RefValue

end
-- ==== Proof.Ref.Rows.lean ====
/-
  The reference's per-token loss: the three splits' terms of a row, selected by the bucket of its target class,
  add up to the specification's loss of that row.
-/
import proofs.«427234_j53386443489982_1_alg».proof.Proof.Ref.ReadP
import proofs.«427234_j53386443489982_1_alg».proof.Proof.Spec
import proofs.«427234_j53386443489982_1_alg».proof.Proof.Ref.Lemmas
import proofs.«427234_j53386443489982_1_alg».proof.Proof.Ref.Words
import proofs.«427234_j53386443489982_1_alg».proof.Proof.Ref.Split0
import proofs.«427234_j53386443489982_1_alg».proof.Proof.Ref.Split1
import proofs.«427234_j53386443489982_1_alg».proof.Proof.Ref.Split2
import proofs.«427234_j53386443489982_1_alg».proof.Proof.Ref.Gathers

noncomputable section

namespace Cert.ReferenceIdeal.RefValue

open Cert.ReferenceIdeal Cert.ReferenceIdeal.Gen Cert.ReferenceIdeal.ReadP Idealize.ShloMosaic Idealize.ShloMosaic.ValueIdx
open Cert.Spec (mat vec hid)
open scoped BigOperators

variable (w : FVec Ideal S50000x1024 .f32) (b : FVec Ideal S50000 .f32) (h : FVec Ideal S8x512x1024 .f32)
  (t : IVec S4096 32) (tv : FVec Ideal S2x1024 .f32) (tb : FVec Ideal S2 .f32)

/-- Split 0's term of row r: for a head class, minus its log-probability. -/
theorem term0_at (r : Fin 4096) (ht : (t (ix1 r)).toNat < 50000) (c : Fin 4002)
    (hc : c.val = (idxW0 (t (ix1 r))).toNat) :
    val_main_v29 (F := Ideal) w b h t tv tb (ix1 r) = Scalar.select (IntOp.cmpi .eq (bucketW (t (ix1 r))) 0#32)
      (-(Cert.Spec.logProb (Cert.Spec.headRow (mat w) (vec b) (mat tv) (vec tb) (hid h) r) c)) (0 : EReal) := by
  rw [val_main_v29_apply, val_main_v27_apply, bucket_at, val_main_v26_apply, val_main_c_4_apply, val_main_v28_apply,
    gath0_at w b h t tv tb r ht c hc, lsm0_at,
    val_main_call3_v1_apply, val_main_call3_v0_apply, val_main_cst_apply]
  show Scalar.select _ (-_) (Ideal.ofBits .f32 0x00000000#32) = _
  rw [ofBits_zero0]

/-- Split 1's term of row r: for a class of tail 1, minus the cluster's and the class's log-probabilities. -/
theorem term1_at (r : Fin 4096) (ht : (t (ix1 r)).toNat < 50000) (c : Fin 16000)
    (hc : c.val = (idxW1 (t (ix1 r))).toNat) :
    val_main_v52 (F := Ideal) w b h t tv tb (ix1 r) = Scalar.select (IntOp.cmpi .eq (bucketW (t (ix1 r))) 1#32)
      (-(Cert.Spec.logProb (Cert.Spec.headRow (mat w) (vec b) (mat tv) (vec tb) (hid h) r) (⟨4001, by decide⟩ : Fin 4002) + Cert.Spec.logProb (Cert.Spec.tail1Row (mat w) (vec b) (hid h) r) c)) (0 : EReal) := by
  have e47 : idx_main_v46 (idx_main_v47 (ix1 r)) = ix2 r (⟨4001, by decide⟩ : Fin 4002) := by
    funext a; refine Fin.ext ?_
    match a with
    | ⟨0, _⟩ => show r.val / 1 = r.val; omega
    | ⟨1, _⟩ => rfl
  rw [val_main_v52_apply, val_main_v49_apply, bucket_at, val_main_v48_apply, val_main_c_8_apply,
    val_main_v51_apply, val_main_v50_apply, val_main_v47_apply, val_main_v46_apply, e47, lsm0_at,
    gath1_at w b h t r ht c hc, lsm1_at,
    val_main_call7_v1_apply, val_main_call7_v0_apply, val_main_cst_9_apply]
  show Scalar.select _ (-(_ + _)) (Ideal.ofBits .f32 0x00000000#32) = _
  rw [ofBits_zero0]

/-- Split 2's term of row r: for a class of tail 2, minus the cluster's and the class's log-probabilities. -/
theorem term2_at (r : Fin 4096) (ht : (t (ix1 r)).toNat < 50000) (c : Fin 30000)
    (hc : c.val = (idxW2 (t (ix1 r))).toNat) :
    val_main_v76 (F := Ideal) w b h t tv tb (ix1 r) = Scalar.select (IntOp.cmpi .eq (bucketW (t (ix1 r))) 2#32)
      (-(Cert.Spec.logProb (Cert.Spec.headRow (mat w) (vec b) (mat tv) (vec tb) (hid h) r) (⟨4000, by decide⟩ : Fin 4002) + Cert.Spec.logProb (Cert.Spec.tail2Row (mat w) (vec b) (hid h) r) c)) (0 : EReal) := by
  have e47 : idx_main_v70 (idx_main_v71 (ix1 r)) = ix2 r (⟨4000, by decide⟩ : Fin 4002) := by
    funext a; refine Fin.ext ?_
    match a with
    | ⟨0, _⟩ => show r.val / 1 = r.val; omega
    | ⟨1, _⟩ => rfl
  rw [val_main_v76_apply, val_main_v73_apply, bucket_at, val_main_v72_apply, val_main_c_13_apply,
    val_main_v75_apply, val_main_v74_apply, val_main_v71_apply, val_main_v70_apply, e47, lsm0_at,
    gath2_at w b h t r ht c hc, lsm2_at,
    val_main_call11_v1_apply, val_main_call11_v0_apply, val_main_cst_14_apply]
  show Scalar.select _ (-(_ + _)) (Ideal.ofBits .f32 0x00000000#32) = _
  rw [ofBits_zero0]

/-- The sum of the three terms of row r is the specification's loss of the row. -/
theorem row_at (r : Fin 4096) (ht : (t (ix1 r)).toNat < 50000) :
    val_main_v77 (F := Ideal) w b h t tv tb (ix1 r)
      = Cert.Spec.lossRow (mat w) (vec b) (mat tv) (vec tb) (hid h) (Cert.Spec.tgt t) r := by
  have h0 := idxW0_lt _ ht
  have h1 := idxW1_lt _ ht
  have h2 := idxW2_lt _ ht
  rw [val_main_v77_apply, val_main_v53_apply,
    term0_at w b h t tv tb r ht ⟨(idxW0 (t (ix1 r))).toNat, h0⟩ rfl,
    term1_at w b h t tv tb r ht ⟨(idxW1 (t (ix1 r))).toNat, h1⟩ rfl,
    term2_at w b h t tv tb r ht ⟨(idxW2 (t (ix1 r))).toNat, h2⟩ rfl, bucketW_eq _ ht]
  show (Scalar.select _ _ (0 : EReal) + Scalar.select _ _ (0 : EReal)) + Scalar.select _ _ (0 : EReal) = _
  unfold Cert.Spec.lossRow Cert.Spec.tgt
  have e00 : IntOp.cmpi .eq (0#32) (0#32) = 1#1 := by decide
  have e01 : IntOp.cmpi .eq (0#32) (1#32) = 0#1 := by decide
  have e02 : IntOp.cmpi .eq (0#32) (2#32) = 0#1 := by decide
  have e10 : IntOp.cmpi .eq (1#32) (0#32) = 0#1 := by decide
  have e11 : IntOp.cmpi .eq (1#32) (1#32) = 1#1 := by decide
  have e12 : IntOp.cmpi .eq (1#32) (2#32) = 0#1 := by decide
  have e20 : IntOp.cmpi .eq (2#32) (0#32) = 0#1 := by decide
  have e21 : IntOp.cmpi .eq (2#32) (1#32) = 0#1 := by decide
  have e22 : IntOp.cmpi .eq (2#32) (2#32) = 1#1 := by decide
  have k4001 : (⟨4001, by decide⟩ : Fin 4002) = Cert.Spec.col 4002 (by decide) 4001 := Fin.ext rfl
  have k4000 : (⟨4000, by decide⟩ : Fin 4002) = Cert.Spec.col 4002 (by decide) 4000 := Fin.ext rfl
  by_cases c1 : (t (ix1 r)).toNat < 4000
  · have k0 : (⟨(idxW0 (t (ix1 r))).toNat, h0⟩ : Fin 4002) = Cert.Spec.col 4002 (by decide) (t (ix1 r)).toNat :=
      Fin.ext (by
        show (idxW0 (t (ix1 r))).toNat = (t (ix1 r)).toNat % 4002
        rw [idxW0_toNat _ ht, if_pos c1, Nat.mod_eq_of_lt (by omega)])
    rw [if_pos c1, if_pos c1, e00, e01, e02, select_one, select_zero, select_zero, add_zero, add_zero, k0]
  · rw [if_neg c1, if_neg c1]
    by_cases c2 : (t (ix1 r)).toNat < 20000
    · have k1 : (⟨(idxW1 (t (ix1 r))).toNat, h1⟩ : Fin 16000) = Cert.Spec.col 16000 (by decide) ((t (ix1 r)).toNat - 4000) :=
        Fin.ext (by
          show (idxW1 (t (ix1 r))).toNat = ((t (ix1 r)).toNat - 4000) % 16000
          rw [idxW1_toNat _ ht, if_pos ⟨by omega, c2⟩, Nat.mod_eq_of_lt (by omega)])
      rw [if_pos c2, if_pos c2, e10, e11, e12, select_zero, select_one, select_zero, zero_add, add_zero, k1, k4001]
    · have k2 : (⟨(idxW2 (t (ix1 r))).toNat, h2⟩ : Fin 30000) = Cert.Spec.col 30000 (by decide) ((t (ix1 r)).toNat - 20000) :=
        Fin.ext (by
          show (idxW2 (t (ix1 r))).toNat = ((t (ix1 r)).toNat - 20000) % 30000
          rw [idxW2_toNat _ ht, if_pos (by omega), Nat.mod_eq_of_lt (by omega)])
      rw [if_neg c2, if_neg c2, e20, e21, e22, select_zero, select_zero, select_one, zero_add, zero_add, k2, k4000]

end Cert.ReferenceIdeal.RefValue

end
-- ==== Proof.Ref.Value.lean ====
/-
  The reference program's result is the specification's loss of the six argument arrays: the mean over the 4096
  tokens of the per-token loss, the divisor the binary32 word of 4096.
-/
import proofs.«427234_j53386443489982_1_alg».proof.Proof.Ref.ReadP
import proofs.«427234_j53386443489982_1_alg».proof.Proof.Spec
import proofs.«427234_j53386443489982_1_alg».proof.Proof.Ref.Lemmas
import proofs.«427234_j53386443489982_1_alg».proof.Proof.Ref.Words
import proofs.«427234_j53386443489982_1_alg».proof.Proof.Ref.Split0
import proofs.«427234_j53386443489982_1_alg».proof.Proof.Ref.Rows
import Idealize.ShloMosaic.Lib.ValueIdxRank1

noncomputable section

namespace Cert.ReferenceIdeal.RefValue

open Cert.ReferenceIdeal Cert.ReferenceIdeal.Gen Cert.ReferenceIdeal.ReadP Idealize.ShloMosaic Idealize.ShloMosaic.ValueIdx
open Cert.Spec (mat vec hid)
open scoped BigOperators

variable (w : FVec Ideal S50000x1024 .f32) (b : FVec Ideal S50000 .f32) (h : FVec Ideal S8x512x1024 .f32)
  (t : IVec S4096 32) (tv : FVec Ideal S2x1024 .f32) (tb : FVec Ideal S2 .f32)

/-- The reference's result stage is the specification's loss, for target classes below 50000. -/
theorem result_eq (ht : ∀ i, (t i).toNat < 50000) :
    val_main_v79 (F := Ideal) w b h t tv tb = fun _ => Cert.Spec.lossOf w b h t tv tb := by
  funext i
  rw [val_main_v79_apply, val_main_v78_apply, val_main_cst_15_apply, val_main_cst_16_apply]
  show Ideal.div (Ideal.ofBits .f32 0x00000000#32 + _) (Ideal.ofBits .f32 0x45800000#32) = _
  unfold Cert.Spec.lossOf Cert.Spec.loss
  rw [ofBits_zero0, zero_add]
  refine congrArg (fun s : EReal => Ideal.div s (Ideal.ofBits .f32 0x45800000#32)) ?_
  rw [← Equiv.sum_comp (idxEquiv1 (n := 4096)).symm]
  refine Finset.sum_congr rfl fun r _ => ?_
  exact row_at w b h t tv tb r (ht (ix1 r))

end Cert.ReferenceIdeal.RefValue

end
-- ==== Proof.lean ====
/-
  The certificate of the adaptive-softmax loss kernel.

  The program computes the mean, over 4096 tokens, of the negative log-probability of each token's target class under
  an adaptive softmax of 50000 classes in three splits: a head of 4000 classes and two cluster columns, and two tails of
  16000 and 30000 classes.  Each split is one pipelined kernel region over row tiles and column tiles which carries, row
  by row, the running maximum of the logits, the running sum of their exponentials and the logit gathered at the
  target's column (an online softmax); the columns beyond a split's width are masked by the named constant `neg_big`,
  which the idealization reads as `-∞`.

  What is proved:
  * the frames: each of the three programs, from any memory of which the precondition holds, runs to completion and
    leaves its six argument arrays as launched.  For the two kernel programs this is the run of @main through its host
    stretches and its three regions, with every unscoped buffer named at the end (Proof/K/Instance, Proof/KI/Instance);
    for the reference it is its run.
  * the idealization is sanctioned: its three rewrites are one rule, the named constant, stated at each site.
  * the value: at the ideal instance the kernel program and the reference, run from memories that agree on the six
    arguments, both end with the specification's loss `Cert.Spec.lossOf` of those arguments (Proof/Spec) in their result
    buffers, and with their arguments unchanged.  On the kernel's side the regions' results are put in closed form (the
    online softmax is the one-shot softmax, Proof/Online; the per-token combination of the three splits is the token's
    loss, Proof/LossRow) and carried through the last host stretch (Proof/KI/Result); on the reference's side the result
    stage is read off its run (Proof/Ref/Value).  The precondition gives what both value theorems ask: every float
    argument entry is a real number and every target is a class below 50000 (Proof/PreDecode).
-/
import proofs.«427234_j53386443489982_1_alg».proof.Defs
import proofs.«427234_j53386443489982_1_alg».proof.Proof.Gen.Kernel
import proofs.«427234_j53386443489982_1_alg».proof.Proof.Gen.KernelIdeal
import proofs.«427234_j53386443489982_1_alg».proof.Proof.Gen.ReferenceIdeal
import proofs.«427234_j53386443489982_1_alg».proof.Proof.Gen.Pre_finite_inputs
import proofs.«427234_j53386443489982_1_alg».proof.Proof.K.Instance
import proofs.«427234_j53386443489982_1_alg».proof.Proof.KI.Instance
import proofs.«427234_j53386443489982_1_alg».proof.Proof.KI.Result
import proofs.«427234_j53386443489982_1_alg».proof.Proof.Ref.Run
import proofs.«427234_j53386443489982_1_alg».proof.Proof.Ref.Value
import proofs.«427234_j53386443489982_1_alg».proof.Proof.PreDecodeK

noncomputable section

open Idealize.ShloMosaic Idealize.ShloMosaic.TcCoe Idealize.SL.Sem

/-! ## The reference's run -/

namespace Cert.Proof.Ref

open Cert.ReferenceIdeal

/-- The reference runs to completion with its result buffer at its last stage of the six arguments and its arguments
    unchanged. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = Cert.ReferenceIdeal.ReadP.val_main_v79 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.RunP.run' (F := Ideal) m ρ

end Cert.Proof.Ref

/-! ## The claims -/

namespace Cert.Proof

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2) (Cert.Proof.Ref.refRun m ρ)

/-- The idealization's three rewrites: the certificate's table gives `"neg_big"` the value `⊥`, and the printed
    constant is that value at the ideal instance. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl⟩

open Cert.KernelIdeal Cert.KernelIdeal.Gen Cert.KernelIdeal.Hand in
/-- At the ideal instance the kernel program's result buffer ends at the specification's loss of its arguments, and
    so does the reference's, run from arguments that agree. -/
theorem algebraic : Cert.algebraic_KernelIdeal_ReferenceIdeal := by
  intro m ρ m' ρ' hpre hagree
  refine ⟨fun c _ => Cert.Spec.lossOf (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)), ?_, ?_⟩
  · refine (θ_run Cert.KernelIdeal.defs _ _).mono (fun r h c => ?_) (run_all (F := Ideal) m ρ)
    exact ⟨(h c _ (mem_uc main_v68 (by decide))).trans
        (result_value m hpre c (outsI m) (ho8I m c) (ho16I m c) (ho24I m c)),
      (h c _ (mem_uc main_arg0 (by decide))).trans (V25_main_arg0 m (outsI m) c),
      (h c _ (mem_uc main_arg1 (by decide))).trans (V25_main_arg1 m (outsI m) c),
      (h c _ (mem_uc main_arg2 (by decide))).trans (V25_main_arg2 m (outsI m) c),
      (h c _ (mem_uc main_arg3 (by decide))).trans (V25_main_arg3 m (outsI m) c),
      (h c _ (mem_uc main_arg4 (by decide))).trans (V25_main_arg4 m (outsI m) c),
      (h c _ (mem_uc main_arg5 (by decide))).trans (V25_main_arg5 m (outsI m) c)⟩
  · refine (θ_run Cert.ReferenceIdeal.defs _ _).mono (fun _ h c => ⟨(h c).1.trans ?_, (h c).2⟩)
      (Cert.Proof.Ref.refRun m' ρ')
    have ht' : ∀ i, ((m' ((c.tc : Thread Cert.ReferenceIdeal.nD Cert.ReferenceIdeal.τ).loc Cert.ReferenceIdeal.main_arg3)) i).toNat < 50000 := by
      rw [(hagree c).2.2.2.1]
      exact Cert.PreDecode.ki_targets_lt hpre c
    refine (Cert.ReferenceIdeal.RefValue.result_eq _ _ _ _ _ _ ht').trans ?_
    rw [(hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
